-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S260000x6 : Shape := ⟨2, ![260000, 6]⟩
abbrev S20000x1 : Shape := ⟨2, ![20000, 1]⟩
abbrev S60000x2 : Shape := ⟨2, ![60000, 2]⟩
abbrev S60000x3 : Shape := ⟨2, ![60000, 3]⟩
abbrev S40000x4 : Shape := ⟨2, ![40000, 4]⟩
abbrev S20000x5 : Shape := ⟨2, ![20000, 5]⟩
abbrev S256x256 : Shape := ⟨2, ![256, 256]⟩
abbrev S256 : Shape := ⟨1, ![256]⟩
abbrev S262x256 : Shape := ⟨2, ![262, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S260000x6 : S_.BroadcastsInDim S260000x6 (![] : Fin 0 → Fin S260000x6.rank)
  reducesTo_S260000x6_S_d0_1 : S260000x6.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S262x256 : S_.BroadcastsInDim S262x256 (![] : Fin 0 → Fin S262x256.rank)
  reducesTo_S262x256_S_d0_1 : S262x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg17 : FVec F S262x256 .f32) (main_arg18 : FVec F S262x256 .f32) (main_arg19 : FVec F S256 .f32) (main_arg20 : FVec F S256 .f32) (main_v33 : IVec S_ 1) : IVec S_ 1 :=
  let main_v34 : FVec F S262x256 .f32 := Host.absf main_arg17
  let main_cst_12 : FVec F S_ .f32 := constant S_ .f32 0x7F800000#32
  let main_v35 : FVec F S262x256 .f32 := broadcastInDim S262x256 ![] bcast_S_S262x256 main_cst_12
  let main_v36 : IVec S262x256 1 := cmpf .olt main_v34 main_v35
  let main_c_13 : IVec S_ 1 := constantI S_ 1 1#1
  let main_v37 : IVec S_ 1 := (fun x v => Host.reduce IntOp.andi x v reducesTo_S262x256_S_d0_1 h_S_) main_v36 main_c_13
  let main_v38 : IVec S_ 1 := andi main_v33 main_v37
  let main_v39 : FVec F S262x256 .f32 := Host.absf main_arg18
  let main_cst_14 : FVec F S_ .f32 := constant S_ .f32 0x7F800000#32
  let main_v40 : FVec F S262x256 .f32 := broadcastInDim S262x256 ![] bcast_S_S262x256 main_cst_14
  let main_v41 : IVec S262x256 1 := cmpf .olt main_v39 main_v40
  let main_c_15 : IVec S_ 1 := constantI S_ 1 1#1
  let main_v42 : IVec S_ 1 := (fun x v => Host.reduce IntOp.andi x v reducesTo_S262x256_S_d0_1 h_S_) main_v41 main_c_15
  let main_v43 : IVec S_ 1 := andi main_v38 main_v42
  let main_v44 : FVec F S256 .f32 := Host.absf main_arg19
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg20
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg14 : FVec F S262x256 .f32) (main_arg15 : FVec F S262x256 .f32) (main_arg16 : FVec F S262x256 .f32) (main_arg17 : FVec F S262x256 .f32) (main_arg18 : FVec F S262x256 .f32) (main_arg19 : FVec F S256 .f32) (main_arg20 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S262x256 .f32 := Host.absf main_arg14
  let main_cst_6 : FVec F S_ .f32 := constant S_ .f32 0x7F800000#32
  let main_v20 : FVec F S262x256 .f32 := broadcastInDim S262x256 ![] bcast_S_S262x256 main_cst_6
  let main_v21 : IVec S262x256 1 := cmpf .olt main_v19 main_v20
  let main_c_7 : IVec S_ 1 := constantI S_ 1 1#1
  let main_v22 : IVec S_ 1 := (fun x v => Host.reduce IntOp.andi x v reducesTo_S262x256_S_d0_1 h_S_) main_v21 main_c_7
  let main_v23 : IVec S_ 1 := andi main_v18 main_v22
  let main_v24 : FVec F S262x256 .f32 := Host.absf main_arg15
  let main_cst_8 : FVec F S_ .f32 := constant S_ .f32 0x7F800000#32
  let main_v25 : FVec F S262x256 .f32 := broadcastInDim S262x256 ![] bcast_S_S262x256 main_cst_8
  let main_v26 : IVec S262x256 1 := cmpf .olt main_v24 main_v25
  let main_c_9 : IVec S_ 1 := constantI S_ 1 1#1
  let main_v27 : IVec S_ 1 := (fun x v => Host.reduce IntOp.andi x v reducesTo_S262x256_S_d0_1 h_S_) main_v26 main_c_9
  let main_v28 : IVec S_ 1 := andi main_v23 main_v27
  let main_v29 : FVec F S262x256 .f32 := Host.absf main_arg16
  let main_cst_10 : FVec F S_ .f32 := constant S_ .f32 0x7F800000#32
  let main_v30 : FVec F S262x256 .f32 := broadcastInDim S262x256 ![] bcast_S_S262x256 main_cst_10
  let main_v31 : IVec S262x256 1 := cmpf .olt main_v29 main_v30
  let main_c_11 : IVec S_ 1 := constantI S_ 1 1#1
  let main_v32 : IVec S_ 1 := (fun x v => Host.reduce IntOp.andi x v reducesTo_S262x256_S_d0_1 h_S_) main_v31 main_c_11
  let main_v33 : IVec S_ 1 := andi main_v28 main_v32
  fn_part2 (F := F) main_arg17 main_arg18 main_arg19 main_arg20 main_v33

def fn {F : FTy → Type} [FloatOps F] (main_arg0 : FVec F S200000x256 .f32) (main_arg1 : FVec F S260000x6 .f32) (main_arg2 : IVec S20000x1 32) (main_arg3 : IVec S60000x2 32) (main_arg4 : IVec S60000x3 32) (main_arg5 : IVec S40000x4 32) (main_arg6 : IVec S20000x5 32) (main_arg7 : IVec S20000x1 32) (main_arg8 : IVec S60000x2 32) (main_arg9 : IVec S60000x3 32) (main_arg10 : IVec S40000x4 32) (main_arg11 : IVec S20000x5 32) (main_arg12 : FVec F S256x256 .f32) (main_arg13 : FVec F S256 .f32) (main_arg14 : FVec F S262x256 .f32) (main_arg15 : FVec F S262x256 .f32) (main_arg16 : FVec F S262x256 .f32) (main_arg17 : FVec F S262x256 .f32) (main_arg18 : FVec F S262x256 .f32) (main_arg19 : FVec F S256 .f32) (main_arg20 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S260000x6 .f32 := Host.absf main_arg1
  let main_cst_0 : FVec F S_ .f32 := constant S_ .f32 0x7F800000#32
  let main_v5 : FVec F S260000x6 .f32 := broadcastInDim S260000x6 ![] bcast_S_S260000x6 main_cst_0
  let main_v6 : IVec S260000x6 1 := cmpf .olt main_v4 main_v5
  let main_c_1 : IVec S_ 1 := constantI S_ 1 1#1
  let main_v7 : IVec S_ 1 := (fun x v => Host.reduce IntOp.andi x v reducesTo_S260000x6_S_d0_1 h_S_) main_v6 main_c_1
  let main_v8 : IVec S_ 1 := andi main_v3 main_v7
  let main_v9 : FVec F S256x256 .f32 := Host.absf main_arg12
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg13
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg14 main_arg15 main_arg16 main_arg17 main_arg18 main_arg19 main_arg20 main_v13 main_v16
-- ==== Kernel.lean ====
abbrev S200000x256 : Shape := ⟨2, ![200000, 256]⟩
abbrev S260000x6 : Shape := ⟨2, ![260000, 6]⟩
abbrev S20000x1 : Shape := ⟨2, ![20000, 1]⟩
abbrev S60000x2 : Shape := ⟨2, ![60000, 2]⟩
abbrev S60000x3 : Shape := ⟨2, ![60000, 3]⟩
abbrev S40000x4 : Shape := ⟨2, ![40000, 4]⟩
abbrev S20000x5 : Shape := ⟨2, ![20000, 5]⟩
abbrev S256x256 : Shape := ⟨2, ![256, 256]⟩
abbrev S256 : Shape := ⟨1, ![256]⟩
abbrev S262x256 : Shape := ⟨2, ![262, 256]⟩
abbrev S50 : Shape := ⟨1, ![50]⟩
abbrev S_ : Shape := ⟨0, ![]⟩
abbrev S20000x1x1 : Shape := ⟨3, ![20000, 1, 1]⟩
abbrev S20000x1x256 : Shape := ⟨3, ![20000, 1, 256]⟩
abbrev S20000x256 : Shape := ⟨2, ![20000, 256]⟩
abbrev S20000x1x6 : Shape := ⟨3, ![20000, 1, 6]⟩
abbrev S20000x6 : Shape := ⟨2, ![20000, 6]⟩
abbrev S60000x2x1 : Shape := ⟨3, ![60000, 2, 1]⟩
abbrev S60000x2x256 : Shape := ⟨3, ![60000, 2, 256]⟩
abbrev S60000x256 : Shape := ⟨2, ![60000, 256]⟩
abbrev S60000x2x6 : Shape := ⟨3, ![60000, 2, 6]⟩
abbrev S60000x6 : Shape := ⟨2, ![60000, 6]⟩
abbrev S60000x3x1 : Shape := ⟨3, ![60000, 3, 1]⟩
abbrev S60000x3x256 : Shape := ⟨3, ![60000, 3, 256]⟩
abbrev S60000x3x6 : Shape := ⟨3, ![60000, 3, 6]⟩
abbrev S40000x4x1 : Shape := ⟨3, ![40000, 4, 1]⟩
abbrev S40000x4x256 : Shape := ⟨3, ![40000, 4, 256]⟩
abbrev S40000x256 : Shape := ⟨2, ![40000, 256]⟩
abbrev S40000x4x6 : Shape := ⟨3, ![40000, 4, 6]⟩
abbrev S40000x6 : Shape := ⟨2, ![40000, 6]⟩
abbrev S20000x5x1 : Shape := ⟨3, ![20000, 5, 1]⟩
abbrev S20000x5x256 : Shape := ⟨3, ![20000, 5, 256]⟩
abbrev S20000x5x6 : Shape := ⟨3, ![20000, 5, 6]⟩
abbrev S200000x6 : Shape := ⟨2, ![200000, 6]⟩
abbrev S1x256x256 : Shape := ⟨3, ![1, 256, 256]⟩
abbrev S5x256x256 : Shape := ⟨3, ![5, 256, 256]⟩
abbrev S6x256 : Shape := ⟨2, ![6, 256]⟩
abbrev S1x6x256 : Shape := ⟨3, ![1, 6, 256]⟩
abbrev S5x6x256 : Shape := ⟨3, ![5, 6, 256]⟩
abbrev S16x256 : Shape := ⟨2, ![16, 256]⟩
abbrev S4000x256 : Shape := ⟨2, ![4000, 256]⟩
abbrev S4000x6 : Shape := ⟨2, ![4000, 6]⟩
abbrev S1 : Shape := ⟨1, ![1]⟩
abbrev S8x256 : Shape := ⟨2, ![8, 256]⟩
abbrev S1x256 : Shape := ⟨2, ![1, 256]⟩
abbrev S5000x256 : Shape := ⟨2, ![5000, 256]⟩

abbrev nBuf : Space → Nat
  | .hbm => 183
  | .vmem => 28
  | .smem => 1
  | _ => 0

abbrev hbmTy0_0 (i : Nat) : BufTy := match i % 128 with
  | 0 => ⟨S200000x256, .f32⟩
  | 1 => ⟨S260000x6, .f32⟩
  | 2 => ⟨S20000x1, .i32⟩
  | 3 => ⟨S60000x2, .i32⟩
  | 4 => ⟨S60000x3, .i32⟩
  | 5 => ⟨S40000x4, .i32⟩
  | 6 => ⟨S20000x5, .i32⟩
  | 7 => ⟨S20000x1, .i32⟩
  | 8 => ⟨S60000x2, .i32⟩
  | 9 => ⟨S60000x3, .i32⟩
  | 10 => ⟨S40000x4, .i32⟩
  | 11 => ⟨S20000x5, .i32⟩
  | 12 => ⟨S256x256, .f32⟩
  | 13 => ⟨S256, .f32⟩
  | 14 => ⟨S262x256, .f32⟩
  | 15 => ⟨S262x256, .f32⟩
  | 16 => ⟨S262x256, .f32⟩
  | 17 => ⟨S262x256, .f32⟩
  | 18 => ⟨S262x256, .f32⟩
  | 19 => ⟨S256, .f32⟩
  | 20 => ⟨S256, .f32⟩
  | 21 => ⟨S_, .i32⟩
  | 22 => ⟨S20000x1, .i32⟩
  | 23 => ⟨S20000x1, .i1⟩
  | 24 => ⟨S_, .i32⟩
  | 25 => ⟨S20000x1, .i32⟩
  | 26 => ⟨S20000x1, .i32⟩
  | 27 => ⟨S20000x1, .i32⟩
  | 28 => ⟨S20000x1x1, .i32⟩
  | 29 => ⟨S20000x1x256, .f32⟩
  | 30 => ⟨S_, .f32⟩
  | 31 => ⟨S20000x256, .f32⟩
  | 32 => ⟨S_, .i32⟩
  | 33 => ⟨S20000x1, .i32⟩
  | 34 => ⟨S20000x1, .i1⟩
  | 35 => ⟨S_, .i32⟩
  | 36 => ⟨S20000x1, .i32⟩
  | 37 => ⟨S20000x1, .i32⟩
  | 38 => ⟨S20000x1, .i32⟩
  | 39 => ⟨S20000x1x1, .i32⟩
  | 40 => ⟨S20000x1x6, .f32⟩
  | 41 => ⟨S_, .f32⟩
  | 42 => ⟨S20000x6, .f32⟩
  | 43 => ⟨S_, .i32⟩
  | 44 => ⟨S60000x2, .i32⟩
  | 45 => ⟨S60000x2, .i1⟩
  | 46 => ⟨S_, .i32⟩
  | 47 => ⟨S60000x2, .i32⟩
  | 48 => ⟨S60000x2, .i32⟩
  | 49 => ⟨S60000x2, .i32⟩
  | 50 => ⟨S60000x2x1, .i32⟩
  | 51 => ⟨S60000x2x256, .f32⟩
  | 52 => ⟨S_, .f32⟩
  | 53 => ⟨S60000x256, .f32⟩
  | 54 => ⟨S_, .i32⟩
  | 55 => ⟨S60000x2, .i32⟩
  | 56 => ⟨S60000x2, .i1⟩
  | 57 => ⟨S_, .i32⟩
  | 58 => ⟨S60000x2, .i32⟩
  | 59 => ⟨S60000x2, .i32⟩
  | 60 => ⟨S60000x2, .i32⟩
  | 61 => ⟨S60000x2x1, .i32⟩
  | 62 => ⟨S60000x2x6, .f32⟩
  | 63 => ⟨S_, .f32⟩
  | 64 => ⟨S60000x6, .f32⟩
  | 65 => ⟨S_, .i32⟩
  | 66 => ⟨S60000x3, .i32⟩
  | 67 => ⟨S60000x3, .i1⟩
  | 68 => ⟨S_, .i32⟩
  | 69 => ⟨S60000x3, .i32⟩
  | 70 => ⟨S60000x3, .i32⟩
  | 71 => ⟨S60000x3, .i32⟩
  | 72 => ⟨S60000x3x1, .i32⟩
  | 73 => ⟨S60000x3x256, .f32⟩
  | 74 => ⟨S_, .f32⟩
  | 75 => ⟨S60000x256, .f32⟩
  | 76 => ⟨S_, .i32⟩
  | 77 => ⟨S60000x3, .i32⟩
  | 78 => ⟨S60000x3, .i1⟩
  | 79 => ⟨S_, .i32⟩
  | 80 => ⟨S60000x3, .i32⟩
  | 81 => ⟨S60000x3, .i32⟩
  | 82 => ⟨S60000x3, .i32⟩
  | 83 => ⟨S60000x3x1, .i32⟩
  | 84 => ⟨S60000x3x6, .f32⟩
  | 85 => ⟨S_, .f32⟩
  | 86 => ⟨S60000x6, .f32⟩
  | 87 => ⟨S_, .i32⟩
  | 88 => ⟨S40000x4, .i32⟩
  | 89 => ⟨S40000x4, .i1⟩
  | 90 => ⟨S_, .i32⟩
  | 91 => ⟨S40000x4, .i32⟩
  | 92 => ⟨S40000x4, .i32⟩
  | 93 => ⟨S40000x4, .i32⟩
  | 94 => ⟨S40000x4x1, .i32⟩
  | 95 => ⟨S40000x4x256, .f32⟩
  | 96 => ⟨S_, .f32⟩
  | 97 => ⟨S40000x256, .f32⟩
  | 98 => ⟨S_, .i32⟩
  | 99 => ⟨S40000x4, .i32⟩
  | 100 => ⟨S40000x4, .i1⟩
  | 101 => ⟨S_, .i32⟩
  | 102 => ⟨S40000x4, .i32⟩
  | 103 => ⟨S40000x4, .i32⟩
  | 104 => ⟨S40000x4, .i32⟩
  | 105 => ⟨S40000x4x1, .i32⟩
  | 106 => ⟨S40000x4x6, .f32⟩
  | 107 => ⟨S_, .f32⟩
  | 108 => ⟨S40000x6, .f32⟩
  | 109 => ⟨S_, .i32⟩
  | 110 => ⟨S20000x5, .i32⟩
  | 111 => ⟨S20000x5, .i1⟩
  | 112 => ⟨S_, .i32⟩
  | 113 => ⟨S20000x5, .i32⟩
  | 114 => ⟨S20000x5, .i32⟩
  | 115 => ⟨S20000x5, .i32⟩
  | 116 => ⟨S20000x5x1, .i32⟩
  | 117 => ⟨S20000x5x256, .f32⟩
  | 118 => ⟨S_, .f32⟩
  | 119 => ⟨S20000x256, .f32⟩
  | 120 => ⟨S_, .i32⟩
  | 121 => ⟨S20000x5, .i32⟩
  | 122 => ⟨S20000x5, .i1⟩
  | 123 => ⟨S_, .i32⟩
  | 124 => ⟨S20000x5, .i32⟩
  | 125 => ⟨S20000x5, .i32⟩
  | 126 => ⟨S20000x5, .i32⟩
  | 127 => ⟨S20000x5x1, .i32⟩
  | _ => ⟨S200000x256, .f32⟩

abbrev hbmTy0_1 (i : Nat) : BufTy := match i % 128 with
  | 0 => ⟨S20000x5x6, .f32⟩
  | 1 => ⟨S_, .f32⟩
  | 2 => ⟨S20000x6, .f32⟩
  | 3 => ⟨S200000x256, .f32⟩
  | 4 => ⟨S200000x6, .f32⟩
  | 5 => ⟨S256x256, .f32⟩
  | 6 => ⟨S256x256, .f32⟩
  | 7 => ⟨S256x256, .f32⟩
  | 8 => ⟨S256x256, .f32⟩
  | 9 => ⟨S256x256, .f32⟩
  | 10 => ⟨S1x256x256, .f32⟩
  | 11 => ⟨S1x256x256, .f32⟩
  | 12 => ⟨S1x256x256, .f32⟩
  | 13 => ⟨S1x256x256, .f32⟩
  | 14 => ⟨S1x256x256, .f32⟩
  | 15 => ⟨S5x256x256, .f32⟩
  | 16 => ⟨S6x256, .f32⟩
  | 17 => ⟨S6x256, .f32⟩
  | 18 => ⟨S6x256, .f32⟩
  | 19 => ⟨S6x256, .f32⟩
  | 20 => ⟨S6x256, .f32⟩
  | 21 => ⟨S1x6x256, .f32⟩
  | 22 => ⟨S1x6x256, .f32⟩
  | 23 => ⟨S1x6x256, .f32⟩
  | 24 => ⟨S1x6x256, .f32⟩
  | 25 => ⟨S1x6x256, .f32⟩
  | 26 => ⟨S5x6x256, .f32⟩
  | 27 => ⟨S256x256, .bf16⟩
  | 28 => ⟨S5x256x256, .bf16⟩
  | 29 => ⟨S5x6x256, .bf16⟩
  | 30 => ⟨S200000x256, .f32⟩
  | 31 => ⟨S16x256, .f32⟩
  | 32 => ⟨S16x256, .f32⟩
  | 33 => ⟨S1x256, .f32⟩
  | 34 => ⟨S256, .f32⟩
  | 35 => ⟨S1x256, .f32⟩
  | 36 => ⟨S256, .f32⟩
  | 37 => ⟨S256, .f32⟩
  | 38 => ⟨S1x256, .f32⟩
  | 39 => ⟨S256, .f32⟩
  | 40 => ⟨S1x256, .f32⟩
  | 41 => ⟨S256, .f32⟩
  | 42 => ⟨S256, .f32⟩
  | 43 => ⟨S_, .f32⟩
  | 44 => ⟨S256, .f32⟩
  | 45 => ⟨S256, .f32⟩
  | 46 => ⟨S_, .f32⟩
  | 47 => ⟨S256, .f32⟩
  | 48 => ⟨S256, .f32⟩
  | 49 => ⟨S256, .f32⟩
  | 50 => ⟨S256, .f32⟩
  | 51 => ⟨S_, .f32⟩
  | 52 => ⟨S256, .f32⟩
  | 53 => ⟨S256, .f32⟩
  | 54 => ⟨S200000x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S4000x6, .f32⟩
  | .local _ .vmem, ⟨5, _⟩ => ⟨S4000x6, .f32⟩
  | .local _ .vmem, ⟨6, _⟩ => ⟨S256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x6x256, .bf16⟩
  | .local _ .vmem, ⟨10, _⟩ => ⟨S1x6x256, .bf16⟩
  | .local _ .vmem, ⟨11, _⟩ => ⟨S256, .f32⟩
  | .local _ .vmem, ⟨12, _⟩ => ⟨S4000x256, .f32⟩
  | .local _ .vmem, ⟨13, _⟩ => ⟨S4000x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S5000x256, .f32⟩
  | .local _ .vmem, ⟨21, _⟩ => ⟨S5000x256, .f32⟩
  | .local _ .vmem, ⟨22, _⟩ => ⟨S256, .f32⟩
  | .local _ .vmem, ⟨23, _⟩ => ⟨S256, .f32⟩
  | .local _ .vmem, ⟨24, _⟩ => ⟨S256, .f32⟩
  | .local _ .vmem, ⟨25, _⟩ => ⟨S256, .f32⟩
  | .local _ .vmem, ⟨26, _⟩ => ⟨S5000x256, .f32⟩
  | .local _ .vmem, ⟨27, _⟩ => ⟨S5000x256, .f32⟩
  | .local _ .smem, ⟨0, _⟩ => ⟨S50, .i32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c_0 : Ref sig .tc := ⟨.hbm, 21, rfl⟩
abbrev main_v0 : Ref sig .tc := ⟨.hbm, 22, rfl⟩
abbrev main_v1 : Ref sig .tc := ⟨.hbm, 23, rfl⟩
abbrev main_c_1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_c_3 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_c_5 : Ref sig .tc := ⟨.hbm, 43, rfl⟩
abbrev main_v16 : Ref sig .tc := ⟨.hbm, 44, rfl⟩
abbrev main_v17 : Ref sig .tc := ⟨.hbm, 45, rfl⟩
abbrev main_c_6 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_c_8 : Ref sig .tc := ⟨.hbm, 54, rfl⟩
abbrev main_v24 : Ref sig .tc := ⟨.hbm, 55, rfl⟩
abbrev main_v25 : Ref sig .tc := ⟨.hbm, 56, rfl⟩
abbrev main_c_9 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_10 : Ref sig .tc := ⟨.hbm, 63, rfl⟩
abbrev main_v31 : Ref sig .tc := ⟨.hbm, 64, rfl⟩
abbrev main_c_11 : Ref sig .tc := ⟨.hbm, 65, rfl⟩
abbrev main_v32 : Ref sig .tc := ⟨.hbm, 66, rfl⟩
abbrev main_v33 : Ref sig .tc := ⟨.hbm, 67, rfl⟩
abbrev main_c_12 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_13 : Ref sig .tc := ⟨.hbm, 74, rfl⟩
abbrev main_v39 : Ref sig .tc := ⟨.hbm, 75, rfl⟩
abbrev main_c_14 : Ref sig .tc := ⟨.hbm, 76, rfl⟩
abbrev main_v40 : Ref sig .tc := ⟨.hbm, 77, rfl⟩
abbrev main_v41 : Ref sig .tc := ⟨.hbm, 78, rfl⟩
abbrev main_c_15 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_16 : Ref sig .tc := ⟨.hbm, 85, rfl⟩
abbrev main_v47 : Ref sig .tc := ⟨.hbm, 86, rfl⟩
abbrev main_c_17 : Ref sig .tc := ⟨.hbm, 87, rfl⟩
abbrev main_v48 : Ref sig .tc := ⟨.hbm, 88, rfl⟩
abbrev main_v49 : Ref sig .tc := ⟨.hbm, 89, rfl⟩
abbrev main_c_18 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_19 : Ref sig .tc := ⟨.hbm, 96, rfl⟩
abbrev main_v55 : Ref sig .tc := ⟨.hbm, 97, rfl⟩
abbrev main_c_20 : Ref sig .tc := ⟨.hbm, 98, rfl⟩
abbrev main_v56 : Ref sig .tc := ⟨.hbm, 99, rfl⟩
abbrev main_v57 : Ref sig .tc := ⟨.hbm, 100, rfl⟩
abbrev main_c_21 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_22 : Ref sig .tc := ⟨.hbm, 107, rfl⟩
abbrev main_v63 : Ref sig .tc := ⟨.hbm, 108, rfl⟩
abbrev main_c_23 : Ref sig .tc := ⟨.hbm, 109, rfl⟩
abbrev main_v64 : Ref sig .tc := ⟨.hbm, 110, rfl⟩
abbrev main_v65 : Ref sig .tc := ⟨.hbm, 111, rfl⟩
abbrev main_c_24 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_25 : Ref sig .tc := ⟨.hbm, 118, rfl⟩
abbrev main_v71 : Ref sig .tc := ⟨.hbm, 119, rfl⟩
abbrev main_c_26 : Ref sig .tc := ⟨.hbm, 120, rfl⟩
abbrev main_v72 : Ref sig .tc := ⟨.hbm, 121, rfl⟩
abbrev main_v73 : Ref sig .tc := ⟨.hbm, 122, rfl⟩
abbrev main_c_27 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_28 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107_0 : Ref sig .tc := ⟨.hbm, 158, rfl⟩
abbrev main_v107_1 : Ref sig .tc := ⟨.hbm, 159, rfl⟩
abbrev main_v107_2 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_29 : Ref sig .tc := ⟨.hbm, 171, rfl⟩
abbrev main_v118 : Ref sig .tc := ⟨.hbm, 172, rfl⟩
abbrev main_v119 : Ref sig .tc := ⟨.hbm, 173, rfl⟩
abbrev main_cst_30 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_31 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![2, 25], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k0_cond2 (i : grid0.Coords) : BitVec 1 :=
  let arg1 : BitVec 32 := BitVec.ofNat 32 (i 1).val
  let c24_i32 : BitVec 32 := 24#32
  let v44 : BitVec 1 := Scalar.cmpi .eq arg1 c24_i32
  let v45 : BitVec 32 := Scalar.extui v44
  let c0_i32_30 : BitVec 32 := 0#32
  let v46 : BitVec 1 := Scalar.cmpi .ne v45 c0_i32_30
  v46

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S50.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S50) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ a, (k0_off1 i) a + S1.size a ≤ S50.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S50) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S20000x1 : S_.BroadcastsInDim S20000x1 (![] : Fin 0 → Fin S20000x1.rank)
  bcast_S20000x1_S20000x1x1_0_1 : S20000x1.BroadcastsInDim S20000x1x1 (![0, 1] : Fin 2 → Fin S20000x1x1.rank)
  reducesTo_S20000x1x256_S20000x256_d1 : S20000x1x256.ReducesTo [1] S20000x256
  h_S_ : 0 < S_.numel
  reducesTo_S20000x1x6_S20000x6_d1 : S20000x1x6.ReducesTo [1] S20000x6
  bcast_S_S60000x2 : S_.BroadcastsInDim S60000x2 (![] : Fin 0 → Fin S60000x2.rank)
  bcast_S60000x2_S60000x2x1_0_1 : S60000x2.BroadcastsInDim S60000x2x1 (![0, 1] : Fin 2 → Fin S60000x2x1.rank)
  reducesTo_S60000x2x256_S60000x256_d1 : S60000x2x256.ReducesTo [1] S60000x256
  reducesTo_S60000x2x6_S60000x6_d1 : S60000x2x6.ReducesTo [1] S60000x6
  bcast_S_S60000x3 : S_.BroadcastsInDim S60000x3 (![] : Fin 0 → Fin S60000x3.rank)
  bcast_S60000x3_S60000x3x1_0_1 : S60000x3.BroadcastsInDim S60000x3x1 (![0, 1] : Fin 2 → Fin S60000x3x1.rank)
  reducesTo_S60000x3x256_S60000x256_d1 : S60000x3x256.ReducesTo [1] S60000x256
  reducesTo_S60000x3x6_S60000x6_d1 : S60000x3x6.ReducesTo [1] S60000x6
  bcast_S_S40000x4 : S_.BroadcastsInDim S40000x4 (![] : Fin 0 → Fin S40000x4.rank)
  bcast_S40000x4_S40000x4x1_0_1 : S40000x4.BroadcastsInDim S40000x4x1 (![0, 1] : Fin 2 → Fin S40000x4x1.rank)
  reducesTo_S40000x4x256_S40000x256_d1 : S40000x4x256.ReducesTo [1] S40000x256
  reducesTo_S40000x4x6_S40000x6_d1 : S40000x4x6.ReducesTo [1] S40000x6
  bcast_S_S20000x5 : S_.BroadcastsInDim S20000x5 (![] : Fin 0 → Fin S20000x5.rank)
  bcast_S20000x5_S20000x5x1_0_1 : S20000x5.BroadcastsInDim S20000x5x1 (![0, 1] : Fin 2 → Fin S20000x5x1.rank)
  reducesTo_S20000x5x256_S20000x256_d1 : S20000x5x256.ReducesTo [1] S20000x256
  reducesTo_S20000x5x6_S20000x6_d1 : S20000x5x6.ReducesTo [1] S20000x6
  concatenates_S20000x256_S60000x256_S60000x256_S40000x256_S20000x256_S200000x256_d0 : Shape.Concatenates [S20000x256, S60000x256, S60000x256, S40000x256, S20000x256] S200000x256 0
  concatenates_S20000x6_S60000x6_S60000x6_S40000x6_S20000x6_S200000x6_d0 : Shape.Concatenates [S20000x6, S60000x6, S60000x6, S40000x6, S20000x6] S200000x6 0
  slices_S262x256_S256x256_0_0 : S262x256.Slices ![0, 0] S256x256
  bcast_S256x256_S1x256x256_1_2 : S256x256.BroadcastsInDim S1x256x256 (![1, 2] : Fin 2 → Fin S1x256x256.rank)
  concatenates_S1x256x256_S1x256x256_S1x256x256_S1x256x256_S1x256x256_S5x256x256_d0 : Shape.Concatenates [S1x256x256, S1x256x256, S1x256x256, S1x256x256, S1x256x256] S5x256x256 0
  slices_S262x256_S6x256_256_0 : S262x256.Slices ![256, 0] S6x256
  bcast_S6x256_S1x6x256_1_2 : S6x256.BroadcastsInDim S1x6x256 (![1, 2] : Fin 2 → Fin S1x6x256.rank)
  concatenates_S1x6x256_S1x6x256_S1x6x256_S1x6x256_S1x6x256_S5x6x256_d0 : Shape.Concatenates [S1x6x256, S1x6x256, S1x6x256, S1x6x256, S1x6x256] S5x6x256 0
  bitsLt_bf16_f32 : FTy.bits .bf16 < FTy.bits .f32
  numel1_S1 : S1.numel = 1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x6_S4000x6_0_0 : ∀ a, (![0, 0] : Fin 2 → Nat) a + S4000x6.size a ≤ S4000x6.size a
  h_S4000x6 : 0 < S4000x6.numel
  shapeCasts_S4000x6_S4000x6 : S4000x6.ShapeCasts S4000x6
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x6x256_S1x6x256_0_0_0 : ∀ a, (![0, 0, 0] : Fin 3 → Nat) a + S1x6x256.size a ≤ S1x6x256.size a
  h_S1x6x256 : 0 < S1x6x256.numel
  shapeCasts_S1x6x256_S6x256 : S1x6x256.ShapeCasts S6x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S8x256_S1x256_0_0 : ∀ a, (![0, 0] : Fin 2 → Nat) a + S1x256.size a ≤ S8x256.size a
  h_S1x256 : 0 < S1x256.numel
  shapeCasts_S1x256_S256 : S1x256.ShapeCasts S256
  reduces_S4000x256_S256 : S4000x256.Reduces [0] S256
  slices_S16x256_S1x256_0_0 : S16x256.Slices ![0, 0] S1x256
  slices_S16x256_S1x256_8_0 : S16x256.Slices ![8, 0] S1x256
  bcast_S_S256 : S_.BroadcastsInDim S256 (![] : Fin 0 → Fin S256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  shapeCasts_S256_S256 : S256.ShapeCasts S256
  broadcasts_S1x256_S5000x256 : S1x256.Broadcasts S5000x256
  gather_S200000x256_S20000x1x1_S20000x1x256_2_0_n_n_0_2_1256_wf : GatherDims.WF S200000x256 S20000x1x1 S20000x1x256 [2] [0] [] [0] [] 2 ![1, 256]
  gather_S260000x6_S20000x1x1_S20000x1x6_2_0_n_n_0_2_16_wf : GatherDims.WF S260000x6 S20000x1x1 S20000x1x6 [2] [0] [] [0] [] 2 ![1, 6]
  gather_S200000x256_S60000x2x1_S60000x2x256_2_0_n_n_0_2_1256_wf : GatherDims.WF S200000x256 S60000x2x1 S60000x2x256 [2] [0] [] [0] [] 2 ![1, 256]
  gather_S260000x6_S60000x2x1_S60000x2x6_2_0_n_n_0_2_16_wf : GatherDims.WF S260000x6 S60000x2x1 S60000x2x6 [2] [0] [] [0] [] 2 ![1, 6]
  gather_S200000x256_S60000x3x1_S60000x3x256_2_0_n_n_0_2_1256_wf : GatherDims.WF S200000x256 S60000x3x1 S60000x3x256 [2] [0] [] [0] [] 2 ![1, 256]
  gather_S260000x6_S60000x3x1_S60000x3x6_2_0_n_n_0_2_16_wf : GatherDims.WF S260000x6 S60000x3x1 S60000x3x6 [2] [0] [] [0] [] 2 ![1, 6]
  gather_S200000x256_S40000x4x1_S40000x4x256_2_0_n_n_0_2_1256_wf : GatherDims.WF S200000x256 S40000x4x1 S40000x4x256 [2] [0] [] [0] [] 2 ![1, 256]
  gather_S260000x6_S40000x4x1_S40000x4x6_2_0_n_n_0_2_16_wf : GatherDims.WF S260000x6 S40000x4x1 S40000x4x6 [2] [0] [] [0] [] 2 ![1, 6]
  gather_S200000x256_S20000x5x1_S20000x5x256_2_0_n_n_0_2_1256_wf : GatherDims.WF S200000x256 S20000x5x1 S20000x5x256 [2] [0] [] [0] [] 2 ![1, 256]
  gather_S260000x6_S20000x5x1_S20000x5x6_2_0_n_n_0_2_16_wf : GatherDims.WF S260000x6 S20000x5x1 S20000x5x6 [2] [0] [] [0] [] 2 ![1, 6]
  dot_S4000x256_S256x256_S4000x256_1_0_0_1_n_n_wf : DotDims.WF S4000x256 S256x256 S4000x256 [1] [0] [0] [1] [] []
  dot_S4000x6_S6x256_S4000x256_1_0_0_1_n_n_wf : DotDims.WF S4000x6 S6x256 S4000x256 [1] [0] [0] [1] [] []
  hrank0 : 0 < grid0.rank
  k0_off1_inb : ∀ i : grid0.Coords, ∀ a, (k0_off1 i) a + S1.size a ≤ S50.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S200000x256.size a
  hwx0_1 : ∀ i : grid0.Coords, EltTy.bits .f32 = 32 ∨ (Rect.block (s := S200000x256) S4000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x6.size a ≤ S200000x6.size a
  hwx0_2 : ∀ i : grid0.Coords, EltTy.bits .f32 = 32 ∨ (Rect.block (s := S200000x6) S4000x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S200000x256.size a
  hwx0_7 : ∀ i : grid0.Coords, EltTy.bits .f32 = 32 ∨ (Rect.block (s := S200000x256) S4000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x256.size a ≤ S16x256.size a
  hwx0_8 : ∀ i : grid0.Coords, EltTy.bits .f32 = 32 ∨ (Rect.block (s := S16x256) S8x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x256.size a ≤ S16x256.size a
  hwx0_9 : ∀ i : grid0.Coords, EltTy.bits .f32 = 32 ∨ (Rect.block (s := S16x256) S8x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S200000x256.size a
  hwx1_0 : ∀ i : grid1.Coords, EltTy.bits .f32 = 32 ∨ (Rect.block (s := S200000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S200000x256.size a
  hwx1_5 : ∀ i : grid1.Coords, EltTy.bits .f32 = 32 ∨ (Rect.block (s := S200000x256) S5000x256.size (cc1_transform_5 i) (hinb1_5 i)).WholeWords (EltTy.packing .f32)

variable [Facts₀]

def gather_S200000x256_S20000x1x1_S20000x1x256_2_0_n_n_0_2_1256 : GatherDims S200000x256 S20000x1x1 S20000x1x256 where
  offsetDims := [2]
  collapsedSliceDims := [0]
  operandBatchingDims := []
  startIndicesBatchingDims := []
  startIndexMap := [0]
  indexVectorDim := 2
  sliceSizes := ![1, 256]
  wf := gather_S200000x256_S20000x1x1_S20000x1x256_2_0_n_n_0_2_1256_wf
def gather_S260000x6_S20000x1x1_S20000x1x6_2_0_n_n_0_2_16 : GatherDims S260000x6 S20000x1x1 S20000x1x6 where
  offsetDims := [2]
  collapsedSliceDims := [0]
  operandBatchingDims := []
  startIndicesBatchingDims := []
  startIndexMap := [0]
  indexVectorDim := 2
  sliceSizes := ![1, 6]
  wf := gather_S260000x6_S20000x1x1_S20000x1x6_2_0_n_n_0_2_16_wf
def gather_S200000x256_S60000x2x1_S60000x2x256_2_0_n_n_0_2_1256 : GatherDims S200000x256 S60000x2x1 S60000x2x256 where
  offsetDims := [2]
  collapsedSliceDims := [0]
  operandBatchingDims := []
  startIndicesBatchingDims := []
  startIndexMap := [0]
  indexVectorDim := 2
  sliceSizes := ![1, 256]
  wf := gather_S200000x256_S60000x2x1_S60000x2x256_2_0_n_n_0_2_1256_wf
def gather_S260000x6_S60000x2x1_S60000x2x6_2_0_n_n_0_2_16 : GatherDims S260000x6 S60000x2x1 S60000x2x6 where
  offsetDims := [2]
  collapsedSliceDims := [0]
  operandBatchingDims := []
  startIndicesBatchingDims := []
  startIndexMap := [0]
  indexVectorDim := 2
  sliceSizes := ![1, 6]
  wf := gather_S260000x6_S60000x2x1_S60000x2x6_2_0_n_n_0_2_16_wf
def gather_S200000x256_S60000x3x1_S60000x3x256_2_0_n_n_0_2_1256 : GatherDims S200000x256 S60000x3x1 S60000x3x256 where
  offsetDims := [2]
  collapsedSliceDims := [0]
  operandBatchingDims := []
  startIndicesBatchingDims := []
  startIndexMap := [0]
  indexVectorDim := 2
  sliceSizes := ![1, 256]
  wf := gather_S200000x256_S60000x3x1_S60000x3x256_2_0_n_n_0_2_1256_wf
def gather_S260000x6_S60000x3x1_S60000x3x6_2_0_n_n_0_2_16 : GatherDims S260000x6 S60000x3x1 S60000x3x6 where
  offsetDims := [2]
  collapsedSliceDims := [0]
  operandBatchingDims := []
  startIndicesBatchingDims := []
  startIndexMap := [0]
  indexVectorDim := 2
  sliceSizes := ![1, 6]
  wf := gather_S260000x6_S60000x3x1_S60000x3x6_2_0_n_n_0_2_16_wf
def gather_S200000x256_S40000x4x1_S40000x4x256_2_0_n_n_0_2_1256 : GatherDims S200000x256 S40000x4x1 S40000x4x256 where
  offsetDims := [2]
  collapsedSliceDims := [0]
  operandBatchingDims := []
  startIndicesBatchingDims := []
  startIndexMap := [0]
  indexVectorDim := 2
  sliceSizes := ![1, 256]
  wf := gather_S200000x256_S40000x4x1_S40000x4x256_2_0_n_n_0_2_1256_wf
def gather_S260000x6_S40000x4x1_S40000x4x6_2_0_n_n_0_2_16 : GatherDims S260000x6 S40000x4x1 S40000x4x6 where
  offsetDims := [2]
  collapsedSliceDims := [0]
  operandBatchingDims := []
  startIndicesBatchingDims := []
  startIndexMap := [0]
  indexVectorDim := 2
  sliceSizes := ![1, 6]
  wf := gather_S260000x6_S40000x4x1_S40000x4x6_2_0_n_n_0_2_16_wf
def gather_S200000x256_S20000x5x1_S20000x5x256_2_0_n_n_0_2_1256 : GatherDims S200000x256 S20000x5x1 S20000x5x256 where
  offsetDims := [2]
  collapsedSliceDims := [0]
  operandBatchingDims := []
  startIndicesBatchingDims := []
  startIndexMap := [0]
  indexVectorDim := 2
  sliceSizes := ![1, 256]
  wf := gather_S200000x256_S20000x5x1_S20000x5x256_2_0_n_n_0_2_1256_wf
def gather_S260000x6_S20000x5x1_S20000x5x6_2_0_n_n_0_2_16 : GatherDims S260000x6 S20000x5x1 S20000x5x6 where
  offsetDims := [2]
  collapsedSliceDims := [0]
  operandBatchingDims := []
  startIndicesBatchingDims := []
  startIndexMap := [0]
  indexVectorDim := 2
  sliceSizes := ![1, 6]
  wf := gather_S260000x6_S20000x5x1_S20000x5x6_2_0_n_n_0_2_16_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x6_S6x256_S4000x256_1_0_0_1_n_n : DotDims S4000x6 S6x256 S4000x256 where
  lhsContracting := [1]
  rhsContracting := [0]
  lhsNonContracting := [0]
  rhsNonContracting := [1]
  lhsBatch := []
  rhsBatch := []
  wf := dot_S4000x6_S6x256_S4000x256_1_0_0_1_n_n_wf

abbrev spec0_0 : Pipeline.WinSpec sig grid0.rank :=
  Pipeline.WinSpec.ofSpec (Memref.whole main_arg0) S4000x256.size reads0_0 false false 2 stage0_0 sem0_0 nbuf0_0 hstage0_0

abbrev spec0_1 : Pipeline.WinSpec sig grid0.rank :=
  Pipeline.WinSpec.ofSpec (Memref.whole main_v80) S4000x256.size reads0_1 false false 2 stage0_1 sem0_1 nbuf0_1 hstage0_1

abbrev spec0_2 : Pipeline.WinSpec sig grid0.rank :=
  Pipeline.WinSpec.ofSpec (Memref.whole main_v81) S4000x6.size reads0_2 false false 2 stage0_2 sem0_2 nbuf0_2 hstage0_2

abbrev spec0_3 : Pipeline.WinSpec sig grid0.rank :=
  Pipeline.WinSpec.ofSpec (Memref.whole main_v104) S256x256.size reads0_3 false true 1 stage0_3 sem0_3 nbuf0_3 hstage0_3

abbrev spec0_4 : Pipeline.WinSpec sig grid0.rank :=
  Pipeline.WinSpec.ofSpec (Memref.whole main_v105) S1x256x256.size reads0_4 false false 2 stage0_4 sem0_4 nbuf0_4 hstage0_4

abbrev spec0_5 : Pipeline.WinSpec sig grid0.rank :=
  Pipeline.WinSpec.ofSpec (Memref.whole main_v106) S1x6x256.size reads0_5 false false 2 stage0_5 sem0_5 nbuf0_5 hstage0_5

abbrev spec0_6 : Pipeline.WinSpec sig grid0.rank :=
  Pipeline.WinSpec.ofSpec (Memref.whole main_arg13) S256.size reads0_6 false true 1 stage0_6 sem0_6 nbuf0_6 hstage0_6

abbrev spec0_7 : Pipeline.WinSpec sig grid0.rank :=
  Pipeline.WinSpec.ofSpec (Memref.whole main_v107_0) S4000x256.size reads0_7 true false 2 stage0_7 sem0_7 nbuf0_7 hstage0_7

abbrev spec0_8 : Pipeline.WinSpec sig grid0.rank :=
  Pipeline.WinSpec.ofSpec (Memref.whole main_v107_1) S8x256.size reads0_8 true false 2 stage0_8 sem0_8 nbuf0_8 hstage0_8

abbrev spec0_9 : Pipeline.WinSpec sig grid0.rank :=
  Pipeline.WinSpec.ofSpec (Memref.whole main_v107_2) S8x256.size reads0_9 true false 2 stage0_9 sem0_9 nbuf0_9 hstage0_9

abbrev spec0 : Fin 10 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | ⟨_ + 10, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | ⟨_ + 10, h⟩ => absurd h (Nat.not_lt.2 (Nat.le_add_left _ _))
abbrev ix0 (pf : pre0.Contents (Elt F)) : (w : Fin 10) → grid0.Coords → Fin (spec0 w).shape.rank → Nat := fun | 0 => cc0_transform_0 | 1 => cc0_transform_1 | 2 => cc0_transform_2 | 3 => cc0_transform_3 | 4 => cc0_transform_4 k0_off1_inb numel1_S1 pf | 5 => cc0_transform_5 k0_off1_inb numel1_S1 pf | 6 => cc0_transform_6 | 7 => cc0_transform_7 | 8 => cc0_transform_8 | 9 => cc0_transform_9 | ⟨_ + 10, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 pf | 5 => hreads0_5 pf | 6 => hreads0_6 | 7 => hreads0_7 | 8 => hreads0_8 | 9 => hreads0_9 | ⟨_ + 10, h⟩ => absurd h (Nat.not_lt.2 (Nat.le_add_left _ _))
def ok0 (pf : pre0.Contents (Elt F)) : Prop :=
  (∀ i : grid0.Coords, ∃ h : (∀ a, (cc0_transform_4 k0_off1_inb numel1_S1 pf i a + 1) * S1x256x256.size a ≤ S5x256x256.size a), EltTy.bits .bf16 = 32 ∨ (Rect.block (s := S5x256x256) S1x256x256.size (cc0_transform_4 k0_off1_inb numel1_S1 pf i) h).WholeWords (EltTy.packing .bf16)) ∧
  (∀ i : grid0.Coords, ∃ h : (∀ a, (cc0_transform_5 k0_off1_inb numel1_S1 pf i a + 1) * S1x6x256.size a ≤ S5x6x256.size a), EltTy.bits .bf16 = 32 ∨ (Rect.block (s := S5x6x256) S1x6x256.size (cc0_transform_5 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => fun i a => (hok.1 i).elim fun h _ => h a | 5 => fun i a => (hok.2 i).elim fun h _ => h a | 6 => hinb0_6 | 7 => hinb0_7 | 8 => hinb0_8 | 9 => hinb0_9 | ⟨_ + 10, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => fun i => (hok.1 i).elim fun _ h => h | 5 => fun i => (hok.2 i).elim fun _ h => h | 6 => hwx0_6 | 7 => hwx0_7 | 8 => hwx0_8 | 9 => hwx0_9 | ⟨_ + 10, h⟩ => absurd h (Nat.not_lt.2 (Nat.le_add_left _ _))
abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v107_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v119) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v125) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg19) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg20) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v126) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  harr0 : ∀ w, (spec0 w).arr.IsWhole
  halias1_5 : Pipeline.Aliased win1 0 5

variable [Facts]
-- ==== ReferenceIdeal.lean ====
abbrev S200000x256 : Shape := ⟨2, ![200000, 256]⟩
abbrev S260000x6 : Shape := ⟨2, ![260000, 6]⟩
abbrev S20000x1 : Shape := ⟨2, ![20000, 1]⟩
abbrev S60000x2 : Shape := ⟨2, ![60000, 2]⟩
abbrev S60000x3 : Shape := ⟨2, ![60000, 3]⟩
abbrev S40000x4 : Shape := ⟨2, ![40000, 4]⟩
abbrev S20000x5 : Shape := ⟨2, ![20000, 5]⟩
abbrev S256x256 : Shape := ⟨2, ![256, 256]⟩
abbrev S256 : Shape := ⟨1, ![256]⟩
abbrev S262x256 : Shape := ⟨2, ![262, 256]⟩
abbrev S_ : Shape := ⟨0, ![]⟩
abbrev S20000x1x1 : Shape := ⟨3, ![20000, 1, 1]⟩
abbrev S20000x1x256 : Shape := ⟨3, ![20000, 1, 256]⟩
abbrev S20000x256 : Shape := ⟨2, ![20000, 256]⟩
abbrev S20000x1x6 : Shape := ⟨3, ![20000, 1, 6]⟩
abbrev S20000x6 : Shape := ⟨2, ![20000, 6]⟩
abbrev S20000x262 : Shape := ⟨2, ![20000, 262]⟩
abbrev S60000x2x1 : Shape := ⟨3, ![60000, 2, 1]⟩
abbrev S60000x2x256 : Shape := ⟨3, ![60000, 2, 256]⟩
abbrev S60000x256 : Shape := ⟨2, ![60000, 256]⟩
abbrev S60000x2x6 : Shape := ⟨3, ![60000, 2, 6]⟩
abbrev S60000x6 : Shape := ⟨2, ![60000, 6]⟩
abbrev S60000x262 : Shape := ⟨2, ![60000, 262]⟩
abbrev S60000x3x1 : Shape := ⟨3, ![60000, 3, 1]⟩
abbrev S60000x3x256 : Shape := ⟨3, ![60000, 3, 256]⟩
abbrev S60000x3x6 : Shape := ⟨3, ![60000, 3, 6]⟩
abbrev S40000x4x1 : Shape := ⟨3, ![40000, 4, 1]⟩
abbrev S40000x4x256 : Shape := ⟨3, ![40000, 4, 256]⟩
abbrev S40000x256 : Shape := ⟨2, ![40000, 256]⟩
abbrev S40000x4x6 : Shape := ⟨3, ![40000, 4, 6]⟩
abbrev S40000x6 : Shape := ⟨2, ![40000, 6]⟩
abbrev S40000x262 : Shape := ⟨2, ![40000, 262]⟩
abbrev S20000x5x1 : Shape := ⟨3, ![20000, 5, 1]⟩
abbrev S20000x5x256 : Shape := ⟨3, ![20000, 5, 256]⟩
abbrev S20000x5x6 : Shape := ⟨3, ![20000, 5, 6]⟩
abbrev S1x256 : Shape := ⟨2, ![1, 256]⟩

abbrev nBuf : Space → Nat
  | .hbm => 180
  | .vmem => 0
  | .smem => 0
  | _ => 0

abbrev hbmTy0_0 (i : Nat) : BufTy := match i % 128 with
  | 0 => ⟨S200000x256, .f32⟩
  | 1 => ⟨S260000x6, .f32⟩
  | 2 => ⟨S20000x1, .i32⟩
  | 3 => ⟨S60000x2, .i32⟩
  | 4 => ⟨S60000x3, .i32⟩
  | 5 => ⟨S40000x4, .i32⟩
  | 6 => ⟨S20000x5, .i32⟩
  | 7 => ⟨S20000x1, .i32⟩
  | 8 => ⟨S60000x2, .i32⟩
  | 9 => ⟨S60000x3, .i32⟩
  | 10 => ⟨S40000x4, .i32⟩
  | 11 => ⟨S20000x5, .i32⟩
  | 12 => ⟨S256x256, .f32⟩
  | 13 => ⟨S256, .f32⟩
  | 14 => ⟨S262x256, .f32⟩
  | 15 => ⟨S262x256, .f32⟩
  | 16 => ⟨S262x256, .f32⟩
  | 17 => ⟨S262x256, .f32⟩
  | 18 => ⟨S262x256, .f32⟩
  | 19 => ⟨S256, .f32⟩
  | 20 => ⟨S256, .f32⟩
  | 21 => ⟨S200000x256, .f32⟩
  | 22 => ⟨S_, .i32⟩
  | 23 => ⟨S20000x1, .i32⟩
  | 24 => ⟨S20000x1, .i1⟩
  | 25 => ⟨S_, .i32⟩
  | 26 => ⟨S20000x1, .i32⟩
  | 27 => ⟨S20000x1, .i32⟩
  | 28 => ⟨S20000x1, .i32⟩
  | 29 => ⟨S20000x1x1, .i32⟩
  | 30 => ⟨S20000x1x256, .f32⟩
  | 31 => ⟨S_, .f32⟩
  | 32 => ⟨S20000x256, .f32⟩
  | 33 => ⟨S_, .i32⟩
  | 34 => ⟨S20000x1, .i32⟩
  | 35 => ⟨S20000x1, .i1⟩
  | 36 => ⟨S_, .i32⟩
  | 37 => ⟨S20000x1, .i32⟩
  | 38 => ⟨S20000x1, .i32⟩
  | 39 => ⟨S20000x1, .i32⟩
  | 40 => ⟨S20000x1x1, .i32⟩
  | 41 => ⟨S20000x1x6, .f32⟩
  | 42 => ⟨S_, .f32⟩
  | 43 => ⟨S20000x6, .f32⟩
  | 44 => ⟨S20000x262, .f32⟩
  | 45 => ⟨S20000x256, .f32⟩
  | 46 => ⟨S_, .i32⟩
  | 47 => ⟨S60000x2, .i32⟩
  | 48 => ⟨S60000x2, .i1⟩
  | 49 => ⟨S_, .i32⟩
  | 50 => ⟨S60000x2, .i32⟩
  | 51 => ⟨S60000x2, .i32⟩
  | 52 => ⟨S60000x2, .i32⟩
  | 53 => ⟨S60000x2x1, .i32⟩
  | 54 => ⟨S60000x2x256, .f32⟩
  | 55 => ⟨S_, .f32⟩
  | 56 => ⟨S60000x256, .f32⟩
  | 57 => ⟨S_, .i32⟩
  | 58 => ⟨S60000x2, .i32⟩
  | 59 => ⟨S60000x2, .i1⟩
  | 60 => ⟨S_, .i32⟩
  | 61 => ⟨S60000x2, .i32⟩
  | 62 => ⟨S60000x2, .i32⟩
  | 63 => ⟨S60000x2, .i32⟩
  | 64 => ⟨S60000x2x1, .i32⟩
  | 65 => ⟨S60000x2x6, .f32⟩
  | 66 => ⟨S_, .f32⟩
  | 67 => ⟨S60000x6, .f32⟩
  | 68 => ⟨S60000x262, .f32⟩
  | 69 => ⟨S60000x256, .f32⟩
  | 70 => ⟨S_, .i32⟩
  | 71 => ⟨S60000x3, .i32⟩
  | 72 => ⟨S60000x3, .i1⟩
  | 73 => ⟨S_, .i32⟩
  | 74 => ⟨S60000x3, .i32⟩
  | 75 => ⟨S60000x3, .i32⟩
  | 76 => ⟨S60000x3, .i32⟩
  | 77 => ⟨S60000x3x1, .i32⟩
  | 78 => ⟨S60000x3x256, .f32⟩
  | 79 => ⟨S_, .f32⟩
  | 80 => ⟨S60000x256, .f32⟩
  | 81 => ⟨S_, .i32⟩
  | 82 => ⟨S60000x3, .i32⟩
  | 83 => ⟨S60000x3, .i1⟩
  | 84 => ⟨S_, .i32⟩
  | 85 => ⟨S60000x3, .i32⟩
  | 86 => ⟨S60000x3, .i32⟩
  | 87 => ⟨S60000x3, .i32⟩
  | 88 => ⟨S60000x3x1, .i32⟩
  | 89 => ⟨S60000x3x6, .f32⟩
  | 90 => ⟨S_, .f32⟩
  | 91 => ⟨S60000x6, .f32⟩
  | 92 => ⟨S60000x262, .f32⟩
  | 93 => ⟨S60000x256, .f32⟩
  | 94 => ⟨S_, .i32⟩
  | 95 => ⟨S40000x4, .i32⟩
  | 96 => ⟨S40000x4, .i1⟩
  | 97 => ⟨S_, .i32⟩
  | 98 => ⟨S40000x4, .i32⟩
  | 99 => ⟨S40000x4, .i32⟩
  | 100 => ⟨S40000x4, .i32⟩
  | 101 => ⟨S40000x4x1, .i32⟩
  | 102 => ⟨S40000x4x256, .f32⟩
  | 103 => ⟨S_, .f32⟩
  | 104 => ⟨S40000x256, .f32⟩
  | 105 => ⟨S_, .i32⟩
  | 106 => ⟨S40000x4, .i32⟩
  | 107 => ⟨S40000x4, .i1⟩
  | 108 => ⟨S_, .i32⟩
  | 109 => ⟨S40000x4, .i32⟩
  | 110 => ⟨S40000x4, .i32⟩
  | 111 => ⟨S40000x4, .i32⟩
  | 112 => ⟨S40000x4x1, .i32⟩
  | 113 => ⟨S40000x4x6, .f32⟩
  | 114 => ⟨S_, .f32⟩
  | 115 => ⟨S40000x6, .f32⟩
  | 116 => ⟨S40000x262, .f32⟩
  | 117 => ⟨S40000x256, .f32⟩
  | 118 => ⟨S_, .i32⟩
  | 119 => ⟨S20000x5, .i32⟩
  | 120 => ⟨S20000x5, .i1⟩
  | 121 => ⟨S_, .i32⟩
  | 122 => ⟨S20000x5, .i32⟩
  | 123 => ⟨S20000x5, .i32⟩
  | 124 => ⟨S20000x5, .i32⟩
  | 125 => ⟨S20000x5x1, .i32⟩
  | 126 => ⟨S20000x5x256, .f32⟩
  | 127 => ⟨S_, .f32⟩
  | _ => ⟨S200000x256, .f32⟩

abbrev hbmTy0_1 (i : Nat) : BufTy := match i % 128 with
  | 0 => ⟨S20000x256, .f32⟩
  | 1 => ⟨S_, .i32⟩
  | 2 => ⟨S20000x5, .i32⟩
  | 3 => ⟨S20000x5, .i1⟩
  | 4 => ⟨S_, .i32⟩
  | 5 => ⟨S20000x5, .i32⟩
  | 6 => ⟨S20000x5, .i32⟩
  | 7 => ⟨S20000x5, .i32⟩
  | 8 => ⟨S20000x5x1, .i32⟩
  | 9 => ⟨S20000x5x6, .f32⟩
  | 10 => ⟨S_, .f32⟩
  | 11 => ⟨S20000x6, .f32⟩
  | 12 => ⟨S20000x262, .f32⟩
  | 13 => ⟨S20000x256, .f32⟩
  | 14 => ⟨S200000x256, .f32⟩
  | 15 => ⟨S200000x256, .f32⟩
  | 16 => ⟨S1x256, .f32⟩
  | 17 => ⟨S200000x256, .f32⟩
  | 18 => ⟨S200000x256, .f32⟩
  | 19 => ⟨S_, .f32⟩
  | 20 => ⟨S200000x256, .f32⟩
  | 21 => ⟨S200000x256, .f32⟩
  | 22 => ⟨S_, .f32⟩
  | 23 => ⟨S256, .f32⟩
  | 24 => ⟨S_, .f32⟩
  | 25 => ⟨S256, .f32⟩
  | 26 => ⟨S256, .f32⟩
  | 27 => ⟨S1x256, .f32⟩
  | 28 => ⟨S200000x256, .f32⟩
  | 29 => ⟨S200000x256, .f32⟩
  | 30 => ⟨S200000x256, .f32⟩
  | 31 => ⟨S_, .f32⟩
  | 32 => ⟨S256, .f32⟩
  | 33 => ⟨S_, .f32⟩
  | 34 => ⟨S256, .f32⟩
  | 35 => ⟨S256, .f32⟩
  | 36 => ⟨S1x256, .f32⟩
  | 37 => ⟨S200000x256, .f32⟩
  | 38 => ⟨S200000x256, .f32⟩
  | 39 => ⟨S_, .f32⟩
  | 40 => ⟨S256, .f32⟩
  | 41 => ⟨S256, .f32⟩
  | 42 => ⟨S256, .f32⟩
  | 43 => ⟨S1x256, .f32⟩
  | 44 => ⟨S200000x256, .f32⟩
  | 45 => ⟨S200000x256, .f32⟩
  | 46 => ⟨S1x256, .f32⟩
  | 47 => ⟨S200000x256, .f32⟩
  | 48 => ⟨S200000x256, .f32⟩
  | 49 => ⟨S1x256, .f32⟩
  | 50 => ⟨S200000x256, .f32⟩
  | 51 => ⟨S200000x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_4 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_6 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_c_8 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_9 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_10 : Ref sig .tc := ⟨.hbm, 70, rfl⟩
abbrev main_v37 : Ref sig .tc := ⟨.hbm, 71, rfl⟩
abbrev main_v38 : Ref sig .tc := ⟨.hbm, 72, rfl⟩
abbrev main_c_11 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_12 : Ref sig .tc := ⟨.hbm, 79, rfl⟩
abbrev main_v44 : Ref sig .tc := ⟨.hbm, 80, rfl⟩
abbrev main_c_13 : Ref sig .tc := ⟨.hbm, 81, rfl⟩
abbrev main_v45 : Ref sig .tc := ⟨.hbm, 82, rfl⟩
abbrev main_v46 : Ref sig .tc := ⟨.hbm, 83, rfl⟩
abbrev main_c_14 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_15 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_16 : Ref sig .tc := ⟨.hbm, 94, rfl⟩
abbrev main_v55 : Ref sig .tc := ⟨.hbm, 95, rfl⟩
abbrev main_v56 : Ref sig .tc := ⟨.hbm, 96, rfl⟩
abbrev main_c_17 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_18 : Ref sig .tc := ⟨.hbm, 103, rfl⟩
abbrev main_v62 : Ref sig .tc := ⟨.hbm, 104, rfl⟩
abbrev main_c_19 : Ref sig .tc := ⟨.hbm, 105, rfl⟩
abbrev main_v63 : Ref sig .tc := ⟨.hbm, 106, rfl⟩
abbrev main_v64 : Ref sig .tc := ⟨.hbm, 107, rfl⟩
abbrev main_c_20 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_21 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_22 : Ref sig .tc := ⟨.hbm, 118, rfl⟩
abbrev main_v73 : Ref sig .tc := ⟨.hbm, 119, rfl⟩
abbrev main_v74 : Ref sig .tc := ⟨.hbm, 120, rfl⟩
abbrev main_c_23 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_24 : Ref sig .tc := ⟨.hbm, 127, rfl⟩
abbrev main_v80 : Ref sig .tc := ⟨.hbm, 128, rfl⟩
abbrev main_c_25 : Ref sig .tc := ⟨.hbm, 129, rfl⟩
abbrev main_v81 : Ref sig .tc := ⟨.hbm, 130, rfl⟩
abbrev main_v82 : Ref sig .tc := ⟨.hbm, 131, rfl⟩
abbrev main_c_26 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_27 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_call0_cst : Ref sig .tc := ⟨.hbm, 147, rfl⟩
abbrev main_call0_v0 : Ref sig .tc := ⟨.hbm, 148, rfl⟩
abbrev main_v96 : Ref sig .tc := ⟨.hbm, 149, rfl⟩
abbrev main_cst_28 : Ref sig .tc := ⟨.hbm, 150, rfl⟩
abbrev main_v97 : Ref sig .tc := ⟨.hbm, 151, rfl⟩
abbrev main_cst_29 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_30 : Ref sig .tc := ⟨.hbm, 159, rfl⟩
abbrev main_v104 : Ref sig .tc := ⟨.hbm, 160, rfl⟩
abbrev main_cst_31 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_32 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩

abbrev nD : Nat := 1
abbrev τ : Topo := Topo.v7x

variable {F : FTy → Type} [FloatOps F]

class Facts₀ : Prop where
  bcast_S_S20000x1 : S_.BroadcastsInDim S20000x1 (![] : Fin 0 → Fin S20000x1.rank)
  bcast_S20000x1_S20000x1x1_0_1 : S20000x1.BroadcastsInDim S20000x1x1 (![0, 1] : Fin 2 → Fin S20000x1x1.rank)
  reducesTo_S20000x1x256_S20000x256_d1 : S20000x1x256.ReducesTo [1] S20000x256
  h_S_ : 0 < S_.numel
  reducesTo_S20000x1x6_S20000x6_d1 : S20000x1x6.ReducesTo [1] S20000x6
  concatenates_S20000x256_S20000x6_S20000x262_d1 : Shape.Concatenates [S20000x256, S20000x6] S20000x262 1
  bcast_S_S60000x2 : S_.BroadcastsInDim S60000x2 (![] : Fin 0 → Fin S60000x2.rank)
  bcast_S60000x2_S60000x2x1_0_1 : S60000x2.BroadcastsInDim S60000x2x1 (![0, 1] : Fin 2 → Fin S60000x2x1.rank)
  reducesTo_S60000x2x256_S60000x256_d1 : S60000x2x256.ReducesTo [1] S60000x256
  reducesTo_S60000x2x6_S60000x6_d1 : S60000x2x6.ReducesTo [1] S60000x6
  concatenates_S60000x256_S60000x6_S60000x262_d1 : Shape.Concatenates [S60000x256, S60000x6] S60000x262 1
  bcast_S_S60000x3 : S_.BroadcastsInDim S60000x3 (![] : Fin 0 → Fin S60000x3.rank)
  bcast_S60000x3_S60000x3x1_0_1 : S60000x3.BroadcastsInDim S60000x3x1 (![0, 1] : Fin 2 → Fin S60000x3x1.rank)
  reducesTo_S60000x3x256_S60000x256_d1 : S60000x3x256.ReducesTo [1] S60000x256
  reducesTo_S60000x3x6_S60000x6_d1 : S60000x3x6.ReducesTo [1] S60000x6
  bcast_S_S40000x4 : S_.BroadcastsInDim S40000x4 (![] : Fin 0 → Fin S40000x4.rank)
  bcast_S40000x4_S40000x4x1_0_1 : S40000x4.BroadcastsInDim S40000x4x1 (![0, 1] : Fin 2 → Fin S40000x4x1.rank)
  reducesTo_S40000x4x256_S40000x256_d1 : S40000x4x256.ReducesTo [1] S40000x256
  reducesTo_S40000x4x6_S40000x6_d1 : S40000x4x6.ReducesTo [1] S40000x6
  concatenates_S40000x256_S40000x6_S40000x262_d1 : Shape.Concatenates [S40000x256, S40000x6] S40000x262 1
  bcast_S_S20000x5 : S_.BroadcastsInDim S20000x5 (![] : Fin 0 → Fin S20000x5.rank)
  bcast_S20000x5_S20000x5x1_0_1 : S20000x5.BroadcastsInDim S20000x5x1 (![0, 1] : Fin 2 → Fin S20000x5x1.rank)
  reducesTo_S20000x5x256_S20000x256_d1 : S20000x5x256.ReducesTo [1] S20000x256
  reducesTo_S20000x5x6_S20000x6_d1 : S20000x5x6.ReducesTo [1] S20000x6
  concatenates_S20000x256_S60000x256_S60000x256_S40000x256_S20000x256_S200000x256_d0 : Shape.Concatenates [S20000x256, S60000x256, S60000x256, S40000x256, S20000x256] S200000x256 0
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  reducesTo_S200000x256_S256_d0 : S200000x256.ReducesTo [0] S256
  bcast_S_S256 : S_.BroadcastsInDim S256 (![] : Fin 0 → Fin S256.rank)
  dot_S200000x256_S256x256_S200000x256_1_0_0_1_n_n_wf : DotDims.WF S200000x256 S256x256 S200000x256 [1] [0] [0] [1] [] []
  gather_S200000x256_S20000x1x1_S20000x1x256_2_0_n_n_0_2_1256_wf : GatherDims.WF S200000x256 S20000x1x1 S20000x1x256 [2] [0] [] [0] [] 2 ![1, 256]
  gather_S260000x6_S20000x1x1_S20000x1x6_2_0_n_n_0_2_16_wf : GatherDims.WF S260000x6 S20000x1x1 S20000x1x6 [2] [0] [] [0] [] 2 ![1, 6]
  dot_S20000x262_S262x256_S20000x256_1_0_0_1_n_n_wf : DotDims.WF S20000x262 S262x256 S20000x256 [1] [0] [0] [1] [] []
  gather_S200000x256_S60000x2x1_S60000x2x256_2_0_n_n_0_2_1256_wf : GatherDims.WF S200000x256 S60000x2x1 S60000x2x256 [2] [0] [] [0] [] 2 ![1, 256]
  gather_S260000x6_S60000x2x1_S60000x2x6_2_0_n_n_0_2_16_wf : GatherDims.WF S260000x6 S60000x2x1 S60000x2x6 [2] [0] [] [0] [] 2 ![1, 6]
  dot_S60000x262_S262x256_S60000x256_1_0_0_1_n_n_wf : DotDims.WF S60000x262 S262x256 S60000x256 [1] [0] [0] [1] [] []
  gather_S200000x256_S60000x3x1_S60000x3x256_2_0_n_n_0_2_1256_wf : GatherDims.WF S200000x256 S60000x3x1 S60000x3x256 [2] [0] [] [0] [] 2 ![1, 256]
  gather_S260000x6_S60000x3x1_S60000x3x6_2_0_n_n_0_2_16_wf : GatherDims.WF S260000x6 S60000x3x1 S60000x3x6 [2] [0] [] [0] [] 2 ![1, 6]
  gather_S200000x256_S40000x4x1_S40000x4x256_2_0_n_n_0_2_1256_wf : GatherDims.WF S200000x256 S40000x4x1 S40000x4x256 [2] [0] [] [0] [] 2 ![1, 256]
  gather_S260000x6_S40000x4x1_S40000x4x6_2_0_n_n_0_2_16_wf : GatherDims.WF S260000x6 S40000x4x1 S40000x4x6 [2] [0] [] [0] [] 2 ![1, 6]
  dot_S40000x262_S262x256_S40000x256_1_0_0_1_n_n_wf : DotDims.WF S40000x262 S262x256 S40000x256 [1] [0] [0] [1] [] []
  gather_S200000x256_S20000x5x1_S20000x5x256_2_0_n_n_0_2_1256_wf : GatherDims.WF S200000x256 S20000x5x1 S20000x5x256 [2] [0] [] [0] [] 2 ![1, 256]
  gather_S260000x6_S20000x5x1_S20000x5x6_2_0_n_n_0_2_16_wf : GatherDims.WF S260000x6 S20000x5x1 S20000x5x6 [2] [0] [] [0] [] 2 ![1, 6]

variable [Facts₀]

def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def gather_S200000x256_S20000x1x1_S20000x1x256_2_0_n_n_0_2_1256 : GatherDims S200000x256 S20000x1x1 S20000x1x256 where
  offsetDims := [2]
  collapsedSliceDims := [0]
  operandBatchingDims := []
  startIndicesBatchingDims := []
  startIndexMap := [0]
  indexVectorDim := 2
  sliceSizes := ![1, 256]
  wf := gather_S200000x256_S20000x1x1_S20000x1x256_2_0_n_n_0_2_1256_wf
def gather_S260000x6_S20000x1x1_S20000x1x6_2_0_n_n_0_2_16 : GatherDims S260000x6 S20000x1x1 S20000x1x6 where
  offsetDims := [2]
  collapsedSliceDims := [0]
  operandBatchingDims := []
  startIndicesBatchingDims := []
  startIndexMap := [0]
  indexVectorDim := 2
  sliceSizes := ![1, 6]
  wf := gather_S260000x6_S20000x1x1_S20000x1x6_2_0_n_n_0_2_16_wf
def dot_S20000x262_S262x256_S20000x256_1_0_0_1_n_n : DotDims S20000x262 S262x256 S20000x256 where
  lhsContracting := [1]
  rhsContracting := [0]
  lhsNonContracting := [0]
  rhsNonContracting := [1]
  lhsBatch := []
  rhsBatch := []
  wf := dot_S20000x262_S262x256_S20000x256_1_0_0_1_n_n_wf
def gather_S200000x256_S60000x2x1_S60000x2x256_2_0_n_n_0_2_1256 : GatherDims S200000x256 S60000x2x1 S60000x2x256 where
  offsetDims := [2]
  collapsedSliceDims := [0]
  operandBatchingDims := []
  startIndicesBatchingDims := []
  startIndexMap := [0]
  indexVectorDim := 2
  sliceSizes := ![1, 256]
  wf := gather_S200000x256_S60000x2x1_S60000x2x256_2_0_n_n_0_2_1256_wf
def gather_S260000x6_S60000x2x1_S60000x2x6_2_0_n_n_0_2_16 : GatherDims S260000x6 S60000x2x1 S60000x2x6 where
  offsetDims := [2]
  collapsedSliceDims := [0]
  operandBatchingDims := []
  startIndicesBatchingDims := []
  startIndexMap := [0]
  indexVectorDim := 2
  sliceSizes := ![1, 6]
  wf := gather_S260000x6_S60000x2x1_S60000x2x6_2_0_n_n_0_2_16_wf
def dot_S60000x262_S262x256_S60000x256_1_0_0_1_n_n : DotDims S60000x262 S262x256 S60000x256 where
  lhsContracting := [1]
  rhsContracting := [0]
  lhsNonContracting := [0]
  rhsNonContracting := [1]
  lhsBatch := []
  rhsBatch := []
  wf := dot_S60000x262_S262x256_S60000x256_1_0_0_1_n_n_wf
def gather_S200000x256_S60000x3x1_S60000x3x256_2_0_n_n_0_2_1256 : GatherDims S200000x256 S60000x3x1 S60000x3x256 where
  offsetDims := [2]
  collapsedSliceDims := [0]
  operandBatchingDims := []
  startIndicesBatchingDims := []
  startIndexMap := [0]
  indexVectorDim := 2
  sliceSizes := ![1, 256]
  wf := gather_S200000x256_S60000x3x1_S60000x3x256_2_0_n_n_0_2_1256_wf
def gather_S260000x6_S60000x3x1_S60000x3x6_2_0_n_n_0_2_16 : GatherDims S260000x6 S60000x3x1 S60000x3x6 where
  offsetDims := [2]
  collapsedSliceDims := [0]
  operandBatchingDims := []
  startIndicesBatchingDims := []
  startIndexMap := [0]
  indexVectorDim := 2
  sliceSizes := ![1, 6]
  wf := gather_S260000x6_S60000x3x1_S60000x3x6_2_0_n_n_0_2_16_wf
def gather_S200000x256_S40000x4x1_S40000x4x256_2_0_n_n_0_2_1256 : GatherDims S200000x256 S40000x4x1 S40000x4x256 where
  offsetDims := [2]
  collapsedSliceDims := [0]
  operandBatchingDims := []
  startIndicesBatchingDims := []
  startIndexMap := [0]
  indexVectorDim := 2
  sliceSizes := ![1, 256]
  wf := gather_S200000x256_S40000x4x1_S40000x4x256_2_0_n_n_0_2_1256_wf
def gather_S260000x6_S40000x4x1_S40000x4x6_2_0_n_n_0_2_16 : GatherDims S260000x6 S40000x4x1 S40000x4x6 where
  offsetDims := [2]
  collapsedSliceDims := [0]
  operandBatchingDims := []
  startIndicesBatchingDims := []
  startIndexMap := [0]
  indexVectorDim := 2
  sliceSizes := ![1, 6]
  wf := gather_S260000x6_S40000x4x1_S40000x4x6_2_0_n_n_0_2_16_wf
def dot_S40000x262_S262x256_S40000x256_1_0_0_1_n_n : DotDims S40000x262 S262x256 S40000x256 where
  lhsContracting := [1]
  rhsContracting := [0]
  lhsNonContracting := [0]
  rhsNonContracting := [1]
  lhsBatch := []
  rhsBatch := []
  wf := dot_S40000x262_S262x256_S40000x256_1_0_0_1_n_n_wf
def gather_S200000x256_S20000x5x1_S20000x5x256_2_0_n_n_0_2_1256 : GatherDims S200000x256 S20000x5x1 S20000x5x256 where
  offsetDims := [2]
  collapsedSliceDims := [0]
  operandBatchingDims := []
  startIndicesBatchingDims := []
  startIndexMap := [0]
  indexVectorDim := 2
  sliceSizes := ![1, 256]
  wf := gather_S200000x256_S20000x5x1_S20000x5x256_2_0_n_n_0_2_1256_wf
def gather_S260000x6_S20000x5x1_S20000x5x6_2_0_n_n_0_2_16 : GatherDims S260000x6 S20000x5x1 S20000x5x6 where
  offsetDims := [2]
  collapsedSliceDims := [0]
  operandBatchingDims := []
  startIndicesBatchingDims := []
  startIndexMap := [0]
  indexVectorDim := 2
  sliceSizes := ![1, 6]
  wf := gather_S260000x6_S20000x5x1_S20000x5x6_2_0_n_n_0_2_16_wf

class Facts : Prop extends Facts₀ where

variable [Facts]
-- ==== Proof.RefGen.lean ====
import proofs.«416437_j22935125360693_3_alg».proof.Proof.Gen.ReferenceIdeal.Run
import proofs.«416437_j22935125360693_3_alg».proof.Proof.Gen.ReferenceIdeal.Read

/-! The reference program's run and its stages read at an index are taken from the generated modules imported above. -/
-- ==== Proof.KiBase0.lean ====
/- Region 0 (the degree kernel's pipeline) pinned at the program's constant prefetch table: the table and its
   side condition, the pipeline at it, the body's two branch conditions in closed form over the 50 grid points,
   where its windows are idle / uncut / written back, the staging and scratch memrefs the body is called on,
   and the class invariant with the two scratch operands spelled as memrefs. -/
import proofs.«416437_j22935125360693_3_alg».proof.Proof.Gen.KernelIdeal.Launch
import proofs.«416437_j22935125360693_3_alg».proof.Proof.Gen.KernelIdeal.Skeleton
import proofs.«416437_j22935125360693_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pinned table

Call 0's index maps 4 and 5 read the prefetched table, a constant of the program: the region is
run at that constant's contents. -/

/-- The prefetched table's contents: the constant the first host operation writes, row-major. -/
def tbl0 : pre0.Contents (Elt F) := fun
  | 0 => fun i => lit0 (S50.rowMajor i)
  | ⟨_ + 1, h⟩ => absurd h (Nat.not_lt.2 (Nat.le_add_left _ _))

/-- The side condition at one float carrier: every entry of the table is below 5, so the blocks of
    windows 4 and 5 lie inside their arrays, on whole words. The table holds integers only; the
    float carrier occurs in no value the condition reads. -/
theorem ok_tbl0_ideal : ok0 (F := Ideal) tbl0 := by decide +kernel

/-- The side condition at any carrier: the same proposition, the carrier unfolding away. -/
theorem ok_tbl0 : ok0 (F := F) tbl0 := ok_tbl0_ideal

/-- The table as admissible contents of pipeline 0. -/
def adm0 : (pcfg0 (F := F)).Adm := ⟨tbl0, ok_tbl0⟩

/-- Pipeline 0 at the constant table. -/
abbrev cfgA : Pipeline.Cfg sig Λ₀ := cfg0 (adm0 (F := F))

theorem NA : (cfgA (F := F)).N = 50 := N_0

/-! ## The body's branch conditions -/

/-- The first conditional's condition (the reset), from the grid coordinates. -/
abbrev cond0_0 (i : grid0.Coords) : Prop := (Scalar.cmpi .ne (Scalar.extui (Scalar.cmpi .eq (BitVec.ofNat 32 (i 1).val) 0#32)) 0#32) = 1#1
/-- It holds at the first point of each run of 25. -/
theorem hcond0_0 : ∀ t : Fin (cfgA (F := F)).N, cond0_0 (grid0.coords t) ↔ t.val % 25 = 0 :=
  (by decide +kernel : ∀ t : Fin grid0.N, cond0_0 (grid0.coords t) ↔ t.val % 25 = 0)

/-- The second conditional's condition (the copy-out). -/
abbrev cond0_1 (i : grid0.Coords) : Prop := k0_cond2 i = 1#1
/-- It holds at the last point of each run of 25. -/
theorem hcond0_1 : ∀ t : Fin (cfgA (F := F)).N, cond0_1 (grid0.coords t) ↔ t.val % 25 = 24 :=
  (by decide +kernel : ∀ t : Fin grid0.N, cond0_1 (grid0.coords t) ↔ t.val % 25 = 24)

/-! ## Where the windows are idle, cut, written back -/

theorem liveAtA_0 : ∀ i, (cfgA (F := F)).idle 0 i = false := fun _ => rfl
theorem liveAtA_1 : ∀ i, (cfgA (F := F)).idle 1 i = false := fun _ => rfl
theorem liveAtA_2 : ∀ i, (cfgA (F := F)).idle 2 i = false := fun _ => rfl
theorem liveAtA_3 : ∀ i, (cfgA (F := F)).idle 3 i = false := fun _ => rfl
theorem liveAtA_4 : ∀ i, (cfgA (F := F)).idle 4 i = false := fun _ => rfl
theorem liveAtA_5 : ∀ i, (cfgA (F := F)).idle 5 i = false := fun _ => rfl
theorem liveAtA_6 : ∀ i, (cfgA (F := F)).idle 6 i = false := fun _ => rfl
theorem liveAtA_7 : ∀ i, (cfgA (F := F)).idle 7 i = false := fun _ => rfl

theorem noClipA_0 : ∀ i a, ((cfgA (F := F)).win 0).clip i a = none := fun _ _ => rfl
theorem noClipA_1 : ∀ i a, ((cfgA (F := F)).win 1).clip i a = none := fun _ _ => rfl
theorem noClipA_2 : ∀ i a, ((cfgA (F := F)).win 2).clip i a = none := fun _ _ => rfl
theorem noClipA_3 : ∀ i a, ((cfgA (F := F)).win 3).clip i a = none := fun _ _ => rfl
theorem noClipA_4 : ∀ i a, ((cfgA (F := F)).win 4).clip i a = none := fun _ _ => rfl
theorem noClipA_5 : ∀ i a, ((cfgA (F := F)).win 5).clip i a = none := fun _ _ => rfl
theorem noClipA_6 : ∀ i a, ((cfgA (F := F)).win 6).clip i a = none := fun _ _ => rfl
theorem noClipA_7 : ∀ i a, ((cfgA (F := F)).win 7).clip i a = none := fun _ _ => rfl
theorem noClipA_8 : ∀ i a, ((cfgA (F := F)).win 8).clip i a = none := fun _ _ => rfl
theorem noClipA_9 : ∀ i a, ((cfgA (F := F)).win 9).clip i a = none := fun _ _ => rfl

/-- Outside the last point of a run the two statistics windows are idle and not written back. -/
theorem idleAtA_8 : ∀ t : Fin (cfgA (F := F)).N, ¬cond0_1 (grid0.coords t) → (cfgA (F := F)).idle 8 ((cfgA (F := F)).grid.coords t) = true :=
  (by decide +kernel : ∀ t : Fin grid0.N, ¬cond0_1 (grid0.coords t) → idle0 8 (grid0.coords t) = true)
theorem idleAtA_9 : ∀ t : Fin (cfgA (F := F)).N, ¬cond0_1 (grid0.coords t) → (cfgA (F := F)).idle 9 ((cfgA (F := F)).grid.coords t) = true :=
  (by decide +kernel : ∀ t : Fin grid0.N, ¬cond0_1 (grid0.coords t) → idle0 9 (grid0.coords t) = true)
theorem liveAtA_8_C : ∀ t : Fin (cfgA (F := F)).N, cond0_1 (grid0.coords t) → (cfgA (F := F)).idle 8 ((cfgA (F := F)).grid.coords t) = false :=
  (by decide +kernel : ∀ t : Fin grid0.N, cond0_1 (grid0.coords t) → idle0 8 (grid0.coords t) = false)
theorem liveAtA_9_C : ∀ t : Fin (cfgA (F := F)).N, cond0_1 (grid0.coords t) → (cfgA (F := F)).idle 9 ((cfgA (F := F)).grid.coords t) = false :=
  (by decide +kernel : ∀ t : Fin grid0.N, cond0_1 (grid0.coords t) → idle0 9 (grid0.coords t) = false)
theorem noFlushA_8 : ∀ t : Fin (cfgA (F := F)).N, ¬cond0_1 (grid0.coords t) → ((cfgA (F := F)).win 8).flush t = false :=
  (by decide +kernel : ∀ t : Fin grid0.N, ¬cond0_1 (grid0.coords t) → ((cfg0 (adm0 (F := Ideal))).win 8).flush t = false)
theorem noFlushA_9 : ∀ t : Fin (cfgA (F := F)).N, ¬cond0_1 (grid0.coords t) → ((cfgA (F := F)).win 9).flush t = false :=
  (by decide +kernel : ∀ t : Fin grid0.N, ¬cond0_1 (grid0.coords t) → ((cfg0 (adm0 (F := Ideal))).win 9).flush t = false)
/-- The total's window is written back at every point; the statistics' at the last point of a run. -/
theorem flushA_7 : ∀ t : Fin (cfgA (F := F)).N, ((cfgA (F := F)).win 7).flush t = true :=
  (by decide +kernel : ∀ t : Fin grid0.N, ((cfg0 (adm0 (F := Ideal))).win 7).flush t = true)
theorem flushA_8 : ∀ t : Fin (cfgA (F := F)).N, ((cfgA (F := F)).win 8).flush t = true ↔ t.val % 25 = 24 :=
  (by decide +kernel : ∀ t : Fin grid0.N, ((cfg0 (adm0 (F := Ideal))).win 8).flush t = true ↔ t.val % 25 = 24)
theorem flushA_9 : ∀ t : Fin (cfgA (F := F)).N, ((cfgA (F := F)).win 9).flush t = true ↔ t.val % 25 = 24 :=
  (by decide +kernel : ∀ t : Fin grid0.N, ((cfg0 (adm0 (F := Ideal))).win 9).flush t = true ↔ t.val % 25 = 24)

/-! ## The staging and scratch memrefs, the body as the pipeline calls it -/

abbrev msA_0 (t : Fin (cfgA (F := F)).N) : Memref sig .tc .vmem S4000x256 .f32 := spec0_0.stage ((cfgA (F := F)).slots t 0)
abbrev hsA_0 (t : Fin (cfgA (F := F)).N) : (msA_0 t).IsWhole := hstage0_0 (((cfgA (F := F)).slots t 0).cast nbuf0_0)
abbrev msA_1 (t : Fin (cfgA (F := F)).N) : Memref sig .tc .vmem S4000x256 .f32 := spec0_1.stage ((cfgA (F := F)).slots t 1)
abbrev hsA_1 (t : Fin (cfgA (F := F)).N) : (msA_1 t).IsWhole := hstage0_1 (((cfgA (F := F)).slots t 1).cast nbuf0_1)
abbrev msA_2 (t : Fin (cfgA (F := F)).N) : Memref sig .tc .vmem S4000x6 .f32 := spec0_2.stage ((cfgA (F := F)).slots t 2)
abbrev hsA_2 (t : Fin (cfgA (F := F)).N) : (msA_2 t).IsWhole := hstage0_2 (((cfgA (F := F)).slots t 2).cast nbuf0_2)
abbrev msA_3 (t : Fin (cfgA (F := F)).N) : Memref sig .tc .vmem S256x256 .bf16 := spec0_3.stage ((cfgA (F := F)).slots t 3)
abbrev hsA_3 (t : Fin (cfgA (F := F)).N) : (msA_3 t).IsWhole := hstage0_3 (((cfgA (F := F)).slots t 3).cast nbuf0_3)
abbrev msA_4 (t : Fin (cfgA (F := F)).N) : Memref sig .tc .vmem S1x256x256 .bf16 := spec0_4.stage ((cfgA (F := F)).slots t 4)
abbrev hsA_4 (t : Fin (cfgA (F := F)).N) : (msA_4 t).IsWhole := hstage0_4 (((cfgA (F := F)).slots t 4).cast nbuf0_4)
abbrev msA_5 (t : Fin (cfgA (F := F)).N) : Memref sig .tc .vmem S1x6x256 .bf16 := spec0_5.stage ((cfgA (F := F)).slots t 5)
abbrev hsA_5 (t : Fin (cfgA (F := F)).N) : (msA_5 t).IsWhole := hstage0_5 (((cfgA (F := F)).slots t 5).cast nbuf0_5)
abbrev msA_6 (t : Fin (cfgA (F := F)).N) : Memref sig .tc .vmem S256 .f32 := spec0_6.stage ((cfgA (F := F)).slots t 6)
abbrev hsA_6 (t : Fin (cfgA (F := F)).N) : (msA_6 t).IsWhole := hstage0_6 (((cfgA (F := F)).slots t 6).cast nbuf0_6)
abbrev msA_7 (t : Fin (cfgA (F := F)).N) : Memref sig .tc .vmem S4000x256 .f32 := spec0_7.stage ((cfgA (F := F)).slots t 7)
abbrev hsA_7 (t : Fin (cfgA (F := F)).N) : (msA_7 t).IsWhole := hstage0_7 (((cfgA (F := F)).slots t 7).cast nbuf0_7)
abbrev msA_8 (t : Fin (cfgA (F := F)).N) : Memref sig .tc .vmem S8x256 .f32 := spec0_8.stage ((cfgA (F := F)).slots t 8)
abbrev hsA_8 (t : Fin (cfgA (F := F)).N) : (msA_8 t).IsWhole := hstage0_8 (((cfgA (F := F)).slots t 8).cast nbuf0_8)
abbrev msA_9 (t : Fin (cfgA (F := F)).N) : Memref sig .tc .vmem S8x256 .f32 := spec0_9.stage ((cfgA (F := F)).slots t 9)
abbrev hsA_9 (t : Fin (cfgA (F := F)).N) : (msA_9 t).IsWhole := hstage0_9 (((cfgA (F := F)).slots t 9).cast nbuf0_9)

abbrev scM0 : Memref sig .tc .vmem S8x256 .f32 := Memref.whole cc0_scratch0
abbrev scM1 : Memref sig .tc .vmem S8x256 .f32 := Memref.whole cc0_scratch1

/-- The kernel body at point `t`, on what the pipeline calls it with. -/
abbrev bodyAtA (t : Fin (cfgA (F := F)).N) : Prog (TpuEff nD τ sig (Elt F) Λ₀ .tc) PUnit :=
  cc0__degree_kernel (grid0.coords t) (Memref.whole main_c) (Memref.isWhole_whole _) (msA_0 t) (hsA_0 t) (msA_1 t) (hsA_1 t) (msA_2 t) (hsA_2 t) (msA_3 t) (hsA_3 t) (msA_4 t) (hsA_4 t) (msA_5 t) (hsA_5 t) (msA_6 t) (hsA_6 t) (msA_7 t) (hsA_7 t) (msA_8 t) (hsA_8 t) (msA_9 t) (hsA_9 t) scM0 (Memref.isWhole_whole _) scM1 (Memref.isWhole_whole _)

theorem bodyAtA_eq (t : Fin (cfgA (F := F)).N) :
    defs₀ (F := F) .tc (cfgA (F := F)).body ((cfgA (F := F)).bodyArgs t ((cfgA (F := F)).slots t)) = bodyAtA t := rfl

/-! ## The class invariant with the two scratch operands as memrefs -/

/-- The scoped buffers of the core that are neither staging of call 0 nor its scratch (call 1's staging),
    each at some contents. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ restOther (F := F) c) ∗ (∃ r, prngReg c r)) := by
  unfold Pipeline.ΦA restOther; rw [scopedRest0_eq]; simp only [scM0, scM1, owns_whole]; try rfl

end Cert.KernelIdeal.Hand

end
-- ==== Proof.KiDat0.lean ====
/- Region 0's named contents and proof data, at a PARAMETER `V` (the TensorCore's buffer contents when the region is
   entered): the body's access rectangles, each window's block at a point, the point's total, one accumulation step
   of each scratch, the accumulation over the points of a run of 25, the region invariant, and the proof data with
   its projections. -/
import proofs.«416437_j22935125360693_3_alg».proof.Proof.Gen.KernelIdeal.Launch
import proofs.«416437_j22935125360693_3_alg».proof.Proof.Gen.KernelIdeal.Skeleton
import proofs.«416437_j22935125360693_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«416437_j22935125360693_3_alg».proof.Proof.KiBase0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! ## The body's accesses: whole-block rectangles, and row 0 of a scratch -/

abbrev rW7 : Rect S4000x256 := Rect.unit (s := S4000x256) ![0, 0] S4000x256.size inb_S4000x256_S4000x256_0_0
abbrev rW6 : Rect S4000x6 := Rect.unit (s := S4000x6) ![0, 0] S4000x6.size inb_S4000x6_S4000x6_0_0
abbrev rWs : Rect S256x256 := Rect.unit (s := S256x256) ![0, 0] S256x256.size inb_S256x256_S256x256_0_0
abbrev rWa : Rect S1x256x256 := Rect.unit (s := S1x256x256) ![0, 0, 0] S1x256x256.size inb_S1x256x256_S1x256x256_0_0_0
abbrev rWb : Rect S1x6x256 := Rect.unit (s := S1x6x256) ![0, 0, 0] S1x6x256.size inb_S1x6x256_S1x6x256_0_0_0
abbrev rWv : Rect S256 := Rect.unit (s := S256) ![0] S256.size inb_S256_S256_0
abbrev rW8 : Rect S8x256 := Rect.unit (s := S8x256) ![0, 0] S8x256.size inb_S8x256_S8x256_0_0
abbrev rRow0 : Rect S8x256 := Rect.unit (s := S8x256) ![0, 0] S1x256.size inb_S8x256_S1x256_0_0

/-! ## The windows' blocks -/

/-- Window `w`'s block at point `t`, read off its array as the region finds it (`V`). -/
def iblk0 (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef spec0 w))

/-! ## What one point computes -/

/-- The point's total: relu of the three products plus the bias, from the seven input blocks. -/
def tot0 (x0 x1 : Vec F S4000x256 .f32) (x2 : Vec F S4000x6 .f32) (x3 : Vec F S256x256 .bf16) (x4 : Vec F S1x256x256 .bf16)
    (x5 : Vec F S1x6x256 .bf16) (x6 : Vec F S256 .f32) : Vec F S4000x256 .f32 :=
  k0_pay5 (View.ld x0 rW7) (View.ld x1 rW7) (View.ld x2 rW6) (View.ld x3 rWs) (View.ld x4 rWa) (View.ld x5 rWb) (View.ld x6 rWv)

/-- The total's window after the body: its one whole store. -/
def out0_7 (x0 x1 : Vec F S4000x256 .f32) (x2 : Vec F S4000x6 .f32) (x3 : Vec F S256x256 .bf16) (x4 : Vec F S1x256x256 .bf16)
    (x5 : Vec F S1x6x256 .bf16) (x6 : Vec F S256 .f32) : Vec F S4000x256 .f32 :=
  View.canon [⟨rW7, tot0 x0 x1 x2 x3 x4 x5 x6⟩]

/-- One accumulation step of the column-sum scratch: row 0 gains the total's column sums, the other rows stay. -/
def accStep0 (prev : Vec F S8x256 .f32) (tt : Vec F S4000x256 .f32) : Vec F S8x256 .f32 :=
  View.canon [⟨rRow0, k0_pay1 tt (k0_pay6 (View.ld prev rRow0))⟩, ⟨rW8, prev⟩]

/-- One accumulation step of the sum-of-squares scratch. -/
def accStep1 (prev : Vec F S8x256 .f32) (tt : Vec F S4000x256 .f32) : Vec F S8x256 .f32 :=
  View.canon [⟨rRow0, k0_pay2 tt (View.ld prev rRow0)⟩, ⟨rW8, prev⟩]

/-- The total at point `t`, from the blocks the region finds. -/
def totAt0 (c : Dev nD) (t : Fin (cfgA (F := F)).N) : Vec F S4000x256 .f32 :=
  tot0 (iblk0 V c 0 t) (iblk0 V c 1 t) (iblk0 V c 2 t) (iblk0 V c 3 t) (iblk0 V c 4 t) (iblk0 V c 5 t) (iblk0 V c 6 t)

/-- THE ACCUMULATION: the two scratch buffers' contents after point `n`. At the first point of a run of 25 both are
    zeroed and take one step; at the others they take one step from what the point before left. -/
def sAt0 (c : Dev nD) : (n : ℕ) → n < (cfgA (F := F)).N → Vec F S8x256 .f32 × Vec F S8x256 .f32
  | 0, hn => (accStep0 k0_pay3 (totAt0 V c ⟨0, hn⟩), accStep1 k0_pay4 (totAt0 V c ⟨0, hn⟩))
  | n + 1, hn =>
    if (n + 1) % 25 = 0 then
      (accStep0 k0_pay3 (totAt0 V c ⟨n + 1, hn⟩), accStep1 k0_pay4 (totAt0 V c ⟨n + 1, hn⟩))
    else
      (accStep0 (sAt0 c n (Nat.lt_of_succ_lt hn)).1 (totAt0 V c ⟨n + 1, hn⟩), accStep1 (sAt0 c n (Nat.lt_of_succ_lt hn)).2 (totAt0 V c ⟨n + 1, hn⟩))

/-- At the first point of a run: zeroed, one step. -/
theorem sAt0_reset (c : Dev nD) (t : Fin (cfgA (F := F)).N) (h : t.val % 25 = 0) :
    sAt0 V c t.val t.isLt = (accStep0 k0_pay3 (totAt0 V c t), accStep1 k0_pay4 (totAt0 V c t)) := by
  obtain ⟨n, hn⟩ := t
  cases n with
  | zero => rfl
  | succ n => exact (if_pos h).trans rfl

/-- At any other point: one step from the point before. -/
theorem sAt0_step (c : Dev nD) (t : Fin (cfgA (F := F)).N) (h : ¬t.val % 25 = 0) :
    sAt0 V c t.val t.isLt = (accStep0 (sAt0 V c (t.val - 1) (Nat.lt_of_le_of_lt (Nat.sub_le _ _) t.isLt)).1 (totAt0 V c t),
      accStep1 (sAt0 V c (t.val - 1) (Nat.lt_of_le_of_lt (Nat.sub_le _ _) t.isLt)).2 (totAt0 V c t)) := by
  obtain ⟨n, hn⟩ := t
  cases n with
  | zero => exact absurd (Nat.zero_mod _) h
  | succ n => exact (if_neg h).trans rfl

/-! ## The region invariant -/

/-- Before position `n`: at the start the class's invariant with the table held; afterwards the two scratch buffers
    at what the point before left, the other scoped buffers at anything, the generator register at some state,
    the table held. -/
def PhiS0 (c : Dev nD) : (n : ℕ) → n ≤ (cfgA (F := F)).N → sProp 𝕄
  | 0, _ => iprop(Pipeline.ΦA spec0 c ∗ Pipeline.prefHeld pre0 c (fun _ => fullShare) (adm0 (F := F)).1)
  | n + 1, hn => iprop(owns (c : Thread nD τ) scM0 fullShare (sAt0 V c n hn).1 ∗ owns (c : Thread nD τ) scM1 fullShare (sAt0 V c n hn).2
      ∗ restOther (F := F) c ∗ (∃ r, prngReg c r) ∗ Pipeline.prefHeld pre0 c (fun _ => fullShare) (adm0 (F := F)).1)

theorem PhiS0_zero (c : Dev nD) (n : ℕ) (h : n ≤ (cfgA (F := F)).N) (hz : n = 0) :
    PhiS0 V c n h = iprop(Pipeline.ΦA spec0 c ∗ Pipeline.prefHeld pre0 c (fun _ => fullShare) (adm0 (F := F)).1) := by
  subst hz; rfl

theorem PhiS0_succ (c : Dev nD) (n : ℕ) (hn : n < (cfgA (F := F)).N) :
    PhiS0 V c (n + 1) hn = iprop(owns (c : Thread nD τ) scM0 fullShare (sAt0 V c n hn).1 ∗ owns (c : Thread nD τ) scM1 fullShare (sAt0 V c n hn).2
      ∗ restOther (F := F) c ∗ (∃ r, prngReg c r) ∗ Pipeline.prefHeld pre0 c (fun _ => fullShare) (adm0 (F := F)).1) := rfl

theorem PhiS0_pos (c : Dev nD) (n : ℕ) (h : n ≤ (cfgA (F := F)).N) (hz : n ≠ 0) :
    PhiS0 V c n h = iprop(owns (c : Thread nD τ) scM0 fullShare (sAt0 V c (n - 1) (by omega)).1 ∗ owns (c : Thread nD τ) scM1 fullShare (sAt0 V c (n - 1) (by omega)).2
      ∗ restOther (F := F) c ∗ (∃ r, prngReg c r) ∗ Pipeline.prefHeld pre0 c (fun _ => fullShare) (adm0 (F := F)).1) := by
  cases n with
  | zero => exact absurd rfl hz
  | succ n => rfl

/-! ## The pipeline's proof data -/

/-- The proof data of pipeline 0 on core `c`: the arrays as the region finds them; after the body at point `t` each
    input's buffer at its block, the total's at `out0_7` of the blocks, the statistics' at the accumulation's
    components; the invariant `PhiS0`; nothing owed; full shares. -/
def dat0 (c : Dev nD) : Dat τ (Elt F) Unit ℕ (UR sig nD τ) ℕ (cfgA (F := F)) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => (sAt0 V c t.val t.isLt).1
    | ⟨9, _⟩ => (sAt0 V c t.val t.isLt).2
  Φ t := PhiS0 V c t.val (Nat.le_of_lt_succ t.isLt)
  q _ := fullShare
  owed _ := 0

theorem A_eq0 (c : Dev nD) (w : Fin (cfgA (F := F)).W) : (dat0 V c).A w = V c (Pipeline.arrRef spec0 w) := by
  dsimp only [dat0]

theorem after0_0 (c : Dev nD) (t : Fin (cfgA (F := F)).N) : (dat0 V c).after 0 t = iblk0 V c 0 t := by dsimp only [dat0]; rfl
theorem after0_1 (c : Dev nD) (t : Fin (cfgA (F := F)).N) : (dat0 V c).after 1 t = iblk0 V c 1 t := by dsimp only [dat0]; rfl
theorem after0_2 (c : Dev nD) (t : Fin (cfgA (F := F)).N) : (dat0 V c).after 2 t = iblk0 V c 2 t := by dsimp only [dat0]; rfl
theorem after0_3 (c : Dev nD) (t : Fin (cfgA (F := F)).N) : (dat0 V c).after 3 t = iblk0 V c 3 t := by dsimp only [dat0]; rfl
theorem after0_4 (c : Dev nD) (t : Fin (cfgA (F := F)).N) : (dat0 V c).after 4 t = iblk0 V c 4 t := by dsimp only [dat0]; rfl
theorem after0_5 (c : Dev nD) (t : Fin (cfgA (F := F)).N) : (dat0 V c).after 5 t = iblk0 V c 5 t := by dsimp only [dat0]; rfl
theorem after0_6 (c : Dev nD) (t : Fin (cfgA (F := F)).N) : (dat0 V c).after 6 t = iblk0 V c 6 t := by dsimp only [dat0]; rfl
theorem after0_7 (c : Dev nD) (t : Fin (cfgA (F := F)).N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]; rfl
theorem after0_8 (c : Dev nD) (t : Fin (cfgA (F := F)).N) : (dat0 V c).after 8 t = (sAt0 V c t.val t.isLt).1 := by dsimp only [dat0]; rfl
theorem after0_9 (c : Dev nD) (t : Fin (cfgA (F := F)).N) : (dat0 V c).after 9 t = (sAt0 V c t.val t.isLt).2 := by dsimp only [dat0]; rfl

/-- The invariant at a point's start, restated at `t.val`. -/
theorem PhiS0_castSucc (c : Dev nD) (t : Fin (cfgA (F := F)).N) :
    (dat0 V c).Φ t.castSucc = PhiS0 V c t.val (Nat.le_of_lt t.isLt) := by
  dsimp only [dat0]; simp only [Fin.coe_castSucc]

end Region0

end Cert.KernelIdeal.Hand

end
-- ==== Proof.KiReg1.lean ====
/- REGION 1 of @main — pallas_call 1, the normalisation `cc1__normalize_kernel` on its grid of 40 points — at a
   PARAMETER `V`: the TensorCore's buffer contents when the region is entered. Six windows: 0 the block of rows
   being normalised, 1 the column means, 2 the column variances, 3 the scale, 4 the shift (inputs), 5 the output block.
   Here: each window's block at a point (`iblk1`), what the body leaves in the output's staging buffer as a function
   of the five input blocks (`out1_5`: ONE store through the whole buffer), the body's triple on whole staging memrefs
   (`sound_kernel1`), the pipeline's proof data (`dat1`) with its projections, and the body obligation at every point
   (`body_obligation1`). Windows 1–4 are fetched at the first point only: that their buffers still hold their blocks
   at every later point is `Dat.before_in_eq_fetched` (an unfetched input's block index has not moved). The body
   also loads the output's buffer before it stores it; nothing reads that load, so the buffer is taken at any contents. -/
import proofs.«416437_j22935125360693_3_alg».proof.Proof.Gen.KernelIdeal.Launch
import proofs.«416437_j22935125360693_3_alg».proof.Proof.Gen.KernelIdeal.Skeleton
import proofs.«416437_j22935125360693_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the point fetches it or not,
    for ANY proof data over `V`'s arrays whose body hands the block back untouched. One lemma per input window:
    each is uncut (the cut of a block is the block) and states no idle point. -/
section Before
variable {c : Dev nD} (dat : Dat τ (Elt F) Unit ℕ (UR sig nD τ) ℕ cfg1 c)

theorem before1_0_of (hA : dat.A 0 = V c (Pipeline.arrRef spec1 0)) (hafter : ∀ t, dat.after 0 t = iblk1 V c 0 t)
    (t : Fin cfg1.N) (d) : dat.before 0 t d = iblk1 V c 0 t := by
  have hblk : ∀ t, dat.blockOf 0 t = iblk1 V c 0 t := fun t => by unfold Dat.blockOf iblk1; rw [hA]
  refine (dat.before_in_eq_fetched 0 rfl (fun _ => rfl) (fun _ _ _ => rfl) (fun t => ?_) t d).trans ?_
  · rw [hafter, hblk]
  · unfold Dat.fetched; rw [hblk]; rfl

theorem before1_1_of (hA : dat.A 1 = V c (Pipeline.arrRef spec1 1)) (hafter : ∀ t, dat.after 1 t = iblk1 V c 1 t)
    (t : Fin cfg1.N) (d) : dat.before 1 t d = iblk1 V c 1 t := by
  have hblk : ∀ t, dat.blockOf 1 t = iblk1 V c 1 t := fun t => by unfold Dat.blockOf iblk1; rw [hA]
  refine (dat.before_in_eq_fetched 1 rfl (fun _ => rfl) (fun _ _ _ => rfl) (fun t => ?_) t d).trans ?_
  · rw [hafter, hblk]
  · unfold Dat.fetched; rw [hblk]; rfl

theorem before1_2_of (hA : dat.A 2 = V c (Pipeline.arrRef spec1 2)) (hafter : ∀ t, dat.after 2 t = iblk1 V c 2 t)
    (t : Fin cfg1.N) (d) : dat.before 2 t d = iblk1 V c 2 t := by
  have hblk : ∀ t, dat.blockOf 2 t = iblk1 V c 2 t := fun t => by unfold Dat.blockOf iblk1; rw [hA]
  refine (dat.before_in_eq_fetched 2 rfl (fun _ => rfl) (fun _ _ _ => rfl) (fun t => ?_) t d).trans ?_
  · rw [hafter, hblk]
  · unfold Dat.fetched; rw [hblk]; rfl

theorem before1_3_of (hA : dat.A 3 = V c (Pipeline.arrRef spec1 3)) (hafter : ∀ t, dat.after 3 t = iblk1 V c 3 t)
    (t : Fin cfg1.N) (d) : dat.before 3 t d = iblk1 V c 3 t := by
  have hblk : ∀ t, dat.blockOf 3 t = iblk1 V c 3 t := fun t => by unfold Dat.blockOf iblk1; rw [hA]
  refine (dat.before_in_eq_fetched 3 rfl (fun _ => rfl) (fun _ _ _ => rfl) (fun t => ?_) t d).trans ?_
  · rw [hafter, hblk]
  · unfold Dat.fetched; rw [hblk]; rfl

theorem before1_4_of (hA : dat.A 4 = V c (Pipeline.arrRef spec1 4)) (hafter : ∀ t, dat.after 4 t = iblk1 V c 4 t)
    (t : Fin cfg1.N) (d) : dat.before 4 t d = iblk1 V c 4 t := by
  have hblk : ∀ t, dat.blockOf 4 t = iblk1 V c 4 t := fun t => by unfold Dat.blockOf iblk1; rw [hA]
  refine (dat.before_in_eq_fetched 4 rfl (fun _ => rfl) (fun _ _ _ => rfl) (fun t => ?_) t d).trans ?_
  · rw [hafter, hblk]
  · unfold Dat.fetched; rw [hblk]; rfl

end Before

/-! ## The body's accesses -/

/-- The whole 5000×256 staging buffer (windows 0 and 5) and the whole 256-vector (windows 1–4), as rectangles. -/
abbrev r1_0 : Rect S5000x256 := Rect.unit (s := S5000x256) ![0, 0] S5000x256.size inb_S5000x256_S5000x256_0_0
abbrev r1_v : Rect S256 := Rect.unit (s := S256) ![0] S256.size inb_S256_S256_0

/-! ## What the body leaves in the output window's buffer -/

/-- Window 5's staging buffer after the body, from the five input blocks: its one store, through the whole buffer,
    of the payload `k1_pay1` at the loads of window 0, of window 2 (the variances), of window 1 (the means), of
    window 3 and of window 4 — the order the body reads them in. -/
def out1_5 (x0 : Vec F S5000x256 .f32) (x1 x2 x3 x4 : Vec F S256 .f32) : Vec F S5000x256 .f32 :=
  View.canon [⟨r1_0, k1_pay1 (View.ld x0 r1_0) (View.ld x2 r1_v) (View.ld x1 r1_v) (View.ld x3 r1_v) (View.ld x4 r1_v)⟩]

/-- The store's rectangle is the whole buffer (zero offsets, the buffer's own sizes), so every index lies in it:
    no enumeration of the 5000×256 indices. -/
theorem cover1_5 (p0 : Vec F S5000x256 .f32) (y : S5000x256.Idx) :
    ∃ pc ∈ ([⟨r1_0, p0⟩] : List (View.Piece (Elt F) S5000x256 .f32)), y ∈ pc.1.set :=
  ⟨_, List.mem_singleton_self _, View.mem_set_unit_zero (funext fun a => by fin_cases a <;> rfl) inb_S5000x256_S5000x256_0_0 y⟩

/-! ## The body's triple -/

set_option maxHeartbeats 1000000 in
/-- The kernel body on whole staging memrefs — the five inputs' at read contents `x0 … x4`, the output's at anything —
    runs to the continuation holding the inputs' as they were and the output's at `out1_5` of them. The printed
    function is its skeleton; the symbolic executor runs its six loads (the last, of the output's own buffer, read by
    nothing) and its one store. -/
theorem sound_kernel1 (c : Dev nD) (E : Set ℕ) (i : grid1.Coords)
    (arg1 : Memref sig .tc .vmem S5000x256 .f32) (harg1 : arg1.IsWhole) (arg2 : Memref sig .tc .vmem S256 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S5000x256 .f32) (harg6 : arg6.IsWhole)
    (x0 : Vec F S5000x256 .f32) (x1 x2 x3 x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__normalize_kernel i arg1 harg1 arg2 harg2 arg3 harg3 arg4 harg4 arg5 harg5 arg6 harg6) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and the output's at `out1_5` of the five input blocks; the invariant the scoped
    rest and the generator register, untouched (`Pipeline.ΦA`); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced at each literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`) and the output's holds something, so
    `sound_kernel1` applies; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KiFold.lean ====
/-
  The contents of the TensorCore's buffers at each boundary of the program's main function, as a fold from the
  launch memory: after the first stretch of host operations (where the first kernel region is entered), after that
  region (its windowed arrays at what the write-backs leave, every other buffer as entered), after the second
  stretch (where the second region is entered) and after the second region. No host operation and no region
  writes an argument array, so the fold read at an argument walks back to the launch contents.
-/
import proofs.«416437_j22935125360693_3_alg».proof.Proof.KiDat0
import proofs.«416437_j22935125360693_3_alg».proof.Proof.KiReg1
import Idealize.ShloMosaic.Lib.Pipeline.FrameSuffix
import Idealize.ShloMosaic.Lib.Pipeline.RegionsLoop

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- A core's buffers at launch. -/
abbrev W0 : Dev nD → Valuation τ sig (Elt F) := fun c b => (s₀ m ρ).mem ((c : Dev nD), b)
/-- After the first stretch of host operations: the neighbour sums, the stacked weights, the table. -/
abbrev W1 : Dev nD → Valuation τ sig (Elt F) := fun c => StableHlo.after hostOps0 (W0 m ρ c)
/-- The same, read at the TensorCore's references: what the first region's proof data are stated at. -/
abbrev V1 : (c : Dev nD) → (b : Ref sig .tc) → Buf (Elt F) ((c : Thread nD τ).loc b) := fun c b => W1 m ρ c b
/-- After the first region: its ten windowed arrays at what the pipeline leaves, the rest as entered. -/
def W2 (c : Dev nD) : Valuation τ sig (Elt F) :=
  Pipeline.withArrays spec0 c (W1 m ρ c) fun w => (dat0 (V1 m ρ) c).arrAt w (cfgA (F := F)).N
theorem W2_arr (c : Dev nD) (w : Fin (cfgA (F := F)).W) :
    W2 m ρ c (Proc.devRef .tc (Pipeline.arrRef spec0 w)) = (dat0 (V1 m ρ) c).arrAt w (cfgA (F := F)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin (cfgA (F := F)).W) : (dat0 (V1 m ρ) c).arrAt w (cfgA (F := F)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: the column means and variances, and the copy of the totals. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The result buffer after the run is the second region's output array as the pipeline leaves it. -/
theorem W4_result (c : Dev nD) :
    W4 m ρ c (Proc.devRef .tc main_v126) = (dat1 (V3 m ρ) c).arrAt 5 cfg1.N := W4_arr m ρ c 5

/-! ### Every argument array ends as launched -/

/-- The program's twenty-one argument arrays. -/
def argRefs : Finset (DevRef τ sig) :=
  {Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_arg9, Proc.devRef .tc main_arg10, Proc.devRef .tc main_arg11, Proc.devRef .tc main_arg12, Proc.devRef .tc main_arg13, Proc.devRef .tc main_arg14, Proc.devRef .tc main_arg15, Proc.devRef .tc main_arg16, Proc.devRef .tc main_arg17, Proc.devRef .tc main_arg18, Proc.devRef .tc main_arg19, Proc.devRef .tc main_arg20}

/-- No operation of the first stretch writes an argument array. -/
theorem hostOps0_args : ∀ op ∈ (hostOps0 : List (HloOp τ sig (Elt F))), ∀ b ∈ argRefs, b ∉ op.writes := by
  intro op hop
  revert op
  refine List.forall_iff_forall_mem.mp ?_
  simp only [hostOps0, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals (intro b hb e; subst e; revert hb; decide)

/-- Nor does one of the second stretch. -/
theorem hostOps1_args : ∀ op ∈ (hostOps1 : List (HloOp τ sig (Elt F))), ∀ b ∈ argRefs, b ∉ op.writes := by
  intro op hop
  revert op
  refine List.forall_iff_forall_mem.mp ?_
  simp only [hostOps1, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals (intro b hb e; subst e; revert hb; decide)

/-- An argument array that each region either does not window or windows as an INPUT (never written back) holds at
    the end of the run what it held at launch: the fold walks back through both regions and both stretches. -/
theorem W4_kept (c : Dev nD) (b : Ref sig .tc) (hb : Proc.devRef .tc b ∈ (argRefs : Finset (DevRef τ sig)))
    (h0 : (∀ w, Pipeline.arrRef spec0 w ≠ b) ∨ ∃ w : Fin (cfgA (F := F)).W, ((cfgA (F := F)).win w).isOut = false ∧ Pipeline.arrRef spec0 w = b)
    (h1 : (∀ w, Pipeline.arrRef spec1 w ≠ b) ∨ ∃ w : Fin cfg1.W, (cfg1.win w).isOut = false ∧ Pipeline.arrRef spec1 w = b) :
    W4 m ρ c (Proc.devRef .tc b) = m ((c : Thread nD τ).loc b) := by
  have e43 : W4 m ρ c (Proc.devRef .tc b) = W3 m ρ c (Proc.devRef .tc b) := by
    rcases h1 with h | ⟨w, hin, rfl⟩
    · exact W4_of_ne m ρ c b h
    · exact (W4_arr m ρ c w).trans (((dat1 (V3 m ρ) c).arrAt_in w hin _).trans (A_eq1 (V3 m ρ) c w))
  have e32 : W3 m ρ c (Proc.devRef .tc b) = W2 m ρ c (Proc.devRef .tc b) :=
    StableHlo.after_of_forall_not_mem _ _ fun op hop => hostOps1_args op hop _ hb
  have e21 : W2 m ρ c (Proc.devRef .tc b) = W1 m ρ c (Proc.devRef .tc b) := by
    rcases h0 with h | ⟨w, hin, rfl⟩
    · exact W2_of_ne m ρ c b h
    · exact (W2_arr m ρ c w).trans (((dat0 (V1 m ρ) c).arrAt_in w hin _).trans (A_eq0 (V1 m ρ) c w))
  have e10 : W1 m ρ c (Proc.devRef .tc b) = W0 m ρ c (Proc.devRef .tc b) :=
    StableHlo.after_of_forall_not_mem _ _ fun op hop => hostOps0_args op hop _ hb
  exact e43.trans (e32.trans (e21.trans (e10.trans rfl)))

end Cert.KernelIdeal.Hand

end
-- ==== Proof.KiBef0.lean ====
/- Region 0's proof data at the region's edges, at a PARAMETER `V` (the TensorCore's buffer contents when the region
   is entered): what the body finds in each of the seven input windows' staging buffers at every point — the window's
   block —, and the region invariant at the two ends: made from what the launch hands the region, and giving that back
   after the last point. -/
import proofs.«416437_j22935125360693_3_alg».proof.Proof.KiDat0
import Idealize.ShloMosaic.Lib.Pipeline.FrameBody
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! ## What the body finds in each input window's buffer

An input window's current staging buffer holds the window's block at every point, whether the point fetches it or not
(an unfetched input's block index has not moved since the point before): each of the seven is uncut, states no idle
point, and the body hands its block back untouched. Windows 4 and 5 take their block index from the pinned table;
nothing here depends on which index that is. -/

theorem before0_0 (c : Dev nD) (t : Fin (cfgA (F := F)).N) (d) : (dat0 V c).before 0 t d = iblk0 V c 0 t := by
  have hblk : ∀ t, (dat0 V c).blockOf 0 t = iblk0 V c 0 t := fun t => by unfold Dat.blockOf iblk0; rw [A_eq0]
  refine ((dat0 V c).before_in_eq_fetched 0 rfl liveAtA_0 (fun _ _ _ => rfl) (fun t => ?_) t d).trans ?_
  · rw [after0_0, hblk]
  · unfold Dat.fetched; rw [hblk]; rfl

theorem before0_1 (c : Dev nD) (t : Fin (cfgA (F := F)).N) (d) : (dat0 V c).before 1 t d = iblk0 V c 1 t := by
  have hblk : ∀ t, (dat0 V c).blockOf 1 t = iblk0 V c 1 t := fun t => by unfold Dat.blockOf iblk0; rw [A_eq0]
  refine ((dat0 V c).before_in_eq_fetched 1 rfl liveAtA_1 (fun _ _ _ => rfl) (fun t => ?_) t d).trans ?_
  · rw [after0_1, hblk]
  · unfold Dat.fetched; rw [hblk]; rfl

theorem before0_2 (c : Dev nD) (t : Fin (cfgA (F := F)).N) (d) : (dat0 V c).before 2 t d = iblk0 V c 2 t := by
  have hblk : ∀ t, (dat0 V c).blockOf 2 t = iblk0 V c 2 t := fun t => by unfold Dat.blockOf iblk0; rw [A_eq0]
  refine ((dat0 V c).before_in_eq_fetched 2 rfl liveAtA_2 (fun _ _ _ => rfl) (fun t => ?_) t d).trans ?_
  · rw [after0_2, hblk]
  · unfold Dat.fetched; rw [hblk]; rfl

theorem before0_3 (c : Dev nD) (t : Fin (cfgA (F := F)).N) (d) : (dat0 V c).before 3 t d = iblk0 V c 3 t := by
  have hblk : ∀ t, (dat0 V c).blockOf 3 t = iblk0 V c 3 t := fun t => by unfold Dat.blockOf iblk0; rw [A_eq0]
  refine ((dat0 V c).before_in_eq_fetched 3 rfl liveAtA_3 (fun _ _ _ => rfl) (fun t => ?_) t d).trans ?_
  · rw [after0_3, hblk]
  · unfold Dat.fetched; rw [hblk]; rfl

theorem before0_4 (c : Dev nD) (t : Fin (cfgA (F := F)).N) (d) : (dat0 V c).before 4 t d = iblk0 V c 4 t := by
  have hblk : ∀ t, (dat0 V c).blockOf 4 t = iblk0 V c 4 t := fun t => by unfold Dat.blockOf iblk0; rw [A_eq0]
  refine ((dat0 V c).before_in_eq_fetched 4 rfl liveAtA_4 (fun _ _ _ => rfl) (fun t => ?_) t d).trans ?_
  · rw [after0_4, hblk]
  · unfold Dat.fetched; rw [hblk]; rfl

theorem before0_5 (c : Dev nD) (t : Fin (cfgA (F := F)).N) (d) : (dat0 V c).before 5 t d = iblk0 V c 5 t := by
  have hblk : ∀ t, (dat0 V c).blockOf 5 t = iblk0 V c 5 t := fun t => by unfold Dat.blockOf iblk0; rw [A_eq0]
  refine ((dat0 V c).before_in_eq_fetched 5 rfl liveAtA_5 (fun _ _ _ => rfl) (fun t => ?_) t d).trans ?_
  · rw [after0_5, hblk]
  · unfold Dat.fetched; rw [hblk]; rfl

theorem before0_6 (c : Dev nD) (t : Fin (cfgA (F := F)).N) (d) : (dat0 V c).before 6 t d = iblk0 V c 6 t := by
  have hblk : ∀ t, (dat0 V c).blockOf 6 t = iblk0 V c 6 t := fun t => by unfold Dat.blockOf iblk0; rw [A_eq0]
  refine ((dat0 V c).before_in_eq_fetched 6 rfl liveAtA_6 (fun _ _ _ => rfl) (fun t => ?_) t d).trans ?_
  · rw [after0_6, hblk]
  · unfold Dat.fetched; rw [hblk]; rfl

/-! ## The invariant at the region's two ends -/

/-- Entering: the generator register, the table and the scoped buffers no window stages make the invariant before
    the first point (the class's invariant beside the table held). -/
theorem hin0 (c : Dev nD) :
    iprop((∃ r, prngReg c r) ∗ Pipeline.prefHeld pre0 c (fun _ => fullShare) (adm0 (F := F)).1 ∗ Pipeline.scopedRest spec0 c)
      ⊢ (dat0 V c).Φ 0 := by
  rw [show (dat0 V c).Φ 0 = PhiS0 V c 0 (Nat.zero_le _) from rfl, PhiS0_zero V c 0 _ rfl]
  unfold Pipeline.ΦA
  iintro ⟨Hr, Ht, Hs⟩
  isplitl [Hs Hr]
  · isplitl [Hs]; · iexact Hs
    iexact Hr
  iexact Ht

/-- Leaving: after the last point (position 50, not the first) the invariant holds the two scratch buffers at the
    accumulation's last contents; forgetting those contents gives back the scoped buffers no window stages, beside the
    generator register and the table; the kernel has no semaphore of its own. -/
theorem hout0 (c : Dev nD) :
    (dat0 V c).Φ (Fin.last (cfgA (F := F)).N)
      ⊢ iprop(iprop((∃ r, prngReg c r) ∗ Pipeline.prefHeld pre0 c (fun _ => fullShare) (adm0 (F := F)).1)
          ∗ Pipeline.ownSems0 (fun k : PEmpty => k.elim) c ∗ Pipeline.scopedRest spec0 c) := by
  have hne : (Fin.last (cfgA (F := F)).N).val ≠ 0 := by rw [Fin.val_last, NA]; decide
  have hfold : (dat0 V c).Φ (Fin.last (cfgA (F := F)).N)
      ⊢ iprop(Pipeline.ΦA spec0 c ∗ Pipeline.prefHeld pre0 c (fun _ => fullShare) (adm0 (F := F)).1) := by
    rw [show (dat0 V c).Φ (Fin.last (cfgA (F := F)).N)
        = PhiS0 V c (Fin.last (cfgA (F := F)).N).val (Nat.le_of_lt_succ (Fin.last (cfgA (F := F)).N).isLt) from rfl,
      PhiS0_pos V c _ _ hne, PhiA0_eq]
    iintro ⟨H0, H1, Ho, Hr, Ht⟩
    isplitl [H0 H1 Ho Hr]
    · isplitl [H0 H1 Ho]
      · isplitl [H0]; · iexists _; iexact H0
        isplitl [H1]; · iexists _; iexact H1
        iexact Ho
      iexact Hr
    iexact Ht
  refine hfold.trans ?_
  rw [Pipeline.ownSems0_none]
  unfold Pipeline.ΦA
  iintro ⟨⟨Hs, Hr⟩, Ht⟩
  isplitl [Hr Ht]
  · isplitl [Hr]; · iexact Hr
    iexact Ht
  isplitr; · iempintro
  iexact Hs

end Region0

end Cert.KernelIdeal.Hand

end
-- ==== Proof.KiRunLib0.lean ====
/- Reading back what region 0's body leaves in a buffer: a whole-block store covers; a store into row 0 of a
   scratch leaves row 0 at the payload and the other rows as they were; a row-0 load after a whole-block store reads
   the payload's row 0; a whole-block load after a row-0 store reads the accumulated contents. Shared by the three
   control cases' runs. -/
import proofs.«416437_j22935125360693_3_alg».proof.Proof.Gen.KernelIdeal.Launch
import proofs.«416437_j22935125360693_3_alg».proof.Proof.Gen.KernelIdeal.Skeleton
import proofs.«416437_j22935125360693_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«416437_j22935125360693_3_alg».proof.Proof.KiDat0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading back what the body's stores leave -/

theorem h00 : (![0, 0] : Fin 2 → ℕ) = fun _ => 0 := by funext a; fin_cases a <;> rfl

/-- A single whole-block store covers its buffer. -/
theorem cover_W7 (w : rW7.shape.Idx → Elt F .f32) (y : S4000x256.Idx) :
    ∃ pc ∈ ([⟨rW7, w⟩] : List (View.Piece (Elt F) S4000x256 .f32)), y ∈ pc.1.set :=
  ⟨_, List.mem_singleton_self _, View.mem_set_unit_zero h00 inb_S4000x256_S4000x256_0_0 y⟩

theorem cover_W8 (w : rW8.shape.Idx → Elt F .f32) (y : S8x256.Idx) :
    ∃ pc ∈ ([⟨rW8, w⟩] : List (View.Piece (Elt F) S8x256 .f32)), y ∈ pc.1.set :=
  ⟨_, List.mem_singleton_self _, View.mem_set_unit_zero h00 inb_S8x256_S8x256_0_0 y⟩

/-- A row-0 store after a whole-block store: the whole-block piece covers. -/
theorem cover_row0_W8 (w : rRow0.shape.Idx → Elt F .f32) (w' : rW8.shape.Idx → Elt F .f32) (y : S8x256.Idx) :
    ∃ pc ∈ ([⟨rRow0, w⟩, ⟨rW8, w'⟩] : List (View.Piece (Elt F) S8x256 .f32)), y ∈ pc.1.set :=
  ⟨_, List.mem_cons_of_mem _ (List.mem_singleton_self _), View.mem_set_unit_zero h00 inb_S8x256_S8x256_0_0 y⟩

/-- A store into row 0 of a buffer holding `f`: row 0 at the payload, the other rows as they were — the canon of
    the row piece over the whole buffer's former contents. -/
theorem read_writes_row0 {κ : Kind} {sp : Space} (v : View sig κ sp S8x256 .f32) (f : v.ty.Contents (Elt F))
    (w : rRow0.shape.Idx → Elt F .f32) :
    v.read (Elt F) (v.writes (Elt F) f [⟨rRow0, w⟩]) = View.canon [⟨rRow0, w⟩, ⟨rW8, v.read (Elt F) f⟩] := by
  funext y
  by_cases hy : y ∈ rRow0.set
  · obtain ⟨x, rfl⟩ : ∃ x, rRow0.emb x = y := rRow0.exists_idx_of_mem hy
    rw [View.read_writes_cons_emb, View.canon_cons_emb]
  · rw [View.canon_cons_of_not_mem _ _ hy, View.canon_unit_zero h00 inb_S8x256_S8x256_0_0]
    exact View.read_writes_apply_of_forall_not_mem v f y _ (fun p hp => by rw [List.mem_singleton.mp hp]; exact hy)

/-- One whole-block store leaves its payload. -/
theorem read_writes_W8 {κ : Kind} {sp : Space} (v : View sig κ sp S8x256 .f32) (f : v.ty.Contents (Elt F)) (w : rW8.shape.Idx → Elt F .f32) :
    v.read (Elt F) (v.writes (Elt F) f [⟨rW8, w⟩]) = w :=
  (View.read_writes_eq_canon _ _ _ (cover_W8 _)).trans (View.canon_unit_zero h00 inb_S8x256_S8x256_0_0 _)

/-- A load of row 0 after one whole-block store reads the payload's row 0. -/
theorem readCov_row0_W8 {κ : Kind} {sp : Space} (v : View sig κ sp S8x256 .f32) (w : rW8.shape.Idx → Elt F .f32) :
    v.readCov [⟨rW8, w⟩] rRow0.toLoadRect = View.ld w rRow0 := by
  rw [View.readCov_eq_canon_ld _ _ _ (cover_W8 _), View.canon_unit_zero h00 inb_S8x256_S8x256_0_0]

/-- A whole-block load after a store into row 0 of a buffer holding `f` reads the accumulated contents. -/
theorem readAt_W8_row0 {κ : Kind} {sp : Space} (v : View sig κ sp S8x256 .f32) (f : v.ty.Contents (Elt F))
    (w : rRow0.shape.Idx → Elt F .f32) :
    v.readAt (Elt F) rW8.toLoadRect (v.writes (Elt F) f [⟨rRow0, w⟩]) = View.canon [⟨rRow0, w⟩, ⟨rW8, v.read (Elt F) f⟩] := by
  rw [View.readAt_eq_ld, View.ld_unit_zero h00 inb_S8x256_S8x256_0_0, read_writes_row0]

end Cert.KernelIdeal.Hand

end
-- ==== Proof.KiRun0A.lean ====
/- Region 0's body in control case A (the first point of a run of 25: the reset taken, the copy-out not), run whole
   on any whole memrefs. -/
import proofs.«416437_j22935125360693_3_alg».proof.Proof.Gen.KernelIdeal.Launch
import proofs.«416437_j22935125360693_3_alg».proof.Proof.Gen.KernelIdeal.Skeleton
import proofs.«416437_j22935125360693_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«416437_j22935125360693_3_alg».proof.Proof.KiRunLib0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a run (the reset taken, the copy-out not), on whole memrefs: the inputs kept, the
    total's window at `out0_7` of them, the statistics' windows untouched, each scratch — found at anything —
    zeroed and one accumulation step on. -/
theorem kernelRun0_A (c : Dev nD) (E : Set ℕ) (i : grid0.Coords) (arg2 : Memref sig .tc .smem S50 .i32) (harg2 : arg2.IsWhole) (arg3 : Memref sig .tc .vmem S4000x256 .f32) (harg3 : arg3.IsWhole) (arg4 : Memref sig .tc .vmem S4000x256 .f32) (harg4 : arg4.IsWhole) (arg5 : Memref sig .tc .vmem S4000x6 .f32) (harg5 : arg5.IsWhole) (arg6 : Memref sig .tc .vmem S256x256 .bf16) (harg6 : arg6.IsWhole) (arg7 : Memref sig .tc .vmem S1x256x256 .bf16) (harg7 : arg7.IsWhole) (arg8 : Memref sig .tc .vmem S1x6x256 .bf16) (harg8 : arg8.IsWhole) (arg9 : Memref sig .tc .vmem S256 .f32) (harg9 : arg9.IsWhole) (arg10 : Memref sig .tc .vmem S4000x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S8x256 .f32) (harg13 : arg13.IsWhole) (arg14 : Memref sig .tc .vmem S8x256 .f32) (harg14 : arg14.IsWhole)
    (hc0 : cond0_0 i) (hc1 : ¬cond0_1 i) (x0 x1 : Vec F S4000x256 .f32) (x2 : Vec F S4000x6 .f32) (x3 : Vec F S256x256 .bf16) (x4 : Vec F S1x256x256 .bf16) (x5 : Vec F S1x6x256 .bf16) (x6 : Vec F S256 .f32) (xi8 xi9 : Vec F S8x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ owns (c : Thread nD τ) arg12 fullShare xi9 ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out0_7 x0 x1 x2 x3 x4 x5 x6) ∗ owns (c : Thread nD τ) arg11 fullShare xi8 ∗ owns (c : Thread nD τ) arg12 fullShare xi9
            ∗ owns (c : Thread nD τ) arg13 fullShare (accStep0 k0_pay3 (tot0 x0 x1 x2 x3 x4 x5 x6)) ∗ owns (c : Thread nD τ) arg14 fullShare (accStep1 k0_pay4 (tot0 x0 x1 x2 x3 x4 x5 x6))) -∗ K ⟨⟩))
      ⊢ wp frame (wpE (defs₀ (F := F)) Variants.none c none) E (cc0__degree_kernel i arg2 harg2 arg3 harg3 arg4 harg4 arg5 harg5 arg6 harg6 arg7 harg7 arg8 harg8 arg9 harg9 arg10 harg10 arg11 harg11 arg12 harg12 arg13 harg13 arg14 harg14) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
  subst hf0 hf1 hf2 hf3 hf4 hf5 hf6 hf8 hf9
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists _; isplitr
    swap
    · iexact H7
    ipureintro
    exact View.read_writes_eq_canon _ _ _ (cover_W7 _)
  isplitl [H8]
  · iexists f8; isplitr
    · ipureintro; rfl
    iexact H8
  isplitl [H9]
  · iexists f9; isplitr
    · ipureintro; rfl
    iexact H9
  isplitl [HS0]
  · iexists _; isplitr
    swap
    · iexact HS0
    ipureintro
    refine (View.read_writes_eq_canon _ _ _ (cover_row0_W8 _ _)).trans ?_
    sl_unfold_run_names
    rw [readCov_row0_W8]
    rfl
  iexists _; isplitr
  swap
  · iexact HS1
  ipureintro
  refine (View.read_writes_eq_canon _ _ _ (cover_row0_W8 _ _)).trans ?_
  sl_unfold_run_names
  rw [readCov_row0_W8]
  rfl

end Cert.KernelIdeal.Hand

end
-- ==== Proof.KiRun0B.lean ====
/- Region 0's body in control case B (a point strictly inside a run of 25: neither conditional taken), run whole
   on any whole memrefs. -/
import proofs.«416437_j22935125360693_3_alg».proof.Proof.Gen.KernelIdeal.Launch
import proofs.«416437_j22935125360693_3_alg».proof.Proof.Gen.KernelIdeal.Skeleton
import proofs.«416437_j22935125360693_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«416437_j22935125360693_3_alg».proof.Proof.KiRunLib0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point inside a run (neither conditional taken), on whole memrefs: the inputs kept, the total's
    window at `out0_7` of them, the statistics' windows untouched, each scratch one accumulation step on. -/
theorem kernelRun0_B (c : Dev nD) (E : Set ℕ) (i : grid0.Coords) (arg2 : Memref sig .tc .smem S50 .i32) (harg2 : arg2.IsWhole) (arg3 : Memref sig .tc .vmem S4000x256 .f32) (harg3 : arg3.IsWhole) (arg4 : Memref sig .tc .vmem S4000x256 .f32) (harg4 : arg4.IsWhole) (arg5 : Memref sig .tc .vmem S4000x6 .f32) (harg5 : arg5.IsWhole) (arg6 : Memref sig .tc .vmem S256x256 .bf16) (harg6 : arg6.IsWhole) (arg7 : Memref sig .tc .vmem S1x256x256 .bf16) (harg7 : arg7.IsWhole) (arg8 : Memref sig .tc .vmem S1x6x256 .bf16) (harg8 : arg8.IsWhole) (arg9 : Memref sig .tc .vmem S256 .f32) (harg9 : arg9.IsWhole) (arg10 : Memref sig .tc .vmem S4000x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S8x256 .f32) (harg13 : arg13.IsWhole) (arg14 : Memref sig .tc .vmem S8x256 .f32) (harg14 : arg14.IsWhole)
    (hc0 : ¬cond0_0 i) (hc1 : ¬cond0_1 i) (x0 x1 : Vec F S4000x256 .f32) (x2 : Vec F S4000x6 .f32) (x3 : Vec F S256x256 .bf16) (x4 : Vec F S1x256x256 .bf16) (x5 : Vec F S1x6x256 .bf16) (x6 : Vec F S256 .f32) (xi8 xi9 xs0 xs1 : Vec F S8x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xi8 ∗ owns (c : Thread nD τ) arg12 fullShare xi9 ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out0_7 x0 x1 x2 x3 x4 x5 x6) ∗ owns (c : Thread nD τ) arg11 fullShare xi8 ∗ owns (c : Thread nD τ) arg12 fullShare xi9
            ∗ owns (c : Thread nD τ) arg13 fullShare (accStep0 xs0 (tot0 x0 x1 x2 x3 x4 x5 x6)) ∗ owns (c : Thread nD τ) arg14 fullShare (accStep1 xs1 (tot0 x0 x1 x2 x3 x4 x5 x6))) -∗ K ⟨⟩))
      ⊢ wp frame (wpE (defs₀ (F := F)) Variants.none c none) E (cc0__degree_kernel i arg2 harg2 arg3 harg3 arg4 harg4 arg5 harg5 arg6 harg6 arg7 harg7 arg8 harg8 arg9 harg9 arg10 harg10 arg11 harg11 arg12 harg12 arg13 harg13 arg14 harg14) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
  subst hf0 hf1 hf2 hf3 hf4 hf5 hf6 hf8 hf9 hfs0 hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists _; isplitr
    swap
    · iexact H7
    ipureintro
    exact View.read_writes_eq_canon _ _ _ (cover_W7 _)
  isplitl [H8]
  · iexists f8; isplitr
    · ipureintro; rfl
    iexact H8
  isplitl [H9]
  · iexists f9; isplitr
    · ipureintro; rfl
    iexact H9
  isplitl [HS0]
  · iexists _; isplitr
    swap
    · iexact HS0
    ipureintro
    exact read_writes_row0 _ _ _
  iexists _; isplitr
  swap
  · iexact HS1
  ipureintro
  exact read_writes_row0 _ _ _

end Cert.KernelIdeal.Hand

end
-- ==== Proof.KiRun0C.lean ====
/- Region 0's body in control case C (the last point of a run of 25: the copy-out taken, the reset not), run whole
   on any whole memrefs. -/
import proofs.«416437_j22935125360693_3_alg».proof.Proof.Gen.KernelIdeal.Launch
import proofs.«416437_j22935125360693_3_alg».proof.Proof.Gen.KernelIdeal.Skeleton
import proofs.«416437_j22935125360693_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«416437_j22935125360693_3_alg».proof.Proof.KiRunLib0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of a run (the copy-out taken, the reset not), on whole memrefs: the inputs kept, the
    total's window at `out0_7` of them, each scratch one accumulation step on, and the statistics' windows — found at
    anything — at the scratch buffers' new contents. -/
theorem kernelRun0_C (c : Dev nD) (E : Set ℕ) (i : grid0.Coords) (arg2 : Memref sig .tc .smem S50 .i32) (harg2 : arg2.IsWhole) (arg3 : Memref sig .tc .vmem S4000x256 .f32) (harg3 : arg3.IsWhole) (arg4 : Memref sig .tc .vmem S4000x256 .f32) (harg4 : arg4.IsWhole) (arg5 : Memref sig .tc .vmem S4000x6 .f32) (harg5 : arg5.IsWhole) (arg6 : Memref sig .tc .vmem S256x256 .bf16) (harg6 : arg6.IsWhole) (arg7 : Memref sig .tc .vmem S1x256x256 .bf16) (harg7 : arg7.IsWhole) (arg8 : Memref sig .tc .vmem S1x6x256 .bf16) (harg8 : arg8.IsWhole) (arg9 : Memref sig .tc .vmem S256 .f32) (harg9 : arg9.IsWhole) (arg10 : Memref sig .tc .vmem S4000x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S8x256 .f32) (harg13 : arg13.IsWhole) (arg14 : Memref sig .tc .vmem S8x256 .f32) (harg14 : arg14.IsWhole)
    (hc0 : ¬cond0_0 i) (hc1 : cond0_1 i) (x0 x1 : Vec F S4000x256 .f32) (x2 : Vec F S4000x6 .f32) (x3 : Vec F S256x256 .bf16) (x4 : Vec F S1x256x256 .bf16) (x5 : Vec F S1x6x256 .bf16) (x6 : Vec F S256 .f32) (xs0 xs1 : Vec F S8x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out0_7 x0 x1 x2 x3 x4 x5 x6) ∗ owns (c : Thread nD τ) arg11 fullShare (accStep0 xs0 (tot0 x0 x1 x2 x3 x4 x5 x6)) ∗ owns (c : Thread nD τ) arg12 fullShare (accStep1 xs1 (tot0 x0 x1 x2 x3 x4 x5 x6))
            ∗ owns (c : Thread nD τ) arg13 fullShare (accStep0 xs0 (tot0 x0 x1 x2 x3 x4 x5 x6)) ∗ owns (c : Thread nD τ) arg14 fullShare (accStep1 xs1 (tot0 x0 x1 x2 x3 x4 x5 x6))) -∗ K ⟨⟩))
      ⊢ wp frame (wpE (defs₀ (F := F)) Variants.none c none) E (cc0__degree_kernel i arg2 harg2 arg3 harg3 arg4 harg4 arg5 harg5 arg6 harg6 arg7 harg7 arg8 harg8 arg9 harg9 arg10 harg10 arg11 harg11 arg12 harg12 arg13 harg13 arg14 harg14) K := by
  simp only [cc0__degree_kernel_eq_skeleton]; unfold cc0__degree_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists _; isplitr
    swap
    · iexact H7
    ipureintro
    exact View.read_writes_eq_canon _ _ _ (cover_W7 _)
  isplitl [H8]
  · iexists _; isplitr
    swap
    · iexact H8
    ipureintro
    refine (read_writes_W8 _ _ _).trans ?_
    sl_unfold_run_names
    exact readAt_W8_row0 _ _ _
  isplitl [H9]
  · iexists _; isplitr
    swap
    · iexact H9
    ipureintro
    refine (read_writes_W8 _ _ _).trans ?_
    sl_unfold_run_names
    exact readAt_W8_row0 _ _ _
  isplitl [HS0]
  · iexists _; isplitr
    swap
    · iexact HS0
    ipureintro
    exact read_writes_row0 _ _ _
  iexists _; isplitr
  swap
  · iexact HS1
  ipureintro
  exact read_writes_row0 _ _ _

end Cert.KernelIdeal.Hand

end
-- ==== Proof.KiReg0.lean ====
/- Region 0's body obligation at the entry contents `V`: at every point of the grid the body, called on the current
   staging memrefs, runs from the invariant and the windows' contents before it to those after it — by cases on the
   point's place in its run of 25 (first, inside, last), each case by that case's whole-body run. -/
import proofs.«416437_j22935125360693_3_alg».proof.Proof.Gen.KernelIdeal.Launch
import proofs.«416437_j22935125360693_3_alg».proof.Proof.Gen.KernelIdeal.Skeleton
import proofs.«416437_j22935125360693_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«416437_j22935125360693_3_alg».proof.Proof.KiBef0
import proofs.«416437_j22935125360693_3_alg».proof.Proof.KiRun0A
import proofs.«416437_j22935125360693_3_alg».proof.Proof.KiRun0B
import proofs.«416437_j22935125360693_3_alg».proof.Proof.KiRun0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The body obligation, at a generic point -/

/-- What the body is called with at point `t` (the obligation's precondition, the windows one by one), -/
def bodyPre0 (c : Dev nD) (t : Fin (cfgA (F := F)).N) : sProp 𝕄 :=
  iprop((dat0 V c).Φ t.castSucc ∗ (dat0 V c).owesAt () t.castSucc
    ∗ (∃ d, owns (c : Thread nD τ) (msA_0 t) fullShare ((dat0 V c).before 0 t d))
    ∗ (∃ d, owns (c : Thread nD τ) (msA_1 t) fullShare ((dat0 V c).before 1 t d))
    ∗ (∃ d, owns (c : Thread nD τ) (msA_2 t) fullShare ((dat0 V c).before 2 t d))
    ∗ (∃ d, owns (c : Thread nD τ) (msA_3 t) fullShare ((dat0 V c).before 3 t d))
    ∗ (∃ d, owns (c : Thread nD τ) (msA_4 t) fullShare ((dat0 V c).before 4 t d))
    ∗ (∃ d, owns (c : Thread nD τ) (msA_5 t) fullShare ((dat0 V c).before 5 t d))
    ∗ (∃ d, owns (c : Thread nD τ) (msA_6 t) fullShare ((dat0 V c).before 6 t d))
    ∗ (∃ d, owns (c : Thread nD τ) (msA_7 t) fullShare ((dat0 V c).before 7 t d))
    ∗ (∃ d, owns (c : Thread nD τ) (msA_8 t) fullShare ((dat0 V c).before 8 t d))
    ∗ (∃ d, owns (c : Thread nD τ) (msA_9 t) fullShare ((dat0 V c).before 9 t d)))

/-- and what it returns. -/
def bodyPost0 (c : Dev nD) (t : Fin (cfgA (F := F)).N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point. The inputs' memrefs hold their blocks; the closed forms say which case the point is in;
    the invariant hands the body the two scratch buffers at what the point before left (at anything at the very
    first point), and takes them back one accumulation step on (zeroed first at the first point of a run); outside
    the last point of a run the statistics' windows are idle and go back as found, at the last they take the
    scratch buffers' contents. The table, the other scoped buffers and the generator register pass through. -/
theorem sound_body0 (c : Dev nD) (t : Fin (cfgA (F := F)).N) :
    bodyPre0 V c t ⊢ wp frame (wpE (defs₀ (F := F)) Variants.none c none) Set.univ (bodyAtA t) (fun _ => bodyPost0 V c t) := by
  unfold bodyPre0 bodyPost0 bodyAtA
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (msA_0 t) fullShare ((dat0 V c).after 0 t) from by
    unfold Dat.leavesExact; rw [liveAtA_0]; rfl, after0_0]
  rw [show (dat0 V c).leavesExact 1 t = owns (c : Thread nD τ) (msA_1 t) fullShare ((dat0 V c).after 1 t) from by
    unfold Dat.leavesExact; rw [liveAtA_1]; rfl, after0_1]
  rw [show (dat0 V c).leavesExact 2 t = owns (c : Thread nD τ) (msA_2 t) fullShare ((dat0 V c).after 2 t) from by
    unfold Dat.leavesExact; rw [liveAtA_2]; rfl, after0_2]
  rw [show (dat0 V c).leavesExact 3 t = owns (c : Thread nD τ) (msA_3 t) fullShare ((dat0 V c).after 3 t) from by
    unfold Dat.leavesExact; rw [liveAtA_3]; rfl, after0_3]
  rw [show (dat0 V c).leavesExact 4 t = owns (c : Thread nD τ) (msA_4 t) fullShare ((dat0 V c).after 4 t) from by
    unfold Dat.leavesExact; rw [liveAtA_4]; rfl, after0_4]
  rw [show (dat0 V c).leavesExact 5 t = owns (c : Thread nD τ) (msA_5 t) fullShare ((dat0 V c).after 5 t) from by
    unfold Dat.leavesExact; rw [liveAtA_5]; rfl, after0_5]
  rw [show (dat0 V c).leavesExact 6 t = owns (c : Thread nD τ) (msA_6 t) fullShare ((dat0 V c).after 6 t) from by
    unfold Dat.leavesExact; rw [liveAtA_6]; rfl, after0_6]
  rw [show (dat0 V c).leavesExact 7 t = owns (c : Thread nD τ) (msA_7 t) fullShare ((dat0 V c).after 7 t) from by
    unfold Dat.leavesExact; rw [liveAtA_7]; rfl, after0_7]
  have hN : t.val < 50 := lt_of_lt_of_eq t.isLt (NA (F := F))
  by_cases h0 : t.val % 25 = 0
  · by_cases h1 : t.val % 25 = 24
    · exfalso; omega
    · rw [Dat.leavesExact_idle (dat0 V c) 8 t (idleAtA_8 t (fun h => h1 ((hcond0_1 t).mp h))) (noFlushA_8 t (fun h => h1 ((hcond0_1 t).mp h))),
        Dat.leavesExact_idle (dat0 V c) 9 t (idleAtA_9 t (fun h => h1 ((hcond0_1 t).mp h))) (noFlushA_9 t (fun h => h1 ((hcond0_1 t).mp h)))]
      rw [sAt0_reset V c t h0]; dsimp only
      by_cases hz : t.val = 0
      · rw [PhiS0_castSucc V c t, PhiS0_zero V c _ _ hz, PhiA0_eq]
        iintro ⟨⟨⟨⟨HS0, HS1, Hr⟩, Hg⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (kernelRun0_A (F := F) c Set.univ (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) _ _ _)
        isplitl [H0]
        · iexact H0
        isplitl [H1]
        · iexact H1
        isplitl [H2]
        · iexact H2
        isplitl [H3]
        · iexact H3
        isplitl [H4]
        · iexact H4
        isplitl [H5]
        · iexact H5
        isplitl [H6]
        · iexact H6
        isplitl [H7]
        · iexists _; iexact H7
        isplitl [H8]
        · iexact H8
        isplitl [H9]
        · iexact H9
        isplitl [HS0]
        · iexact HS0
        isplitl [HS1]
        · iexact HS1
        iintro ⟨H0, H1, H2, H3, H4, H5, H6, H7, H8, H9, HS0, HS1⟩
        isplitl [HS0 HS1 Hr Hg Hp]
        · isplitl [HS0]
          · iexact HS0
          isplitl [HS1]
          · iexact HS1
          isplitl [Hr]
          · iexact Hr
          isplitl [Hg]
          · iexact Hg
          iexact Hp
        isplitl [Ho]
        · iexact Ho
        isplitl [H0]
        · iexact H0
        isplitl [H1]
        · iexact H1
        isplitl [H2]
        · iexact H2
        isplitl [H3]
        · iexact H3
        isplitl [H4]
        · iexact H4
        isplitl [H5]
        · iexact H5
        isplitl [H6]
        · iexact H6
        isplitl [H7]
        · iexact H7
        isplitl [H8]
        · iexists _; iexact H8
        iexists _; iexact H9
      · rw [PhiS0_castSucc V c t, PhiS0_pos V c _ _ hz]
        iintro ⟨⟨HS0, HS1, Hr, Hg, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (kernelRun0_A (F := F) c Set.univ (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) _ _ _)
        isplitl [H0]
        · iexact H0
        isplitl [H1]
        · iexact H1
        isplitl [H2]
        · iexact H2
        isplitl [H3]
        · iexact H3
        isplitl [H4]
        · iexact H4
        isplitl [H5]
        · iexact H5
        isplitl [H6]
        · iexact H6
        isplitl [H7]
        · iexists _; iexact H7
        isplitl [H8]
        · iexact H8
        isplitl [H9]
        · iexact H9
        isplitl [HS0]
        · iexists _; iexact HS0
        isplitl [HS1]
        · iexists _; iexact HS1
        iintro ⟨H0, H1, H2, H3, H4, H5, H6, H7, H8, H9, HS0, HS1⟩
        isplitl [HS0 HS1 Hr Hg Hp]
        · isplitl [HS0]
          · iexact HS0
          isplitl [HS1]
          · iexact HS1
          isplitl [Hr]
          · iexact Hr
          isplitl [Hg]
          · iexact Hg
          iexact Hp
        isplitl [Ho]
        · iexact Ho
        isplitl [H0]
        · iexact H0
        isplitl [H1]
        · iexact H1
        isplitl [H2]
        · iexact H2
        isplitl [H3]
        · iexact H3
        isplitl [H4]
        · iexact H4
        isplitl [H5]
        · iexact H5
        isplitl [H6]
        · iexact H6
        isplitl [H7]
        · iexact H7
        isplitl [H8]
        · iexists _; iexact H8
        iexists _; iexact H9
  · have hz : t.val ≠ 0 := fun e => h0 (by rw [e])
    by_cases h1 : t.val % 25 = 24
    · rw [show (dat0 V c).leavesExact 8 t = owns (c : Thread nD τ) (msA_8 t) fullShare ((dat0 V c).after 8 t) from by
        unfold Dat.leavesExact; rw [liveAtA_8_C t ((hcond0_1 t).mpr h1)]; rfl, after0_8]
      rw [show (dat0 V c).leavesExact 9 t = owns (c : Thread nD τ) (msA_9 t) fullShare ((dat0 V c).after 9 t) from by
        unfold Dat.leavesExact; rw [liveAtA_9_C t ((hcond0_1 t).mpr h1)]; rfl, after0_9]
      rw [sAt0_step V c t h0]; dsimp only
      rw [PhiS0_castSucc V c t, PhiS0_pos V c _ _ hz]
      iintro ⟨⟨HS0, HS1, Hr, Hg, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (kernelRun0_C (F := F) c Set.univ (grid0.coords t) _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _ _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexists _; iexact H7
      isplitl [H8]
      · iexists _; iexact H8
      isplitl [H9]
      · iexists _; iexact H9
      isplitl [HS0]
      · iexact HS0
      isplitl [HS1]
      · iexact HS1
      iintro ⟨H0, H1, H2, H3, H4, H5, H6, H7, H8, H9, HS0, HS1⟩
      isplitl [HS0 HS1 Hr Hg Hp]
      · isplitl [HS0]
        · iexact HS0
        isplitl [HS1]
        · iexact HS1
        isplitl [Hr]
        · iexact Hr
        isplitl [Hg]
        · iexact Hg
        iexact Hp
      isplitl [Ho]
      · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      iexact H9
    · rw [Dat.leavesExact_idle (dat0 V c) 8 t (idleAtA_8 t (fun h => h1 ((hcond0_1 t).mp h))) (noFlushA_8 t (fun h => h1 ((hcond0_1 t).mp h))),
        Dat.leavesExact_idle (dat0 V c) 9 t (idleAtA_9 t (fun h => h1 ((hcond0_1 t).mp h))) (noFlushA_9 t (fun h => h1 ((hcond0_1 t).mp h)))]
      rw [sAt0_step V c t h0]; dsimp only
      rw [PhiS0_castSucc V c t, PhiS0_pos V c _ _ hz]
      iintro ⟨⟨HS0, HS1, Hr, Hg, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (kernelRun0_B (F := F) c Set.univ (grid0.coords t) _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _ _ _ _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexists _; iexact H7
      isplitl [H8]
      · iexact H8
      isplitl [H9]
      · iexact H9
      isplitl [HS0]
      · iexact HS0
      isplitl [HS1]
      · iexact HS1
      iintro ⟨H0, H1, H2, H3, H4, H5, H6, H7, H8, H9, HS0, HS1⟩
      isplitl [HS0 HS1 Hr Hg Hp]
      · isplitl [HS0]
        · iexact HS0
        isplitl [HS1]
        · iexact HS1
        isplitl [Hr]
        · iexact Hr
        isplitl [Hg]
        · iexact Hg
        iexact Hp
      isplitl [Ho]
      · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexists _; iexact H8
      iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiRun.lean ====
/-
  The run of the program's main function as four segments — the first stretch of host operations, the first kernel
  region, the second stretch, the second kernel region — composed by the library's launch theorem for a list of
  segments. Each region is entered from "every unscoped buffer at the boundary's contents": its windowed arrays are
  split out of those buffers and put back at what the pipeline leaves; the first region also takes the degree table
  (an unscoped scalar-memory buffer, which the first stretch fills with its fifty literal entries) and returns it
  unchanged. Every weakly fair execution terminates without a fault, and the final state holds every unscoped buffer
  at the last boundary's contents.
-/
import proofs.«416437_j22935125360693_3_alg».proof.Proof.KiFold
import proofs.«416437_j22935125360693_3_alg».proof.Proof.KiBef0
import proofs.«416437_j22935125360693_3_alg».proof.Proof.KiReg0
import proofs.«416437_j22935125360693_3_alg».proof.Proof.KiReg1
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's contents, the proof data family, the thread state -/

/-- The contents each pipeline's prefetched tables are pinned at: the first pipeline's degree table at its fifty
    literal entries, the second has no table. -/
def adm : (p : Fin 2) → (pcfgs (F := F) p).Adm
  | ⟨0, _⟩ => adm0
  | ⟨1, _⟩ => cfg1.toPCfg_adm

/-- The first stretch's first operation fills the table's buffer with the literal entries, and no later operation
    of the stretch writes it: that is what the first region finds there. -/
theorem V1_table (c : Dev nD) (k : Fin pre0.K) : V1 m ρ c (pre0.ref k) = (adm0 (F := F)).1 k := by
  match k with
  | ⟨0, _⟩ =>
    show StableHlo.after hostOps0 (W0 m ρ c) (Proc.devRef .tc main_c) = _
    after_results_simp
    rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- THE FIRST REGION: entered from every unscoped buffer at the contents after the first stretch, left at those
    contents with its windowed arrays at what the pipeline leaves. The degree table is one of the unscoped buffers
    that are no window's array: it is handed to the pipeline at the pinned entries and comes back unchanged. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop((∃ r, prngReg c r) ∗ Pipeline.prefHeld pre0 c (fun _ => fullShare) (adm0 (F := F)).1)
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    have htbl : (fun k => V1 m ρ c ((pcfgs (F := F) 0).pre.ref k)) = (adm0 (F := F)).1 := funext (V1_table m ρ c)
    rw [Pipeline.unscopedBufs_held, Pipeline.unscopedRest_split (launch0 (F := F)).pre c (V1 m ρ c), htbl] at hsplit
    iintro ⟨⟨Hub, Hp, HO⟩, -, -⟩
    ihave H := hsplit $$ Hub
    icases H with ⟨Ha, Htbl, Hrest⟩
    imodintro
    isplitl [Ha]; · iexact Ha
    isplitl [Htbl]; · iexact Htbl
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (V1 m ρ) c
  hout c := hout0 (V1 m ρ) c
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · (cfgA (F := F)).N) (hF0 m ρ c) (hrest0 m ρ c)
    have htbl : (fun k => V1 m ρ c ((pcfgs (F := F) 0).pre.ref k)) = (adm0 (F := F)).1 := funext (V1_table m ρ c)
    rw [Pipeline.unscopedBufs_held, Pipeline.unscopedRest_split (launch0 (F := F)).pre c (V1 m ρ c), htbl] at hjoin
    iintro ⟨Ha, HO, ⟨Hp, Htbl⟩, Hrest⟩
    imodintro
    isplitl [Ha Htbl Hrest]
    · iapply hjoin; isplitl [Ha]; · iexact Ha
      isplitl [Htbl]; · iexact Htbl
      iexact Hrest
    isplitl [Hp]; · iexact Hp
    unfold Pipeline.Dat.owesAt Pipeline.owesWithin
    icases HO with ⟨%W, -, HO⟩; iexists W; iexact HO

set_option backward.isDefEq.respectTransparency.types false in
/-- THE SECOND REGION: entered from every unscoped buffer at the contents after the second stretch, left with its
    output array at what the pipeline leaves. It has no table and keeps no scratch: its invariant is the scoped
    rest and the generator register, untouched. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- The main function is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the main function terminates,
    nothing faulting, and the final state holds every unscoped buffer of every core at the last boundary's
    contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KiVal7a.lean ====
/- The degree kernel's per-point result READ AT ONE ELEMENT, at the ideal (extended-real) values: the payload the body
   stores into the total's block is, at row `q` and column `j` of the block, the maximum with zero of
   (neighbour-sum row · stacked weight column + bond-sum row · stacked bond weight column) + feature row · self weight
   column + bias. Each `tpu.matmul` into a zero accumulator is the plain sum over its one contracted axis (the
   contraction index re-indexed by its single coordinate); the narrowing conversions are the identity on extended
   reals; a same-shape cast is the identity; a cast that drops a leading unit axis reads (0, k, j) at (k, j); the bias row
   is broadcast down the rows. Everything is stated over variables of the block shapes. -/
import proofs.«416437_j22935125360693_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- The two contractions' dimension numbers, named shortly. -/
abbrev D256 : DotDims S4000x256 S256x256 S4000x256 := dot_S4000x256_S256x256_S4000x256_1_0_0_1_n_n
abbrev D6 : DotDims S4000x6 S6x256 S4000x256 := dot_S4000x6_S6x256_S4000x256_1_0_0_1_n_n

theorem lhs256_0 (i : S4000x256.Idx) (q : D256.contr.Idx) : (D256.lhsIdx i q 0).val = (i 0).val := by
  unfold DotDims.lhsIdx
  rw [dif_neg (show ¬(0 : Fin S4000x256.rank) ∈ D256.lhsBatch by decide), dif_pos (show (0 : Fin S4000x256.rank) ∈ D256.lhsNonContracting by decide)]
  rfl
theorem rhs256_1 (i : S4000x256.Idx) (q : D256.contr.Idx) : (D256.rhsIdx i q 1).val = (i 1).val := by
  unfold DotDims.rhsIdx
  rw [dif_neg (show ¬(1 : Fin S256x256.rank) ∈ D256.rhsBatch by decide), dif_pos (show (1 : Fin S256x256.rank) ∈ D256.rhsNonContracting by decide)]
  rfl

/-- A [4000,256] by [256,256] product into the zero accumulator, read at an element: the sum over the shared axis. -/
theorem mm256_apply (A : FVec Ideal S4000x256 .bf16) (B : FVec Ideal S256x256 .bf16) (q : Fin 4000) (j : Fin 256) :
    matmul D256 none A B (constant S4000x256 .f32 0x00000000#32) (ix2 q j) = ∑ k : Fin 256, A (ix2 q k) * B (ix2 k j) := by
  refine (Ideal.matmul_constant_zero_apply D256 none A B (ix2 q j)).trans ?_
  rw [← Equiv.sum_comp (contrEquiv1 D256 256 rfl rfl).symm]
  refine Finset.sum_congr rfl fun k _ => ?_
  have hk := contrEquiv1_symm_val D256 256 rfl rfl k
  have el : D256.lhsIdx (ix2 q j) ((contrEquiv1 D256 256 rfl rfl).symm k) = ix2 q k := funext fun a => Fin.ext (by
    match a with
    | ⟨0, _⟩ => exact lhs256_0 _ _
    | ⟨1, _⟩ => exact (D256.lhsIdx_val_of_single rfl _ _).trans hk)
  have er : D256.rhsIdx (ix2 q j) ((contrEquiv1 D256 256 rfl rfl).symm k) = ix2 k j := funext fun a => Fin.ext (by
    match a with
    | ⟨0, _⟩ => exact (D256.rhsIdx_val_of_single rfl _ _).trans hk
    | ⟨1, _⟩ => exact rhs256_1 _ _)
  rw [el, er]

theorem lhs6_0 (i : S4000x256.Idx) (q : D6.contr.Idx) : (D6.lhsIdx i q 0).val = (i 0).val := by
  unfold DotDims.lhsIdx
  rw [dif_neg (show ¬(0 : Fin S4000x6.rank) ∈ D6.lhsBatch by decide), dif_pos (show (0 : Fin S4000x6.rank) ∈ D6.lhsNonContracting by decide)]
  rfl
theorem rhs6_1 (i : S4000x256.Idx) (q : D6.contr.Idx) : (D6.rhsIdx i q 1).val = (i 1).val := by
  unfold DotDims.rhsIdx
  rw [dif_neg (show ¬(1 : Fin S6x256.rank) ∈ D6.rhsBatch by decide), dif_pos (show (1 : Fin S6x256.rank) ∈ D6.rhsNonContracting by decide)]
  rfl

/-- A [4000,6] by [6,256] product into the zero accumulator, read at an element. -/
theorem mm6_apply (A : FVec Ideal S4000x6 .bf16) (B : FVec Ideal S6x256 .bf16) (q : Fin 4000) (j : Fin 256) :
    matmul D6 none A B (constant S4000x256 .f32 0x00000000#32) (ix2 q j) = ∑ k : Fin 6, A (ix2 q k) * B (ix2 k j) := by
  refine (Ideal.matmul_constant_zero_apply D6 none A B (ix2 q j)).trans ?_
  rw [← Equiv.sum_comp (contrEquiv1 D6 6 rfl rfl).symm]
  refine Finset.sum_congr rfl fun k _ => ?_
  have hk := contrEquiv1_symm_val D6 6 rfl rfl k
  have el : D6.lhsIdx (ix2 q j) ((contrEquiv1 D6 6 rfl rfl).symm k) = ix2 q k := funext fun a => Fin.ext (by
    match a with
    | ⟨0, _⟩ => exact lhs6_0 _ _
    | ⟨1, _⟩ => exact (D6.lhsIdx_val_of_single rfl _ _).trans hk)
  have er : D6.rhsIdx (ix2 q j) ((contrEquiv1 D6 6 rfl rfl).symm k) = ix2 k j := funext fun a => Fin.ext (by
    match a with
    | ⟨0, _⟩ => exact (D6.rhsIdx_val_of_single rfl _ _).trans hk
    | ⟨1, _⟩ => exact rhs6_1 _ _)
  rw [el, er]

/-- A block of leading extent one viewed without that axis reads (0, k, j) at (k, j). -/
theorem drop256 (x : Vec Ideal S1x256x256 .bf16) (k j : Fin 256) :
    shapeCast S256x256 x shapeCasts_S1x256x256_S256x256 (ix2 k j) = x (ix3 0 k j) := by
  refine (shapeCast_dropUnit_apply ![256, 256] x shapeCasts_S1x256x256_S256x256 (ix2 k j)).trans ?_
  refine congrArg x (funext fun a => ?_)
  match a with
  | ⟨0, _⟩ => rfl
  | ⟨1, _⟩ => rfl
  | ⟨2, _⟩ => rfl
theorem drop6 (x : Vec Ideal S1x6x256 .bf16) (k : Fin 6) (j : Fin 256) :
    shapeCast S6x256 x shapeCasts_S1x6x256_S6x256 (ix2 k j) = x (ix3 0 k j) := by
  refine (shapeCast_dropUnit_apply ![6, 256] x shapeCasts_S1x6x256_S6x256 (ix2 k j)).trans ?_
  refine congrArg x (funext fun a => ?_)
  match a with
  | ⟨0, _⟩ => rfl
  | ⟨1, _⟩ => rfl
  | ⟨2, _⟩ => rfl

/-- The bias row broadcast down the block reads its own column. -/
theorem bias_apply (x : Vec Ideal S256 .f32) (q : Fin 4000) (j : Fin 256) :
    broadcastTo S4000x256 (shapeCast S1x256 x shapeCasts_S256_S1x256) broadcasts_S1x256_S4000x256 (ix2 q j) = x (ix1 j) := by
  refine (broadcastTo_apply (shapeCast S1x256 x shapeCasts_S256_S1x256) broadcasts_S1x256_S4000x256 (ix2 q j) (ix2 0 j)
    (fun a => match a with | ⟨0, _⟩ => rfl | ⟨1, _⟩ => rfl)).trans ?_
  refine (shapeCast_addUnit_apply ![256] x shapeCasts_S256_S1x256 (ix2 0 j)).trans ?_
  refine congrArg x (funext fun a => ?_)
  match a with
  | ⟨0, _⟩ => rfl

/-- THE BODY'S RESULT AT AN ELEMENT: the maximum with zero of the two neighbour products' sum, plus the self
    product, plus the bias — each product the plain sum over its shared axis (the narrowing conversions are the
    identity on extended reals, the accumulators are zero). -/
theorem pay5_apply (x0 x1 : Vec Ideal S4000x256 .f32) (x2 : Vec Ideal S4000x6 .f32) (x3 : Vec Ideal S256x256 .bf16)
    (x4 : Vec Ideal S1x256x256 .bf16) (x5 : Vec Ideal S1x6x256 .bf16) (x6 : Vec Ideal S256 .f32) (q : Fin 4000) (j : Fin 256) :
    k0_pay5 x0 x1 x2 x3 x4 x5 x6 (ix2 q j)
      = max (((∑ k : Fin 256, x1 (ix2 q k) * x4 (ix3 0 k j) + ∑ k : Fin 6, x2 (ix2 q k) * x5 (ix3 0 k j))
          + ∑ k : Fin 256, x0 (ix2 q k) * x3 (ix2 k j)) + x6 (ix1 j)) 0 := by
  have e16 : matmul (F := Ideal) (φ₁ := .bf16) (φ₂ := .bf16) D256 none (truncf (F := Ideal) .bf16 (shapeCast S4000x256 x1 shapeCasts_S4000x256_S4000x256) bitsLt_bf16_f32)
      (shapeCast S256x256 x4 shapeCasts_S1x256x256_S256x256) (constant S4000x256 .f32 0x00000000#32) (ix2 q j)
        = ∑ k : Fin 256, x1 (ix2 q k) * x4 (ix3 0 k j) := by
    rw [mm256_apply]
    refine Finset.sum_congr rfl fun k _ => ?_
    rw [drop256, truncf_apply, shapeCast_self]
  have e19 : matmul (F := Ideal) (φ₁ := .bf16) (φ₂ := .bf16) D6 none (truncf (F := Ideal) .bf16 (shapeCast S4000x6 x2 shapeCasts_S4000x6_S4000x6) bitsLt_bf16_f32)
      (shapeCast S6x256 x5 shapeCasts_S1x6x256_S6x256) (constant S4000x256 .f32 0x00000000#32) (ix2 q j)
        = ∑ k : Fin 6, x2 (ix2 q k) * x5 (ix3 0 k j) := by
    rw [mm6_apply]
    refine Finset.sum_congr rfl fun k _ => ?_
    rw [drop6, truncf_apply, shapeCast_self]
  have e13 : matmul (F := Ideal) (φ₁ := .bf16) (φ₂ := .bf16) D256 none (truncf (F := Ideal) .bf16 x0 bitsLt_bf16_f32)
      (shapeCast S256x256 x3 shapeCasts_S256x256_S256x256) (constant S4000x256 .f32 0x00000000#32) (ix2 q j)
        = ∑ k : Fin 256, x0 (ix2 q k) * x3 (ix2 k j) := by
    rw [mm256_apply]
    refine Finset.sum_congr rfl fun k _ => ?_
    rw [shapeCast_self, truncf_apply]
  have eb := bias_apply x6 q j
  have ez : (Scalar.ofBits .f32 0x00000000#32 : Ideal .f32) = 0 := Ideal.ofBits_zero_f32
  unfold k0_pay5
  show max (((_ + _) + _) + _) _ = _
  rw [e16, e19, e13, eb, ez]
  rfl

end Cert.KernelIdeal.Hand
end
-- ==== Proof.KiVal7.lean ====
/- THE TOTAL'S ARRAY AFTER REGION 0, as one function of the arrays the region finds, at the ideal (extended-real)
   values. Row `r`, column `j` of the total is
     max (((Σ_k asum[r,k]·Wa[g r,k,j] + Σ_k bsum[r,k]·Wb[g r,k,j]) + Σ_k x[r,k]·Wself[k,j]) + bias[j]) 0,
   where `g r` is the degree group of row `r`: the constant table's entry at the row's block of 4000 rows.
   The road: the block indices of every window at a symbolic grid point, decided over the 50 points (the row-blocked
   windows sit at block row `t`, the two stacked weights at the table's entry for `t`, the self weights and the bias at
   block 0); so each input block, read at an element, is its array at (index × size + coordinate); the body's payload
   at an element is the closed form on the point's rows; what point `t` writes back is block `t` of the closed form;
   every row lies in the block of point `r / 4000`, which writes back; hence the array is the closed form. -/
import proofs.«416437_j22935125360693_3_alg».proof.Proof.KiDat0
import proofs.«416437_j22935125360693_3_alg».proof.Proof.KiVal7a
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## The block indices at a point, decided over the grid -/

/-- At point `t` the row-blocked windows (the features, the two neighbour sums, the total) sit at block row `t`;
    the self weights and the bias at block 0; the two stacked weights at the table's entry for `t`. -/
theorem idxA : ∀ t : Fin (cfgA (F := Ideal)).N,
      ((cfgA (F := Ideal)).win 0).index t (0 : Fin 2) = t.val ∧ ((cfgA (F := Ideal)).win 0).index t (1 : Fin 2) = 0
    ∧ ((cfgA (F := Ideal)).win 1).index t (0 : Fin 2) = t.val ∧ ((cfgA (F := Ideal)).win 1).index t (1 : Fin 2) = 0
    ∧ ((cfgA (F := Ideal)).win 2).index t (0 : Fin 2) = t.val ∧ ((cfgA (F := Ideal)).win 2).index t (1 : Fin 2) = 0
    ∧ ((cfgA (F := Ideal)).win 3).index t (0 : Fin 2) = 0 ∧ ((cfgA (F := Ideal)).win 3).index t (1 : Fin 2) = 0
    ∧ ((cfgA (F := Ideal)).win 4).index t (0 : Fin 3) = (lit0 (Fin.cast N_0 t)).toNat ∧ ((cfgA (F := Ideal)).win 4).index t (1 : Fin 3) = 0 ∧ ((cfgA (F := Ideal)).win 4).index t (2 : Fin 3) = 0
    ∧ ((cfgA (F := Ideal)).win 5).index t (0 : Fin 3) = (lit0 (Fin.cast N_0 t)).toNat ∧ ((cfgA (F := Ideal)).win 5).index t (1 : Fin 3) = 0 ∧ ((cfgA (F := Ideal)).win 5).index t (2 : Fin 3) = 0
    ∧ ((cfgA (F := Ideal)).win 6).index t (0 : Fin 1) = 0
    ∧ ((cfgA (F := Ideal)).win 7).index t (0 : Fin 2) = t.val ∧ ((cfgA (F := Ideal)).win 7).index t (1 : Fin 2) = 0 :=
  (by decide +kernel : ∀ t : Fin grid0.N,
      ((cfg0 (adm0 (F := Ideal))).win 0).index t (0 : Fin 2) = t.val ∧ ((cfg0 (adm0 (F := Ideal))).win 0).index t (1 : Fin 2) = 0
    ∧ ((cfg0 (adm0 (F := Ideal))).win 1).index t (0 : Fin 2) = t.val ∧ ((cfg0 (adm0 (F := Ideal))).win 1).index t (1 : Fin 2) = 0
    ∧ ((cfg0 (adm0 (F := Ideal))).win 2).index t (0 : Fin 2) = t.val ∧ ((cfg0 (adm0 (F := Ideal))).win 2).index t (1 : Fin 2) = 0
    ∧ ((cfg0 (adm0 (F := Ideal))).win 3).index t (0 : Fin 2) = 0 ∧ ((cfg0 (adm0 (F := Ideal))).win 3).index t (1 : Fin 2) = 0
    ∧ ((cfg0 (adm0 (F := Ideal))).win 4).index t (0 : Fin 3) = (lit0 (Fin.cast N_0 t)).toNat ∧ ((cfg0 (adm0 (F := Ideal))).win 4).index t (1 : Fin 3) = 0 ∧ ((cfg0 (adm0 (F := Ideal))).win 4).index t (2 : Fin 3) = 0
    ∧ ((cfg0 (adm0 (F := Ideal))).win 5).index t (0 : Fin 3) = (lit0 (Fin.cast N_0 t)).toNat ∧ ((cfg0 (adm0 (F := Ideal))).win 5).index t (1 : Fin 3) = 0 ∧ ((cfg0 (adm0 (F := Ideal))).win 5).index t (2 : Fin 3) = 0
    ∧ ((cfg0 (adm0 (F := Ideal))).win 6).index t (0 : Fin 1) = 0
    ∧ ((cfg0 (adm0 (F := Ideal))).win 7).index t (0 : Fin 2) = t.val ∧ ((cfg0 (adm0 (F := Ideal))).win 7).index t (1 : Fin 2) = 0)

/-- Every entry of the table is a group number below 5. -/
theorem lit0_lt5 : ∀ t : Fin 50, (lit0 t).toNat < 5 := by decide

section Value
variable (V : (c : Dev nD) → (b : Ref sig .tc) → Buf (Elt Ideal) ((c : Thread nD τ).loc b))

/-! ## The closed form -/

/-- The degree group of row `r`: the table's entry at the row's block of 4000. -/
def degOf (r : Fin 200000) : Fin 5 := ⟨(lit0 ⟨r.val / 4000, by have := r.isLt; omega⟩).toNat, lit0_lt5 _⟩

/-- The arrays the region reads, each at its shape, as extended reals. -/
abbrev vX (c : Dev nD) : S200000x256.Idx → EReal := V c main_arg0
abbrev vAsum (c : Dev nD) : S200000x256.Idx → EReal := V c main_v80
abbrev vBsum (c : Dev nD) : S200000x6.Idx → EReal := V c main_v81
abbrev vWself (c : Dev nD) : S256x256.Idx → EReal := V c main_v104
abbrev vWa (c : Dev nD) : S5x256x256.Idx → EReal := V c main_v105
abbrev vWb (c : Dev nD) : S5x6x256.Idx → EReal := V c main_v106
abbrev vBias (c : Dev nD) : S256.Idx → EReal := V c main_arg13

/-- The total at row `r`, column `j`, from the arrays the region finds. -/
def TotAt (c : Dev nD) (r : Fin 200000) (j : Fin 256) : EReal :=
  max (((∑ k : Fin 256, vAsum V c (ix2 r k) * vWa V c (ix3 (degOf r) k j)
        + ∑ k : Fin 6, vBsum V c (ix2 r k) * vWb V c (ix3 (degOf r) k j))
       + ∑ k : Fin 256, vX V c (ix2 r k) * vWself V c (ix2 k j))
      + vBias V c (ix1 j)) 0

/-- The total's array as one function of the index. -/
def TotArr (c : Dev nD) : S200000x256.Idx → EReal := fun i => TotAt V c (i 0) (i 1)

theorem TotArr_ix2 (c : Dev nD) (r : Fin 200000) (j : Fin 256) : TotArr V c (ix2 r j) = TotAt V c r j := rfl

/-! ## Where each block sits in its array -/

/-- Row `q` of block `t` is row `4000 t + q` of the array. -/
def rowOf (t : Fin (cfgA (F := Ideal)).N) (q : Fin 4000) : Fin 200000 :=
  ⟨t.val * 4000 + q.val, by have := lt_of_lt_of_eq t.isLt NA; have := q.isLt; omega⟩

theorem emb0 (t : Fin (cfgA (F := Ideal)).N) (q : Fin 4000) (k : Fin 256) :
    (((cfgA (F := Ideal)).win 0).blk t).view.emb (ix2 q k) = (ix2 (rowOf t q) k : S200000x256.Idx) := by
  obtain ⟨h0, h1, -⟩ := idxA t
  funext a; apply Fin.ext
  match a with
  | ⟨0, _⟩ => show ((cfgA (F := Ideal)).win 0).index t (0 : Fin 2) * 4000 + 1 * q.val = t.val * 4000 + q.val; rw [h0]; omega
  | ⟨1, _⟩ => show ((cfgA (F := Ideal)).win 0).index t (1 : Fin 2) * 256 + 1 * k.val = k.val; rw [h1]; omega

theorem emb1 (t : Fin (cfgA (F := Ideal)).N) (q : Fin 4000) (k : Fin 256) :
    (((cfgA (F := Ideal)).win 1).blk t).view.emb (ix2 q k) = (ix2 (rowOf t q) k : S200000x256.Idx) := by
  obtain ⟨-, -, h0, h1, -⟩ := idxA t
  funext a; apply Fin.ext
  match a with
  | ⟨0, _⟩ => show ((cfgA (F := Ideal)).win 1).index t (0 : Fin 2) * 4000 + 1 * q.val = t.val * 4000 + q.val; rw [h0]; omega
  | ⟨1, _⟩ => show ((cfgA (F := Ideal)).win 1).index t (1 : Fin 2) * 256 + 1 * k.val = k.val; rw [h1]; omega

theorem emb2 (t : Fin (cfgA (F := Ideal)).N) (q : Fin 4000) (k : Fin 6) :
    (((cfgA (F := Ideal)).win 2).blk t).view.emb (ix2 q k) = (ix2 (rowOf t q) k : S200000x6.Idx) := by
  obtain ⟨-, -, -, -, h0, h1, -⟩ := idxA t
  funext a; apply Fin.ext
  match a with
  | ⟨0, _⟩ => show ((cfgA (F := Ideal)).win 2).index t (0 : Fin 2) * 4000 + 1 * q.val = t.val * 4000 + q.val; rw [h0]; omega
  | ⟨1, _⟩ => show ((cfgA (F := Ideal)).win 2).index t (1 : Fin 2) * 6 + 1 * k.val = k.val; rw [h1]; omega

theorem emb3 (t : Fin (cfgA (F := Ideal)).N) (k j : Fin 256) :
    (((cfgA (F := Ideal)).win 3).blk t).view.emb (ix2 k j) = (ix2 k j : S256x256.Idx) := by
  obtain ⟨-, -, -, -, -, -, h0, h1, -⟩ := idxA t
  funext a; apply Fin.ext
  match a with
  | ⟨0, _⟩ => show ((cfgA (F := Ideal)).win 3).index t (0 : Fin 2) * 256 + 1 * k.val = k.val; rw [h0]; omega
  | ⟨1, _⟩ => show ((cfgA (F := Ideal)).win 3).index t (1 : Fin 2) * 256 + 1 * j.val = j.val; rw [h1]; omega

/-- The table's entry at point `t`, as a group number. -/
def tblOf (t : Fin (cfgA (F := Ideal)).N) : Fin 5 := ⟨(lit0 (Fin.cast N_0 t)).toNat, lit0_lt5 _⟩

theorem emb4 (t : Fin (cfgA (F := Ideal)).N) (k j : Fin 256) :
    (((cfgA (F := Ideal)).win 4).blk t).view.emb (ix3 (0 : Fin 1) k j) = (ix3 (tblOf t) k j : S5x256x256.Idx) := by
  obtain ⟨-, -, -, -, -, -, -, -, h0, h1, h2, -⟩ := idxA t
  funext a; apply Fin.ext
  match a with
  | ⟨0, _⟩ => show ((cfgA (F := Ideal)).win 4).index t (0 : Fin 3) * 1 + 1 * 0 = (lit0 (Fin.cast N_0 t)).toNat; rw [h0]; omega
  | ⟨1, _⟩ => show ((cfgA (F := Ideal)).win 4).index t (1 : Fin 3) * 256 + 1 * k.val = k.val; rw [h1]; omega
  | ⟨2, _⟩ => show ((cfgA (F := Ideal)).win 4).index t (2 : Fin 3) * 256 + 1 * j.val = j.val; rw [h2]; omega

theorem emb5 (t : Fin (cfgA (F := Ideal)).N) (k : Fin 6) (j : Fin 256) :
    (((cfgA (F := Ideal)).win 5).blk t).view.emb (ix3 (0 : Fin 1) k j) = (ix3 (tblOf t) k j : S5x6x256.Idx) := by
  obtain ⟨-, -, -, -, -, -, -, -, -, -, -, h0, h1, h2, -⟩ := idxA t
  funext a; apply Fin.ext
  match a with
  | ⟨0, _⟩ => show ((cfgA (F := Ideal)).win 5).index t (0 : Fin 3) * 1 + 1 * 0 = (lit0 (Fin.cast N_0 t)).toNat; rw [h0]; omega
  | ⟨1, _⟩ => show ((cfgA (F := Ideal)).win 5).index t (1 : Fin 3) * 6 + 1 * k.val = k.val; rw [h1]; omega
  | ⟨2, _⟩ => show ((cfgA (F := Ideal)).win 5).index t (2 : Fin 3) * 256 + 1 * j.val = j.val; rw [h2]; omega

theorem emb6 (t : Fin (cfgA (F := Ideal)).N) (j : Fin 256) :
    (((cfgA (F := Ideal)).win 6).blk t).view.emb (ix1 j) = (ix1 j : S256.Idx) := by
  obtain ⟨-, -, -, -, -, -, -, -, -, -, -, -, -, -, h0, -⟩ := idxA t
  funext a; apply Fin.ext
  match a with
  | ⟨0, _⟩ => show ((cfgA (F := Ideal)).win 6).index t (0 : Fin 1) * 256 + 1 * j.val = j.val; rw [h0]; omega

theorem emb7 (t : Fin (cfgA (F := Ideal)).N) (q : Fin 4000) (k : Fin 256) :
    (((cfgA (F := Ideal)).win 7).blk t).view.emb (ix2 q k) = (ix2 (rowOf t q) k : S200000x256.Idx) := by
  obtain ⟨-, -, -, -, -, -, -, -, -, -, -, -, -, -, -, h0, h1⟩ := idxA t
  funext a; apply Fin.ext
  match a with
  | ⟨0, _⟩ => show ((cfgA (F := Ideal)).win 7).index t (0 : Fin 2) * 4000 + 1 * q.val = t.val * 4000 + q.val; rw [h0]; omega
  | ⟨1, _⟩ => show ((cfgA (F := Ideal)).win 7).index t (1 : Fin 2) * 256 + 1 * k.val = k.val; rw [h1]; omega

/-- Every row of block `t` is in the group the table names for `t`. -/
theorem degOf_rowOf (t : Fin (cfgA (F := Ideal)).N) (q : Fin 4000) : degOf (rowOf t q) = tblOf t := by
  have hq := q.isLt
  have e : (⟨(rowOf t q).val / 4000, by have := (rowOf t q).isLt; omega⟩ : Fin 50) = Fin.cast N_0 t :=
    Fin.ext (by show (t.val * 4000 + q.val) / 4000 = t.val; omega)
  exact Fin.ext (by show (lit0 _).toNat = (lit0 _).toNat; rw [e])

/-! ## The blocks read where the rectangles say -/

theorem rd0 (c : Dev nD) (t : Fin (cfgA (F := Ideal)).N) (q : Fin 4000) (k : Fin 256) :
    iblk0 V c 0 t (ix2 q k) = vX V c (ix2 (rowOf t q) k) := by
  show vX V c ((((cfgA (F := Ideal)).win 0).blk t).view.emb (ix2 q k)) = _
  rw [emb0]
theorem rd1 (c : Dev nD) (t : Fin (cfgA (F := Ideal)).N) (q : Fin 4000) (k : Fin 256) :
    iblk0 V c 1 t (ix2 q k) = vAsum V c (ix2 (rowOf t q) k) := by
  show vAsum V c ((((cfgA (F := Ideal)).win 1).blk t).view.emb (ix2 q k)) = _
  rw [emb1]
theorem rd2 (c : Dev nD) (t : Fin (cfgA (F := Ideal)).N) (q : Fin 4000) (k : Fin 6) :
    iblk0 V c 2 t (ix2 q k) = vBsum V c (ix2 (rowOf t q) k) := by
  show vBsum V c ((((cfgA (F := Ideal)).win 2).blk t).view.emb (ix2 q k)) = _
  rw [emb2]
theorem rd3 (c : Dev nD) (t : Fin (cfgA (F := Ideal)).N) (k j : Fin 256) :
    iblk0 V c 3 t (ix2 k j) = vWself V c (ix2 k j) := by
  show vWself V c ((((cfgA (F := Ideal)).win 3).blk t).view.emb (ix2 k j)) = _
  rw [emb3]
theorem rd4 (c : Dev nD) (t : Fin (cfgA (F := Ideal)).N) (q : Fin 4000) (k j : Fin 256) :
    iblk0 V c 4 t (ix3 (0 : Fin 1) k j) = vWa V c (ix3 (degOf (rowOf t q)) k j) := by
  show vWa V c ((((cfgA (F := Ideal)).win 4).blk t).view.emb (ix3 (0 : Fin 1) k j)) = _
  rw [emb4, degOf_rowOf]
theorem rd5 (c : Dev nD) (t : Fin (cfgA (F := Ideal)).N) (q : Fin 4000) (k : Fin 6) (j : Fin 256) :
    iblk0 V c 5 t (ix3 (0 : Fin 1) k j) = vWb V c (ix3 (degOf (rowOf t q)) k j) := by
  show vWb V c ((((cfgA (F := Ideal)).win 5).blk t).view.emb (ix3 (0 : Fin 1) k j)) = _
  rw [emb5, degOf_rowOf]
theorem rd6 (c : Dev nD) (t : Fin (cfgA (F := Ideal)).N) (j : Fin 256) :
    iblk0 V c 6 t (ix1 j) = vBias V c (ix1 j) := by
  show vBias V c ((((cfgA (F := Ideal)).win 6).blk t).view.emb (ix1 j)) = _
  rw [emb6]

/-! ## One point's payload is the closed form on the point's rows -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- THE POINT'S TOTAL at row `q`, column `j` of its block is the closed form at row `4000 t + q`. -/
theorem totAt0_apply (c : Dev nD) (t : Fin (cfgA (F := Ideal)).N) (q : Fin 4000) (j : Fin 256) :
    totAt0 (F := Ideal) V c t (ix2 q j) = TotAt V c (rowOf t q) j := by
  unfold totAt0 tot0
  simp only [View.ld_unit_zero (S := S4000x256) hz2, View.ld_unit_zero (S := S4000x6) hz2, View.ld_unit_zero (S := S256x256) hz2,
    View.ld_unit_zero (S := S1x256x256) hz3, View.ld_unit_zero (S := S1x6x256) hz3, View.ld_unit_zero (S := S256) hz1]
  refine (pay5_apply _ _ _ _ _ _ _ q j).trans ?_
  unfold TotAt
  simp only [rd0 V c t, rd1 V c t, rd2 V c t, rd3 V c t, rd4 V c t q, rd5 V c t q, rd6 V c t]

/-! ## What each point writes back, the cover, and the array -/

/-- WHAT POINT `t` WRITES BACK to the total's array is block `t` of the closed form. -/
theorem flushed7_eq (c : Dev nD) (t : Fin (cfgA (F := Ideal)).N) :
    (dat0 (F := Ideal) V c).flushed 7 t = (((cfgA (F := Ideal)).win 7).blk t).view.read (Elt Ideal) (TotArr V c) := by
  show ((cfgA (F := Ideal)).win 7).cut ((cfgA (F := Ideal)).grid.coords t) ((dat0 (F := Ideal) V c).after 7 t) = _
  rw [after0_7]
  unfold out0_7
  rw [View.canon_unit_zero hz2]
  funext y
  obtain ⟨q, j, rfl⟩ : ∃ (q : Fin 4000) (j : Fin 256), y = ix2 q j := ⟨y 0, y 1, eq_ix2 (n0 := 4000) (n1 := 256) y⟩
  show totAt0 (F := Ideal) V c t (ix2 q j) = TotArr V c ((((cfgA (F := Ideal)).win 7).blk t).view.emb (ix2 q j))
  rw [emb7, TotArr_ix2, totAt0_apply]

/-- Every index of the total's array lies in the block of the point its row names. -/
theorem cover7 (i : S200000x256.Idx) :
    ∃ t : Fin (cfgA (F := Ideal)).N, ((cfgA (F := Ideal)).win 7).flush t = true ∧ i ∈ (((cfgA (F := Ideal)).win 7).blk t).view.set := by
  obtain ⟨r, j, rfl⟩ : ∃ (r : Fin 200000) (j : Fin 256), i = ix2 r j := ⟨i 0, i 1, eq_ix2 i⟩
  have hr := r.isLt
  let t : Fin (cfgA (F := Ideal)).N := ⟨r.val / 4000, by rw [NA]; omega⟩
  refine ⟨t, flushA_7 t, ?_⟩
  have e : (((cfgA (F := Ideal)).win 7).blk t).view.emb (ix2 (⟨r.val % 4000, by omega⟩ : Fin 4000) j) = (ix2 r j : S200000x256.Idx) := by
    rw [emb7]
    refine congrArg (fun x => (ix2 x j : S200000x256.Idx)) (Fin.ext ?_)
    show r.val / 4000 * 4000 + r.val % 4000 = r.val
    omega
  exact e ▸ View.emb_mem_set _ _

/-- THE TOTAL'S ARRAY AFTER REGION 0 is the closed form, index by index. -/
theorem total_arr (c : Dev nD) : (dat0 (F := Ideal) V c).arrAt 7 (cfgA (F := Ideal)).N = TotArr V c :=
  (dat0 (F := Ideal) V c).arrAt_eq_of_cover 7 (TotArr V c) (fun t _ => flushed7_eq V c t) cover7

/-! ## Two restatements for the callers -/

/-- The same at a point given as a number below 50. -/
theorem totAt0_ix2 (c : Dev nD) (t : Fin 50) (q : Fin 4000) (j : Fin 256) :
    totAt0 (F := Ideal) V c ⟨t.val, by rw [NA]; exact t.isLt⟩ (ix2 q j)
      = TotAt V c ⟨4000 * t.val + q.val, by have := t.isLt; have := q.isLt; omega⟩ j :=
  (totAt0_apply V c ⟨t.val, by rw [NA]; exact t.isLt⟩ q j).trans
    (congrArg (fun r => TotAt V c r j) (Fin.ext (by show t.val * 4000 + q.val = 4000 * t.val + q.val; omega)))

end Value

/-- The table in closed form: five groups of 5, 15, 15, 10 and 5 blocks. -/
theorem lit0_groups : ∀ t : Fin 50, (lit0 t).toNat = if t.val < 5 then 0 else if t.val < 20 then 1 else if t.val < 35 then 2 else if t.val < 45 then 3 else 4 := by decide

/-- So the group of a row is read off the row number. -/
theorem degOf_val (r : Fin 200000) :
    (degOf r).val = if r.val < 20000 then 0 else if r.val < 80000 then 1 else if r.val < 140000 then 2 else if r.val < 180000 then 3 else 4 := by
  have hr := r.isLt
  show (lit0 ⟨r.val / 4000, _⟩).toNat = _
  rw [lit0_groups]
  show (if r.val / 4000 < 5 then 0 else if r.val / 4000 < 20 then 1 else if r.val / 4000 < 35 then 2 else if r.val / 4000 < 45 then 3 else 4) = _
  have e1 : r.val / 4000 < 5 ↔ r.val < 20000 := by omega
  have e2 : r.val / 4000 < 20 ↔ r.val < 80000 := by omega
  have e3 : r.val / 4000 < 35 ↔ r.val < 140000 := by omega
  have e4 : r.val / 4000 < 45 ↔ r.val < 180000 := by omega
  simp only [e1, e2, e3, e4]

end Cert.KernelIdeal.Hand
end
-- ==== Proof.KiVal89W.lean ====
/-
  The two statistics windows of the first kernel region, and the arithmetic of the body's two running sums.

  Windows 8 and 9 stage the [16,256] arrays of column sums and column sums of squares in blocks of [8,256]: the
  block at grid point t has block index (t / 25, 0), and is written back only at the last point of each run of 25
  points (t % 25 = 24). The two write-backs (t = 24 and t = 49) cover disjoint halves of the array, so after the
  region row 8·cc of either array holds row 0 of what the body left in the staging block at point 25·cc + 24.

  The body's update of a running sum, read at one lane: the stored row is the loaded row plus the column sum of
  the [4000,256] total (or of its elementwise square); the reset stores zeros.
-/
import proofs.«416437_j22935125360693_3_alg».proof.Proof.KiBase0
import Idealize.ShloMosaic.Lib.Pipeline.Value
import Idealize.ShloMosaic.Lib.ValueIdx
import Idealize.ShloMosaic.PureOps.Ideal.Laws

set_option maxRecDepth 16384

noncomputable section

namespace Cert.KernelIdeal.Hand.Stats

open Cert.KernelIdeal Cert.KernelIdeal.Gen
open Idealize.ShloMosaic Idealize.ShloMosaic.TcCoe Idealize.ShloMosaic.ValueIdx
open Idealize.SL Idealize.SL.RA Idealize.SL.BI
open Idealize.ShloMosaic.Pipeline (Dat Cfg Window)
open scoped BigOperators

variable {F : FTy → Type} [FloatOps F]

/-! ## The body's arithmetic at a lane -/

/-- The sum over the 4000 rows of a [4000,256] vector, at lane j. -/
theorem colsum_apply (x : FVec Ideal S4000x256 .f32) (h : S4000x256.Reduces [0] S256) (hφ : FKind.Formats .f32)
    (hacc : (0x00000000#32 : BitVec 32) = 0x00000000#32) (j : Fin 256) :
    multiReduction .add [0] S256 x 0x00000000#32 h hφ hacc (ix1 j) = ∑ q : Fin 4000, x (ix2 q j) := by
  refine (Ideal.multiReduction_add_single x 0x00000000#32 h hφ hacc (ix1 j)).trans ?_
  refine Finset.sum_congr rfl fun q _ => congrArg x ?_
  funext a
  match a with
  | ⟨0, _⟩ => rfl
  | ⟨1, _⟩ => rfl

/-- A [1,256] row viewed as a [256] vector: lane j is entry (0, j). -/
theorem pay6_apply (v : Vec Ideal S1x256 .f32) (j : Fin 256) :
    k0_pay6 (F := Ideal) v (ix1 j) = v (ix2 (0 : Fin 1) j) := by
  unfold k0_pay6
  exact shapeCast_apply v shapeCasts_S1x256_S256 (ix1 j) (ix2 (0 : Fin 1) j) (by
    rw [Shape.rowMajor_val_two, Shape.rowMajor_val_one]; show 0 * 256 + j.val = j.val; omega)

/-- The new row of the running sum: the old row plus the column sums of the total. -/
theorem pay1_apply (tt : FVec Ideal S4000x256 .f32) (v30 : FVec Ideal S256 .f32) (j : Fin 256) :
    k0_pay1 (F := Ideal) tt v30 (ix2 (0 : Fin 1) j) = v30 (ix1 j) + ∑ q : Fin 4000, tt (ix2 q j) := by
  unfold k0_pay1
  refine (shapeCast_apply _ shapeCasts_S256_S1x256 (ix2 (0 : Fin 1) j) (ix1 j) (by
    rw [Shape.rowMajor_val_two, Shape.rowMajor_val_one]; show j.val = 0 * 256 + j.val; omega)).trans ?_
  refine (addf_apply _ _ (ix1 j)).trans ?_
  exact congrArg (v30 (ix1 j) + ·) (colsum_apply tt _ _ _ j)

/-- The new row of the running sum of squares: the old row plus the column sums of the squared total. -/
theorem pay2_apply (tt : FVec Ideal S4000x256 .f32) (v36 : Vec Ideal S1x256 .f32) (j : Fin 256) :
    k0_pay2 (F := Ideal) tt v36 (ix2 (0 : Fin 1) j)
      = v36 (ix2 (0 : Fin 1) j) + ∑ q : Fin 4000, tt (ix2 q j) * tt (ix2 q j) := by
  unfold k0_pay2
  refine (shapeCast_apply _ shapeCasts_S256_S1x256 (ix2 (0 : Fin 1) j) (ix1 j) (by
    rw [Shape.rowMajor_val_two, Shape.rowMajor_val_one]; show j.val = 0 * 256 + j.val; omega)).trans ?_
  refine (addf_apply _ _ (ix1 j)).trans ?_
  refine congr (congrArg HAdd.hAdd ?_) ((colsum_apply _ _ _ _ j).trans ?_)
  · exact shapeCast_apply v36 shapeCasts_S1x256_S256 (ix1 j) (ix2 (0 : Fin 1) j) (by
      rw [Shape.rowMajor_val_two, Shape.rowMajor_val_one]; show 0 * 256 + j.val = j.val; omega)
  · rfl

/-- The reset of the running sum stores zero everywhere. -/
theorem pay3_apply (i : S8x256.Idx) : k0_pay3 (F := Ideal) i = 0 := by
  unfold k0_pay3
  rw [shapeCast_self]
  exact Ideal.ofBits_zero_f32

/-- The reset of the running sum of squares stores zero everywhere. -/
theorem pay4_apply (i : S8x256.Idx) : k0_pay4 (F := Ideal) i = 0 := by
  unfold k0_pay4
  rw [shapeCast_self]
  exact Ideal.ofBits_zero_f32

/-! ## Window 8: where its blocks sit, and what the array holds after the region -/

/-- Window 8's block index at point t: the run t / 25 on the row axis, 0 on the lane axis. -/
theorem idxA_8 : ∀ t : Fin (cfgA (F := F)).N, ((cfgA (F := F)).win 8).index t (0 : Fin 2) = t.val / 25
    ∧ ((cfgA (F := F)).win 8).index t (1 : Fin 2) = 0 :=
  (by decide +kernel : ∀ t : Fin grid0.N, ((cfg0 (adm0 (F := Ideal))).win 8).index t (0 : Fin 2) = t.val / 25
    ∧ ((cfg0 (adm0 (F := Ideal))).win 8).index t (1 : Fin 2) = 0)

set_option backward.isDefEq.respectTransparency.types false in
/-- An index of the array is in point t's block iff each coordinate is in the block's range on its axis. -/
theorem mem_blk8 (t : Fin (cfgA (F := F)).N) (i : S16x256.Idx) :
    i ∈ (((cfgA (F := F)).win 8).blk t).view.set ↔ ∀ a : Fin 2, ((cfgA (F := F)).win 8).index t a * S8x256.size a ≤ (i a).val
      ∧ (i a).val < ((cfgA (F := F)).win 8).index t a * S8x256.size a + S8x256.size a := by
  show i ∈ ((View.whole main_v107_1).slice (((cfgA (F := F)).win 8).rect t)).set ↔ _
  rw [View.set_slice_whole]
  exact Rect.mem_set_unit

/-- The blocks of two different points that write back lie in different halves of the array. -/
theorem disj8 (t t' : Fin (cfgA (F := F)).N) (hf : ((cfgA (F := F)).win 8).flush t = true)
    (hf' : ((cfgA (F := F)).win 8).flush t' = true) (hne : t ≠ t') :
    Disjoint (((cfgA (F := F)).win 8).blk t).view.set (((cfgA (F := F)).win 8).blk t').view.set := by
  refine Finset.disjoint_left.mpr fun (i : S16x256.Idx) hi hi' => ?_
  have b0 := (mem_blk8 t i).mp hi 0
  have b0' := (mem_blk8 t' i).mp hi' 0
  obtain ⟨e0, -⟩ := idxA_8 (F := F) t
  obtain ⟨e0', -⟩ := idxA_8 (F := F) t'
  rw [e0] at b0
  rw [e0'] at b0'
  have h1 := (flushA_8 t).mp hf
  have h2 := (flushA_8 t').mp hf'
  have hv : t.val ≠ t'.val := fun e => hne (Fin.ext e)
  have hN := NA (F := F)
  have := t.isLt
  have := t'.isLt
  change t.val / 25 * 8 ≤ (i 0).val ∧ (i 0).val < t.val / 25 * 8 + 8 at b0
  change t'.val / 25 * 8 ≤ (i 0).val ∧ (i 0).val < t'.val / 25 * 8 + 8 at b0'
  omega

/-- Entry (y0, y1) of point t's block is entry (8·(t / 25) + y0, y1) of the array. -/
theorem emb8 (t : Fin (cfgA (F := F)).N) (y0 : Fin 8) (y1 : Fin 256) :
    ((((cfgA (F := F)).win 8).blk t).view.emb (ix2 y0 y1) : S16x256.Idx)
      = ix2 (⟨t.val / 25 * 8 + y0.val, by have := t.isLt; have := NA (F := F); omega⟩ : Fin 16) y1 := by
  obtain ⟨e0, e1⟩ := idxA_8 (F := F) t
  funext a
  apply Fin.ext
  match a with
  | ⟨0, _⟩ => show ((cfgA (F := F)).win 8).index t (0 : Fin 2) * 8 + 1 * y0.val = t.val / 25 * 8 + y0.val; rw [e0]; omega
  | ⟨1, _⟩ => show ((cfgA (F := F)).win 8).index t (1 : Fin 2) * 256 + 1 * y1.val = y1.val; rw [e1]; omega

section Row
variable {Ix : Type} [DecidableEq Ix] {Name : Type} [DecidableEq Name] {U : Type} [URA U] {Lvl : Type}
variable {c : Dev nD}

/-- After the region, row 8·cc of window 8's array is row 0 of what the body left in the window's staging block at
    the last point of run cc. -/
theorem arrAt8_row (dat : Dat τ (Elt Ideal) Ix Name U Lvl (cfgA (F := Ideal)) c) (cc : Fin 2) (j : Fin 256) :
    (dat.arrAt 8 (cfgA (F := Ideal)).N : S16x256.Idx → EReal) (ix2 (⟨8 * cc.val, by omega⟩ : Fin 16) j)
      = (dat.after 8 ⟨25 * cc.val + 24, (by omega : 25 * cc.val + 24 < 50).trans_eq NA.symm⟩ : S8x256.Idx → EReal)
          (ix2 (0 : Fin 8) j) := by
  have hf : ((cfgA (F := Ideal)).win 8).flush ⟨25 * cc.val + 24, (by omega : 25 * cc.val + 24 < 50).trans_eq NA.symm⟩ = true :=
    (flushA_8 _).mpr (by show (25 * cc.val + 24) % 25 = 24; omega)
  have h := dat.arrAt_emb_eq_flushed 8 (fun t t' => disj8 t t')
    ⟨25 * cc.val + 24, (by omega : 25 * cc.val + 24 < 50).trans_eq NA.symm⟩ hf (ix2 (0 : Fin 8) j)
  rw [emb8] at h
  refine Eq.trans ?_ (h.trans ?_)
  · congr 1
    funext a
    apply Fin.ext
    match a with
    | ⟨0, _⟩ => show 8 * cc.val = (25 * cc.val + 24) / 25 * 8 + 0; omega
    | ⟨1, _⟩ => rfl
  · rfl

end Row

/-! ## Window 9: the same -/

/-- Window 9's block index at point t: the run t / 25 on the row axis, 0 on the lane axis. -/
theorem idxA_9 : ∀ t : Fin (cfgA (F := F)).N, ((cfgA (F := F)).win 9).index t (0 : Fin 2) = t.val / 25
    ∧ ((cfgA (F := F)).win 9).index t (1 : Fin 2) = 0 :=
  (by decide +kernel : ∀ t : Fin grid0.N, ((cfg0 (adm0 (F := Ideal))).win 9).index t (0 : Fin 2) = t.val / 25
    ∧ ((cfg0 (adm0 (F := Ideal))).win 9).index t (1 : Fin 2) = 0)

set_option backward.isDefEq.respectTransparency.types false in
/-- An index of the array is in point t's block iff each coordinate is in the block's range on its axis. -/
theorem mem_blk9 (t : Fin (cfgA (F := F)).N) (i : S16x256.Idx) :
    i ∈ (((cfgA (F := F)).win 9).blk t).view.set ↔ ∀ a : Fin 2, ((cfgA (F := F)).win 9).index t a * S8x256.size a ≤ (i a).val
      ∧ (i a).val < ((cfgA (F := F)).win 9).index t a * S8x256.size a + S8x256.size a := by
  show i ∈ ((View.whole main_v107_2).slice (((cfgA (F := F)).win 9).rect t)).set ↔ _
  rw [View.set_slice_whole]
  exact Rect.mem_set_unit

/-- The blocks of two different points that write back lie in different halves of the array. -/
theorem disj9 (t t' : Fin (cfgA (F := F)).N) (hf : ((cfgA (F := F)).win 9).flush t = true)
    (hf' : ((cfgA (F := F)).win 9).flush t' = true) (hne : t ≠ t') :
    Disjoint (((cfgA (F := F)).win 9).blk t).view.set (((cfgA (F := F)).win 9).blk t').view.set := by
  refine Finset.disjoint_left.mpr fun (i : S16x256.Idx) hi hi' => ?_
  have b0 := (mem_blk9 t i).mp hi 0
  have b0' := (mem_blk9 t' i).mp hi' 0
  obtain ⟨e0, -⟩ := idxA_9 (F := F) t
  obtain ⟨e0', -⟩ := idxA_9 (F := F) t'
  rw [e0] at b0
  rw [e0'] at b0'
  have h1 := (flushA_9 t).mp hf
  have h2 := (flushA_9 t').mp hf'
  have hv : t.val ≠ t'.val := fun e => hne (Fin.ext e)
  have hN := NA (F := F)
  have := t.isLt
  have := t'.isLt
  change t.val / 25 * 8 ≤ (i 0).val ∧ (i 0).val < t.val / 25 * 8 + 8 at b0
  change t'.val / 25 * 8 ≤ (i 0).val ∧ (i 0).val < t'.val / 25 * 8 + 8 at b0'
  omega

/-- Entry (y0, y1) of point t's block is entry (8·(t / 25) + y0, y1) of the array. -/
theorem emb9 (t : Fin (cfgA (F := F)).N) (y0 : Fin 8) (y1 : Fin 256) :
    ((((cfgA (F := F)).win 9).blk t).view.emb (ix2 y0 y1) : S16x256.Idx)
      = ix2 (⟨t.val / 25 * 8 + y0.val, by have := t.isLt; have := NA (F := F); omega⟩ : Fin 16) y1 := by
  obtain ⟨e0, e1⟩ := idxA_9 (F := F) t
  funext a
  apply Fin.ext
  match a with
  | ⟨0, _⟩ => show ((cfgA (F := F)).win 9).index t (0 : Fin 2) * 8 + 1 * y0.val = t.val / 25 * 8 + y0.val; rw [e0]; omega
  | ⟨1, _⟩ => show ((cfgA (F := F)).win 9).index t (1 : Fin 2) * 256 + 1 * y1.val = y1.val; rw [e1]; omega

section Row
variable {Ix : Type} [DecidableEq Ix] {Name : Type} [DecidableEq Name] {U : Type} [URA U] {Lvl : Type}
variable {c : Dev nD}

/-- After the region, row 8·cc of window 9's array is row 0 of what the body left in the window's staging block at
    the last point of run cc. -/
theorem arrAt9_row (dat : Dat τ (Elt Ideal) Ix Name U Lvl (cfgA (F := Ideal)) c) (cc : Fin 2) (j : Fin 256) :
    (dat.arrAt 9 (cfgA (F := Ideal)).N : S16x256.Idx → EReal) (ix2 (⟨8 * cc.val, by omega⟩ : Fin 16) j)
      = (dat.after 9 ⟨25 * cc.val + 24, (by omega : 25 * cc.val + 24 < 50).trans_eq NA.symm⟩ : S8x256.Idx → EReal)
          (ix2 (0 : Fin 8) j) := by
  have hf : ((cfgA (F := Ideal)).win 9).flush ⟨25 * cc.val + 24, (by omega : 25 * cc.val + 24 < 50).trans_eq NA.symm⟩ = true :=
    (flushA_9 _).mpr (by show (25 * cc.val + 24) % 25 = 24; omega)
  have h := dat.arrAt_emb_eq_flushed 9 (fun t t' => disj9 t t')
    ⟨25 * cc.val + 24, (by omega : 25 * cc.val + 24 < 50).trans_eq NA.symm⟩ hf (ix2 (0 : Fin 8) j)
  rw [emb9] at h
  refine Eq.trans ?_ (h.trans ?_)
  · congr 1
    funext a
    apply Fin.ext
    match a with
    | ⟨0, _⟩ => show 8 * cc.val = (25 * cc.val + 24) / 25 * 8 + 0; omega
    | ⟨1, _⟩ => rfl
  · rfl

end Row

end Cert.KernelIdeal.Hand.Stats

end
-- ==== Proof.KiVal89.lean ====
/-
  The two statistics arrays after the first kernel region, as sums of the per-point totals.

  Within a run of 25 grid points (one core) the body keeps, in row 0 of a scratch block, the running column sums
  of the points' [4000,256] totals (and, in a second scratch, of their squares): zero before the run's first
  point, one more total at every point. At the run's last point the scratch is copied to the window's block and
  written back to rows 8·cc … 8·cc+7 of the [16,256] array. So row 8·cc of the array ends as the sum, over the
  run's 25 points and the 4000 rows of each total, of the totals (of their squares), lane by lane.
-/
import proofs.«416437_j22935125360693_3_alg».proof.Proof.KiDat0
import proofs.«416437_j22935125360693_3_alg».proof.Proof.KiVal89W

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open Idealize.ShloMosaic.Pipeline (Dat Cfg Window)
open scoped BigOperators

/-! ## One step of a running sum, at row 0 -/

/-- Entry (0, j) of the row-0 rectangle of an [8,256] block is entry (0, j) of the block. -/
theorem rRow0_emb (j : Fin 256) : (rRow0).emb (ix2 (0 : Fin 1) j) = ix2 (0 : Fin 8) j := by
  funext a
  apply Fin.ext
  match a with
  | ⟨0, _⟩ => rfl
  | ⟨1, _⟩ => show 0 + 1 * j.val = j.val; omega

/-- One step of the column-sum scratch at row 0: the row before plus the total's column sums. -/
theorem accStep0_row0 (prev : Vec Ideal S8x256 .f32) (tt : Vec Ideal S4000x256 .f32) (j : Fin 256) :
    accStep0 prev tt (ix2 (0 : Fin 8) j) = prev (ix2 (0 : Fin 8) j) + ∑ q : Fin 4000, tt (ix2 q j) := by
  unfold accStep0
  rw [← rRow0_emb j, View.canon_cons_emb]
  refine (Stats.pay1_apply tt _ j).trans ?_
  rw [Stats.pay6_apply]
  show prev (rRow0.emb (ix2 (0 : Fin 1) j)) + _ = _
  rfl

/-- One step of the sum-of-squares scratch at row 0: the row before plus the column sums of the squared total. -/
theorem accStep1_row0 (prev : Vec Ideal S8x256 .f32) (tt : Vec Ideal S4000x256 .f32) (j : Fin 256) :
    accStep1 prev tt (ix2 (0 : Fin 8) j)
      = prev (ix2 (0 : Fin 8) j) + ∑ q : Fin 4000, tt (ix2 q j) * tt (ix2 q j) := by
  unfold accStep1
  rw [← rRow0_emb j, View.canon_cons_emb]
  refine (Stats.pay2_apply tt _ j).trans ?_
  show prev (rRow0.emb (ix2 (0 : Fin 1) j)) + _ = _
  rfl

namespace Stats

/-! ## A run of 25 points -/

/-- Row 0 of the column-sum scratch after the (k+1)-th point of the run that starts at point b: the column sums of
    the totals of those k+1 points. (The scratch is zeroed at the run's first point, so nothing before the run
    enters.) -/
theorem acc0_run (N : ℕ) (T : ℕ → Vec Ideal S4000x256 .f32) (s : ℕ → Vec Ideal S8x256 .f32)
    (hreset : ∀ n, n < N → n % 25 = 0 → s n = accStep0 (k0_pay3 (F := Ideal)) (T n))
    (hstep : ∀ n, n < N → n % 25 ≠ 0 → s n = accStep0 (s (n - 1)) (T n))
    (j : Fin 256) (b : ℕ) (hb : b % 25 = 0) :
    ∀ k, k < 25 → b + k < N →
      s (b + k) (ix2 (0 : Fin 8) j) = ∑ i ∈ Finset.range (k + 1), ∑ q : Fin 4000, T (b + i) (ix2 q j)
  | 0, _, hN => by
    rw [hreset (b + 0) hN (by omega), accStep0_row0, pay3_apply, zero_add, Finset.sum_range_one]
  | k + 1, hk, hN => by
    have ih := acc0_run N T s hreset hstep j b hb k (by omega) (by omega)
    rw [hstep (b + (k + 1)) hN (by omega), accStep0_row0, show b + (k + 1) - 1 = b + k by omega, ih,
      Finset.sum_range_succ _ (k + 1)]

/-- The same for the sum-of-squares scratch. -/
theorem acc1_run (N : ℕ) (T : ℕ → Vec Ideal S4000x256 .f32) (s : ℕ → Vec Ideal S8x256 .f32)
    (hreset : ∀ n, n < N → n % 25 = 0 → s n = accStep1 (k0_pay4 (F := Ideal)) (T n))
    (hstep : ∀ n, n < N → n % 25 ≠ 0 → s n = accStep1 (s (n - 1)) (T n))
    (j : Fin 256) (b : ℕ) (hb : b % 25 = 0) :
    ∀ k, k < 25 → b + k < N →
      s (b + k) (ix2 (0 : Fin 8) j)
        = ∑ i ∈ Finset.range (k + 1), ∑ q : Fin 4000, T (b + i) (ix2 q j) * T (b + i) (ix2 q j)
  | 0, _, hN => by
    rw [hreset (b + 0) hN (by omega), accStep1_row0, pay4_apply, zero_add, Finset.sum_range_one]
  | k + 1, hk, hN => by
    have ih := acc1_run N T s hreset hstep j b hb k (by omega) (by omega)
    rw [hstep (b + (k + 1)) hN (by omega), accStep1_row0, show b + (k + 1) - 1 = b + k by omega, ih,
      Finset.sum_range_succ _ (k + 1)]

/-! ## The region's totals and scratch contents, indexed by the point's number -/

section AtV
variable (V : (c : Dev nD) → (b : Ref sig .tc) → Buf (Elt Ideal) ((c : Thread nD τ).loc b)) (c : Dev nD)

/-- The total of point n (zero past the grid). -/
def totN (n : ℕ) : Vec Ideal S4000x256 .f32 :=
  if h : n < (cfgA (F := Ideal)).N then totAt0 V c ⟨n, h⟩ else fun _ => 0
/-- The column-sum scratch after point n (zero past the grid). -/
def sumN (n : ℕ) : Vec Ideal S8x256 .f32 :=
  if h : n < (cfgA (F := Ideal)).N then (sAt0 V c n h).1 else fun _ => 0
/-- The sum-of-squares scratch after point n (zero past the grid). -/
def sqN (n : ℕ) : Vec Ideal S8x256 .f32 :=
  if h : n < (cfgA (F := Ideal)).N then (sAt0 V c n h).2 else fun _ => 0

theorem sumN_reset (n : ℕ) (hn : n < (cfgA (F := Ideal)).N) (h0 : n % 25 = 0) :
    sumN V c n = accStep0 (k0_pay3 (F := Ideal)) (totN V c n) := by
  unfold sumN totN
  simp only [dif_pos hn]
  exact congrArg Prod.fst (sAt0_reset V c ⟨n, hn⟩ h0)

theorem sumN_step (n : ℕ) (hn : n < (cfgA (F := Ideal)).N) (h0 : n % 25 ≠ 0) :
    sumN V c n = accStep0 (sumN V c (n - 1)) (totN V c n) := by
  have hn1 : n - 1 < (cfgA (F := Ideal)).N := by omega
  unfold sumN totN
  simp only [dif_pos hn, dif_pos hn1]
  exact congrArg Prod.fst (sAt0_step V c ⟨n, hn⟩ h0)

theorem sqN_reset (n : ℕ) (hn : n < (cfgA (F := Ideal)).N) (h0 : n % 25 = 0) :
    sqN V c n = accStep1 (k0_pay4 (F := Ideal)) (totN V c n) := by
  unfold sqN totN
  simp only [dif_pos hn]
  exact congrArg Prod.snd (sAt0_reset V c ⟨n, hn⟩ h0)

theorem sqN_step (n : ℕ) (hn : n < (cfgA (F := Ideal)).N) (h0 : n % 25 ≠ 0) :
    sqN V c n = accStep1 (sqN V c (n - 1)) (totN V c n) := by
  have hn1 : n - 1 < (cfgA (F := Ideal)).N := by omega
  unfold sqN totN
  simp only [dif_pos hn, dif_pos hn1]
  exact congrArg Prod.snd (sAt0_step V c ⟨n, hn⟩ h0)

end AtV

end Stats

/-! ## The two arrays after the region -/

section Arrays
variable (V : (c : Dev nD) → (b : Ref sig .tc) → Buf (Elt Ideal) ((c : Thread nD τ).loc b))

/-- Row 8·cc of the column-sum array after the region: the sum of the totals of core cc's 25 points over their
    4000 rows, lane by lane. -/
theorem sum_arr (c : Dev nD) (cc : Fin 2) (j : Fin 256) :
    ((dat0 (F := Ideal) V c).arrAt 8 (cfgA (F := Ideal)).N : S16x256.Idx → EReal) (ix2 (⟨8 * cc.val, by omega⟩ : Fin 16) j)
      = ∑ t' : Fin 25, ∑ q : Fin 4000,
          totAt0 (F := Ideal) V c ⟨25 * cc.val + t'.val, (by omega : 25 * cc.val + t'.val < 50).trans_eq NA.symm⟩ (ix2 q j) := by
  have hN := NA (F := Ideal)
  have hlt : 25 * cc.val + 24 < (cfgA (F := Ideal)).N := by omega
  refine (Stats.arrAt8_row (dat0 V c) cc j).trans ?_
  rw [after0_8]
  have h : Stats.sumN V c (25 * cc.val + 24) (ix2 (0 : Fin 8) j)
      = ∑ i ∈ Finset.range 25, ∑ q : Fin 4000, Stats.totN V c (25 * cc.val + i) (ix2 q j) :=
    Stats.acc0_run (cfgA (F := Ideal)).N (Stats.totN V c) (Stats.sumN V c) (Stats.sumN_reset V c) (Stats.sumN_step V c)
      j (25 * cc.val) (by omega) 24 (by omega) hlt
  rw [Finset.sum_range] at h
  refine Eq.trans ?_ (h.trans ?_)
  · show _ = Stats.sumN V c (25 * cc.val + 24) (ix2 (0 : Fin 8) j)
    unfold Stats.sumN
    rw [dif_pos hlt]
  · refine Finset.sum_congr rfl fun i _ => Finset.sum_congr rfl fun q _ => ?_
    have hi : 25 * cc.val + i.val < (cfgA (F := Ideal)).N := by omega
    unfold Stats.totN
    rw [dif_pos hi]

/-- Row 8·cc of the sum-of-squares array after the region: the sum of the squared totals of core cc's 25 points
    over their 4000 rows, lane by lane. -/
theorem sumsq_arr (c : Dev nD) (cc : Fin 2) (j : Fin 256) :
    ((dat0 (F := Ideal) V c).arrAt 9 (cfgA (F := Ideal)).N : S16x256.Idx → EReal) (ix2 (⟨8 * cc.val, by omega⟩ : Fin 16) j)
      = ∑ t' : Fin 25, ∑ q : Fin 4000,
          totAt0 (F := Ideal) V c ⟨25 * cc.val + t'.val, (by omega : 25 * cc.val + t'.val < 50).trans_eq NA.symm⟩ (ix2 q j)
            * totAt0 (F := Ideal) V c ⟨25 * cc.val + t'.val, (by omega : 25 * cc.val + t'.val < 50).trans_eq NA.symm⟩ (ix2 q j) := by
  have hN := NA (F := Ideal)
  have hlt : 25 * cc.val + 24 < (cfgA (F := Ideal)).N := by omega
  refine (Stats.arrAt9_row (dat0 V c) cc j).trans ?_
  rw [after0_9]
  have h : Stats.sqN V c (25 * cc.val + 24) (ix2 (0 : Fin 8) j)
      = ∑ i ∈ Finset.range 25, ∑ q : Fin 4000,
          Stats.totN V c (25 * cc.val + i) (ix2 q j) * Stats.totN V c (25 * cc.val + i) (ix2 q j) :=
    Stats.acc1_run (cfgA (F := Ideal)).N (Stats.totN V c) (Stats.sqN V c) (Stats.sqN_reset V c) (Stats.sqN_step V c)
      j (25 * cc.val) (by omega) 24 (by omega) hlt
  rw [Finset.sum_range] at h
  refine Eq.trans ?_ (h.trans ?_)
  · show _ = Stats.sqN V c (25 * cc.val + 24) (ix2 (0 : Fin 8) j)
    unfold Stats.sqN
    rw [dif_pos hlt]
  · refine Finset.sum_congr rfl fun i _ => Finset.sum_congr rfl fun q _ => ?_
    have hi : 25 * cc.val + i.val < (cfgA (F := Ideal)).N := by omega
    unfold Stats.totN
    rw [dif_pos hi]

end Arrays

end Cert.KernelIdeal.Hand

end
-- ==== Proof.Spec.lean ====
/-
  The index-level specification of one graph-convolution layer followed by a batch normalisation, over plain
  functions into the extended reals: what the reference computes (totR, varR, outR) and what the hand-scheduled
  kernel computes (totK, varK, outK), element by element, with no program and no array shape in sight.
  Also the counting lemmas by which a sum over all rows is read block by block.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic

/-! ## The degree group of a row -/

/-- The degree group of row r: the rows come sorted by degree, in five runs of 20000, 60000, 60000, 40000, 20000. -/
def grp (r : Fin 200000) : Fin 5 :=
  if r.val < 20000 then 0 else if r.val < 80000 then 1 else if r.val < 140000 then 2 else if r.val < 180000 then 3 else 4

/-- The degree group of a block of 4000 rows: the runs are 5, 15, 15, 10 and 5 blocks long. -/
def grpB (t : Fin 50) : Fin 5 :=
  if t.val < 5 then 0 else if t.val < 20 then 1 else if t.val < 35 then 2 else if t.val < 45 then 3 else 4

/-- Row q of block t lies below 200000. -/
theorem blk_lt (t : Fin 50) (q : Fin 4000) : 4000 * t.val + q.val < 200000 := by
  have := t.isLt; have := q.isLt; omega

/-- Every row of a block has the block's degree group. -/
theorem grp_block (t : Fin 50) (q : Fin 4000) (h : 4000 * t.val + q.val < 200000) : grp ⟨4000 * t.val + q.val, h⟩ = grpB t := by
  have := q.isLt
  unfold grp grpB
  simp only
  split_ifs <;> first | rfl | omega

/-- The group's number, as the chain of comparisons. -/
theorem grp_val (r : Fin 200000) : (grp r).val =
    if r.val < 20000 then 0 else if r.val < 80000 then 1 else if r.val < 140000 then 2 else if r.val < 180000 then 3 else 4 := by
  unfold grp
  split_ifs <;> rfl

/-- The five runs, each by its range of rows. -/
theorem grp_eq_0 (r : Fin 200000) (h : r.val < 20000) : grp r = 0 := by
  unfold grp; rw [if_pos h]
theorem grp_eq_1 (r : Fin 200000) (h : 20000 ≤ r.val) (h' : r.val < 80000) : grp r = 1 := by
  unfold grp; rw [if_neg (by omega), if_pos h']
theorem grp_eq_2 (r : Fin 200000) (h : 80000 ≤ r.val) (h' : r.val < 140000) : grp r = 2 := by
  unfold grp; rw [if_neg (by omega), if_neg (by omega), if_pos h']
theorem grp_eq_3 (r : Fin 200000) (h : 140000 ≤ r.val) (h' : r.val < 180000) : grp r = 3 := by
  unfold grp; rw [if_neg (by omega), if_neg (by omega), if_neg (by omega), if_pos h']
theorem grp_eq_4 (r : Fin 200000) (h : 180000 ≤ r.val) : grp r = 4 := by
  unfold grp; rw [if_neg (by omega), if_neg (by omega), if_neg (by omega), if_neg (by omega)]

/-! ## The layer -/

/-- The neighbour sums of the atoms (256 columns) and of the bonds (6 columns) side by side: 262 columns. -/
def cat (A : Fin 200000 → Fin 256 → EReal) (B : Fin 200000 → Fin 6 → EReal) (r : Fin 200000) (k : Fin 262) : EReal :=
  if h : k.val < 256 then A r ⟨k.val, h⟩ else B r ⟨k.val - 256, by have := k.isLt; omega⟩

theorem cat_castAdd (A : Fin 200000 → Fin 256 → EReal) (B : Fin 200000 → Fin 6 → EReal) (r : Fin 200000) (k : Fin 256) :
    cat A B r (Fin.castAdd 6 k) = A r k := by
  unfold cat
  rw [dif_pos (by simp)]
  rfl

theorem cat_natAdd (A : Fin 200000 → Fin 256 → EReal) (B : Fin 200000 → Fin 6 → EReal) (r : Fin 200000) (k : Fin 6) :
    cat A B r (Fin.natAdd 256 k) = B r k := by
  unfold cat
  rw [dif_neg (by simp)]
  congr 1
  exact Fin.ext (by simp)

/-- The reference's activations: the 262 concatenated columns against the row's degree weights, plus the row's own
    features against the self weights, plus the bias, cut at zero. -/
def totR (x A : Fin 200000 → Fin 256 → EReal) (B : Fin 200000 → Fin 6 → EReal) (Ws : Fin 256 → Fin 256 → EReal)
    (bias : Fin 256 → EReal) (W : Fin 5 → Fin 262 → Fin 256 → EReal) (r : Fin 200000) (j : Fin 256) : EReal :=
  max (((∑ k : Fin 262, cat A B r k * W (grp r) k j) + (∑ k : Fin 256, x r k * Ws k j)) + bias j) 0

/-- The kernel's activations: the atom columns and the bond columns against the two halves of the degree weights. -/
def totK (x A : Fin 200000 → Fin 256 → EReal) (B : Fin 200000 → Fin 6 → EReal) (Ws : Fin 256 → Fin 256 → EReal)
    (bias : Fin 256 → EReal) (W : Fin 5 → Fin 262 → Fin 256 → EReal) (r : Fin 200000) (j : Fin 256) : EReal :=
  max ((((∑ k : Fin 256, A r k * W (grp r) (Fin.castAdd 6 k) j) + (∑ k : Fin 6, B r k * W (grp r) (Fin.natAdd 256 k) j))
    + (∑ k : Fin 256, x r k * Ws k j)) + bias j) 0

/-! ## The normalisation -/

/-- The number of rows, as the single-precision word both programs spell. -/
def c200000 : EReal := Ideal.ofBits .f32 0x48435000#32

/-- The small constant under the square root, as the single-precision word both programs spell. -/
def eps : EReal := Ideal.ofBits .f32 0x3727C5AC#32

/-- A column's mean. -/
def mean (T : Fin 200000 → Fin 256 → EReal) (j : Fin 256) : EReal := Ideal.div (∑ r, T r j) c200000

/-- The reference's variance: the mean of the squared deviations. -/
def varR (T : Fin 200000 → Fin 256 → EReal) (j : Fin 256) : EReal :=
  Ideal.div (∑ r, (T r j - mean T j) * (T r j - mean T j)) c200000

/-- The kernel's variance: the mean of the squares less the square of the mean, cut at zero. -/
def varK (T : Fin 200000 → Fin 256 → EReal) (j : Fin 256) : EReal :=
  max (Ideal.div (∑ r, T r j * T r j) c200000 - mean T j * mean T j) 0

/-- The reference's result: the deviation over the standard deviation, scaled and shifted. -/
def outR (T : Fin 200000 → Fin 256 → EReal) (bnw bnb : Fin 256 → EReal) (r : Fin 200000) (j : Fin 256) : EReal :=
  Ideal.div (T r j - mean T j) (Ideal.sqrt (varR T j + eps)) * bnw j + bnb j

/-- The kernel's result: the deviation times the reciprocal square root, scaled and shifted. -/
def outK (T : Fin 200000 → Fin 256 → EReal) (bnw bnb : Fin 256 → EReal) (r : Fin 200000) (j : Fin 256) : EReal :=
  (T r j - mean T j) * Ideal.rsqrt (max (varK T j) 0 + eps) * bnw j + bnb j

/-! ## Counting: a sum over all rows, block by block -/

section Counting

variable {M : Type*} [AddCommMonoid M]

/-- Index b of block a, in blocks of n, lies below m · n. -/
theorem mul_add_lt {m n : ℕ} (a : Fin m) (b : Fin n) : n * a.val + b.val < m * n := by
  have ha := a.isLt; have hb := b.isLt
  calc n * a.val + b.val < n * a.val + n := by omega
    _ = n * (a.val + 1) := by ring
    _ ≤ n * m := Nat.mul_le_mul_left _ ha
    _ = m * n := Nat.mul_comm _ _

/-- A sum over m blocks of n is the sum over all m · n indices. -/
theorem sum_mul_add (m n N : ℕ) (hN : m * n = N) (f : Fin N → M) :
    ∑ a : Fin m, ∑ b : Fin n, f ⟨n * a.val + b.val, hN ▸ mul_add_lt a b⟩ = ∑ e : Fin N, f e := by
  subst hN
  rw [← Fintype.sum_prod_type' (fun a b => f ⟨n * a.val + b.val, mul_add_lt a b⟩), ← Equiv.sum_comp finProdFinEquiv f]
  refine Finset.sum_congr rfl (fun p _ => ?_)
  congr 1
  exact Fin.ext (by simp [finProdFinEquiv, Nat.add_comm])

/-- The rows, read in 50 blocks of 4000. -/
theorem sum_blocks (f : Fin 200000 → M) :
    ∑ t : Fin 50, ∑ q : Fin 4000, f ⟨4000 * t.val + q.val, blk_lt t q⟩ = ∑ r, f r :=
  sum_mul_add 50 4000 200000 rfl f

/-- The 50 blocks, read as two runs of 25. -/
theorem sum_cores (g : Fin 50 → M) :
    (∑ j : Fin 25, g ⟨j.val, by have := j.isLt; omega⟩) + (∑ j : Fin 25, g ⟨25 + j.val, by have := j.isLt; omega⟩) = ∑ t, g t := by
  have h := sum_mul_add 2 25 50 rfl g
  rw [Fin.sum_univ_two] at h
  rw [← h]
  congr 1

/-- A running total started at zero and fed c 0, c 1, … is, after n steps, the sum of the first n terms. -/
theorem run_eq_sum (c S : ℕ → M) (h0 : S 0 = 0) (hs : ∀ n, S (n + 1) = S n + c n) (n : ℕ) :
    S n = ∑ j : Fin n, c j.val := by
  induction n with
  | zero => simpa using h0
  | succ n ih => rw [hs, ih, Fin.sum_univ_castSucc]; rfl

/-- The same over a bounded run: the steps are only known below N. -/
theorem run_eq_sum_of_lt (N : ℕ) (c S : ℕ → M) (h0 : S 0 = 0) (hs : ∀ n, n < N → S (n + 1) = S n + c n) (n : ℕ) (hn : n ≤ N) :
    S n = ∑ j : Fin n, c j.val := by
  induction n with
  | zero => simpa using h0
  | succ n ih => rw [hs n hn, ih (Nat.le_of_succ_le hn), Fin.sum_univ_castSucc]; rfl

end Counting

end Cert.Spec

end
-- ==== Proof.RefIsG.lean ====
/-
  The reference's result is the specification: the reference program's last stage, read at row r and column j, is
  outR (totR …) of Spec.lean, where the ten neighbour-sum stages stay as they are (arrays A1 … A5, B1 … B5 given by the
  reference's own stage terms) and enter only through their row-concatenations Acat and Bcat.
-/
import proofs.«416437_j22935125360693_3_alg».proof.Proof.RefGen
import proofs.«416437_j22935125360693_3_alg».proof.Proof.Spec

noncomputable section

open scoped BigOperators

namespace Cert.ReferenceIdeal.RefValue

open Cert.ReferenceIdeal Idealize.ShloMosaic Idealize.ShloMosaic.ValueIdx

/-- A single-precision array of shape S over the extended reals. -/
abbrev ArrF (S : Shape) : Type := (⟨S, .f32⟩ : BufTy).Contents (Elt Ideal)
/-- A 32-bit integer array of shape S. -/
abbrev ArrI (S : Shape) : Type := (⟨S, .i32⟩ : BufTy).Contents (Elt Ideal)

/-! ## Joined arrays read at an index -/

/-- A block of 256 columns beside a block of 6 columns, 20000 rows, read at row r and column k: the left block where
    k is below 256, the right block at k - 256 otherwise. -/
theorem cols_20000 {α : Type} (x₁ : (⟨2, ![20000, 256]⟩ : Shape).Idx → α) (x₂ : (⟨2, ![20000, 6]⟩ : Shape).Idx → α)
    (h : Shape.Concatenates [(⟨2, ![20000, 256]⟩ : Shape), ⟨2, ![20000, 6]⟩] ⟨2, ![20000, 262]⟩ 1)
    (r : Fin 20000) (k : Fin 262) :
    concatenate ⟨2, ![20000, 262]⟩ 1 [⟨(⟨2, ![20000, 256]⟩ : Shape), x₁⟩, ⟨(⟨2, ![20000, 6]⟩ : Shape), x₂⟩] h (ix2 r k)
      = if hk : k.val < 256 then x₁ (ix2 r ⟨k.val, hk⟩)
        else x₂ (ix2 r ⟨k.val - 256, by have := k.isLt; omega⟩) := by
  split
  · next hk =>
    exact concatenate_pair_apply_left (1 : Fin 2) x₁ x₂ h (ix2 r k) rfl (ix2 r ⟨k.val, hk⟩)
      (fun b => match b with | ⟨0, _⟩ => rfl | ⟨1, _⟩ => rfl)
  · next hk =>
    exact concatenate_pair_apply_right (1 : Fin 2) x₁ x₂ h (ix2 r k) rfl rfl
      (ix2 r ⟨k.val - 256, by have := k.isLt; omega⟩)
      (fun b hb => match b, hb with | ⟨0, _⟩, _ => rfl | ⟨1, _⟩, hb => absurd rfl hb)
      (by show (k.val - 256) + 256 = k.val; omega)

/-- A block of 256 columns beside a block of 6 columns, 60000 rows, read at row r and column k: the left block where
    k is below 256, the right block at k - 256 otherwise. -/
theorem cols_60000 {α : Type} (x₁ : (⟨2, ![60000, 256]⟩ : Shape).Idx → α) (x₂ : (⟨2, ![60000, 6]⟩ : Shape).Idx → α)
    (h : Shape.Concatenates [(⟨2, ![60000, 256]⟩ : Shape), ⟨2, ![60000, 6]⟩] ⟨2, ![60000, 262]⟩ 1)
    (r : Fin 60000) (k : Fin 262) :
    concatenate ⟨2, ![60000, 262]⟩ 1 [⟨(⟨2, ![60000, 256]⟩ : Shape), x₁⟩, ⟨(⟨2, ![60000, 6]⟩ : Shape), x₂⟩] h (ix2 r k)
      = if hk : k.val < 256 then x₁ (ix2 r ⟨k.val, hk⟩)
        else x₂ (ix2 r ⟨k.val - 256, by have := k.isLt; omega⟩) := by
  split
  · next hk =>
    exact concatenate_pair_apply_left (1 : Fin 2) x₁ x₂ h (ix2 r k) rfl (ix2 r ⟨k.val, hk⟩)
      (fun b => match b with | ⟨0, _⟩ => rfl | ⟨1, _⟩ => rfl)
  · next hk =>
    exact concatenate_pair_apply_right (1 : Fin 2) x₁ x₂ h (ix2 r k) rfl rfl
      (ix2 r ⟨k.val - 256, by have := k.isLt; omega⟩)
      (fun b hb => match b, hb with | ⟨0, _⟩, _ => rfl | ⟨1, _⟩, hb => absurd rfl hb)
      (by show (k.val - 256) + 256 = k.val; omega)

/-- A block of 256 columns beside a block of 6 columns, 40000 rows, read at row r and column k: the left block where
    k is below 256, the right block at k - 256 otherwise. -/
theorem cols_40000 {α : Type} (x₁ : (⟨2, ![40000, 256]⟩ : Shape).Idx → α) (x₂ : (⟨2, ![40000, 6]⟩ : Shape).Idx → α)
    (h : Shape.Concatenates [(⟨2, ![40000, 256]⟩ : Shape), ⟨2, ![40000, 6]⟩] ⟨2, ![40000, 262]⟩ 1)
    (r : Fin 40000) (k : Fin 262) :
    concatenate ⟨2, ![40000, 262]⟩ 1 [⟨(⟨2, ![40000, 256]⟩ : Shape), x₁⟩, ⟨(⟨2, ![40000, 6]⟩ : Shape), x₂⟩] h (ix2 r k)
      = if hk : k.val < 256 then x₁ (ix2 r ⟨k.val, hk⟩)
        else x₂ (ix2 r ⟨k.val - 256, by have := k.isLt; omega⟩) := by
  split
  · next hk =>
    exact concatenate_pair_apply_left (1 : Fin 2) x₁ x₂ h (ix2 r k) rfl (ix2 r ⟨k.val, hk⟩)
      (fun b => match b with | ⟨0, _⟩ => rfl | ⟨1, _⟩ => rfl)
  · next hk =>
    exact concatenate_pair_apply_right (1 : Fin 2) x₁ x₂ h (ix2 r k) rfl rfl
      (ix2 r ⟨k.val - 256, by have := k.isLt; omega⟩)
      (fun b hb => match b, hb with | ⟨0, _⟩, _ => rfl | ⟨1, _⟩, hb => absurd rfl hb)
      (by show (k.val - 256) + 256 = k.val; omega)

/-- Five blocks of 20000, 60000, 60000, 40000 and 20000 rows laid one under the other, read at row r and column j:
    the block whose run of rows holds r, at r less the rows above that block. -/
theorem rows5 {α : Type} (x₁ : (⟨2, ![20000, 256]⟩ : Shape).Idx → α) (x₂ : (⟨2, ![60000, 256]⟩ : Shape).Idx → α)
    (x₃ : (⟨2, ![60000, 256]⟩ : Shape).Idx → α) (x₄ : (⟨2, ![40000, 256]⟩ : Shape).Idx → α)
    (x₅ : (⟨2, ![20000, 256]⟩ : Shape).Idx → α)
    (h : Shape.Concatenates [(⟨2, ![20000, 256]⟩ : Shape), ⟨2, ![60000, 256]⟩, ⟨2, ![60000, 256]⟩, ⟨2, ![40000, 256]⟩, ⟨2, ![20000, 256]⟩] ⟨2, ![200000, 256]⟩ 0)
    (r : Fin 200000) (j : Fin 256) :
    concatenate ⟨2, ![200000, 256]⟩ 0
        [⟨(⟨2, ![20000, 256]⟩ : Shape), x₁⟩, ⟨(⟨2, ![60000, 256]⟩ : Shape), x₂⟩, ⟨(⟨2, ![60000, 256]⟩ : Shape), x₃⟩,
         ⟨(⟨2, ![40000, 256]⟩ : Shape), x₄⟩, ⟨(⟨2, ![20000, 256]⟩ : Shape), x₅⟩] h (ix2 r j)
      = if h1 : r.val < 20000 then x₁ (ix2 ⟨r.val, h1⟩ j)
        else if h2 : r.val < 80000 then x₂ (ix2 ⟨r.val - 20000, by omega⟩ j)
        else if h3 : r.val < 140000 then x₃ (ix2 ⟨r.val - 80000, by omega⟩ j)
        else if h4 : r.val < 180000 then x₄ (ix2 ⟨r.val - 140000, by omega⟩ j)
        else x₅ (ix2 ⟨r.val - 180000, by have := r.isLt; omega⟩ j) := by
  have hr := r.isLt
  have h' : Shape.Concatenates (List.map (·.1) ([⟨(⟨2, ![20000, 256]⟩ : Shape), x₁⟩, ⟨(⟨2, ![60000, 256]⟩ : Shape), x₂⟩, ⟨(⟨2, ![60000, 256]⟩ : Shape), x₃⟩, ⟨(⟨2, ![40000, 256]⟩ : Shape), x₄⟩, ⟨(⟨2, ![20000, 256]⟩ : Shape), x₅⟩] : List ((s : Shape) × (s.Idx → α)))) ⟨2, ![200000, 256]⟩ 0 := h
  split
  · next h1 =>
    exact concatenate_apply_piece (t := ⟨2, ![200000, 256]⟩) (0 : Fin 2) _ h' (ix2 r j) 0 (by simp) _ x₁ rfl rfl 0 (by simp) (ix2 ⟨r.val, by omega⟩ j) (fun b hb => match b, hb with | ⟨0, _⟩, hb => absurd rfl hb | ⟨1, _⟩, _ => rfl) (by show 0 + (r.val) = r.val; omega)
  · next h1 =>
    split
    · next h2 =>
      exact concatenate_apply_piece (t := ⟨2, ![200000, 256]⟩) (0 : Fin 2) _ h' (ix2 r j) 1 (by simp) _ x₂ rfl rfl 20000 (by simp) (ix2 ⟨r.val - 20000, by omega⟩ j) (fun b hb => match b, hb with | ⟨0, _⟩, hb => absurd rfl hb | ⟨1, _⟩, _ => rfl) (by show 20000 + (r.val - 20000) = r.val; omega)
    · next h2 =>
      split
      · next h3 =>
        exact concatenate_apply_piece (t := ⟨2, ![200000, 256]⟩) (0 : Fin 2) _ h' (ix2 r j) 2 (by simp) _ x₃ rfl rfl 80000 (by simp) (ix2 ⟨r.val - 80000, by omega⟩ j) (fun b hb => match b, hb with | ⟨0, _⟩, hb => absurd rfl hb | ⟨1, _⟩, _ => rfl) (by show 80000 + (r.val - 80000) = r.val; omega)
      · next h3 =>
        split
        · next h4 =>
          exact concatenate_apply_piece (t := ⟨2, ![200000, 256]⟩) (0 : Fin 2) _ h' (ix2 r j) 3 (by simp) _ x₄ rfl rfl 140000 (by simp) (ix2 ⟨r.val - 140000, by omega⟩ j) (fun b hb => match b, hb with | ⟨0, _⟩, hb => absurd rfl hb | ⟨1, _⟩, _ => rfl) (by show 140000 + (r.val - 140000) = r.val; omega)
        · next h4 =>
          exact concatenate_apply_piece (t := ⟨2, ![200000, 256]⟩) (0 : Fin 2) _ h' (ix2 r j) 4 (by simp) _ x₅ rfl rfl 180000 (by simp) (ix2 ⟨r.val - 180000, by omega⟩ j) (fun b hb => match b, hb with | ⟨0, _⟩, hb => absurd rfl hb | ⟨1, _⟩, _ => rfl) (by show 180000 + (r.val - 180000) = r.val; omega)

/-! ## The ten neighbour-sum stages and their row-concatenations -/

/-- The atoms' neighbour sums of the rows of degree 1: [20000, 256]. -/
def A1 (a0 : ArrF S200000x256) (a2 : ArrI S20000x1) : ArrF S20000x256 := Read.val_main_v8 (F := Ideal) a0 a2
/-- The bonds' neighbour sums of the rows of degree 1: [20000, 6]. -/
def B1 (a1 : ArrF S260000x6) (a7 : ArrI S20000x1) : ArrF S20000x6 := Read.val_main_v16 (F := Ideal) a1 a7
/-- The atoms' neighbour sums of the rows of degree 2: [60000, 256]. -/
def A2 (a0 : ArrF S200000x256) (a3 : ArrI S60000x2) : ArrF S60000x256 := Read.val_main_v26 (F := Ideal) a0 a3
/-- The bonds' neighbour sums of the rows of degree 2: [60000, 6]. -/
def B2 (a1 : ArrF S260000x6) (a8 : ArrI S60000x2) : ArrF S60000x6 := Read.val_main_v34 (F := Ideal) a1 a8
/-- The atoms' neighbour sums of the rows of degree 3: [60000, 256]. -/
def A3 (a0 : ArrF S200000x256) (a4 : ArrI S60000x3) : ArrF S60000x256 := Read.val_main_v44 (F := Ideal) a0 a4
/-- The bonds' neighbour sums of the rows of degree 3: [60000, 6]. -/
def B3 (a1 : ArrF S260000x6) (a9 : ArrI S60000x3) : ArrF S60000x6 := Read.val_main_v52 (F := Ideal) a1 a9
/-- The atoms' neighbour sums of the rows of degree 4: [40000, 256]. -/
def A4 (a0 : ArrF S200000x256) (a5 : ArrI S40000x4) : ArrF S40000x256 := Read.val_main_v62 (F := Ideal) a0 a5
/-- The bonds' neighbour sums of the rows of degree 4: [40000, 6]. -/
def B4 (a1 : ArrF S260000x6) (a10 : ArrI S40000x4) : ArrF S40000x6 := Read.val_main_v70 (F := Ideal) a1 a10
/-- The atoms' neighbour sums of the rows of degree 5: [20000, 256]. -/
def A5 (a0 : ArrF S200000x256) (a6 : ArrI S20000x5) : ArrF S20000x256 := Read.val_main_v80 (F := Ideal) a0 a6
/-- The bonds' neighbour sums of the rows of degree 5: [20000, 6]. -/
def B5 (a1 : ArrF S260000x6) (a11 : ArrI S20000x5) : ArrF S20000x6 := Read.val_main_v88 (F := Ideal) a1 a11

/-- The atoms' neighbour sums of all rows: the five runs one under the other, read at row r. -/
def Acat (a0 : ArrF S200000x256) (a2 : ArrI S20000x1) (a3 : ArrI S60000x2) (a4 : ArrI S60000x3) (a5 : ArrI S40000x4) (a6 : ArrI S20000x5)
    (r : Fin 200000) (k : Fin 256) : EReal :=
  if h1 : r.val < 20000 then A1 a0 a2 (ix2 ⟨r.val, h1⟩ k)
  else if h2 : r.val < 80000 then A2 a0 a3 (ix2 ⟨r.val - 20000, by omega⟩ k)
  else if h3 : r.val < 140000 then A3 a0 a4 (ix2 ⟨r.val - 80000, by omega⟩ k)
  else if h4 : r.val < 180000 then A4 a0 a5 (ix2 ⟨r.val - 140000, by omega⟩ k)
  else A5 a0 a6 (ix2 ⟨r.val - 180000, by have := r.isLt; omega⟩ k)

/-- The bonds' neighbour sums of all rows: the five runs one under the other, read at row r. -/
def Bcat (a1 : ArrF S260000x6) (a7 : ArrI S20000x1) (a8 : ArrI S60000x2) (a9 : ArrI S60000x3) (a10 : ArrI S40000x4) (a11 : ArrI S20000x5)
    (r : Fin 200000) (k : Fin 6) : EReal :=
  if h1 : r.val < 20000 then B1 a1 a7 (ix2 ⟨r.val, h1⟩ k)
  else if h2 : r.val < 80000 then B2 a1 a8 (ix2 ⟨r.val - 20000, by omega⟩ k)
  else if h3 : r.val < 140000 then B3 a1 a9 (ix2 ⟨r.val - 80000, by omega⟩ k)
  else if h4 : r.val < 180000 then B4 a1 a10 (ix2 ⟨r.val - 140000, by omega⟩ k)
  else B5 a1 a11 (ix2 ⟨r.val - 180000, by have := r.isLt; omega⟩ k)

/-- A matrix as a function of its two coordinates. -/
def mat2 {n m : Nat} (a : (⟨2, ![n, m]⟩ : Shape).Idx → EReal) : Fin n → Fin m → EReal := fun r k => a (ix2 r k)
/-- A vector as a function of its coordinate. -/
def vec1 {n : Nat} (a : (⟨1, ![n]⟩ : Shape).Idx → EReal) : Fin n → EReal := fun j => a (ix1 j)
/-- The five degree weight matrices, by degree group. -/
def Wst (a14 a15 a16 a17 a18 : ArrF S262x256) : Fin 5 → Fin 262 → Fin 256 → EReal := fun d => match d with
  | ⟨0, _⟩ => mat2 a14 | ⟨1, _⟩ => mat2 a15 | ⟨2, _⟩ => mat2 a16 | ⟨3, _⟩ => mat2 a17 | ⟨4, _⟩ => mat2 a18

variable (a0 : ArrF S200000x256) (a1 : ArrF S260000x6)
  (a2 : ArrI S20000x1) (a3 : ArrI S60000x2) (a4 : ArrI S60000x3) (a5 : ArrI S40000x4) (a6 : ArrI S20000x5)
  (a7 : ArrI S20000x1) (a8 : ArrI S60000x2) (a9 : ArrI S60000x3) (a10 : ArrI S40000x4) (a11 : ArrI S20000x5)
  (a12 : ArrF S256x256) (a13 : ArrF S256) (a14 a15 a16 a17 a18 : ArrF S262x256) (a19 a20 : ArrF S256)

theorem Acat_1 (r : Fin 200000) (k : Fin 256) (h : r.val < 20000) :
    Acat a0 a2 a3 a4 a5 a6 r k = A1 a0 a2 (ix2 ⟨r.val, h⟩ k) := by
  unfold Acat; rw [dif_pos h]
theorem Acat_2 (r : Fin 200000) (k : Fin 256) (h : 20000 ≤ r.val) (h' : r.val < 80000) :
    Acat a0 a2 a3 a4 a5 a6 r k = A2 a0 a3 (ix2 ⟨r.val - 20000, by omega⟩ k) := by
  unfold Acat; rw [dif_neg (show ¬ r.val < 20000 by omega), dif_pos h']
theorem Acat_3 (r : Fin 200000) (k : Fin 256) (h : 80000 ≤ r.val) (h' : r.val < 140000) :
    Acat a0 a2 a3 a4 a5 a6 r k = A3 a0 a4 (ix2 ⟨r.val - 80000, by omega⟩ k) := by
  unfold Acat; rw [dif_neg (show ¬ r.val < 20000 by omega), dif_neg (show ¬ r.val < 80000 by omega), dif_pos h']
theorem Acat_4 (r : Fin 200000) (k : Fin 256) (h : 140000 ≤ r.val) (h' : r.val < 180000) :
    Acat a0 a2 a3 a4 a5 a6 r k = A4 a0 a5 (ix2 ⟨r.val - 140000, by omega⟩ k) := by
  unfold Acat; rw [dif_neg (show ¬ r.val < 20000 by omega), dif_neg (show ¬ r.val < 80000 by omega), dif_neg (show ¬ r.val < 140000 by omega), dif_pos h']
theorem Acat_5 (r : Fin 200000) (k : Fin 256) (h : 180000 ≤ r.val) :
    Acat a0 a2 a3 a4 a5 a6 r k = A5 a0 a6 (ix2 ⟨r.val - 180000, by have := r.isLt; omega⟩ k) := by
  unfold Acat; rw [dif_neg (show ¬ r.val < 20000 by omega), dif_neg (show ¬ r.val < 80000 by omega), dif_neg (show ¬ r.val < 140000 by omega), dif_neg (show ¬ r.val < 180000 by omega)]
theorem Bcat_1 (r : Fin 200000) (k : Fin 6) (h : r.val < 20000) :
    Bcat a1 a7 a8 a9 a10 a11 r k = B1 a1 a7 (ix2 ⟨r.val, h⟩ k) := by
  unfold Bcat; rw [dif_pos h]
theorem Bcat_2 (r : Fin 200000) (k : Fin 6) (h : 20000 ≤ r.val) (h' : r.val < 80000) :
    Bcat a1 a7 a8 a9 a10 a11 r k = B2 a1 a8 (ix2 ⟨r.val - 20000, by omega⟩ k) := by
  unfold Bcat; rw [dif_neg (show ¬ r.val < 20000 by omega), dif_pos h']
theorem Bcat_3 (r : Fin 200000) (k : Fin 6) (h : 80000 ≤ r.val) (h' : r.val < 140000) :
    Bcat a1 a7 a8 a9 a10 a11 r k = B3 a1 a9 (ix2 ⟨r.val - 80000, by omega⟩ k) := by
  unfold Bcat; rw [dif_neg (show ¬ r.val < 20000 by omega), dif_neg (show ¬ r.val < 80000 by omega), dif_pos h']
theorem Bcat_4 (r : Fin 200000) (k : Fin 6) (h : 140000 ≤ r.val) (h' : r.val < 180000) :
    Bcat a1 a7 a8 a9 a10 a11 r k = B4 a1 a10 (ix2 ⟨r.val - 140000, by omega⟩ k) := by
  unfold Bcat; rw [dif_neg (show ¬ r.val < 20000 by omega), dif_neg (show ¬ r.val < 80000 by omega), dif_neg (show ¬ r.val < 140000 by omega), dif_pos h']
theorem Bcat_5 (r : Fin 200000) (k : Fin 6) (h : 180000 ≤ r.val) :
    Bcat a1 a7 a8 a9 a10 a11 r k = B5 a1 a11 (ix2 ⟨r.val - 180000, by have := r.isLt; omega⟩ k) := by
  unfold Bcat; rw [dif_neg (show ¬ r.val < 20000 by omega), dif_neg (show ¬ r.val < 80000 by omega), dif_neg (show ¬ r.val < 140000 by omega), dif_neg (show ¬ r.val < 180000 by omega)]

/-! ## Each degree's product -/

/-- The rows of degree 1 against their weights: at row r and column j, the sum over the 262 joined columns. -/
theorem prod1 (r : Fin 20000) (j : Fin 256) :
    Read.val_main_v18 (F := Ideal) a0 a1 a2 a7 a14 (ix2 r j)
      = ∑ k : Fin 262, (if hk : k.val < 256 then A1 a0 a2 (ix2 r ⟨k.val, hk⟩)
          else B1 a1 a7 (ix2 r ⟨k.val - 256, by have := k.isLt; omega⟩)) * a14 (ix2 k j) := by
  rw [Read.val_main_v18_apply]
  refine Finset.sum_congr rfl fun k _ => ?_
  have el : Read.lidx_main_v18 (ix2 r j) k = ix2 r k :=
    funext fun a => Fin.ext (by match a with | ⟨0, _⟩ => rfl | ⟨1, _⟩ => rfl)
  have er : Read.ridx_main_v18 (ix2 r j) k = ix2 k j :=
    funext fun a => Fin.ext (by match a with | ⟨0, _⟩ => rfl | ⟨1, _⟩ => rfl)
  rw [el, er]
  unfold Read.val_main_v17
  rw [cols_20000]
  rfl

/-- The rows of degree 2 against their weights: at row r and column j, the sum over the 262 joined columns. -/
theorem prod2 (r : Fin 60000) (j : Fin 256) :
    Read.val_main_v36 (F := Ideal) a0 a1 a3 a8 a15 (ix2 r j)
      = ∑ k : Fin 262, (if hk : k.val < 256 then A2 a0 a3 (ix2 r ⟨k.val, hk⟩)
          else B2 a1 a8 (ix2 r ⟨k.val - 256, by have := k.isLt; omega⟩)) * a15 (ix2 k j) := by
  rw [Read.val_main_v36_apply]
  refine Finset.sum_congr rfl fun k _ => ?_
  have el : Read.lidx_main_v36 (ix2 r j) k = ix2 r k :=
    funext fun a => Fin.ext (by match a with | ⟨0, _⟩ => rfl | ⟨1, _⟩ => rfl)
  have er : Read.ridx_main_v36 (ix2 r j) k = ix2 k j :=
    funext fun a => Fin.ext (by match a with | ⟨0, _⟩ => rfl | ⟨1, _⟩ => rfl)
  rw [el, er]
  unfold Read.val_main_v35
  rw [cols_60000]
  rfl

/-- The rows of degree 3 against their weights: at row r and column j, the sum over the 262 joined columns. -/
theorem prod3 (r : Fin 60000) (j : Fin 256) :
    Read.val_main_v54 (F := Ideal) a0 a1 a4 a9 a16 (ix2 r j)
      = ∑ k : Fin 262, (if hk : k.val < 256 then A3 a0 a4 (ix2 r ⟨k.val, hk⟩)
          else B3 a1 a9 (ix2 r ⟨k.val - 256, by have := k.isLt; omega⟩)) * a16 (ix2 k j) := by
  rw [Read.val_main_v54_apply]
  refine Finset.sum_congr rfl fun k _ => ?_
  have el : Read.lidx_main_v54 (ix2 r j) k = ix2 r k :=
    funext fun a => Fin.ext (by match a with | ⟨0, _⟩ => rfl | ⟨1, _⟩ => rfl)
  have er : Read.ridx_main_v54 (ix2 r j) k = ix2 k j :=
    funext fun a => Fin.ext (by match a with | ⟨0, _⟩ => rfl | ⟨1, _⟩ => rfl)
  rw [el, er]
  unfold Read.val_main_v53
  rw [cols_60000]
  rfl

/-- The rows of degree 4 against their weights: at row r and column j, the sum over the 262 joined columns. -/
theorem prod4 (r : Fin 40000) (j : Fin 256) :
    Read.val_main_v72 (F := Ideal) a0 a1 a5 a10 a17 (ix2 r j)
      = ∑ k : Fin 262, (if hk : k.val < 256 then A4 a0 a5 (ix2 r ⟨k.val, hk⟩)
          else B4 a1 a10 (ix2 r ⟨k.val - 256, by have := k.isLt; omega⟩)) * a17 (ix2 k j) := by
  rw [Read.val_main_v72_apply]
  refine Finset.sum_congr rfl fun k _ => ?_
  have el : Read.lidx_main_v72 (ix2 r j) k = ix2 r k :=
    funext fun a => Fin.ext (by match a with | ⟨0, _⟩ => rfl | ⟨1, _⟩ => rfl)
  have er : Read.ridx_main_v72 (ix2 r j) k = ix2 k j :=
    funext fun a => Fin.ext (by match a with | ⟨0, _⟩ => rfl | ⟨1, _⟩ => rfl)
  rw [el, er]
  unfold Read.val_main_v71
  rw [cols_40000]
  rfl

/-- The rows of degree 5 against their weights: at row r and column j, the sum over the 262 joined columns. -/
theorem prod5 (r : Fin 20000) (j : Fin 256) :
    Read.val_main_v90 (F := Ideal) a0 a1 a6 a11 a18 (ix2 r j)
      = ∑ k : Fin 262, (if hk : k.val < 256 then A5 a0 a6 (ix2 r ⟨k.val, hk⟩)
          else B5 a1 a11 (ix2 r ⟨k.val - 256, by have := k.isLt; omega⟩)) * a18 (ix2 k j) := by
  rw [Read.val_main_v90_apply]
  refine Finset.sum_congr rfl fun k _ => ?_
  have el : Read.lidx_main_v90 (ix2 r j) k = ix2 r k :=
    funext fun a => Fin.ext (by match a with | ⟨0, _⟩ => rfl | ⟨1, _⟩ => rfl)
  have er : Read.ridx_main_v90 (ix2 r j) k = ix2 k j :=
    funext fun a => Fin.ext (by match a with | ⟨0, _⟩ => rfl | ⟨1, _⟩ => rfl)
  rw [el, er]
  unfold Read.val_main_v89
  rw [cols_20000]
  rfl

/-! ## The linear part: the five products one under the other -/

/-- The row-concatenation of the five products, at row r and column j, is the row's 262 joined columns against the
    weights of the row's degree group. -/
theorem lin_eq (r : Fin 200000) (j : Fin 256) :
    Read.val_main_v91 (F := Ideal) a0 a1 a2 a3 a4 a5 a6 a7 a8 a9 a10 a11 a14 a15 a16 a17 a18 (ix2 r j)
      = ∑ k : Fin 262, Cert.Spec.cat (Acat a0 a2 a3 a4 a5 a6) (Bcat a1 a7 a8 a9 a10 a11) r k * Wst a14 a15 a16 a17 a18 (Cert.Spec.grp r) k j := by
  have hr := r.isLt
  unfold Read.val_main_v91
  rw [rows5]
  by_cases h1 : r.val < 20000
  · rw [dif_pos h1]
    have h := h1
    rw [prod1, Cert.Spec.grp_eq_0 r h]
    refine Finset.sum_congr rfl fun k _ => ?_
    unfold Cert.Spec.cat
    by_cases hk : k.val < 256
    · rw [dif_pos hk, dif_pos hk, Acat_1 a0 a2 a3 a4 a5 a6 r _ h]; rfl
    · rw [dif_neg hk, dif_neg hk, Bcat_1 a1 a7 a8 a9 a10 a11 r _ h]; rfl
  rw [dif_neg h1]
  by_cases h2 : r.val < 80000
  · rw [dif_pos h2]
    have h : 20000 ≤ r.val := by omega
    have h' := h2
    rw [prod2, Cert.Spec.grp_eq_1 r h h']
    refine Finset.sum_congr rfl fun k _ => ?_
    unfold Cert.Spec.cat
    by_cases hk : k.val < 256
    · rw [dif_pos hk, dif_pos hk, Acat_2 a0 a2 a3 a4 a5 a6 r _ h h']; rfl
    · rw [dif_neg hk, dif_neg hk, Bcat_2 a1 a7 a8 a9 a10 a11 r _ h h']; rfl
  rw [dif_neg h2]
  by_cases h3 : r.val < 140000
  · rw [dif_pos h3]
    have h : 80000 ≤ r.val := by omega
    have h' := h3
    rw [prod3, Cert.Spec.grp_eq_2 r h h']
    refine Finset.sum_congr rfl fun k _ => ?_
    unfold Cert.Spec.cat
    by_cases hk : k.val < 256
    · rw [dif_pos hk, dif_pos hk, Acat_3 a0 a2 a3 a4 a5 a6 r _ h h']; rfl
    · rw [dif_neg hk, dif_neg hk, Bcat_3 a1 a7 a8 a9 a10 a11 r _ h h']; rfl
  rw [dif_neg h3]
  by_cases h4 : r.val < 180000
  · rw [dif_pos h4]
    have h : 140000 ≤ r.val := by omega
    have h' := h4
    rw [prod4, Cert.Spec.grp_eq_3 r h h']
    refine Finset.sum_congr rfl fun k _ => ?_
    unfold Cert.Spec.cat
    by_cases hk : k.val < 256
    · rw [dif_pos hk, dif_pos hk, Acat_4 a0 a2 a3 a4 a5 a6 r _ h h']; rfl
    · rw [dif_neg hk, dif_neg hk, Bcat_4 a1 a7 a8 a9 a10 a11 r _ h h']; rfl
  · rw [dif_neg h4]
    have h : 180000 ≤ r.val := by omega
    rw [prod5, Cert.Spec.grp_eq_4 r h]
    refine Finset.sum_congr rfl fun k _ => ?_
    unfold Cert.Spec.cat
    by_cases hk : k.val < 256
    · rw [dif_pos hk, dif_pos hk, Acat_5 a0 a2 a3 a4 a5 a6 r _ h]; rfl
    · rw [dif_neg hk, dif_neg hk, Bcat_5 a1 a7 a8 a9 a10 a11 r _ h]; rfl

/-! ## The activations -/

/-- The reference's activations (its relu stage) as a function of row and column. -/
def tot (r : Fin 200000) (j : Fin 256) : EReal := Read.val_main_v96 (F := Ideal) a0 a1 a2 a3 a4 a5 a6 a7 a8 a9 a10 a11 a12 a13 a14 a15 a16 a17 a18 (ix2 r j)

/-- The activations are the specification's. -/
theorem tot_eq (r : Fin 200000) (j : Fin 256) :
    Read.val_main_v96 (F := Ideal) a0 a1 a2 a3 a4 a5 a6 a7 a8 a9 a10 a11 a12 a13 a14 a15 a16 a17 a18 (ix2 r j)
      = Cert.Spec.totR (mat2 a0) (Acat a0 a2 a3 a4 a5 a6) (Bcat a1 a7 a8 a9 a10 a11) (mat2 a12) (vec1 a13) (Wst a14 a15 a16 a17 a18) r j := by
  have eb : Read.idx_main_v93 (Read.idx_main_v94 (ix2 r j)) = ix1 j :=
    funext fun a => Fin.ext (by match a with | ⟨0, _⟩ => rfl)
  have el : ∀ k : Fin 256, Read.lidx_main_v0 (ix2 r j) k = ix2 r k := fun k =>
    funext fun a => Fin.ext (by match a with | ⟨0, _⟩ => rfl | ⟨1, _⟩ => rfl)
  have er : ∀ k : Fin 256, Read.ridx_main_v0 (ix2 r j) k = ix2 k j := fun k =>
    funext fun a => Fin.ext (by match a with | ⟨0, _⟩ => rfl | ⟨1, _⟩ => rfl)
  have hs : ∀ k : Fin 256, a0 (Read.lidx_main_v0 (ix2 r j) k) * a12 (Read.ridx_main_v0 (ix2 r j) k)
      = a0 (ix2 r k) * a12 (ix2 k j) := fun k => by rw [el k, er k]
  rw [Read.val_main_v96_apply, Read.val_main_v95_apply, Read.val_main_v92_apply, lin_eq, Read.val_main_v0_apply,
    Read.val_main_v94_apply, Read.val_main_v93_apply, eb, Read.val_main_call0_v0_apply, Read.val_main_call0_cst_apply,
    Finset.sum_congr rfl (fun k _ => hs k)]
  simp only [Ideal.maximumf_def, Ideal.addf_def, Ideal.ofBits_def, Ideal.ofBits_zero_f32]
  rfl

theorem tot_eq' : tot a0 a1 a2 a3 a4 a5 a6 a7 a8 a9 a10 a11 a12 a13 a14 a15 a16 a17 a18
    = Cert.Spec.totR (mat2 a0) (Acat a0 a2 a3 a4 a5 a6) (Bcat a1 a7 a8 a9 a10 a11) (mat2 a12) (vec1 a13) (Wst a14 a15 a16 a17 a18) :=
  funext fun r => funext fun j => tot_eq a0 a1 a2 a3 a4 a5 a6 a7 a8 a9 a10 a11 a12 a13 a14 a15 a16 a17 a18 r j

/-! ## The normalisation -/

/-- The reference's column mean is the specification's mean of the activations. -/
theorem mean_eq (j : Fin 256) :
    Read.val_main_v99 (F := Ideal) a0 a1 a2 a3 a4 a5 a6 a7 a8 a9 a10 a11 a12 a13 a14 a15 a16 a17 a18 (ix1 j) = Cert.Spec.mean (tot a0 a1 a2 a3 a4 a5 a6 a7 a8 a9 a10 a11 a12 a13 a14 a15 a16 a17 a18) j := by
  have e : ∀ k : Fin 200000, Read.idx_main_v97 (ix1 j) k = ix2 k j := fun k =>
    funext fun a => Fin.ext (by match a with | ⟨0, _⟩ => rfl | ⟨1, _⟩ => rfl)
  have hs : ∀ k : Fin 200000, Read.val_main_v96 (F := Ideal) a0 a1 a2 a3 a4 a5 a6 a7 a8 a9 a10 a11 a12 a13 a14 a15 a16 a17 a18 (Read.idx_main_v97 (ix1 j) k)
      = tot a0 a1 a2 a3 a4 a5 a6 a7 a8 a9 a10 a11 a12 a13 a14 a15 a16 a17 a18 k j := fun k => by rw [e k]; rfl
  rw [Read.val_main_v99_apply, Read.val_main_v97_apply, Read.val_main_v98_apply, Read.val_main_cst_28_apply,
    Read.val_main_cst_29_apply, Finset.sum_congr rfl (fun k _ => hs k)]
  simp only [Ideal.hostDivf_def, Ideal.ofBits_def, Ideal.ofBits_zero_f32, zero_add]
  rfl

/-- The mean, broadcast down the rows (as the deviations read it). -/
theorem mean_bcast (k : Fin 200000) (j : Fin 256) :
    Read.val_main_v101 (F := Ideal) a0 a1 a2 a3 a4 a5 a6 a7 a8 a9 a10 a11 a12 a13 a14 a15 a16 a17 a18 (ix2 k j) = Cert.Spec.mean (tot a0 a1 a2 a3 a4 a5 a6 a7 a8 a9 a10 a11 a12 a13 a14 a15 a16 a17 a18) j := by
  have e : Read.idx_main_v100 (Read.idx_main_v101 (ix2 k j)) = ix1 j :=
    funext fun a => Fin.ext (by match a with | ⟨0, _⟩ => rfl)
  rw [Read.val_main_v101_apply, Read.val_main_v100_apply, e, mean_eq]

/-- The mean, broadcast down the rows (as the result reads it). -/
theorem mean_bcast' (k : Fin 200000) (j : Fin 256) :
    Read.val_main_v108 (F := Ideal) a0 a1 a2 a3 a4 a5 a6 a7 a8 a9 a10 a11 a12 a13 a14 a15 a16 a17 a18 (ix2 k j) = Cert.Spec.mean (tot a0 a1 a2 a3 a4 a5 a6 a7 a8 a9 a10 a11 a12 a13 a14 a15 a16 a17 a18) j := by
  have e : Read.idx_main_v107 (Read.idx_main_v108 (ix2 k j)) = ix1 j :=
    funext fun a => Fin.ext (by match a with | ⟨0, _⟩ => rfl)
  rw [Read.val_main_v108_apply, Read.val_main_v107_apply, e, mean_eq]

/-- The reference's column variance is the specification's: the mean of the squared deviations. -/
theorem var_eq (j : Fin 256) :
    Read.val_main_v106 (F := Ideal) a0 a1 a2 a3 a4 a5 a6 a7 a8 a9 a10 a11 a12 a13 a14 a15 a16 a17 a18 (ix1 j) = Cert.Spec.varR (tot a0 a1 a2 a3 a4 a5 a6 a7 a8 a9 a10 a11 a12 a13 a14 a15 a16 a17 a18) j := by
  have e : ∀ k : Fin 200000, Read.idx_main_v104 (ix1 j) k = ix2 k j := fun k =>
    funext fun a => Fin.ext (by match a with | ⟨0, _⟩ => rfl | ⟨1, _⟩ => rfl)
  have hs : ∀ k : Fin 200000, Read.val_main_v103 (F := Ideal) a0 a1 a2 a3 a4 a5 a6 a7 a8 a9 a10 a11 a12 a13 a14 a15 a16 a17 a18 (Read.idx_main_v104 (ix1 j) k)
      = (tot a0 a1 a2 a3 a4 a5 a6 a7 a8 a9 a10 a11 a12 a13 a14 a15 a16 a17 a18 k j - Cert.Spec.mean (tot a0 a1 a2 a3 a4 a5 a6 a7 a8 a9 a10 a11 a12 a13 a14 a15 a16 a17 a18) j) * (tot a0 a1 a2 a3 a4 a5 a6 a7 a8 a9 a10 a11 a12 a13 a14 a15 a16 a17 a18 k j - Cert.Spec.mean (tot a0 a1 a2 a3 a4 a5 a6 a7 a8 a9 a10 a11 a12 a13 a14 a15 a16 a17 a18) j) := fun k => by
    rw [e k, Read.val_main_v103_apply, Read.val_main_v102_apply, mean_bcast]
    rfl
  rw [Read.val_main_v106_apply, Read.val_main_v104_apply, Read.val_main_v105_apply, Read.val_main_cst_30_apply,
    Read.val_main_cst_31_apply, Finset.sum_congr rfl (fun k _ => hs k)]
  simp only [Ideal.hostDivf_def, Ideal.ofBits_def, Ideal.ofBits_zero_f32, zero_add]
  rfl

/-- The reference's last stage is the specification's normalisation of the activations. -/
theorem norm_eq (r : Fin 200000) (j : Fin 256) :
    Read.val_main_v121 (F := Ideal) a0 a1 a2 a3 a4 a5 a6 a7 a8 a9 a10 a11 a12 a13 a14 a15 a16 a17 a18 a19 a20 (ix2 r j)
      = Cert.Spec.outR (tot a0 a1 a2 a3 a4 a5 a6 a7 a8 a9 a10 a11 a12 a13 a14 a15 a16 a17 a18) (vec1 a19) (vec1 a20) r j := by
  have e1 : Read.idx_main_v113 (Read.idx_main_v114 (ix2 r j)) = ix1 j :=
    funext fun a => Fin.ext (by match a with | ⟨0, _⟩ => rfl)
  have e2 : Read.idx_main_v116 (Read.idx_main_v117 (ix2 r j)) = ix1 j :=
    funext fun a => Fin.ext (by match a with | ⟨0, _⟩ => rfl)
  have e3 : Read.idx_main_v119 (Read.idx_main_v120 (ix2 r j)) = ix1 j :=
    funext fun a => Fin.ext (by match a with | ⟨0, _⟩ => rfl)
  rw [Read.val_main_v121_apply, Read.val_main_v118_apply, Read.val_main_v115_apply, Read.val_main_v109_apply,
    mean_bcast', Read.val_main_v114_apply, Read.val_main_v113_apply, e1, Read.val_main_v112_apply,
    Read.val_main_v111_apply, var_eq, Read.val_main_v110_apply, Read.val_main_cst_32_apply,
    Read.val_main_v117_apply, Read.val_main_v116_apply, e2, Read.val_main_v120_apply, Read.val_main_v119_apply, e3]
  simp only [Ideal.addf_def, Ideal.mulf_def, Ideal.subf_def, Ideal.hostDivf_def, Ideal.hostUnary_sqrt_def, Ideal.ofBits_def]
  rfl

/-! ## The result -/

/-- **The reference is the specification.** -/
theorem ref_result (r : Fin 200000) (j : Fin 256) :
    Read.val_main_v121 (F := Ideal) a0 a1 a2 a3 a4 a5 a6 a7 a8 a9 a10 a11 a12 a13 a14 a15 a16 a17 a18 a19 a20 (ix2 r j)
      = Cert.Spec.outR (Cert.Spec.totR (mat2 a0) (Acat a0 a2 a3 a4 a5 a6) (Bcat a1 a7 a8 a9 a10 a11) (mat2 a12) (vec1 a13) (Wst a14 a15 a16 a17 a18))
          (vec1 a19) (vec1 a20) r j := by
  rw [norm_eq, tot_eq']

end Cert.ReferenceIdeal.RefValue

end
-- ==== Proof.LibNary5.lean ====
/-
  A host operation over a LITERAL family of FIVE references (a five-operand concatenation), read at its result
  buffer with each operand's contents AT ITS OWN REFERENCE: the family `Fin.cons (F ↑x) (Fin.cons (F ↑a) …)` in place
  of `fun k => F ↑(![x, a, b, c, e] k)`. Under that binder the reference `![x, a, b, c, e] k` is no literal, so no
  result lemma rewrites the operand's contents further; at the literal family each operand stands at its own
  reference and the rewriting of a run goes on into the operands. The statement and its proof follow the library's
  lemma for four references; a second form carries the result reference un-indexed, for use by `simp`.
-/
import Idealize.ShloMosaic.Lib.StableHlo.Run

namespace Idealize.ShloMosaic.StableHlo

open Idealize.SL.Sem

variable {nD : Nat} {τ : Topo} {sig : RefSig} {Val : EltTy → Type}
variable {x a b c e y : Ref sig .tc}

/-- `nary` over a literal family of five references: the result buffer holds the function at the five operands'
    contents, each read at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same with the result reference un-indexed, so that one `simp only` pass over a run can use it. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Idealize.ShloMosaic.StableHlo
-- ==== Proof.KiHost0.lean ====
/-
  What the first stretch of host operations leaves in the arrays the first kernel region reads, as functions of the
  program's argument arrays. Five groups of rows (by neighbour count 1 … 5) each gather rows of a table at indices
  counted from the end when negative, and add the gathered rows up over the neighbour axis; the five sums are laid
  end to end along the rows. The same is done for a second, six-column table. The five weight matrices are cut into
  their first 256 rows and their last 6 and stacked. Each group's composed term is named once and kept folded: it is
  the reference program's term for the same group, by unfolding both to one library term.
-/
import proofs.«416437_j22935125360693_3_alg».proof.Proof.Gen.KernelIdeal.Launch
import proofs.«416437_j22935125360693_3_alg».proof.Proof.LibNary5
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## The stage terms -/

/-- An index below zero counts from the end: `n` is added to it. -/
def wrapIdx {S : Shape} (hb : S_.BroadcastsInDim S (![] : Fin 0 → Fin S.rank)) (n : BitVec 32)
    (ix : (⟨S, .i32⟩ : BufTy).Contents (Elt F)) : (⟨S, .i32⟩ : BufTy).Contents (Elt F) :=
  select (cmpi .slt ix (broadcastInDim S ![] hb (constantI S_ 32 0#32)))
    (addi ix (broadcastInDim S ![] hb (constantI S_ 32 n))) ix

/-- Group 1 (one neighbour): the gathered rows of the 256-column table, summed over the neighbour axis. -/
def kA1 (x : (⟨S200000x256, .f32⟩ : BufTy).Contents (Elt F)) (ix : (⟨S20000x1, .i32⟩ : BufTy).Contents (Elt F)) :
    (⟨S20000x256, .f32⟩ : BufTy).Contents (Elt F) :=
  Host.reduceAdd (Host.gather gather_S200000x256_S20000x1x1_S20000x1x256_2_0_n_n_0_2_1256 x
      (broadcastInDim S20000x1x1 ![0, 1] bcast_S20000x1_S20000x1x1_0_1 (wrapIdx bcast_S_S20000x1 200000#32 ix)))
    (constant S_ .f32 0x00000000#32) reducesTo_S20000x1x256_S20000x256_d1 h_S_
/-- Group 2 (two neighbours). -/
def kA2 (x : (⟨S200000x256, .f32⟩ : BufTy).Contents (Elt F)) (ix : (⟨S60000x2, .i32⟩ : BufTy).Contents (Elt F)) :
    (⟨S60000x256, .f32⟩ : BufTy).Contents (Elt F) :=
  Host.reduceAdd (Host.gather gather_S200000x256_S60000x2x1_S60000x2x256_2_0_n_n_0_2_1256 x
      (broadcastInDim S60000x2x1 ![0, 1] bcast_S60000x2_S60000x2x1_0_1 (wrapIdx bcast_S_S60000x2 200000#32 ix)))
    (constant S_ .f32 0x00000000#32) reducesTo_S60000x2x256_S60000x256_d1 h_S_
/-- Group 3 (three neighbours). -/
def kA3 (x : (⟨S200000x256, .f32⟩ : BufTy).Contents (Elt F)) (ix : (⟨S60000x3, .i32⟩ : BufTy).Contents (Elt F)) :
    (⟨S60000x256, .f32⟩ : BufTy).Contents (Elt F) :=
  Host.reduceAdd (Host.gather gather_S200000x256_S60000x3x1_S60000x3x256_2_0_n_n_0_2_1256 x
      (broadcastInDim S60000x3x1 ![0, 1] bcast_S60000x3_S60000x3x1_0_1 (wrapIdx bcast_S_S60000x3 200000#32 ix)))
    (constant S_ .f32 0x00000000#32) reducesTo_S60000x3x256_S60000x256_d1 h_S_
/-- Group 4 (four neighbours). -/
def kA4 (x : (⟨S200000x256, .f32⟩ : BufTy).Contents (Elt F)) (ix : (⟨S40000x4, .i32⟩ : BufTy).Contents (Elt F)) :
    (⟨S40000x256, .f32⟩ : BufTy).Contents (Elt F) :=
  Host.reduceAdd (Host.gather gather_S200000x256_S40000x4x1_S40000x4x256_2_0_n_n_0_2_1256 x
      (broadcastInDim S40000x4x1 ![0, 1] bcast_S40000x4_S40000x4x1_0_1 (wrapIdx bcast_S_S40000x4 200000#32 ix)))
    (constant S_ .f32 0x00000000#32) reducesTo_S40000x4x256_S40000x256_d1 h_S_
/-- Group 5 (five neighbours). -/
def kA5 (x : (⟨S200000x256, .f32⟩ : BufTy).Contents (Elt F)) (ix : (⟨S20000x5, .i32⟩ : BufTy).Contents (Elt F)) :
    (⟨S20000x256, .f32⟩ : BufTy).Contents (Elt F) :=
  Host.reduceAdd (Host.gather gather_S200000x256_S20000x5x1_S20000x5x256_2_0_n_n_0_2_1256 x
      (broadcastInDim S20000x5x1 ![0, 1] bcast_S20000x5_S20000x5x1_0_1 (wrapIdx bcast_S_S20000x5 200000#32 ix)))
    (constant S_ .f32 0x00000000#32) reducesTo_S20000x5x256_S20000x256_d1 h_S_

/-- Group 1 of the six-column table (260000 rows). -/
def kB1 (x : (⟨S260000x6, .f32⟩ : BufTy).Contents (Elt F)) (ix : (⟨S20000x1, .i32⟩ : BufTy).Contents (Elt F)) :
    (⟨S20000x6, .f32⟩ : BufTy).Contents (Elt F) :=
  Host.reduceAdd (Host.gather gather_S260000x6_S20000x1x1_S20000x1x6_2_0_n_n_0_2_16 x
      (broadcastInDim S20000x1x1 ![0, 1] bcast_S20000x1_S20000x1x1_0_1 (wrapIdx bcast_S_S20000x1 260000#32 ix)))
    (constant S_ .f32 0x00000000#32) reducesTo_S20000x1x6_S20000x6_d1 h_S_
/-- Group 2 of the six-column table. -/
def kB2 (x : (⟨S260000x6, .f32⟩ : BufTy).Contents (Elt F)) (ix : (⟨S60000x2, .i32⟩ : BufTy).Contents (Elt F)) :
    (⟨S60000x6, .f32⟩ : BufTy).Contents (Elt F) :=
  Host.reduceAdd (Host.gather gather_S260000x6_S60000x2x1_S60000x2x6_2_0_n_n_0_2_16 x
      (broadcastInDim S60000x2x1 ![0, 1] bcast_S60000x2_S60000x2x1_0_1 (wrapIdx bcast_S_S60000x2 260000#32 ix)))
    (constant S_ .f32 0x00000000#32) reducesTo_S60000x2x6_S60000x6_d1 h_S_
/-- Group 3 of the six-column table. -/
def kB3 (x : (⟨S260000x6, .f32⟩ : BufTy).Contents (Elt F)) (ix : (⟨S60000x3, .i32⟩ : BufTy).Contents (Elt F)) :
    (⟨S60000x6, .f32⟩ : BufTy).Contents (Elt F) :=
  Host.reduceAdd (Host.gather gather_S260000x6_S60000x3x1_S60000x3x6_2_0_n_n_0_2_16 x
      (broadcastInDim S60000x3x1 ![0, 1] bcast_S60000x3_S60000x3x1_0_1 (wrapIdx bcast_S_S60000x3 260000#32 ix)))
    (constant S_ .f32 0x00000000#32) reducesTo_S60000x3x6_S60000x6_d1 h_S_
/-- Group 4 of the six-column table. -/
def kB4 (x : (⟨S260000x6, .f32⟩ : BufTy).Contents (Elt F)) (ix : (⟨S40000x4, .i32⟩ : BufTy).Contents (Elt F)) :
    (⟨S40000x6, .f32⟩ : BufTy).Contents (Elt F) :=
  Host.reduceAdd (Host.gather gather_S260000x6_S40000x4x1_S40000x4x6_2_0_n_n_0_2_16 x
      (broadcastInDim S40000x4x1 ![0, 1] bcast_S40000x4_S40000x4x1_0_1 (wrapIdx bcast_S_S40000x4 260000#32 ix)))
    (constant S_ .f32 0x00000000#32) reducesTo_S40000x4x6_S40000x6_d1 h_S_
/-- Group 5 of the six-column table. -/
def kB5 (x : (⟨S260000x6, .f32⟩ : BufTy).Contents (Elt F)) (ix : (⟨S20000x5, .i32⟩ : BufTy).Contents (Elt F)) :
    (⟨S20000x6, .f32⟩ : BufTy).Contents (Elt F) :=
  Host.reduceAdd (Host.gather gather_S260000x6_S20000x5x1_S20000x5x6_2_0_n_n_0_2_16 x
      (broadcastInDim S20000x5x1 ![0, 1] bcast_S20000x5_S20000x5x1_0_1 (wrapIdx bcast_S_S20000x5 260000#32 ix)))
    (constant S_ .f32 0x00000000#32) reducesTo_S20000x5x6_S20000x6_d1 h_S_

/-! ## Five pieces laid end to end along the leading axis, read at an index -/

section Cat5
variable {α : Type}

section Rows
variable {n1 n2 n3 n4 n5 N m : Nat}
variable (x1 : (⟨2, ![n1, m]⟩ : Shape).Idx → α) (x2 : (⟨2, ![n2, m]⟩ : Shape).Idx → α) (x3 : (⟨2, ![n3, m]⟩ : Shape).Idx → α)
  (x4 : (⟨2, ![n4, m]⟩ : Shape).Idx → α) (x5 : (⟨2, ![n5, m]⟩ : Shape).Idx → α)
variable (h : Shape.Concatenates [(⟨2, ![n1, m]⟩ : Shape), ⟨2, ![n2, m]⟩, ⟨2, ![n3, m]⟩, ⟨2, ![n4, m]⟩, ⟨2, ![n5, m]⟩] ⟨2, ![N, m]⟩ 0)

/-- Off the joined axis the two indices agree. -/
private theorem ix2_off {p p' q : Nat} (r : Fin p) (r' : Fin p') (k : Fin q) :
    ∀ b : Fin (⟨2, ![p', q]⟩ : Shape).rank, b.cast (rfl : (⟨2, ![p', q]⟩ : Shape).rank = (⟨2, ![p, q]⟩ : Shape).rank) ≠ 0 →
      ((ValueIdx.ix2 r' k) b).val = ((ValueIdx.ix2 r k) (b.cast rfl)).val := fun b hb => by
  match b with
  | ⟨0, _⟩ => exact absurd rfl hb
  | ⟨1, _⟩ => rfl

/-- A row of the first piece. -/
theorem cat5_row1 (r : Fin N) (k : Fin m) (hr : r.val < n1) :
    concatenate ⟨2, ![N, m]⟩ 0 [⟨_, x1⟩, ⟨_, x2⟩, ⟨_, x3⟩, ⟨_, x4⟩, ⟨_, x5⟩] h (ValueIdx.ix2 r k) = x1 (ValueIdx.ix2 ⟨r.val, hr⟩ k) :=
  concatenate_apply_piece (t := ⟨2, ![N, m]⟩) 0 [⟨_, x1⟩, ⟨_, x2⟩, ⟨_, x3⟩, ⟨_, x4⟩, ⟨_, x5⟩] h (ValueIdx.ix2 r k) 0 (by simp) _ x1 rfl rfl 0 rfl (ValueIdx.ix2 ⟨r.val, hr⟩ k)
    (ix2_off r _ k) (Nat.zero_add _)
/-- A row of the second piece. -/
theorem cat5_row2 (r : Fin N) (k : Fin m) (h0 : n1 ≤ r.val) (h1 : r.val - n1 < n2) :
    concatenate ⟨2, ![N, m]⟩ 0 [⟨_, x1⟩, ⟨_, x2⟩, ⟨_, x3⟩, ⟨_, x4⟩, ⟨_, x5⟩] h (ValueIdx.ix2 r k) = x2 (ValueIdx.ix2 ⟨r.val - n1, h1⟩ k) :=
  concatenate_apply_piece (t := ⟨2, ![N, m]⟩) 0 [⟨_, x1⟩, ⟨_, x2⟩, ⟨_, x3⟩, ⟨_, x4⟩, ⟨_, x5⟩] h (ValueIdx.ix2 r k) 1 (by simp) _ x2 rfl rfl (n1 + 0) rfl (ValueIdx.ix2 ⟨r.val - n1, h1⟩ k)
    (ix2_off r _ k) (by show n1 + 0 + (r.val - n1) = r.val; omega)
/-- A row of the third piece. -/
theorem cat5_row3 (r : Fin N) (k : Fin m) (h0 : n1 + n2 ≤ r.val) (h1 : r.val - (n1 + n2) < n3) :
    concatenate ⟨2, ![N, m]⟩ 0 [⟨_, x1⟩, ⟨_, x2⟩, ⟨_, x3⟩, ⟨_, x4⟩, ⟨_, x5⟩] h (ValueIdx.ix2 r k) = x3 (ValueIdx.ix2 ⟨r.val - (n1 + n2), h1⟩ k) :=
  concatenate_apply_piece (t := ⟨2, ![N, m]⟩) 0 [⟨_, x1⟩, ⟨_, x2⟩, ⟨_, x3⟩, ⟨_, x4⟩, ⟨_, x5⟩] h (ValueIdx.ix2 r k) 2 (by simp) _ x3 rfl rfl (n1 + (n2 + 0)) rfl (ValueIdx.ix2 ⟨r.val - (n1 + n2), h1⟩ k)
    (ix2_off r _ k) (by show n1 + (n2 + 0) + (r.val - (n1 + n2)) = r.val; omega)
/-- A row of the fourth piece. -/
theorem cat5_row4 (r : Fin N) (k : Fin m) (h0 : n1 + n2 + n3 ≤ r.val) (h1 : r.val - (n1 + n2 + n3) < n4) :
    concatenate ⟨2, ![N, m]⟩ 0 [⟨_, x1⟩, ⟨_, x2⟩, ⟨_, x3⟩, ⟨_, x4⟩, ⟨_, x5⟩] h (ValueIdx.ix2 r k) = x4 (ValueIdx.ix2 ⟨r.val - (n1 + n2 + n3), h1⟩ k) :=
  concatenate_apply_piece (t := ⟨2, ![N, m]⟩) 0 [⟨_, x1⟩, ⟨_, x2⟩, ⟨_, x3⟩, ⟨_, x4⟩, ⟨_, x5⟩] h (ValueIdx.ix2 r k) 3 (by simp) _ x4 rfl rfl (n1 + (n2 + (n3 + 0))) rfl (ValueIdx.ix2 ⟨r.val - (n1 + n2 + n3), h1⟩ k)
    (ix2_off r _ k) (by show n1 + (n2 + (n3 + 0)) + (r.val - (n1 + n2 + n3)) = r.val; omega)
/-- A row of the fifth piece. -/
theorem cat5_row5 (r : Fin N) (k : Fin m) (h0 : n1 + n2 + n3 + n4 ≤ r.val) (h1 : r.val - (n1 + n2 + n3 + n4) < n5) :
    concatenate ⟨2, ![N, m]⟩ 0 [⟨_, x1⟩, ⟨_, x2⟩, ⟨_, x3⟩, ⟨_, x4⟩, ⟨_, x5⟩] h (ValueIdx.ix2 r k) = x5 (ValueIdx.ix2 ⟨r.val - (n1 + n2 + n3 + n4), h1⟩ k) :=
  concatenate_apply_piece (t := ⟨2, ![N, m]⟩) 0 [⟨_, x1⟩, ⟨_, x2⟩, ⟨_, x3⟩, ⟨_, x4⟩, ⟨_, x5⟩] h (ValueIdx.ix2 r k) 4 (by simp) _ x5 rfl rfl (n1 + (n2 + (n3 + (n4 + 0)))) rfl (ValueIdx.ix2 ⟨r.val - (n1 + n2 + n3 + n4), h1⟩ k)
    (ix2_off r _ k) (by show n1 + (n2 + (n3 + (n4 + 0))) + (r.val - (n1 + n2 + n3 + n4)) = r.val; omega)
end Rows

end Cat5

/-! ## The first stretch's results -/

section Results
variable (w : Valuation τ sig (Elt F))

set_option maxHeartbeats 4000000 in
/-- The neighbour sums of the 256-column table: the five groups' sums laid end to end along the rows. -/
theorem host0_v80 : StableHlo.after hostOps0 w (Proc.devRef .tc main_v80)
    = concatenate S200000x256 0
        [⟨S20000x256, kA1 (w (Proc.devRef .tc main_arg0)) (w (Proc.devRef .tc main_arg2))⟩,
         ⟨S60000x256, kA2 (w (Proc.devRef .tc main_arg0)) (w (Proc.devRef .tc main_arg3))⟩,
         ⟨S60000x256, kA3 (w (Proc.devRef .tc main_arg0)) (w (Proc.devRef .tc main_arg4))⟩,
         ⟨S40000x256, kA4 (w (Proc.devRef .tc main_arg0)) (w (Proc.devRef .tc main_arg5))⟩,
         ⟨S20000x256, kA5 (w (Proc.devRef .tc main_arg0)) (w (Proc.devRef .tc main_arg6))⟩]
        concatenates_S20000x256_S60000x256_S60000x256_S40000x256_S20000x256_S200000x256_d0 := by
  simp (disch := decide) only [StableHlo.after_cons, StableHlo.after_nil,
      StableHlo.nullary_result', StableHlo.unary_result', StableHlo.binary_result', StableHlo.ternary_result', StableHlo.nary5_result',
      StableHlo.nullary_result_ne', StableHlo.unary_result_ne', StableHlo.binary_result_ne', StableHlo.ternary_result_ne', StableHlo.nary_result_ne']
  rfl

set_option maxHeartbeats 4000000 in
/-- The neighbour sums of the six-column table, likewise. -/
theorem host0_v81 : StableHlo.after hostOps0 w (Proc.devRef .tc main_v81)
    = concatenate S200000x6 0
        [⟨S20000x6, kB1 (w (Proc.devRef .tc main_arg1)) (w (Proc.devRef .tc main_arg7))⟩,
         ⟨S60000x6, kB2 (w (Proc.devRef .tc main_arg1)) (w (Proc.devRef .tc main_arg8))⟩,
         ⟨S60000x6, kB3 (w (Proc.devRef .tc main_arg1)) (w (Proc.devRef .tc main_arg9))⟩,
         ⟨S40000x6, kB4 (w (Proc.devRef .tc main_arg1)) (w (Proc.devRef .tc main_arg10))⟩,
         ⟨S20000x6, kB5 (w (Proc.devRef .tc main_arg1)) (w (Proc.devRef .tc main_arg11))⟩]
        concatenates_S20000x6_S60000x6_S60000x6_S40000x6_S20000x6_S200000x6_d0 := by
  simp (disch := decide) only [StableHlo.after_cons, StableHlo.after_nil,
      StableHlo.nullary_result', StableHlo.unary_result', StableHlo.binary_result', StableHlo.ternary_result', StableHlo.nary5_result',
      StableHlo.nullary_result_ne', StableHlo.unary_result_ne', StableHlo.binary_result_ne', StableHlo.ternary_result_ne', StableHlo.nary_result_ne']
  rfl

end Results

section Cat5Lead
variable {α : Type} {p q : Nat}
variable (y0 y1 y2 y3 y4 : (⟨3, ![1, p, q]⟩ : Shape).Idx → α)
variable (h : Shape.Concatenates [(⟨3, ![1, p, q]⟩ : Shape), ⟨3, ![1, p, q]⟩, ⟨3, ![1, p, q]⟩, ⟨3, ![1, p, q]⟩, ⟨3, ![1, p, q]⟩] ⟨3, ![5, p, q]⟩ 0)

/-- Off the joined axis the two indices agree. -/
private theorem ix3_off (d : Fin 5) (k : Fin p) (j : Fin q) :
    ∀ b : Fin (⟨3, ![1, p, q]⟩ : Shape).rank, b.cast (rfl : (⟨3, ![1, p, q]⟩ : Shape).rank = (⟨3, ![5, p, q]⟩ : Shape).rank) ≠ 0 →
      ((ValueIdx.ix3 (0 : Fin 1) k j) b).val = ((ValueIdx.ix3 d k j) (b.cast rfl)).val := fun b hb => by
  match b with
  | ⟨0, _⟩ => exact absurd rfl hb
  | ⟨1, _⟩ => rfl
  | ⟨2, _⟩ => rfl

/-- One of five. -/
def pick5 {β : Type} (y0 y1 y2 y3 y4 : β) : Fin 5 → β
  | ⟨0, _⟩ => y0 | ⟨1, _⟩ => y1 | ⟨2, _⟩ => y2 | ⟨3, _⟩ => y3 | ⟨4, _⟩ => y4

/-- Five one-matrix pieces stacked along a new leading axis: matrix `d` of the stack is piece `d`. -/
theorem cat5_lead (d : Fin 5) (k : Fin p) (j : Fin q) :
    concatenate ⟨3, ![5, p, q]⟩ 0 [⟨_, y0⟩, ⟨_, y1⟩, ⟨_, y2⟩, ⟨_, y3⟩, ⟨_, y4⟩] h (ValueIdx.ix3 d k j)
      = pick5 y0 y1 y2 y3 y4 d (ValueIdx.ix3 (0 : Fin 1) k j) := by
  match d with
  | ⟨0, _⟩ => exact concatenate_apply_piece (t := ⟨3, ![5, p, q]⟩) 0 [⟨_, y0⟩, ⟨_, y1⟩, ⟨_, y2⟩, ⟨_, y3⟩, ⟨_, y4⟩] h _ 0 (by simp) _ y0 rfl rfl 0 rfl _ (ix3_off _ k j) rfl
  | ⟨1, _⟩ => exact concatenate_apply_piece (t := ⟨3, ![5, p, q]⟩) 0 [⟨_, y0⟩, ⟨_, y1⟩, ⟨_, y2⟩, ⟨_, y3⟩, ⟨_, y4⟩] h _ 1 (by simp) _ y1 rfl rfl 1 rfl _ (ix3_off _ k j) rfl
  | ⟨2, _⟩ => exact concatenate_apply_piece (t := ⟨3, ![5, p, q]⟩) 0 [⟨_, y0⟩, ⟨_, y1⟩, ⟨_, y2⟩, ⟨_, y3⟩, ⟨_, y4⟩] h _ 2 (by simp) _ y2 rfl rfl 2 rfl _ (ix3_off _ k j) rfl
  | ⟨3, _⟩ => exact concatenate_apply_piece (t := ⟨3, ![5, p, q]⟩) 0 [⟨_, y0⟩, ⟨_, y1⟩, ⟨_, y2⟩, ⟨_, y3⟩, ⟨_, y4⟩] h _ 3 (by simp) _ y3 rfl rfl 3 rfl _ (ix3_off _ k j) rfl
  | ⟨4, _⟩ => exact concatenate_apply_piece (t := ⟨3, ![5, p, q]⟩) 0 [⟨_, y0⟩, ⟨_, y1⟩, ⟨_, y2⟩, ⟨_, y3⟩, ⟨_, y4⟩] h _ 4 (by simp) _ y4 rfl rfl 4 rfl _ (ix3_off _ k j) rfl
end Cat5Lead

/-! ## The weight matrices cut and stacked -/

/-- A weight matrix's first 256 rows, as a stack of one matrix. -/
def kTop (a : (⟨S262x256, .f32⟩ : BufTy).Contents (Elt F)) : (⟨S1x256x256, .f32⟩ : BufTy).Contents (Elt F) :=
  broadcastInDim S1x256x256 ![1, 2] bcast_S256x256_S1x256x256_1_2 (extractStridedSlice S256x256 ![0, 0] a slices_S262x256_S256x256_0_0)
/-- A weight matrix's last 6 rows, as a stack of one matrix. -/
def kBot (a : (⟨S262x256, .f32⟩ : BufTy).Contents (Elt F)) : (⟨S1x6x256, .f32⟩ : BufTy).Contents (Elt F) :=
  broadcastInDim S1x6x256 ![1, 2] bcast_S6x256_S1x6x256_1_2 (extractStridedSlice S6x256 ![256, 0] a slices_S262x256_S6x256_256_0)

theorem kTop_apply (a : (⟨S262x256, .f32⟩ : BufTy).Contents (Elt F)) (k j : Fin 256) :
    kTop a (ValueIdx.ix3 (0 : Fin 1) k j) = a (ValueIdx.ix2 (Fin.castAdd 6 k) j) := by
  unfold kTop
  refine (broadcastInDim_apply _ bcast_S256x256_S1x256x256_1_2 _ _ (ValueIdx.ix2 k j) fun b => ?_).trans
    (extractStridedSlice_apply _ a slices_S262x256_S256x256_0_0 _ (ValueIdx.ix2 (Fin.castAdd 6 k) j) fun b => ?_)
  · match b with
    | ⟨0, _⟩ => show k.val = if (256 : Nat) = 1 then 0 else k.val; rw [if_neg (by decide)]
    | ⟨1, _⟩ => show j.val = if (256 : Nat) = 1 then 0 else j.val; rw [if_neg (by decide)]
  · match b with
    | ⟨0, _⟩ => show k.val = 0 + k.val; rw [Nat.zero_add]
    | ⟨1, _⟩ => show j.val = 0 + j.val; rw [Nat.zero_add]

theorem kBot_apply (a : (⟨S262x256, .f32⟩ : BufTy).Contents (Elt F)) (k : Fin 6) (j : Fin 256) :
    kBot a (ValueIdx.ix3 (0 : Fin 1) k j) = a (ValueIdx.ix2 (Fin.natAdd 256 k) j) := by
  unfold kBot
  refine (broadcastInDim_apply _ bcast_S6x256_S1x6x256_1_2 _ _ (ValueIdx.ix2 k j) fun b => ?_).trans
    (extractStridedSlice_apply _ a slices_S262x256_S6x256_256_0 _ (ValueIdx.ix2 (Fin.natAdd 256 k) j) fun b => ?_)
  · match b with
    | ⟨0, _⟩ => show k.val = if (6 : Nat) = 1 then 0 else k.val; rw [if_neg (by decide)]
    | ⟨1, _⟩ => show j.val = if (256 : Nat) = 1 then 0 else j.val; rw [if_neg (by decide)]
  · match b with
    | ⟨0, _⟩ => rfl
    | ⟨1, _⟩ => show j.val = 0 + j.val; rw [Nat.zero_add]

section Results2
variable (w : Valuation τ sig (Elt F))

/-! ### The concatenations read at a row -/

theorem host0_v80_row1 (r : Fin 200000) (k : Fin 256) (h : r.val < 20000) :
    StableHlo.after hostOps0 w (Proc.devRef .tc main_v80) (ValueIdx.ix2 r k) = kA1 (w (Proc.devRef .tc main_arg0)) (w (Proc.devRef .tc main_arg2)) (ValueIdx.ix2 ⟨r.val, h⟩ k) :=
  (congrFun (host0_v80 w) _).trans (cat5_row1 (kA1 (w (Proc.devRef .tc main_arg0)) (w (Proc.devRef .tc main_arg2))) (kA2 (w (Proc.devRef .tc main_arg0)) (w (Proc.devRef .tc main_arg3))) (kA3 (w (Proc.devRef .tc main_arg0)) (w (Proc.devRef .tc main_arg4))) (kA4 (w (Proc.devRef .tc main_arg0)) (w (Proc.devRef .tc main_arg5))) (kA5 (w (Proc.devRef .tc main_arg0)) (w (Proc.devRef .tc main_arg6))) concatenates_S20000x256_S60000x256_S60000x256_S40000x256_S20000x256_S200000x256_d0 r k h)
theorem host0_v80_row2 (r : Fin 200000) (k : Fin 256) (h0 : 20000 ≤ r.val) (h1 : r.val < 80000) :
    StableHlo.after hostOps0 w (Proc.devRef .tc main_v80) (ValueIdx.ix2 r k) = kA2 (w (Proc.devRef .tc main_arg0)) (w (Proc.devRef .tc main_arg3)) (ValueIdx.ix2 ⟨r.val - 20000, by omega⟩ k) :=
  (congrFun (host0_v80 w) _).trans (cat5_row2 (kA1 (w (Proc.devRef .tc main_arg0)) (w (Proc.devRef .tc main_arg2))) (kA2 (w (Proc.devRef .tc main_arg0)) (w (Proc.devRef .tc main_arg3))) (kA3 (w (Proc.devRef .tc main_arg0)) (w (Proc.devRef .tc main_arg4))) (kA4 (w (Proc.devRef .tc main_arg0)) (w (Proc.devRef .tc main_arg5))) (kA5 (w (Proc.devRef .tc main_arg0)) (w (Proc.devRef .tc main_arg6))) concatenates_S20000x256_S60000x256_S60000x256_S40000x256_S20000x256_S200000x256_d0 r k h0 (by omega))
theorem host0_v80_row3 (r : Fin 200000) (k : Fin 256) (h0 : 80000 ≤ r.val) (h1 : r.val < 140000) :
    StableHlo.after hostOps0 w (Proc.devRef .tc main_v80) (ValueIdx.ix2 r k) = kA3 (w (Proc.devRef .tc main_arg0)) (w (Proc.devRef .tc main_arg4)) (ValueIdx.ix2 ⟨r.val - 80000, by omega⟩ k) :=
  (congrFun (host0_v80 w) _).trans (cat5_row3 (kA1 (w (Proc.devRef .tc main_arg0)) (w (Proc.devRef .tc main_arg2))) (kA2 (w (Proc.devRef .tc main_arg0)) (w (Proc.devRef .tc main_arg3))) (kA3 (w (Proc.devRef .tc main_arg0)) (w (Proc.devRef .tc main_arg4))) (kA4 (w (Proc.devRef .tc main_arg0)) (w (Proc.devRef .tc main_arg5))) (kA5 (w (Proc.devRef .tc main_arg0)) (w (Proc.devRef .tc main_arg6))) concatenates_S20000x256_S60000x256_S60000x256_S40000x256_S20000x256_S200000x256_d0 r k (by omega) (by omega))
theorem host0_v80_row4 (r : Fin 200000) (k : Fin 256) (h0 : 140000 ≤ r.val) (h1 : r.val < 180000) :
    StableHlo.after hostOps0 w (Proc.devRef .tc main_v80) (ValueIdx.ix2 r k) = kA4 (w (Proc.devRef .tc main_arg0)) (w (Proc.devRef .tc main_arg5)) (ValueIdx.ix2 ⟨r.val - 140000, by omega⟩ k) :=
  (congrFun (host0_v80 w) _).trans (cat5_row4 (kA1 (w (Proc.devRef .tc main_arg0)) (w (Proc.devRef .tc main_arg2))) (kA2 (w (Proc.devRef .tc main_arg0)) (w (Proc.devRef .tc main_arg3))) (kA3 (w (Proc.devRef .tc main_arg0)) (w (Proc.devRef .tc main_arg4))) (kA4 (w (Proc.devRef .tc main_arg0)) (w (Proc.devRef .tc main_arg5))) (kA5 (w (Proc.devRef .tc main_arg0)) (w (Proc.devRef .tc main_arg6))) concatenates_S20000x256_S60000x256_S60000x256_S40000x256_S20000x256_S200000x256_d0 r k (by omega) (by omega))
theorem host0_v80_row5 (r : Fin 200000) (k : Fin 256) (h0 : 180000 ≤ r.val) :
    StableHlo.after hostOps0 w (Proc.devRef .tc main_v80) (ValueIdx.ix2 r k) = kA5 (w (Proc.devRef .tc main_arg0)) (w (Proc.devRef .tc main_arg6)) (ValueIdx.ix2 ⟨r.val - 180000, by omega⟩ k) :=
  (congrFun (host0_v80 w) _).trans (cat5_row5 (kA1 (w (Proc.devRef .tc main_arg0)) (w (Proc.devRef .tc main_arg2))) (kA2 (w (Proc.devRef .tc main_arg0)) (w (Proc.devRef .tc main_arg3))) (kA3 (w (Proc.devRef .tc main_arg0)) (w (Proc.devRef .tc main_arg4))) (kA4 (w (Proc.devRef .tc main_arg0)) (w (Proc.devRef .tc main_arg5))) (kA5 (w (Proc.devRef .tc main_arg0)) (w (Proc.devRef .tc main_arg6))) concatenates_S20000x256_S60000x256_S60000x256_S40000x256_S20000x256_S200000x256_d0 r k (by omega) (by omega))

theorem host0_v81_row1 (r : Fin 200000) (k : Fin 6) (h : r.val < 20000) :
    StableHlo.after hostOps0 w (Proc.devRef .tc main_v81) (ValueIdx.ix2 r k) = kB1 (w (Proc.devRef .tc main_arg1)) (w (Proc.devRef .tc main_arg7)) (ValueIdx.ix2 ⟨r.val, h⟩ k) :=
  (congrFun (host0_v81 w) _).trans (cat5_row1 (kB1 (w (Proc.devRef .tc main_arg1)) (w (Proc.devRef .tc main_arg7))) (kB2 (w (Proc.devRef .tc main_arg1)) (w (Proc.devRef .tc main_arg8))) (kB3 (w (Proc.devRef .tc main_arg1)) (w (Proc.devRef .tc main_arg9))) (kB4 (w (Proc.devRef .tc main_arg1)) (w (Proc.devRef .tc main_arg10))) (kB5 (w (Proc.devRef .tc main_arg1)) (w (Proc.devRef .tc main_arg11))) concatenates_S20000x6_S60000x6_S60000x6_S40000x6_S20000x6_S200000x6_d0 r k h)
theorem host0_v81_row2 (r : Fin 200000) (k : Fin 6) (h0 : 20000 ≤ r.val) (h1 : r.val < 80000) :
    StableHlo.after hostOps0 w (Proc.devRef .tc main_v81) (ValueIdx.ix2 r k) = kB2 (w (Proc.devRef .tc main_arg1)) (w (Proc.devRef .tc main_arg8)) (ValueIdx.ix2 ⟨r.val - 20000, by omega⟩ k) :=
  (congrFun (host0_v81 w) _).trans (cat5_row2 (kB1 (w (Proc.devRef .tc main_arg1)) (w (Proc.devRef .tc main_arg7))) (kB2 (w (Proc.devRef .tc main_arg1)) (w (Proc.devRef .tc main_arg8))) (kB3 (w (Proc.devRef .tc main_arg1)) (w (Proc.devRef .tc main_arg9))) (kB4 (w (Proc.devRef .tc main_arg1)) (w (Proc.devRef .tc main_arg10))) (kB5 (w (Proc.devRef .tc main_arg1)) (w (Proc.devRef .tc main_arg11))) concatenates_S20000x6_S60000x6_S60000x6_S40000x6_S20000x6_S200000x6_d0 r k h0 (by omega))
theorem host0_v81_row3 (r : Fin 200000) (k : Fin 6) (h0 : 80000 ≤ r.val) (h1 : r.val < 140000) :
    StableHlo.after hostOps0 w (Proc.devRef .tc main_v81) (ValueIdx.ix2 r k) = kB3 (w (Proc.devRef .tc main_arg1)) (w (Proc.devRef .tc main_arg9)) (ValueIdx.ix2 ⟨r.val - 80000, by omega⟩ k) :=
  (congrFun (host0_v81 w) _).trans (cat5_row3 (kB1 (w (Proc.devRef .tc main_arg1)) (w (Proc.devRef .tc main_arg7))) (kB2 (w (Proc.devRef .tc main_arg1)) (w (Proc.devRef .tc main_arg8))) (kB3 (w (Proc.devRef .tc main_arg1)) (w (Proc.devRef .tc main_arg9))) (kB4 (w (Proc.devRef .tc main_arg1)) (w (Proc.devRef .tc main_arg10))) (kB5 (w (Proc.devRef .tc main_arg1)) (w (Proc.devRef .tc main_arg11))) concatenates_S20000x6_S60000x6_S60000x6_S40000x6_S20000x6_S200000x6_d0 r k (by omega) (by omega))
theorem host0_v81_row4 (r : Fin 200000) (k : Fin 6) (h0 : 140000 ≤ r.val) (h1 : r.val < 180000) :
    StableHlo.after hostOps0 w (Proc.devRef .tc main_v81) (ValueIdx.ix2 r k) = kB4 (w (Proc.devRef .tc main_arg1)) (w (Proc.devRef .tc main_arg10)) (ValueIdx.ix2 ⟨r.val - 140000, by omega⟩ k) :=
  (congrFun (host0_v81 w) _).trans (cat5_row4 (kB1 (w (Proc.devRef .tc main_arg1)) (w (Proc.devRef .tc main_arg7))) (kB2 (w (Proc.devRef .tc main_arg1)) (w (Proc.devRef .tc main_arg8))) (kB3 (w (Proc.devRef .tc main_arg1)) (w (Proc.devRef .tc main_arg9))) (kB4 (w (Proc.devRef .tc main_arg1)) (w (Proc.devRef .tc main_arg10))) (kB5 (w (Proc.devRef .tc main_arg1)) (w (Proc.devRef .tc main_arg11))) concatenates_S20000x6_S60000x6_S60000x6_S40000x6_S20000x6_S200000x6_d0 r k (by omega) (by omega))
theorem host0_v81_row5 (r : Fin 200000) (k : Fin 6) (h0 : 180000 ≤ r.val) :
    StableHlo.after hostOps0 w (Proc.devRef .tc main_v81) (ValueIdx.ix2 r k) = kB5 (w (Proc.devRef .tc main_arg1)) (w (Proc.devRef .tc main_arg11)) (ValueIdx.ix2 ⟨r.val - 180000, by omega⟩ k) :=
  (congrFun (host0_v81 w) _).trans (cat5_row5 (kB1 (w (Proc.devRef .tc main_arg1)) (w (Proc.devRef .tc main_arg7))) (kB2 (w (Proc.devRef .tc main_arg1)) (w (Proc.devRef .tc main_arg8))) (kB3 (w (Proc.devRef .tc main_arg1)) (w (Proc.devRef .tc main_arg9))) (kB4 (w (Proc.devRef .tc main_arg1)) (w (Proc.devRef .tc main_arg10))) (kB5 (w (Proc.devRef .tc main_arg1)) (w (Proc.devRef .tc main_arg11))) concatenates_S20000x6_S60000x6_S60000x6_S40000x6_S20000x6_S200000x6_d0 r k (by omega) (by omega))

/-! ### The weights -/

/-- The five weight matrices, by group. -/
def kWst : Fin 5 → (⟨S262x256, .f32⟩ : BufTy).Contents (Elt F) :=
  pick5 (β := (⟨S262x256, .f32⟩ : BufTy).Contents (Elt F)) (w (Proc.devRef .tc main_arg14)) (w (Proc.devRef .tc main_arg15)) (w (Proc.devRef .tc main_arg16)) (w (Proc.devRef .tc main_arg17)) (w (Proc.devRef .tc main_arg18))

set_option maxHeartbeats 4000000 in
/-- The self weights in the narrow format. -/
theorem host0_v104_eq : StableHlo.after hostOps0 w (Proc.devRef .tc main_v104)
    = truncf .bf16 ((w (Proc.devRef .tc main_arg12)) : (⟨S256x256, .f32⟩ : BufTy).Contents (Elt F)) bitsLt_bf16_f32 := by
  simp (disch := decide) only [StableHlo.after_cons, StableHlo.after_nil,
      StableHlo.nullary_result', StableHlo.unary_result', StableHlo.binary_result', StableHlo.ternary_result', StableHlo.nary5_result',
      StableHlo.nullary_result_ne', StableHlo.unary_result_ne', StableHlo.binary_result_ne', StableHlo.ternary_result_ne', StableHlo.nary_result_ne']

set_option maxHeartbeats 4000000 in
/-- The stack of the weight matrices' first 256 rows, in the narrow format. -/
theorem host0_v105_eq : StableHlo.after hostOps0 w (Proc.devRef .tc main_v105)
    = truncf .bf16 (concatenate S5x256x256 0
        [⟨S1x256x256, kTop (w (Proc.devRef .tc main_arg14))⟩, ⟨S1x256x256, kTop (w (Proc.devRef .tc main_arg15))⟩, ⟨S1x256x256, kTop (w (Proc.devRef .tc main_arg16))⟩,
         ⟨S1x256x256, kTop (w (Proc.devRef .tc main_arg17))⟩, ⟨S1x256x256, kTop (w (Proc.devRef .tc main_arg18))⟩]
        concatenates_S1x256x256_S1x256x256_S1x256x256_S1x256x256_S1x256x256_S5x256x256_d0) bitsLt_bf16_f32 := by
  simp (disch := decide) only [StableHlo.after_cons, StableHlo.after_nil,
      StableHlo.nullary_result', StableHlo.unary_result', StableHlo.binary_result', StableHlo.ternary_result', StableHlo.nary5_result',
      StableHlo.nullary_result_ne', StableHlo.unary_result_ne', StableHlo.binary_result_ne', StableHlo.ternary_result_ne', StableHlo.nary_result_ne']
  rfl

set_option maxHeartbeats 4000000 in
/-- The stack of the weight matrices' last 6 rows, in the narrow format. -/
theorem host0_v106_eq : StableHlo.after hostOps0 w (Proc.devRef .tc main_v106)
    = truncf .bf16 (concatenate S5x6x256 0
        [⟨S1x6x256, kBot (w (Proc.devRef .tc main_arg14))⟩, ⟨S1x6x256, kBot (w (Proc.devRef .tc main_arg15))⟩, ⟨S1x6x256, kBot (w (Proc.devRef .tc main_arg16))⟩,
         ⟨S1x6x256, kBot (w (Proc.devRef .tc main_arg17))⟩, ⟨S1x6x256, kBot (w (Proc.devRef .tc main_arg18))⟩]
        concatenates_S1x6x256_S1x6x256_S1x6x256_S1x6x256_S1x6x256_S5x6x256_d0) bitsLt_bf16_f32 := by
  simp (disch := decide) only [StableHlo.after_cons, StableHlo.after_nil,
      StableHlo.nullary_result', StableHlo.unary_result', StableHlo.binary_result', StableHlo.ternary_result', StableHlo.nary5_result',
      StableHlo.nullary_result_ne', StableHlo.unary_result_ne', StableHlo.binary_result_ne', StableHlo.ternary_result_ne', StableHlo.nary_result_ne']
  rfl

end Results2

/-! ### At the ideal numbers a change of format is the identity -/

section AtIdeal
variable (w : Valuation τ sig (Elt Ideal))

theorem host0_v104 (k j : Fin 256) :
    StableHlo.after hostOps0 w (Proc.devRef .tc main_v104) (ValueIdx.ix2 k j) = (w (Proc.devRef .tc main_arg12)) (ValueIdx.ix2 k j) :=
  (congrFun (host0_v104_eq w) _).trans rfl

theorem host0_v105 (d : Fin 5) (k j : Fin 256) :
    StableHlo.after hostOps0 w (Proc.devRef .tc main_v105) (ValueIdx.ix3 d k j) = kWst w d (ValueIdx.ix2 (Fin.castAdd 6 k) j) := by
  refine (congrFun (host0_v105_eq w) _).trans ?_
  refine (cat5_lead (kTop (w (Proc.devRef .tc main_arg14))) (kTop (w (Proc.devRef .tc main_arg15))) (kTop (w (Proc.devRef .tc main_arg16))) (kTop (w (Proc.devRef .tc main_arg17))) (kTop (w (Proc.devRef .tc main_arg18)))
    concatenates_S1x256x256_S1x256x256_S1x256x256_S1x256x256_S1x256x256_S5x256x256_d0 d k j).trans ?_
  unfold kWst
  match d with
  | ⟨0, _⟩ => exact kTop_apply _ k j
  | ⟨1, _⟩ => exact kTop_apply _ k j
  | ⟨2, _⟩ => exact kTop_apply _ k j
  | ⟨3, _⟩ => exact kTop_apply _ k j
  | ⟨4, _⟩ => exact kTop_apply _ k j

theorem host0_v106 (d : Fin 5) (k : Fin 6) (j : Fin 256) :
    StableHlo.after hostOps0 w (Proc.devRef .tc main_v106) (ValueIdx.ix3 d k j) = kWst w d (ValueIdx.ix2 (Fin.natAdd 256 k) j) := by
  refine (congrFun (host0_v106_eq w) _).trans ?_
  refine (cat5_lead (kBot (w (Proc.devRef .tc main_arg14))) (kBot (w (Proc.devRef .tc main_arg15))) (kBot (w (Proc.devRef .tc main_arg16))) (kBot (w (Proc.devRef .tc main_arg17))) (kBot (w (Proc.devRef .tc main_arg18)))
    concatenates_S1x6x256_S1x6x256_S1x6x256_S1x6x256_S1x6x256_S5x6x256_d0 d k j).trans ?_
  unfold kWst
  match d with
  | ⟨0, _⟩ => exact kBot_apply _ k j
  | ⟨1, _⟩ => exact kBot_apply _ k j
  | ⟨2, _⟩ => exact kBot_apply _ k j
  | ⟨3, _⟩ => exact kBot_apply _ k j
  | ⟨4, _⟩ => exact kBot_apply _ k j

end AtIdeal

end Cert.KernelIdeal.Hand
end
-- ==== Proof.KiHost0Ref.lean ====
/-
  Each group's neighbour-sum term of the kernel's program is the reference program's term for the same group: the
  two programs apply the same operations (normalise the indices, gather, add up over the neighbour axis), their
  shape and gather records live in different namespaces with equal fields, and both terms unfold to one library term.
  Stated at any float family; the terms stay folded everywhere else.
-/
import proofs.«416437_j22935125360693_3_alg».proof.Proof.KiHost0
import proofs.«416437_j22935125360693_3_alg».proof.Proof.Gen.ReferenceIdeal.Read

set_option maxRecDepth 16384

noncomputable section

namespace Cert.KernelIdeal.Hand

open Idealize.ShloMosaic Idealize.ShloMosaic.TcCoe
open Cert.KernelIdeal

variable {F : FTy → Type} [FloatOps F]

theorem kA1_eq_ref (x : (⟨S200000x256, .f32⟩ : BufTy).Contents (Elt F)) (ix : (⟨S20000x1, .i32⟩ : BufTy).Contents (Elt F)) :
    kA1 x ix = Cert.ReferenceIdeal.Read.val_main_v8 (F := F) x ix := rfl
theorem kB1_eq_ref (x : (⟨S260000x6, .f32⟩ : BufTy).Contents (Elt F)) (ix : (⟨S20000x1, .i32⟩ : BufTy).Contents (Elt F)) :
    kB1 x ix = Cert.ReferenceIdeal.Read.val_main_v16 (F := F) x ix := rfl
theorem kA2_eq_ref (x : (⟨S200000x256, .f32⟩ : BufTy).Contents (Elt F)) (ix : (⟨S60000x2, .i32⟩ : BufTy).Contents (Elt F)) :
    kA2 x ix = Cert.ReferenceIdeal.Read.val_main_v26 (F := F) x ix := rfl
theorem kB2_eq_ref (x : (⟨S260000x6, .f32⟩ : BufTy).Contents (Elt F)) (ix : (⟨S60000x2, .i32⟩ : BufTy).Contents (Elt F)) :
    kB2 x ix = Cert.ReferenceIdeal.Read.val_main_v34 (F := F) x ix := rfl
theorem kA3_eq_ref (x : (⟨S200000x256, .f32⟩ : BufTy).Contents (Elt F)) (ix : (⟨S60000x3, .i32⟩ : BufTy).Contents (Elt F)) :
    kA3 x ix = Cert.ReferenceIdeal.Read.val_main_v44 (F := F) x ix := rfl
theorem kB3_eq_ref (x : (⟨S260000x6, .f32⟩ : BufTy).Contents (Elt F)) (ix : (⟨S60000x3, .i32⟩ : BufTy).Contents (Elt F)) :
    kB3 x ix = Cert.ReferenceIdeal.Read.val_main_v52 (F := F) x ix := rfl
theorem kA4_eq_ref (x : (⟨S200000x256, .f32⟩ : BufTy).Contents (Elt F)) (ix : (⟨S40000x4, .i32⟩ : BufTy).Contents (Elt F)) :
    kA4 x ix = Cert.ReferenceIdeal.Read.val_main_v62 (F := F) x ix := rfl
theorem kB4_eq_ref (x : (⟨S260000x6, .f32⟩ : BufTy).Contents (Elt F)) (ix : (⟨S40000x4, .i32⟩ : BufTy).Contents (Elt F)) :
    kB4 x ix = Cert.ReferenceIdeal.Read.val_main_v70 (F := F) x ix := rfl
theorem kA5_eq_ref (x : (⟨S200000x256, .f32⟩ : BufTy).Contents (Elt F)) (ix : (⟨S20000x5, .i32⟩ : BufTy).Contents (Elt F)) :
    kA5 x ix = Cert.ReferenceIdeal.Read.val_main_v80 (F := F) x ix := rfl
theorem kB5_eq_ref (x : (⟨S260000x6, .f32⟩ : BufTy).Contents (Elt F)) (ix : (⟨S20000x5, .i32⟩ : BufTy).Contents (Elt F)) :
    kB5 x ix = Cert.ReferenceIdeal.Read.val_main_v88 (F := F) x ix := rfl

end Cert.KernelIdeal.Hand

end
-- ==== Proof.KiValHost0.lean ====
/-
  The first stretch's results as the first region's proof data read them: at the fold's valuation after the first
  stretch, over the launch contents of the argument arrays, at the ideal numbers. The two row-concatenations are the
  reference's neighbour sums (group by group the reference's own stage term); the stacked weights are the argument
  matrices' rows; the self weights, the features and the bias are the argument arrays themselves.
-/
import proofs.«416437_j22935125360693_3_alg».proof.Proof.KiFold
import proofs.«416437_j22935125360693_3_alg».proof.Proof.RefIsG
import proofs.«416437_j22935125360693_3_alg».proof.Proof.KiHost0Ref

set_option maxRecDepth 16384

noncomputable section

namespace Cert.KernelIdeal.Hand

open Idealize.ShloMosaic Idealize.ShloMosaic.TcCoe
open Idealize.SL.Sem
open Cert.KernelIdeal Cert.KernelIdeal.Gen
open Cert.ReferenceIdeal.RefValue (Acat Bcat Wst)

variable (m : (ℓ : Loc nD τ sig) → Buf (Elt Ideal) ℓ) (ρ : Dev nD → PrngReg) (c : Dev nD)

/-- The neighbour sums of the 256-column table are the reference's, row by row. -/
theorem V1_v80 (r : Fin 200000) (k : Fin 256) :
    V1 m ρ c main_v80 (ValueIdx.ix2 r k)
      = Acat (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) r k := by
  by_cases h1 : r.val < 20000
  · rw [Cert.ReferenceIdeal.RefValue.Acat_1 _ _ _ _ _ _ r k h1]
    exact (host0_v80_row1 (W0 m ρ c) r k h1).trans (congrFun (kA1_eq_ref _ _) _)
  by_cases h2 : r.val < 80000
  · rw [Cert.ReferenceIdeal.RefValue.Acat_2 _ _ _ _ _ _ r k (by omega) h2]
    exact (host0_v80_row2 (W0 m ρ c) r k (by omega) h2).trans (congrFun (kA2_eq_ref _ _) _)
  by_cases h3 : r.val < 140000
  · rw [Cert.ReferenceIdeal.RefValue.Acat_3 _ _ _ _ _ _ r k (by omega) h3]
    exact (host0_v80_row3 (W0 m ρ c) r k (by omega) h3).trans (congrFun (kA3_eq_ref _ _) _)
  by_cases h4 : r.val < 180000
  · rw [Cert.ReferenceIdeal.RefValue.Acat_4 _ _ _ _ _ _ r k (by omega) h4]
    exact (host0_v80_row4 (W0 m ρ c) r k (by omega) h4).trans (congrFun (kA4_eq_ref _ _) _)
  · rw [Cert.ReferenceIdeal.RefValue.Acat_5 _ _ _ _ _ _ r k (by omega)]
    exact (host0_v80_row5 (W0 m ρ c) r k (by omega)).trans (congrFun (kA5_eq_ref _ _) _)

/-- The neighbour sums of the six-column table are the reference's, row by row. -/
theorem V1_v81 (r : Fin 200000) (k : Fin 6) :
    V1 m ρ c main_v81 (ValueIdx.ix2 r k)
      = Bcat (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) r k := by
  by_cases h1 : r.val < 20000
  · rw [Cert.ReferenceIdeal.RefValue.Bcat_1 _ _ _ _ _ _ r k h1]
    exact (host0_v81_row1 (W0 m ρ c) r k h1).trans (congrFun (kB1_eq_ref _ _) _)
  by_cases h2 : r.val < 80000
  · rw [Cert.ReferenceIdeal.RefValue.Bcat_2 _ _ _ _ _ _ r k (by omega) h2]
    exact (host0_v81_row2 (W0 m ρ c) r k (by omega) h2).trans (congrFun (kB2_eq_ref _ _) _)
  by_cases h3 : r.val < 140000
  · rw [Cert.ReferenceIdeal.RefValue.Bcat_3 _ _ _ _ _ _ r k (by omega) h3]
    exact (host0_v81_row3 (W0 m ρ c) r k (by omega) h3).trans (congrFun (kB3_eq_ref _ _) _)
  by_cases h4 : r.val < 180000
  · rw [Cert.ReferenceIdeal.RefValue.Bcat_4 _ _ _ _ _ _ r k (by omega) h4]
    exact (host0_v81_row4 (W0 m ρ c) r k (by omega) h4).trans (congrFun (kB4_eq_ref _ _) _)
  · rw [Cert.ReferenceIdeal.RefValue.Bcat_5 _ _ _ _ _ _ r k (by omega)]
    exact (host0_v81_row5 (W0 m ρ c) r k (by omega)).trans (congrFun (kB5_eq_ref _ _) _)

/-- The self weights are the argument's. -/
theorem V1_v104 (k j : Fin 256) :
    V1 m ρ c main_v104 (ValueIdx.ix2 k j) = (m ((c : Thread nD τ).loc main_arg12)) (ValueIdx.ix2 k j) :=
  host0_v104 (W0 m ρ c) k j

/-- The group weights' first 256 rows. -/
theorem V1_v105 (d : Fin 5) (k j : Fin 256) :
    V1 m ρ c main_v105 (ValueIdx.ix3 d k j)
      = Wst (m ((c : Thread nD τ).loc main_arg14)) (m ((c : Thread nD τ).loc main_arg15)) (m ((c : Thread nD τ).loc main_arg16)) (m ((c : Thread nD τ).loc main_arg17)) (m ((c : Thread nD τ).loc main_arg18)) d (Fin.castAdd 6 k) j := by
  refine (host0_v105 (W0 m ρ c) d k j).trans ?_
  match d with
  | ⟨0, _⟩ => rfl
  | ⟨1, _⟩ => rfl
  | ⟨2, _⟩ => rfl
  | ⟨3, _⟩ => rfl
  | ⟨4, _⟩ => rfl

/-- The group weights' last 6 rows. -/
theorem V1_v106 (d : Fin 5) (k : Fin 6) (j : Fin 256) :
    V1 m ρ c main_v106 (ValueIdx.ix3 d k j)
      = Wst (m ((c : Thread nD τ).loc main_arg14)) (m ((c : Thread nD τ).loc main_arg15)) (m ((c : Thread nD τ).loc main_arg16)) (m ((c : Thread nD τ).loc main_arg17)) (m ((c : Thread nD τ).loc main_arg18)) d (Fin.natAdd 256 k) j := by
  refine (host0_v106 (W0 m ρ c) d k j).trans ?_
  match d with
  | ⟨0, _⟩ => rfl
  | ⟨1, _⟩ => rfl
  | ⟨2, _⟩ => rfl
  | ⟨3, _⟩ => rfl
  | ⟨4, _⟩ => rfl

/-- An argument array is as launched when the first region is entered. -/
theorem V1_arg (b : Ref sig .tc) (hb : Proc.devRef .tc b ∈ (argRefs : Finset (DevRef τ sig))) :
    V1 m ρ c b = m ((c : Thread nD τ).loc b) :=
  (StableHlo.after_of_forall_not_mem _ _ fun op hop => hostOps0_args op hop _ hb).trans rfl

/-- The features are as launched. -/
theorem V1_arg0 : V1 m ρ c main_arg0 = (m ((c : Thread nD τ).loc main_arg0)) := V1_arg m ρ c main_arg0 (by decide)
/-- The bias is as launched. -/
theorem V1_arg13 : V1 m ρ c main_arg13 = (m ((c : Thread nD τ).loc main_arg13)) := V1_arg m ρ c main_arg13 (by decide)

end Cert.KernelIdeal.Hand

end
-- ==== Proof.KiValHost1.lean ====
/-
  What the second stretch of host operations leaves, element by element, over the extended reals.

  The stretch reads the two [16,256] statistics arrays the first region wrote — rows 0 and 8 hold the two cores'
  partial column sums (of the totals, and of their squares) — adds the two rows, divides by the number of rows to
  get the column means, and takes the mean of the squares less the square of the mean, cut at zero, as the column
  variances. It writes neither the array of totals nor any argument array.
-/
import proofs.«416437_j22935125360693_3_alg».proof.Proof.KiFold
import proofs.«416437_j22935125360693_3_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

namespace Host1

/-! ## The stretch's arithmetic, as functions of the two statistics arrays -/

/-- Row r of a [16,256] array, cut out as a [1,256] slice and viewed as a 256-vector: at lane j the array at (r, j). -/
theorem oneRow_apply (S : S16x256.Idx → EReal) (off : Fin 2 → Nat) (h : S16x256.Slices off S1x256) (r : Fin 16)
    (h0 : off 0 = r.val) (h1 : off 1 = 0) (j : Fin 256) :
    shapeCast S256 (extractStridedSlice S1x256 off S h) shapeCasts_S1x256_S256 (ix1 j) = S (ix2 r j) := by
  refine (shapeCast_apply _ shapeCasts_S1x256_S256 (ix1 j) (ix2 (0 : Fin 1) j) (by
    rw [Shape.rowMajor_val_two, Shape.rowMajor_val_one]; show 0 * 256 + j.val = j.val; omega)).trans ?_
  refine extractStridedSlice_apply off S h (ix2 (0 : Fin 1) j) (ix2 r j) fun a => ?_
  match a with
  | ⟨0, _⟩ => show r.val = off 0 + 0; omega
  | ⟨1, _⟩ => show j.val = off 1 + j.val; omega

/-- The two cores' partial sums: rows 0 and 8 of the array, added lane by lane. -/
def bothCores (S : S16x256.Idx → EReal) : S256.Idx → EReal :=
  addf (F := Ideal) (φ := .f32)
    (shapeCast S256 (extractStridedSlice S1x256 ![0, 0] S slices_S16x256_S1x256_0_0) shapeCasts_S1x256_S256)
    (shapeCast S256 (extractStridedSlice S1x256 ![8, 0] S slices_S16x256_S1x256_8_0) shapeCasts_S1x256_S256)

theorem bothCores_apply (S : S16x256.Idx → EReal) (j : Fin 256) :
    bothCores S (ix1 j) = S (ix2 (0 : Fin 16) j) + S (ix2 (8 : Fin 16) j) := by
  unfold bothCores
  refine (addf_apply _ _ (ix1 j)).trans ?_
  rw [oneRow_apply S ![0, 0] slices_S16x256_S1x256_0_0 0 rfl rfl j, oneRow_apply S ![8, 0] slices_S16x256_S1x256_8_0 8 rfl rfl j]

/-- A 256-vector divided, lane by lane, by the number of rows. -/
def perRow (x : S256.Idx → EReal) : S256.Idx → EReal :=
  Host.divf (F := Ideal) (φ := .f32) x (broadcastInDim S256 ![] bcast_S_S256 (constant (F := Ideal) S_ .f32 0x48435000#32))

theorem perRow_apply (x : S256.Idx → EReal) (j : Fin 256) : perRow x (ix1 j) = Ideal.div (x (ix1 j)) Cert.Spec.c200000 := rfl

/-- The column means: the added partial sums over the number of rows. -/
def colMean (S : S16x256.Idx → EReal) : S256.Idx → EReal := perRow (bothCores S)

theorem colMean_apply (S : S16x256.Idx → EReal) (j : Fin 256) :
    colMean S (ix1 j) = Ideal.div (S (ix2 (0 : Fin 16) j) + S (ix2 (8 : Fin 16) j)) Cert.Spec.c200000 := by
  unfold colMean
  rw [perRow_apply, bothCores_apply]

/-- The column variances: the mean of the squares less the square of the mean, cut at zero. -/
def colVar (S Q : S16x256.Idx → EReal) : S256.Idx → EReal :=
  maximumf (F := Ideal) (φ := .f32)
    (subf (F := Ideal) (φ := .f32) (perRow (bothCores Q)) (mulf (F := Ideal) (φ := .f32) (colMean S) (colMean S)))
    (broadcastInDim S256 ![] bcast_S_S256 (constant (F := Ideal) S_ .f32 0x00000000#32))

theorem colVar_apply (S Q : S16x256.Idx → EReal) (j : Fin 256) :
    colVar S Q (ix1 j)
      = max (Ideal.div (Q (ix2 (0 : Fin 16) j) + Q (ix2 (8 : Fin 16) j)) Cert.Spec.c200000 - colMean S (ix1 j) * colMean S (ix1 j)) 0 := by
  unfold colVar
  show max (perRow (bothCores Q) (ix1 j) - colMean S (ix1 j) * colMean S (ix1 j)) (Ideal.ofBits .f32 0x00000000#32) = _
  rw [Ideal.ofBits_zero_f32, perRow_apply, bothCores_apply]

/-! ## The stretch, from any contents -/

section Stretch
variable (W : Valuation τ sig (Elt Ideal))

/-- After the stretch the mean buffer holds the column means of the column-sum array. -/
theorem after_v119 : (StableHlo.after hostOps1 W (Proc.devRef .tc main_v119) : S256.Idx → EReal)
    = colMean (W (Proc.devRef .tc main_v107_1)) := by
  show StableHlo.after hostOps1 W (Proc.devRef .tc main_v119) = _
  after_results
  rfl

/-- After the stretch the variance buffer holds the column variances of the two arrays. -/
theorem after_v125 : (StableHlo.after hostOps1 W (Proc.devRef .tc main_v125) : S256.Idx → EReal)
    = colVar (W (Proc.devRef .tc main_v107_1)) (W (Proc.devRef .tc main_v107_2)) := by
  show StableHlo.after hostOps1 W (Proc.devRef .tc main_v125) = _
  after_results
  rfl

/-- No operation of the stretch writes the array of totals. -/
theorem after_v107_0 : StableHlo.after hostOps1 W (Proc.devRef .tc main_v107_0) = W (Proc.devRef .tc main_v107_0) := by
  after_results

end Stretch

end Host1

/-! ## The stretch, from what the first region leaves -/

section AtRun
variable (m : (ℓ : Loc nD τ sig) → Buf (Elt Ideal) ℓ) (ρ : Dev nD → PrngReg) (c : Dev nD)

namespace Host1

/-- The column-sum array as the first region leaves it. -/
abbrev arr8 : S16x256.Idx → EReal := (dat0 (V1 m ρ) c).arrAt 8 (cfgA (F := Ideal)).N
/-- The sum-of-squares array as the first region leaves it. -/
abbrev arr9 : S16x256.Idx → EReal := (dat0 (V1 m ρ) c).arrAt 9 (cfgA (F := Ideal)).N

/-- The stretch starts from the column-sum array the region's write-backs left, -/
theorem W2_v107_1 : (W2 m ρ c (Proc.devRef .tc main_v107_1) : S16x256.Idx → EReal) = arr8 m ρ c := W2_arr m ρ c 8
/-- and from the sum-of-squares array they left. -/
theorem W2_v107_2 : (W2 m ρ c (Proc.devRef .tc main_v107_2) : S16x256.Idx → EReal) = arr9 m ρ c := W2_arr m ρ c 9

/-- The mean buffer, as a whole. -/
theorem V3_v119_eq : (V3 m ρ c main_v119 : S256.Idx → EReal) = colMean (arr8 m ρ c) :=
  (after_v119 (W2 m ρ c)).trans (congrArg colMean (W2_v107_1 m ρ c))

/-- The variance buffer, as a whole. -/
theorem V3_v125_eq : (V3 m ρ c main_v125 : S256.Idx → EReal) = colVar (arr8 m ρ c) (arr9 m ρ c) :=
  (after_v125 (W2 m ρ c)).trans (congr (congrArg colVar (W2_v107_1 m ρ c)) (W2_v107_2 m ρ c))

end Host1

/-- The column mean at lane j, under any name μ of the mean buffer as a function into the extended reals: the two
    cores' partial sums, added, over the number of rows. -/
theorem V3_v119_of (μ : S256.Idx → EReal) (hμ : μ = V3 m ρ c main_v119) (j : Fin 256) :
    μ (ix1 j)
      = Ideal.div (Host1.arr8 m ρ c (ix2 (0 : Fin 16) j) + Host1.arr8 m ρ c (ix2 (8 : Fin 16) j)) Cert.Spec.c200000 :=
  (congrFun (hμ.trans (Host1.V3_v119_eq m ρ c)) (ix1 j)).trans (Host1.colMean_apply _ j)

/-- The column variance at lane j, under any names μ, ν of the mean and variance buffers: the mean of the squares
    less the square of the mean, cut at zero. -/
theorem V3_v125_of (μ ν : S256.Idx → EReal) (hμ : μ = V3 m ρ c main_v119) (hν : ν = V3 m ρ c main_v125) (j : Fin 256) :
    ν (ix1 j)
      = max (Ideal.div (Host1.arr9 m ρ c (ix2 (0 : Fin 16) j) + Host1.arr9 m ρ c (ix2 (8 : Fin 16) j)) Cert.Spec.c200000
          - μ (ix1 j) * μ (ix1 j)) 0 := by
  refine (congrFun (hν.trans (Host1.V3_v125_eq m ρ c)) (ix1 j)).trans ((Host1.colVar_apply _ _ j).trans ?_)
  rw [congrFun (hμ.trans (Host1.V3_v119_eq m ρ c)) (ix1 j)]

namespace Host1
/-- The mean buffer when the second region is entered, as a function into the extended reals. -/
abbrev mean3 : S256.Idx → EReal := V3 m ρ c main_v119
/-- The variance buffer when the second region is entered, as a function into the extended reals. -/
abbrev var3 : S256.Idx → EReal := V3 m ρ c main_v125
end Host1

/-- The column mean at lane j. -/
theorem V3_v119 (j : Fin 256) :
    Host1.mean3 m ρ c (ix1 j)
      = Ideal.div (Host1.arr8 m ρ c (ix2 (0 : Fin 16) j) + Host1.arr8 m ρ c (ix2 (8 : Fin 16) j)) Cert.Spec.c200000 :=
  V3_v119_of m ρ c _ rfl j

/-- The column variance at lane j. -/
theorem V3_v125 (j : Fin 256) :
    Host1.var3 m ρ c (ix1 j)
      = max (Ideal.div (Host1.arr9 m ρ c (ix2 (0 : Fin 16) j) + Host1.arr9 m ρ c (ix2 (8 : Fin 16) j)) Cert.Spec.c200000
          - Host1.mean3 m ρ c (ix1 j) * Host1.mean3 m ρ c (ix1 j)) 0 :=
  V3_v125_of m ρ c _ _ rfl rfl j

/-- The second region's first window stages the array of totals as the first region left it. -/
theorem V3_win0 : V3 m ρ c (Pipeline.arrRef spec1 0) = (dat0 (V1 m ρ) c).arrAt 7 (cfgA (F := Ideal)).N :=
  (Host1.after_v107_0 (W2 m ρ c)).trans (W2_arr m ρ c 7)

/-- An argument array that the first region does not window is as launched when the second region is entered. -/
theorem V3_arg (b : Ref sig .tc) (hb : Proc.devRef .tc b ∈ (argRefs : Finset (DevRef τ sig)))
    (h0 : ∀ w, Pipeline.arrRef spec0 w ≠ b) : V3 m ρ c b = m ((c : Thread nD τ).loc b) := by
  have e32 : W3 m ρ c (Proc.devRef .tc b) = W2 m ρ c (Proc.devRef .tc b) :=
    StableHlo.after_of_forall_not_mem _ _ fun op hop => hostOps1_args op hop _ hb
  have e21 : W2 m ρ c (Proc.devRef .tc b) = W1 m ρ c (Proc.devRef .tc b) := W2_of_ne m ρ c b h0
  have e10 : W1 m ρ c (Proc.devRef .tc b) = W0 m ρ c (Proc.devRef .tc b) :=
    StableHlo.after_of_forall_not_mem _ _ fun op hop => hostOps0_args op hop _ hb
  exact e32.trans (e21.trans (e10.trans rfl))

/-- The normalisation's scale is as launched. -/
theorem V3_arg19 : V3 m ρ c main_arg19 = m ((c : Thread nD τ).loc main_arg19) :=
  V3_arg m ρ c main_arg19 (by decide) (by decide)
/-- The normalisation's shift is as launched. -/
theorem V3_arg20 : V3 m ρ c main_arg20 = m ((c : Thread nD τ).loc main_arg20) :=
  V3_arg m ρ c main_arg20 (by decide) (by decide)

end AtRun

end Cert.KernelIdeal.Hand

end
-- ==== Proof.KiValOut.lean ====
/-
  What the normalisation region leaves in its output array, as one function of the buffers it is entered with,
  element by element, over the extended reals.
-/
import proofs.«416437_j22935125360693_3_alg».proof.Proof.KiReg1
import proofs.«416437_j22935125360693_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace Norm

/-! ## A layout step read at an index -/

section Layout
variable {α : Type}

/-- A 256-vector viewed as one row and repeated down 5000 rows reads, at row r and column j, the vector at j. -/
theorem rowBcast_apply (x : S256.Idx → α) (r : Fin 5000) (j : Fin 256) :
    broadcastTo S5000x256 (shapeCast S1x256 x shapeCasts_S256_S1x256) broadcasts_S1x256_S5000x256 (ix2 r j) = x (ix1 j) := by
  refine (broadcastTo_apply _ broadcasts_S1x256_S5000x256 (ix2 r j) (ix2 (0 : Fin 1) j) (fun a => ?_)).trans ?_
  · match a with
    | ⟨0, _⟩ => rfl
    | ⟨1, _⟩ => rfl
  · refine (shapeCast_addUnit_apply ![256] x shapeCasts_S256_S1x256 (ix2 (0 : Fin 1) j)).trans ?_
    exact congrArg x (funext fun a => by match a with | ⟨0, _⟩ => rfl)

end Layout

theorem hz2 : (![0, 0] : Fin 2 → Nat) = fun _ => 0 := funext fun a => by fin_cases a <;> rfl
theorem hz1 : (![0] : Fin 1 → Nat) = fun _ => 0 := funext fun a => by fin_cases a; rfl

/-! ## The body's payload at an index -/

/-- The normalisation of one element: the deviation from the column mean times the reciprocal root of the column
    variance (cut at zero, plus the small constant), scaled and shifted. -/
theorem pay1_apply (x0 : Vec Ideal S5000x256 .f32) (xv xm xw xb : Vec Ideal S256 .f32) (r : Fin 5000) (j : Fin 256) :
    k1_pay1 x0 xv xm xw xb (ix2 r j)
      = (x0 (ix2 r j) - xm (ix1 j)) * Ideal.rsqrt (max (xv (ix1 j)) 0 + Ideal.ofBits .f32 0x3727C5AC#32) * xw (ix1 j) + xb (ix1 j) := by
  unfold k1_pay1
  simp only [shapeCast_self]
  simp only [addf_apply, mulf_apply, subf_apply, rowBcast_apply]
  show (x0 (ix2 r j) - xm (ix1 j)) * Ideal.rsqrt (max (xv (ix1 j)) (Ideal.ofBits .f32 0x00000000#32) + Ideal.ofBits .f32 0x3727C5AC#32) * xw (ix1 j) + xb (ix1 j) = _
  rw [Ideal.ofBits_zero_f32]

end Norm

/-! ## The output array of the normalisation region -/

section Out
variable (V : (c : Dev nD) → (b : Ref sig .tc) → Buf (Elt Ideal) ((c : Thread nD τ).loc b))

/-- The five arrays the region reads, as it finds them, each at its literal type: the totals, the column means, the
    column variances, the scale and the shift. -/
abbrev totIn (c : Dev nD) : S200000x256.Idx → EReal := V c main_v107_0
abbrev muIn (c : Dev nD) : S256.Idx → EReal := V c main_v119
abbrev varIn (c : Dev nD) : S256.Idx → EReal := V c main_v125
abbrev wtIn (c : Dev nD) : S256.Idx → EReal := V c main_arg19
abbrev bsIn (c : Dev nD) : S256.Idx → EReal := V c main_arg20

/-- What the region's output array ends holding, element by element: the deviation of the total from its column's
    mean, times the reciprocal root of the column's variance (cut at zero, plus the small constant), scaled and shifted. -/
def OutArr (c : Dev nD) : S200000x256.Idx → EReal := fun i =>
  (totIn V c i - muIn V c (ix1 (n := 256) (i 1)))
      * Ideal.rsqrt (max (varIn V c (ix1 (n := 256) (i 1))) 0 + Ideal.ofBits .f32 0x3727C5AC#32)
      * wtIn V c (ix1 (n := 256) (i 1))
    + bsIn V c (ix1 (n := 256) (i 1))

/-- At row r and column j. -/
theorem OutArr_ix2 (c : Dev nD) (r : Fin 200000) (j : Fin 256) :
    OutArr V c (ix2 r j)
      = (totIn V c (ix2 r j) - muIn V c (ix1 j)) * Ideal.rsqrt (max (varIn V c (ix1 j)) 0 + Ideal.ofBits .f32 0x3727C5AC#32)
          * wtIn V c (ix1 j) + bsIn V c (ix1 j) := rfl

namespace Norm

/-- Their blocks at a grid point, each at its literal type. -/
abbrev totBlk (c : Dev nD) (t : Fin cfg1.N) : Vec Ideal S5000x256 .f32 := iblk1 V c 0 t
abbrev muBlk (c : Dev nD) (t : Fin cfg1.N) : Vec Ideal S256 .f32 := iblk1 V c 1 t
abbrev varBlk (c : Dev nD) (t : Fin cfg1.N) : Vec Ideal S256 .f32 := iblk1 V c 2 t
abbrev wtBlk (c : Dev nD) (t : Fin cfg1.N) : Vec Ideal S256 .f32 := iblk1 V c 3 t
abbrev bsBlk (c : Dev nD) (t : Fin cfg1.N) : Vec Ideal S256 .f32 := iblk1 V c 4 t

/-- The printed index maps over the grid: at point t the row windows sit at block t, the vector windows at block 0. -/
theorem idx1_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

/-- The totals' block at point t is the totals read where the output's block lies. -/
theorem iblk1_0_eq (c : Dev nD) (t : Fin cfg1.N) (y : S5000x256.Idx) :
    totBlk V c t y = totIn V c (((cfg1.win 5).blk t).view.emb y) := by
  obtain ⟨e00, e01, e50, e51, -, -, -, -⟩ := idx1_facts t
  show totIn V c (((cfg1.win 0).blk t).view.emb y) = _
  refine congrArg _ (funext fun a => Fin.ext ?_)
  match a with
  | ⟨0, _⟩ => show win1_0.index t (0 : Fin 2) * 5000 + 1 * (y 0).val = win1_5.index t (0 : Fin 2) * 5000 + 1 * (y 0).val; omega
  | ⟨1, _⟩ => show win1_0.index t (1 : Fin 2) * 256 + 1 * (y 1).val = win1_5.index t (1 : Fin 2) * 256 + 1 * (y 1).val; omega

/-- Each vector window's block is the whole vector. -/
theorem iblk1_1_eq (c : Dev nD) (t : Fin cfg1.N) (j : Fin 256) :
    muBlk V c t (ix1 j) = muIn V c (ix1 j) := by
  obtain ⟨-, -, -, -, e1, -, -, -⟩ := idx1_facts t
  show muIn V c (((cfg1.win 1).blk t).view.emb (ix1 j)) = _
  refine congrArg _ (funext fun a => Fin.ext ?_)
  match a with
  | ⟨0, _⟩ => show win1_1.index t (0 : Fin 1) * 256 + 1 * j.val = j.val; omega
theorem iblk1_2_eq (c : Dev nD) (t : Fin cfg1.N) (j : Fin 256) :
    varBlk V c t (ix1 j) = varIn V c (ix1 j) := by
  obtain ⟨-, -, -, -, -, e2, -, -⟩ := idx1_facts t
  show varIn V c (((cfg1.win 2).blk t).view.emb (ix1 j)) = _
  refine congrArg _ (funext fun a => Fin.ext ?_)
  match a with
  | ⟨0, _⟩ => show win1_2.index t (0 : Fin 1) * 256 + 1 * j.val = j.val; omega
theorem iblk1_3_eq (c : Dev nD) (t : Fin cfg1.N) (j : Fin 256) :
    wtBlk V c t (ix1 j) = wtIn V c (ix1 j) := by
  obtain ⟨-, -, -, -, -, -, e3, -⟩ := idx1_facts t
  show wtIn V c (((cfg1.win 3).blk t).view.emb (ix1 j)) = _
  refine congrArg _ (funext fun a => Fin.ext ?_)
  match a with
  | ⟨0, _⟩ => show win1_3.index t (0 : Fin 1) * 256 + 1 * j.val = j.val; omega
theorem iblk1_4_eq (c : Dev nD) (t : Fin cfg1.N) (j : Fin 256) :
    bsBlk V c t (ix1 j) = bsIn V c (ix1 j) := by
  obtain ⟨-, -, -, -, -, -, -, e4⟩ := idx1_facts t
  show bsIn V c (((cfg1.win 4).blk t).view.emb (ix1 j)) = _
  refine congrArg _ (funext fun a => Fin.ext ?_)
  match a with
  | ⟨0, _⟩ => show win1_4.index t (0 : Fin 1) * 256 + 1 * j.val = j.val; omega

/-- The column of the array index under (r, j) of the output's block at point t is j. -/
theorem col_emb1_5 (t : Fin cfg1.N) (r : Fin 5000) (j : Fin 256) :
    ix1 (n := 256) ((((cfg1.win 5).blk t).view.emb (ix2 r j)) 1) = ix1 j := by
  obtain ⟨-, -, -, e51, -, -, -, -⟩ := idx1_facts t
  refine funext fun a => Fin.ext ?_
  match a with
  | ⟨0, _⟩ => show win1_5.index t (1 : Fin 2) * 256 + 1 * j.val = j.val; omega

/-- What the body stores at (r, j) of its block at point t is OutArr at the array index under it. -/
theorem blk_point (c : Dev nD) (t : Fin cfg1.N) (r : Fin 5000) (j : Fin 256) :
    k1_pay1 (totBlk V c t) (varBlk V c t) (muBlk V c t) (wtBlk V c t) (bsBlk V c t) (ix2 r j)
      = OutArr V c (((cfg1.win 5).blk t).view.emb (ix2 r j)) := by
  refine (pay1_apply (totBlk V c t) (varBlk V c t) (muBlk V c t) (wtBlk V c t) (bsBlk V c t) r j).trans ?_
  rw [iblk1_0_eq V c t (ix2 r j), iblk1_1_eq V c t j, iblk1_2_eq V c t j, iblk1_3_eq V c t j, iblk1_4_eq V c t j]
  unfold OutArr
  rw [col_emb1_5 t r j]

/-- WHAT POINT t WRITES BACK is block t of OutArr. -/
theorem flushed1_5_eq (c : Dev nD) (t : Fin cfg1.N) :
    (dat1 V c).flushed 5 t = ((cfg1.win 5).blk t).view.read (Elt Ideal) (OutArr V c) := by
  show (cfg1.win 5).cut (grid1.coords t) ((dat1 V c).after 5 t) = _
  rw [after1_5]
  unfold out1_5
  rw [View.canon_unit_zero hz2]
  simp only [View.ld_unit_zero (S := S5000x256) hz2, View.ld_unit_zero (S := S256) hz1]
  funext y
  obtain ⟨r, j, rfl⟩ : ∃ (r : Fin 5000) (j : Fin 256), y = ix2 r j := ⟨y 0, y 1, eq_ix2 (n0 := 5000) (n1 := 256) y⟩
  exact blk_point V c t r j

/-- An index of the array is in point t's block iff each coordinate is in the block's range on its axis. -/
theorem mem_blk1_5 (t : Fin cfg1.N) (i : S200000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v126).slice (win1_5.rect t)).set ↔ _
  rw [View.set_slice_whole, Rect.mem_set_unit]
  exact Iff.rfl

/-- Every row lies in the block of the point its row number divided by 5000 names. -/
theorem covered1_5 (i : S200000x256.Idx) :
    ∃ t : Fin cfg1.N, (cfg1.win 5).flush t = true ∧ i ∈ ((cfg1.win 5).blk t).view.set := by
  have hi0 : (i 0).val < 200000 := (i 0).isLt
  have hi1 : (i 1).val < 256 := (i 1).isLt
  have hN : cfg1.N = 40 := N_1
  refine ⟨⟨(i 0).val / 5000, by rw [hN]; omega⟩, flush1_5 _, ?_⟩
  obtain ⟨-, -, e50, e51, -, -, -, -⟩ := idx1_facts ⟨(i 0).val / 5000, by rw [hN]; omega⟩
  rw [mem_blk1_5]
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 256 ≤ (i 1).val ∧ (i 1).val < win1_5.index _ (1 : Fin 2) * 256 + 256
    rw [e51]; omega

end Norm

/-- THE OUTPUT ARRAY after the region: OutArr of the buffers the region is entered with. -/
theorem out_arr (c : Dev nD) : (dat1 (F := Ideal) V c).arrAt 5 cfg1.N = fun i => OutArr V c i :=
  (dat1 V c).arrAt_eq_of_cover 5 (OutArr V c) (fun t _ => Norm.flushed1_5_eq V c t) Norm.covered1_5

/-- The same at row r and column j, with the small constant by its name. -/
theorem out_arr_apply (c : Dev nD) (r : Fin 200000) (j : Fin 256) :
    ((dat1 (F := Ideal) V c).arrAt 5 cfg1.N : S200000x256.Idx → EReal) (ix2 r j)
      = (totIn V c (ix2 r j) - muIn V c (ix1 j)) * Ideal.rsqrt (max (varIn V c (ix1 j)) 0 + Cert.Spec.eps)
          * wtIn V c (ix1 j) + bsIn V c (ix1 j) :=
  congrFun (out_arr V c) (ix2 r j)

end Out

end Cert.KernelIdeal.Hand

end
-- ==== Proof.LibGatherSumReal.lean ====
/-
  A sum of gathered entries of a table of real numbers is a real number.

  Over the extended reals a gather reads, at each result index, the table at some index, whatever the integer start
  indices are; and the host's float sum is the initial value plus a finite sum of the operand's entries. So when
  every entry of the table is a real number (neither infinity), every entry of "gather, then reduce by addition from
  the constant zero" is a real number too. Stated with the plain proposition "there is a real r with v = r", so that
  the file needs nothing but the library.
-/
import Idealize.ShloMosaic.PureOps.Ideal
import Idealize.ShloMosaic.PureOps.Ideal.Laws

noncomputable section

open scoped BigOperators

namespace GatherSumReal

open Idealize.ShloMosaic

/-- The sum of two real numbers, read among the extended reals, is a real number. -/
theorem real_add {a b : EReal} (ha : ∃ r : ℝ, a = (r : EReal)) (hb : ∃ r : ℝ, b = (r : EReal)) : ∃ r : ℝ, a + b = (r : EReal) := by
  obtain ⟨u, rfl⟩ := ha; obtain ⟨v, rfl⟩ := hb
  exact ⟨u + v, (EReal.coe_add u v).symm⟩

/-- A finite sum of real numbers, read among the extended reals, is a real number. -/
theorem real_sum {α : Type*} (s : Finset α) (f : α → EReal) (h : ∀ i ∈ s, ∃ r : ℝ, f i = (r : EReal)) :
    ∃ r : ℝ, ∑ i ∈ s, f i = (r : EReal) :=
  Finset.sum_induction f (fun v => ∃ r : ℝ, v = (r : EReal)) (fun _ _ ha hb => real_add ha hb) ⟨0, rfl⟩ h

/-- The single-precision zero word is the real number zero. -/
theorem real_zero_word {u : Shape} (i : u.Idx) : ∃ r : ℝ, constant (F := Ideal) u .f32 0x00000000#32 i = (r : EReal) :=
  ⟨0, by show Ideal.ofBits .f32 0x00000000#32 = _; rw [Ideal.ofBits_zero_f32]; rfl⟩

/-- A gather of a table of real numbers holds real numbers only, whatever the start indices. -/
theorem real_gather {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

/-- The host's float sum of an array of real numbers from a real initial value holds real numbers only. -/
theorem real_reduceAdd {s t u : Shape} {axes : List (Fin s.rank)} {φ : FTy} (x : FVec Ideal s φ) (init : u.Idx → Ideal φ)
    (h : s.ReducesTo axes t) (hu : 0 < u.numel) (hx : ∀ i, ∃ r : ℝ, x i = (r : EReal))
    (hinit : ∀ i, ∃ r : ℝ, init i = (r : EReal)) (j : t.Idx) : ∃ r : ℝ, Host.reduceAdd x init h hu j = (r : EReal) := by
  show ∃ r : ℝ, init (Shape.Idx.first hu) + ∑ i ∈ Finset.univ.filter (fun i => h.drop i = j), x i = (r : EReal)
  exact real_add (hinit _) (real_sum _ _ fun i _ => hx i)

/-- Gather entries of a table of real numbers, then add them up along some axes from the constant zero: real numbers only. -/
theorem real_gather_sum {s si sg t u : Shape} {w : Nat} {axes : List (Fin sg.rank)} (d : GatherDims s si sg)
    (tbl : FVec Ideal s .f32) (idx : IVec si w) (hr : sg.ReducesTo axes t) (hu : 0 < u.numel)
    (htbl : ∀ i, ∃ r : ℝ, tbl i = (r : EReal)) (j : t.Idx) :
    ∃ r : ℝ, Host.reduceAdd (Host.gather d tbl idx) (constant u .f32 0x00000000#32) hr hu j = (r : EReal) :=
  real_reduceAdd _ _ hr hu (real_gather d tbl idx htbl) real_zero_word j

end GatherSumReal

end
-- ==== Proof.LibGcnAlgebra.lean ====
/-
  General lemmas for certificates of graph convolutions at the extended reals.

  Three groups.
  * Coercions: a finite sum of reals read as an extended real is the sum of the terms read so; an extended real that
    is a real (IsReal) stays one under sums, products and maxima; the reciprocal square root of a count plus one.
  * Counting: a sum over a product of two finite ranges read through the flat index p + n · w, and a filtered sum cut
    down to the part of a longer range where the filter can hold at all.
  * The algebra of one normalised graph-convolution layer over the reals, in the two orders a hand-scheduled kernel
    and a textbook reference write it, and of a two-layer network with sum pooling and a linear head in both orders.
-/
import Idealize.ShloMosaic.PureOps.Ideal
import Mathlib.Algebra.BigOperators.Fin
import Mathlib.Logic.Equiv.Fin.Basic

noncomputable section

open scoped BigOperators

namespace GcnAlgebra

open Idealize.ShloMosaic

/-! ## Coercions -/

/-- A finite sum of reals, read as an extended real, is the sum of the terms read as extended reals. -/
@[norm_cast] theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, read as an extended real, is the maximum of the two read so. -/
@[norm_cast] theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A natural number read as an extended real is the real read so. -/
theorem coe_natCast (n : ℕ) : ((n : ℝ) : EReal) = (n : EReal) := rfl

/-- An extended real that is a real number. -/
def IsReal (v : EReal) : Prop := ∃ r : ℝ, v = (r : EReal)

theorem isReal_coe (r : ℝ) : IsReal (r : EReal) := ⟨r, rfl⟩

/-- Whatever is neither infinity is a real. -/
theorem isReal_of_ne {v : EReal} (ht : v ≠ ⊤) (hb : v ≠ ⊥) : IsReal v := ⟨v.toReal, (EReal.coe_toReal ht hb).symm⟩

/-- Whatever lies strictly between the two infinities in absolute value is a real. -/
theorem isReal_of_abs_lt_top {v : EReal} (h : max v (-v) < ⊤) : IsReal v := by
  refine isReal_of_ne (fun ht => ?_) (fun hb => ?_)
  · rw [ht] at h; exact absurd h (by simp)
  · rw [hb] at h; exact absurd h (by simp)

/-- A family of reals has a real-valued form. -/
theorem exists_real_form {α : Type*} {f : α → EReal} (h : ∀ i, IsReal (f i)) : ∃ g : α → ℝ, ∀ i, f i = (g i : EReal) :=
  ⟨fun i => (h i).choose, fun i => (h i).choose_spec⟩

/-- The reciprocal square root of a count plus one, at the extended reals, is the real one. -/
theorem div_one_sqrt_coe {c : ℝ} (hc : 0 ≤ c) :
    Ideal.div 1 (Ideal.sqrt ((c : EReal) + 1)) = ((1 / Real.sqrt (c + 1) : ℝ) : EReal) := by
  have hpos : 0 < c + 1 := by linarith
  have h1 : ((c : EReal) + 1) = ((c + 1 : ℝ) : EReal) := by rw [EReal.coe_add, EReal.coe_one]
  rw [h1, Ideal.sqrt_coe, if_neg (not_lt.2 hpos.le), Ideal.div_coe (Real.sqrt_pos.2 hpos).ne', one_mul]

/-! ## Counting -/

/-- A sum over two ranges of a function of the flat index p + n · w is the sum over the flat range. -/
theorem sum_fin_prod_flat {M : Type*} [AddCommMonoid M] (m n : ℕ) (f : Fin (m * n) → M) :
    ∑ w : Fin m, ∑ p : Fin n, f (finProdFinEquiv (w, p)) = ∑ e : Fin (m * n), f e := by
  rw [← Fintype.sum_prod_type' (fun w p => f (finProdFinEquiv (w, p)))]
  exact Equiv.sum_comp finProdFinEquiv f

/-- The flat index of (w, p) is p + n · w. -/
theorem finProdFinEquiv_val {m n : ℕ} (w : Fin m) (p : Fin n) : (finProdFinEquiv (w, p) : Fin (m * n)).val = p.val + n * w.val := rfl

/-- A sum over a longer range of terms that vanish past the first n is the sum over the first n. -/
theorem sum_fin_castLE {M : Type*} [AddCommMonoid M] {n N : ℕ} (h : n ≤ N) (f : Fin N → M)
    (hz : ∀ p : Fin N, n ≤ p.val → f p = 0) : ∑ p : Fin N, f p = ∑ p : Fin n, f (Fin.castLE h p) := by
  classical
  have hinj : Function.Injective (Fin.castLE h) := Fin.castLE_injective h
  have hm : ∑ p : Fin n, f (Fin.castLE h p) = ∑ q ∈ Finset.univ.map ⟨Fin.castLE h, hinj⟩, f q :=
    (Finset.sum_map Finset.univ ⟨Fin.castLE h, hinj⟩ f).symm
  rw [hm]
  symm
  refine Finset.sum_subset (Finset.subset_univ _) (fun p _ hp => hz p ?_)
  by_contra hlt
  exact hp (Finset.mem_map.2 ⟨⟨p.val, not_le.1 hlt⟩, Finset.mem_univ _, Fin.ext rfl⟩)

/-! ## One layer over the reals, in the two orders -/

section Layer

variable {ι ε κ φ : Type*} [Fintype ι] [Fintype ε] [Fintype κ] [Fintype φ] [DecidableEq ι]
variable (src dst : ε → ι) (d : ι → ℝ)

/-- The kernel's table of a layer: the features times the weights, each node's column scaled by its factor. -/
def tabK (W : κ → φ → ℝ) (h : κ → ι → ℝ) (f : φ) (n : ι) : ℝ := (∑ k, W k f * h k n) * d n

/-- The kernel's activations: the table summed over the edges into a node, plus the node's own column, scaled
    again, plus the bias, cut at zero. -/
def actK (g : φ → ι → ℝ) (b : φ → ℝ) (f : φ) (n : ι) : ℝ :=
  max (((∑ e ∈ Finset.univ.filter (fun e => dst e = n), g f (src e)) + g f n) * d n + b f) 0

/-- The reference's activations: each edge's message carries both ends' factors, the self loop the node's twice. -/
def actR (h : ι → κ → ℝ) (W : κ → φ → ℝ) (b : φ → ℝ) (i : ι) (f : φ) : ℝ :=
  max ((∑ e ∈ Finset.univ.filter (fun e => dst e = i), (∑ k, h (src e) k * W k f) * (d (src e) * d i))
    + (∑ k, h i k * W k f) * (d i * d i) + b f) 0

/-- The two orders agree: the outer factor distributes over the edge sum. -/
theorem actK_tabK (W : κ → φ → ℝ) (h : κ → ι → ℝ) (b : φ → ℝ) (f : φ) (n : ι) :
    actK src dst d (tabK d W h) b f n = actR src dst d (fun i k => h k i) W b n f := by
  have hk : ∀ m, (∑ k, W k f * h k m) = ∑ k, h k m * W k f :=
    fun m => Finset.sum_congr rfl (fun k _ => mul_comm _ _)
  simp only [actK, actR, tabK, hk]
  rw [add_mul, Finset.sum_mul]
  simp only [mul_assoc]

end Layer

/-! ## Two layers, sum pooling and a linear head, in the two orders -/

section Net

variable {ι ε κ φ γ : Type*} [Fintype ι] [Fintype ε] [Fintype κ] [Fintype φ] [DecidableEq ι] [DecidableEq γ]
variable (src dst : ε → ι) (d : ι → ℝ) (bat : ι → γ)

/-- The kernel's network: two layers over transposed tables, the pooling as a product with a one-hot matrix. -/
def netK (x : ι → κ → ℝ) (W1 : κ → φ → ℝ) (b1 : φ → ℝ) (W2 : φ → φ → ℝ) (b2 : φ → ℝ) (W3 : φ → ℝ) (b3 : ℝ) (g : γ) : ℝ :=
  (∑ f, (∑ n, actK src dst d (tabK d W2 (actK src dst d (tabK d W1 (fun k n => x n k)) b1)) b2 f n
      * (if bat n = g then 1 else 0)) * W3 f) + b3

/-- The reference's network: two layers, a segment sum, a matrix product and a bias. -/
def netR (x : ι → κ → ℝ) (W1 : κ → φ → ℝ) (b1 : φ → ℝ) (W2 : φ → φ → ℝ) (b2 : φ → ℝ) (W3 : φ → ℝ) (b3 : ℝ) (g : γ) : ℝ :=
  (∑ f, (∑ n ∈ Finset.univ.filter (fun n => bat n = g), actR src dst d (actR src dst d x W1 b1) W2 b2 n f) * W3 f) + b3

theorem netK_eq_netR (x : ι → κ → ℝ) (W1 : κ → φ → ℝ) (b1 : φ → ℝ) (W2 : φ → φ → ℝ) (b2 : φ → ℝ) (W3 : φ → ℝ) (b3 : ℝ) (g : γ) :
    netK src dst d bat x W1 b1 W2 b2 W3 b3 g = netR src dst d bat x W1 b1 W2 b2 W3 b3 g := by
  unfold netK netR
  congr 1
  refine Finset.sum_congr rfl (fun f _ => ?_)
  congr 1
  rw [Finset.sum_filter]
  refine Finset.sum_congr rfl (fun n _ => ?_)
  rw [actK_tabK]
  have h1 : (fun (i : ι) (k : φ) => actK src dst d (tabK d W1 (fun k n => x n k)) b1 k i) = actR src dst d x W1 b1 := by
    funext i k
    exact actK_tabK src dst d W1 (fun k n => x n k) b1 k i
  rw [h1]
  split_ifs <;> simp

end Net

end GcnAlgebra

end
-- ==== Proof.RefReal.lean ====
/-
  The neighbour sums are real numbers: each of the reference's ten neighbour-sum stages gathers rows of a table and
  adds them up from zero, so over a table of real numbers each holds real numbers only, whatever the integer
  neighbour indices are; and so do the two row-concatenations of the five runs.
-/
import proofs.«416437_j22935125360693_3_alg».proof.Proof.RefIsG
import proofs.«416437_j22935125360693_3_alg».proof.Proof.LibGatherSumReal
import proofs.«416437_j22935125360693_3_alg».proof.Proof.LibGcnAlgebra

noncomputable section

namespace Cert.ReferenceIdeal.RefValue

open Cert.ReferenceIdeal Idealize.ShloMosaic Idealize.ShloMosaic.ValueIdx GcnAlgebra

theorem isReal_A1 (a0 : ArrF S200000x256) (a2 : ArrI S20000x1) (h : ∀ i, IsReal (a0 i)) (i : S20000x256.Idx) : IsReal (A1 a0 a2 i) :=
  GatherSumReal.real_gather_sum _ _ _ _ _ h i

theorem isReal_A2 (a0 : ArrF S200000x256) (a3 : ArrI S60000x2) (h : ∀ i, IsReal (a0 i)) (i : S60000x256.Idx) : IsReal (A2 a0 a3 i) :=
  GatherSumReal.real_gather_sum _ _ _ _ _ h i

theorem isReal_A3 (a0 : ArrF S200000x256) (a4 : ArrI S60000x3) (h : ∀ i, IsReal (a0 i)) (i : S60000x256.Idx) : IsReal (A3 a0 a4 i) :=
  GatherSumReal.real_gather_sum _ _ _ _ _ h i

theorem isReal_A4 (a0 : ArrF S200000x256) (a5 : ArrI S40000x4) (h : ∀ i, IsReal (a0 i)) (i : S40000x256.Idx) : IsReal (A4 a0 a5 i) :=
  GatherSumReal.real_gather_sum _ _ _ _ _ h i

theorem isReal_A5 (a0 : ArrF S200000x256) (a6 : ArrI S20000x5) (h : ∀ i, IsReal (a0 i)) (i : S20000x256.Idx) : IsReal (A5 a0 a6 i) :=
  GatherSumReal.real_gather_sum _ _ _ _ _ h i

theorem isReal_B1 (a1 : ArrF S260000x6) (a7 : ArrI S20000x1) (h : ∀ i, IsReal (a1 i)) (i : S20000x6.Idx) : IsReal (B1 a1 a7 i) :=
  GatherSumReal.real_gather_sum _ _ _ _ _ h i

theorem isReal_B2 (a1 : ArrF S260000x6) (a8 : ArrI S60000x2) (h : ∀ i, IsReal (a1 i)) (i : S60000x6.Idx) : IsReal (B2 a1 a8 i) :=
  GatherSumReal.real_gather_sum _ _ _ _ _ h i

theorem isReal_B3 (a1 : ArrF S260000x6) (a9 : ArrI S60000x3) (h : ∀ i, IsReal (a1 i)) (i : S60000x6.Idx) : IsReal (B3 a1 a9 i) :=
  GatherSumReal.real_gather_sum _ _ _ _ _ h i

theorem isReal_B4 (a1 : ArrF S260000x6) (a10 : ArrI S40000x4) (h : ∀ i, IsReal (a1 i)) (i : S40000x6.Idx) : IsReal (B4 a1 a10 i) :=
  GatherSumReal.real_gather_sum _ _ _ _ _ h i

theorem isReal_B5 (a1 : ArrF S260000x6) (a11 : ArrI S20000x5) (h : ∀ i, IsReal (a1 i)) (i : S20000x6.Idx) : IsReal (B5 a1 a11 i) :=
  GatherSumReal.real_gather_sum _ _ _ _ _ h i

/-- The atoms' neighbour sums of all rows are real numbers when the atom features are. -/
theorem isReal_Acat (a0 : ArrF S200000x256) (a2 : ArrI S20000x1) (a3 : ArrI S60000x2) (a4 : ArrI S60000x3) (a5 : ArrI S40000x4)
    (a6 : ArrI S20000x5) (h : ∀ i, IsReal (a0 i)) (r : Fin 200000) (k : Fin 256) : IsReal (Acat a0 a2 a3 a4 a5 a6 r k) := by
  unfold Acat
  split_ifs
  · exact isReal_A1 a0 a2 h _
  · exact isReal_A2 a0 a3 h _
  · exact isReal_A3 a0 a4 h _
  · exact isReal_A4 a0 a5 h _
  · exact isReal_A5 a0 a6 h _

/-- The bonds' neighbour sums of all rows are real numbers when the bond features are. -/
theorem isReal_Bcat (a1 : ArrF S260000x6) (a7 : ArrI S20000x1) (a8 : ArrI S60000x2) (a9 : ArrI S60000x3) (a10 : ArrI S40000x4)
    (a11 : ArrI S20000x5) (h : ∀ i, IsReal (a1 i)) (r : Fin 200000) (k : Fin 6) : IsReal (Bcat a1 a7 a8 a9 a10 a11 r k) := by
  unfold Bcat
  split_ifs
  · exact isReal_B1 a1 a7 h _
  · exact isReal_B2 a1 a8 h _
  · exact isReal_B3 a1 a9 h _
  · exact isReal_B4 a1 a10 h _
  · exact isReal_B5 a1 a11 h _

end Cert.ReferenceIdeal.RefValue

end
-- ==== Proof.KiFinite.lean ====
/-
  From the precondition to real numbers: the precondition says of each floating-point argument array that the
  absolute value of every entry is below plus infinity; over the extended reals that makes every entry a real number.
-/
import proofs.«416437_j22935125360693_3_alg».proof.Defs
import proofs.«416437_j22935125360693_3_alg».proof.Proof.Gen.Pre_finite_inputs
import proofs.«416437_j22935125360693_3_alg».proof.Proof.LibGcnAlgebra
import Idealize.ShloMosaic.Lib.ReduceAll
import Idealize.ShloMosaic.Lib.ValueIdx

noncomputable section

namespace Cert.KiFinite

open Idealize.ShloMosaic Idealize.SL.Sem Cert.Pre_finite_inputs Cert.Pre_finite_inputs.Gen GcnAlgebra

/-- The scalar shape has one index. -/
instance : Subsingleton S_.Idx := ⟨fun a b => funext fun d => d.elim0⟩

/-- The single-precision word for plus infinity denotes the top of the extended reals. -/
theorem ofBits_inf : Ideal.ofBits .f32 0x7F800000#32 = ⊤ := by
  simp [Ideal.ofBits, Ideal.ieee]

/-- An extended real whose absolute value compares below plus infinity is a real number. -/
theorem isReal_of_lt_inf (v : EReal)
    (h : FloatOps.cmpf (F := Ideal) (φ := .f32) .olt (FloatOps.hostAbsf v) (Ideal.ofBits .f32 0x7F800000#32) = 1#1) : IsReal v := by
  have h' : Ideal.cmp .olt (max v (-v)) (Ideal.ofBits .f32 0x7F800000#32) = 1#1 := h
  rw [ofBits_inf] at h'
  refine isReal_of_abs_lt_top ?_
  by_contra hn
  simp [Ideal.cmp, hn] at h'

/-- An array all of whose entries pass the comparison (a conjunction over every axis that came out one) holds
    real numbers only. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) (i : s.Idx) : IsReal (x i) :=
  isReal_of_lt_inf (x i) (Host.reduce_andi_all _ _ hr hu _ e i)

/-- A conjunction of two one-bit arrays that is one at an index has both one there. -/
theorem andi_ix {s : Shape} (a b : IVec s 1) (i : s.Idx) (e : andi a b i = 1#1) : a i = 1#1 ∧ b i = 1#1 :=
  IntOp.andi_eq_one.1 e

/-- Every floating-point argument array holds real numbers only. -/
theorem pre_all (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (((m ((c.tc : Thread Cert.KernelIdeal.nD Cert.KernelIdeal.τ).loc Cert.KernelIdeal.main_arg0) : FVec Ideal S200000x256 .f32)) i))
    ∧ (∀ i, IsReal (((m ((c.tc : Thread Cert.KernelIdeal.nD Cert.KernelIdeal.τ).loc Cert.KernelIdeal.main_arg1) : FVec Ideal S260000x6 .f32)) i))
    ∧ (∀ i, IsReal (((m ((c.tc : Thread Cert.KernelIdeal.nD Cert.KernelIdeal.τ).loc Cert.KernelIdeal.main_arg12) : FVec Ideal S256x256 .f32)) i))
    ∧ (∀ i, IsReal (((m ((c.tc : Thread Cert.KernelIdeal.nD Cert.KernelIdeal.τ).loc Cert.KernelIdeal.main_arg13) : FVec Ideal S256 .f32)) i))
    ∧ (∀ i, IsReal (((m ((c.tc : Thread Cert.KernelIdeal.nD Cert.KernelIdeal.τ).loc Cert.KernelIdeal.main_arg14) : FVec Ideal S262x256 .f32)) i))
    ∧ (∀ i, IsReal (((m ((c.tc : Thread Cert.KernelIdeal.nD Cert.KernelIdeal.τ).loc Cert.KernelIdeal.main_arg15) : FVec Ideal S262x256 .f32)) i))
    ∧ (∀ i, IsReal (((m ((c.tc : Thread Cert.KernelIdeal.nD Cert.KernelIdeal.τ).loc Cert.KernelIdeal.main_arg16) : FVec Ideal S262x256 .f32)) i))
    ∧ (∀ i, IsReal (((m ((c.tc : Thread Cert.KernelIdeal.nD Cert.KernelIdeal.τ).loc Cert.KernelIdeal.main_arg17) : FVec Ideal S262x256 .f32)) i))
    ∧ (∀ i, IsReal (((m ((c.tc : Thread Cert.KernelIdeal.nD Cert.KernelIdeal.τ).loc Cert.KernelIdeal.main_arg18) : FVec Ideal S262x256 .f32)) i))
    ∧ (∀ i, IsReal (((m ((c.tc : Thread Cert.KernelIdeal.nD Cert.KernelIdeal.τ).loc Cert.KernelIdeal.main_arg19) : FVec Ideal S256 .f32)) i))
    ∧ (∀ i, IsReal (((m ((c.tc : Thread Cert.KernelIdeal.nD Cert.KernelIdeal.τ).loc Cert.KernelIdeal.main_arg20) : FVec Ideal S256 .f32)) i)) := by
  have e := congrFun (h c) ValueIdx.ix0
  dsimp only [fn, fn_part1, fn_part2, fn_part3] at e
  obtain ⟨e, e20⟩ := andi_ix _ _ _ e
  obtain ⟨e, e19⟩ := andi_ix _ _ _ e
  obtain ⟨e, e18⟩ := andi_ix _ _ _ e
  obtain ⟨e, e17⟩ := andi_ix _ _ _ e
  obtain ⟨e, e16⟩ := andi_ix _ _ _ e
  obtain ⟨e, e15⟩ := andi_ix _ _ _ e
  obtain ⟨e, e14⟩ := andi_ix _ _ _ e
  obtain ⟨e, e13⟩ := andi_ix _ _ _ e
  obtain ⟨e, e12⟩ := andi_ix _ _ _ e
  obtain ⟨e0, e1⟩ := andi_ix _ _ _ e
  exact ⟨all_real _ _ _ _ e0, all_real _ _ _ _ e1, all_real _ _ _ _ e12, all_real _ _ _ _ e13, all_real _ _ _ _ e14,
    all_real _ _ _ _ e15, all_real _ _ _ _ e16, all_real _ _ _ _ e17, all_real _ _ _ _ e18, all_real _ _ _ _ e19,
    all_real _ _ _ _ e20⟩

/-- Argument 0 holds real numbers only. -/
theorem pre_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg0) : FVec Ideal S200000x256 .f32)) i) :=
  (pre_all m h c).1

/-- Argument 1 holds real numbers only. -/
theorem pre_arg1 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg1) : FVec Ideal S260000x6 .f32)) i) :=
  (pre_all m h c).2.1

/-- Argument 12 holds real numbers only. -/
theorem pre_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg12) : FVec Ideal S256x256 .f32)) i) :=
  (pre_all m h c).2.2.1

/-- Argument 13 holds real numbers only. -/
theorem pre_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg13) : FVec Ideal S256 .f32)) i) :=
  (pre_all m h c).2.2.2.1

/-- Argument 14 holds real numbers only. -/
theorem pre_arg14 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg14) : FVec Ideal S262x256 .f32)) i) :=
  (pre_all m h c).2.2.2.2.1

/-- Argument 15 holds real numbers only. -/
theorem pre_arg15 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg15) : FVec Ideal S262x256 .f32)) i) :=
  (pre_all m h c).2.2.2.2.2.1

/-- Argument 16 holds real numbers only. -/
theorem pre_arg16 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg16) : FVec Ideal S262x256 .f32)) i) :=
  (pre_all m h c).2.2.2.2.2.2.1

/-- Argument 17 holds real numbers only. -/
theorem pre_arg17 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg17) : FVec Ideal S262x256 .f32)) i) :=
  (pre_all m h c).2.2.2.2.2.2.2.1

/-- Argument 18 holds real numbers only. -/
theorem pre_arg18 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg18) : FVec Ideal S262x256 .f32)) i) :=
  (pre_all m h c).2.2.2.2.2.2.2.2.1

/-- Argument 19 holds real numbers only. -/
theorem pre_arg19 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg19) : FVec Ideal S256 .f32)) i) :=
  (pre_all m h c).2.2.2.2.2.2.2.2.2.1

/-- Argument 20 holds real numbers only. -/
theorem pre_arg20 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal (((m ((c.tc : Thread Cert.KernelIdeal.nD Cert.KernelIdeal.τ).loc Cert.KernelIdeal.main_arg20) : FVec Ideal S256 .f32)) i) :=
  (pre_all m h c).2.2.2.2.2.2.2.2.2.2

end Cert.KiFinite

end
-- ==== Proof.Algebra.lean ====
/-
  The algebra that makes the kernel's result the reference's, element by element, over the extended reals.

  * The layer: a sum over the 262 concatenated columns is the sum over the 256 atom columns plus the sum over the
    6 bond columns, so the two orders of the activations agree on every input.
  * The normalisation: when every activation is a real number, the mean of the squares less the square of the mean
    is the mean of the squared deviations, a real that is not negative; both cuts at zero are then the identity,
    the variance plus the small constant is a positive real, and at a positive real the product with the reciprocal
    square root is the quotient by the square root.
-/
import proofs.«416437_j22935125360693_3_alg».proof.Proof.Spec
import proofs.«416437_j22935125360693_3_alg».proof.Proof.LibGcnAlgebra
import Mathlib.Algebra.Order.BigOperators.Ring.Finset
import Mathlib.Tactic.Ring
import Mathlib.Tactic.NormNum
import Mathlib.Tactic.Positivity

noncomputable section

open scoped BigOperators

namespace Cert.Spec

open Idealize.ShloMosaic GcnAlgebra

/-! ## The two orders of the layer -/

/-- The 262 columns split into the 256 atom columns and the 6 bond columns. -/
theorem sum_cat (A : Fin 200000 → Fin 256 → EReal) (B : Fin 200000 → Fin 6 → EReal) (V : Fin 262 → EReal) (r : Fin 200000) :
    (∑ k : Fin 262, cat A B r k * V k)
      = (∑ k : Fin 256, A r k * V (Fin.castAdd 6 k)) + (∑ k : Fin 6, B r k * V (Fin.natAdd 256 k)) := by
  have h := Fin.sum_univ_add (fun k : Fin (256 + 6) => cat A B r k * V k)
  simp only [cat_castAdd, cat_natAdd] at h
  exact h

/-- The kernel's activations are the reference's, on every input. -/
theorem totK_eq_totR (x A : Fin 200000 → Fin 256 → EReal) (B : Fin 200000 → Fin 6 → EReal) (Ws : Fin 256 → Fin 256 → EReal)
    (bias : Fin 256 → EReal) (W : Fin 5 → Fin 262 → Fin 256 → EReal) :
    totK x A B Ws bias W = totR x A B Ws bias W := by
  funext r j
  unfold totK totR
  rw [sum_cat A B (fun k => W (grp r) k j) r]

/-! ## Real numbers among the extended reals -/

theorem isReal_zero : IsReal (0 : EReal) := ⟨0, rfl⟩

theorem isReal_add {a b : EReal} (ha : IsReal a) (hb : IsReal b) : IsReal (a + b) := by
  obtain ⟨u, rfl⟩ := ha; obtain ⟨v, rfl⟩ := hb
  exact ⟨u + v, (EReal.coe_add u v).symm⟩

theorem isReal_mul {a b : EReal} (ha : IsReal a) (hb : IsReal b) : IsReal (a * b) := by
  obtain ⟨u, rfl⟩ := ha; obtain ⟨v, rfl⟩ := hb
  exact ⟨u * v, (EReal.coe_mul u v).symm⟩

theorem isReal_max {a b : EReal} (ha : IsReal a) (hb : IsReal b) : IsReal (max a b) := by
  obtain ⟨u, rfl⟩ := ha; obtain ⟨v, rfl⟩ := hb
  exact ⟨max u v, (coe_max u v).symm⟩

theorem isReal_sum {α : Type*} (s : Finset α) (f : α → EReal) (h : ∀ i, IsReal (f i)) : IsReal (∑ i ∈ s, f i) := by
  obtain ⟨g, hg⟩ := exists_real_form h
  exact ⟨∑ i ∈ s, g i, by rw [coe_sum]; exact Finset.sum_congr rfl (fun i _ => hg i)⟩

/-- The reference's activations are real numbers when every input is. -/
theorem isReal_totR (x A : Fin 200000 → Fin 256 → EReal) (B : Fin 200000 → Fin 6 → EReal) (Ws : Fin 256 → Fin 256 → EReal)
    (bias : Fin 256 → EReal) (W : Fin 5 → Fin 262 → Fin 256 → EReal)
    (hx : ∀ r k, IsReal (x r k)) (hA : ∀ r k, IsReal (A r k)) (hB : ∀ r k, IsReal (B r k)) (hWs : ∀ k j, IsReal (Ws k j))
    (hbias : ∀ j, IsReal (bias j)) (hW : ∀ g k j, IsReal (W g k j)) (r : Fin 200000) (j : Fin 256) :
    IsReal (totR x A B Ws bias W r j) := by
  have hcat : ∀ k, IsReal (cat A B r k) := fun k => by
    unfold cat
    split_ifs
    · exact hA _ _
    · exact hB _ _
  unfold totR
  exact isReal_max (isReal_add (isReal_add (isReal_sum _ _ fun k => isReal_mul (hcat k) (hW _ _ _))
    (isReal_sum _ _ fun k => isReal_mul (hx _ _) (hWs _ _))) (hbias j)) isReal_zero

/-! ## The two constants -/

/-- The word for the number of rows denotes the real 200000. -/
theorem c200000_eq : c200000 = ((200000 : ℝ) : EReal) := by
  unfold c200000
  simp [Ideal.ofBits, Ideal.ieee, -EReal.coe_mul] <;> norm_num

/-- The word for the small constant denotes a positive real. -/
theorem eps_pos : ∃ e : ℝ, 0 < e ∧ eps = (e : EReal) := by
  refine ⟨10995116 * (2 : ℝ) ^ (-40 : ℤ), by positivity, ?_⟩
  unfold eps
  simp [Ideal.ofBits, Ideal.ieee, -EReal.coe_mul] <;> norm_num

/-! ## The variance, over the reals -/

/-- The sum of the squared deviations from the mean is the sum of the squares less the count times the squared mean. -/
theorem real_dev (t : Fin 200000 → ℝ) (μ : ℝ) (hμ : μ = (∑ r, t r) * (1 / 200000)) :
    (∑ r, (t r - μ) * (t r - μ)) = (∑ r, t r * t r) - 200000 * (μ * μ) := by
  have h1 : ∀ r, (t r - μ) * (t r - μ) = t r * t r - (2 * μ) * t r + μ * μ := fun r => by ring
  have hS : (∑ r, t r) = 200000 * μ := by rw [hμ]; ring
  simp only [h1, Finset.sum_add_distrib, Finset.sum_sub_distrib, ← Finset.mul_sum, Finset.sum_const, Finset.card_univ,
    Fintype.card_fin, nsmul_eq_mul, hS]
  push_cast
  ring

/-! ## The normalisation of one column of real numbers -/

section Column

variable (T : Fin 200000 → Fin 256 → EReal) (j : Fin 256) (t : Fin 200000 → ℝ) (hT : ∀ r, T r j = (t r : EReal))
include hT

theorem mean_coe : mean T j = (((∑ r, t r) * (1 / 200000) : ℝ) : EReal) := by
  unfold mean
  simp only [hT]
  rw [c200000_eq, Ideal.div_coe (by norm_num), ← coe_sum, ← EReal.coe_mul]

theorem varR_coe : varR T j
    = (((∑ r, (t r - (∑ r, t r) * (1 / 200000)) * (t r - (∑ r, t r) * (1 / 200000))) * (1 / 200000) : ℝ) : EReal) := by
  unfold varR
  rw [mean_coe T j t hT]
  simp only [hT, ← EReal.coe_sub, ← EReal.coe_mul, ← coe_sum]
  rw [c200000_eq, Ideal.div_coe (by norm_num), ← EReal.coe_mul]

theorem varK_coe : varK T j
    = ((max ((∑ r, t r * t r) * (1 / 200000) - (∑ r, t r) * (1 / 200000) * ((∑ r, t r) * (1 / 200000))) 0 : ℝ) : EReal) := by
  unfold varK
  rw [mean_coe T j t hT]
  simp only [hT, ← EReal.coe_mul, ← coe_sum]
  rw [c200000_eq, Ideal.div_coe (by norm_num), ← EReal.coe_mul, ← EReal.coe_sub, ← EReal.coe_zero, ← coe_max]

/-- Both variances are one real number, and it is not negative. -/
theorem var_real : ∃ v : ℝ, 0 ≤ v ∧ varR T j = (v : EReal) ∧ varK T j = (v : EReal) := by
  refine ⟨(∑ r, (t r - (∑ r, t r) * (1 / 200000)) * (t r - (∑ r, t r) * (1 / 200000))) * (1 / 200000), ?_, varR_coe T j t hT, ?_⟩
  · exact mul_nonneg (Finset.sum_nonneg fun r _ => mul_self_nonneg _) (by norm_num)
  · rw [varK_coe T j t hT]
    have hd := real_dev t _ rfl
    have hnn : 0 ≤ (∑ r, (t r - (∑ r, t r) * (1 / 200000)) * (t r - (∑ r, t r) * (1 / 200000))) * (1 / 200000) :=
      mul_nonneg (Finset.sum_nonneg fun r _ => mul_self_nonneg _) (by norm_num)
    have he : (∑ r, t r * t r) * (1 / 200000) - (∑ r, t r) * (1 / 200000) * ((∑ r, t r) * (1 / 200000))
        = (∑ r, (t r - (∑ r, t r) * (1 / 200000)) * (t r - (∑ r, t r) * (1 / 200000))) * (1 / 200000) := by
      rw [hd]; ring
    rw [he, max_eq_left hnn]

end Column

/-! ## The reciprocal square root at a positive real -/

/-- At a positive real the product with the reciprocal square root is the quotient by the square root. -/
theorem mul_rsqrt_eq_div_sqrt {y : ℝ} (hy : 0 < y) (a : EReal) :
    a * Ideal.rsqrt (y : EReal) = Ideal.div a (Ideal.sqrt (y : EReal)) := by
  rw [Ideal.rsqrt_coe, if_neg (not_lt.2 hy.le), if_neg hy.ne', Ideal.sqrt_coe, if_neg (not_lt.2 hy.le),
    Ideal.div_coe (Real.sqrt_pos.2 hy).ne', one_div]

/-! ## The result -/

/-- Over activations that are real numbers the kernel's normalisation is the reference's. -/
theorem outK_eq_outR (T : Fin 200000 → Fin 256 → EReal) (hT : ∀ r j, IsReal (T r j)) (bnw bnb : Fin 256 → EReal) :
    outK T bnw bnb = outR T bnw bnb := by
  funext r j
  obtain ⟨t, ht⟩ := exists_real_form (fun r => hT r j)
  obtain ⟨v, hv0, hvR, hvK⟩ := var_real T j t ht
  obtain ⟨e, he0, hee⟩ := eps_pos
  have hmax : max (v : EReal) 0 = (v : EReal) := max_eq_left (by exact_mod_cast hv0)
  unfold outK outR
  rw [hvK, hvR, hmax, hee, ← EReal.coe_add, mul_rsqrt_eq_div_sqrt (by linarith)]

/-- The certificate's algebra: on inputs that are all real numbers the kernel's result is the reference's. -/
theorem out_eq_of_isReal (x A : Fin 200000 → Fin 256 → EReal) (B : Fin 200000 → Fin 6 → EReal) (Ws : Fin 256 → Fin 256 → EReal)
    (bias bnw bnb : Fin 256 → EReal) (W : Fin 5 → Fin 262 → Fin 256 → EReal)
    (hx : ∀ r k, IsReal (x r k)) (hA : ∀ r k, IsReal (A r k)) (hB : ∀ r k, IsReal (B r k)) (hWs : ∀ k j, IsReal (Ws k j))
    (hbias : ∀ j, IsReal (bias j)) (hW : ∀ g k j, IsReal (W g k j)) :
    outK (totK x A B Ws bias W) bnw bnb = outR (totR x A B Ws bias W) bnw bnb := by
  rw [totK_eq_totR]
  exact outK_eq_outR _ (isReal_totR x A B Ws bias W hx hA hB hWs hbias hW) bnw bnb

/-- The same with each input known to be neither infinity. -/
theorem out_eq (x A : Fin 200000 → Fin 256 → EReal) (B : Fin 200000 → Fin 6 → EReal) (Ws : Fin 256 → Fin 256 → EReal)
    (bias bnw bnb : Fin 256 → EReal) (W : Fin 5 → Fin 262 → Fin 256 → EReal)
    (hx : ∀ r k, x r k ≠ ⊤ ∧ x r k ≠ ⊥) (hA : ∀ r k, A r k ≠ ⊤ ∧ A r k ≠ ⊥) (hB : ∀ r k, B r k ≠ ⊤ ∧ B r k ≠ ⊥)
    (hWs : ∀ k j, Ws k j ≠ ⊤ ∧ Ws k j ≠ ⊥) (hbias : ∀ j, bias j ≠ ⊤ ∧ bias j ≠ ⊥) (hW : ∀ g k j, W g k j ≠ ⊤ ∧ W g k j ≠ ⊥) :
    outK (totK x A B Ws bias W) bnw bnb = outR (totR x A B Ws bias W) bnw bnb :=
  out_eq_of_isReal x A B Ws bias bnw bnb W (fun r k => isReal_of_ne (hx r k).1 (hx r k).2)
    (fun r k => isReal_of_ne (hA r k).1 (hA r k).2) (fun r k => isReal_of_ne (hB r k).1 (hB r k).2)
    (fun k j => isReal_of_ne (hWs k j).1 (hWs k j).2) (fun j => isReal_of_ne (hbias j).1 (hbias j).2)
    (fun g k j => isReal_of_ne (hW g k j).1 (hW g k j).2)

end Cert.Spec

end
-- ==== Proof.KiValCore.lean ====
/-
  The kernel's result, assembled over plain functions into the extended reals: from what each stage leaves (the
  blocks' totals, each core's column sums and sums of squares over its run of 25 blocks, the mean and variance the
  host takes of them, and the normalised output) to the index-level specification of the kernel's value. No program
  and no array shape appears here; the program's arrays are read into these functions elsewhere.
-/
import proofs.«416437_j22935125360693_3_alg».proof.Proof.Spec

noncomputable section

open scoped BigOperators

namespace Cert.Spec

open Idealize.ShloMosaic

/-- Block t' of core cc's run of 25 is block 25 · cc + t' of the 50. -/
theorem run_lt (cc : Fin 2) (t' : Fin 25) : 25 * cc.val + t'.val < 50 := by
  have := cc.isLt; have := t'.isLt; omega

section Cores

variable {M : Type*} [AddCommMonoid M]

/-- The two cores' runs of 25 blocks of 4000 rows are all the rows: a sum taken core by core, block by block and
    row by row is the sum over the 200000 rows. -/
theorem sum_two_cores (f : Fin 200000 → M) :
    (∑ cc : Fin 2, ∑ t' : Fin 25, ∑ q : Fin 4000,
        f ⟨4000 * (25 * cc.val + t'.val) + q.val, blk_lt ⟨25 * cc.val + t'.val, run_lt cc t'⟩ q⟩) = ∑ r, f r := by
  rw [← sum_blocks f]
  exact sum_mul_add 2 25 50 rfl (fun t : Fin 50 => ∑ q : Fin 4000, f ⟨4000 * t.val + q.val, blk_lt t q⟩)

end Cores

/-- THE ASSEMBLY. Let `blkT t q j` be the total the kernel writes at row q of block t, equal to `TK` at row
    4000 t + q; let `S cc j` and `Q cc j` be core cc's column sums of the totals and of their squares over its 25
    blocks; let the host take `mean` and `var` of the two cores' sums as the kernel's program spells them; and let
    `out` be the second region's normalisation of `TK` by them. Then `out` is the specification's `outK` of `TK`. -/
theorem outK_of_pieces (TK : Fin 200000 → Fin 256 → EReal) (bnw bnb : Fin 256 → EReal)
    (out : Fin 200000 → Fin 256 → EReal) (mn vr : Fin 256 → EReal) (S Q : Fin 2 → Fin 256 → EReal)
    (blkT : Fin 50 → Fin 4000 → Fin 256 → EReal)
    (hout : ∀ r j, out r j = (TK r j - mn j) * Ideal.rsqrt (max (vr j) 0 + eps) * bnw j + bnb j)
    (hmean : ∀ j, mn j = Ideal.div (S 0 j + S 1 j) c200000)
    (hvar : ∀ j, vr j = max (Ideal.div (Q 0 j + Q 1 j) c200000 - mn j * mn j) 0)
    (hS : ∀ (cc : Fin 2) j, S cc j = ∑ t' : Fin 25, ∑ q : Fin 4000, blkT ⟨25 * cc.val + t'.val, run_lt cc t'⟩ q j)
    (hQ : ∀ (cc : Fin 2) j, Q cc j
      = ∑ t' : Fin 25, ∑ q : Fin 4000, blkT ⟨25 * cc.val + t'.val, run_lt cc t'⟩ q j * blkT ⟨25 * cc.val + t'.val, run_lt cc t'⟩ q j)
    (htot : ∀ (t : Fin 50) (q : Fin 4000) j, blkT t q j = TK ⟨4000 * t.val + q.val, blk_lt t q⟩ j)
    (r : Fin 200000) (j : Fin 256) : out r j = outK TK bnw bnb r j := by
  have hsum : ∀ j, S 0 j + S 1 j = ∑ r, TK r j := fun j => by
    rw [← sum_two_cores (fun r => TK r j), Fin.sum_univ_two, hS 0 j, hS 1 j]
    simp only [htot]
  have hsq : ∀ j, Q 0 j + Q 1 j = ∑ r, TK r j * TK r j := fun j => by
    rw [← sum_two_cores (fun r => TK r j * TK r j), Fin.sum_univ_two, hQ 0 j, hQ 1 j]
    simp only [htot]
  have hm : ∀ j, mn j = mean TK j := fun j => by rw [hmean j, hsum j]; rfl
  have hv : vr j = varK TK j := by rw [hvar j, hsq j, hm j]; rfl
  rw [hout r j, hm j, hv]
  rfl

end Cert.Spec

end
-- ==== Proof.KiValFinal.lean ====
/-
  The kernel's result buffer, read element by element, is the index-level specification of the kernel's value at
  the launch contents of the argument arrays; under the precondition (every float argument finite) that is the
  specification of the reference's value, which is the reference's generated result term. So the two programs end
  with equal results.

  The road: the result buffer is the second region's output array; that array is the normalisation of the totals
  by the mean and variance the second stretch of host operations takes from the statistics arrays; the statistics
  arrays hold each core's column sums of the totals and of their squares over its 25 blocks; the totals' array and
  the blocks' totals are the layer's activations at the neighbour sums and stacked weights the first stretch leaves.
-/
import proofs.«416437_j22935125360693_3_alg».proof.Proof.KiFold
import proofs.«416437_j22935125360693_3_alg».proof.Proof.KiVal7
import proofs.«416437_j22935125360693_3_alg».proof.Proof.KiVal89
import proofs.«416437_j22935125360693_3_alg».proof.Proof.KiValHost0
import proofs.«416437_j22935125360693_3_alg».proof.Proof.KiValHost1
import proofs.«416437_j22935125360693_3_alg».proof.Proof.KiValOut
import proofs.«416437_j22935125360693_3_alg».proof.Proof.RefIsG
import proofs.«416437_j22935125360693_3_alg».proof.Proof.RefReal
import proofs.«416437_j22935125360693_3_alg».proof.Proof.KiFinite
import proofs.«416437_j22935125360693_3_alg».proof.Proof.Algebra
import proofs.«416437_j22935125360693_3_alg».proof.Proof.KiValCore

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.ReferenceIdeal.RefValue Cert.KiFinite GcnAlgebra

variable (m : (ℓ : Loc nD τ sig) → Buf (Elt Ideal) ℓ) (ρ : Dev nD → PrngReg)

/-- The degree group the kernel's table gives a row is the specification's. -/
theorem degOf_eq_grp (r : Fin 200000) : degOf r = Cert.Spec.grp r :=
  Fin.ext ((degOf_val r).trans (Cert.Spec.grp_val r).symm)

/-- The layer's activations as the kernel orders them, at the launch contents of the argument arrays. -/
def TK (c : Dev nD) : Fin 200000 → Fin 256 → EReal :=
  Cert.Spec.totK (mat2 (m ((c : Thread nD τ).loc main_arg0))) (Acat (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (Bcat (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11))) (mat2 (m ((c : Thread nD τ).loc main_arg12))) (vec1 (m ((c : Thread nD τ).loc main_arg13))) (Wst (m ((c : Thread nD τ).loc main_arg14)) (m ((c : Thread nD τ).loc main_arg15)) (m ((c : Thread nD τ).loc main_arg16)) (m ((c : Thread nD τ).loc main_arg17)) (m ((c : Thread nD τ).loc main_arg18)))

/-- The total the kernel's first region computes for a row, read at what the first stretch of host operations
    leaves, is the specification's activation: the neighbour sums, the two halves of the stacked degree weights,
    the self weights, the features and the bias are each the specification's. -/
theorem TotAt_V1 (c : Dev nD) (r : Fin 200000) (j : Fin 256) : TotAt (V1 m ρ) c r j = TK m c r j := by
  unfold TotAt TK Cert.Spec.totK
  rw [degOf_eq_grp]
  simp only [V1_v80 m ρ c, V1_v81 m ρ c, V1_v104 m ρ c, V1_v105 m ρ c, V1_v106 m ρ c, V1_arg0 m ρ c, V1_arg13 m ρ c]
  rfl

/-- THE KERNEL'S VALUE: the result buffer after the run, at row r and column j, is the specification's normalised
    activation. -/
theorem kernel_value (c : Dev nD) (r : Fin 200000) (j : Fin 256) :
    (W4 m ρ c (Proc.devRef .tc main_v126) : S200000x256.Idx → EReal) (ix2 r j)
      = Cert.Spec.outK (TK m c) (vec1 (m ((c : Thread nD τ).loc main_arg19))) (vec1 (m ((c : Thread nD τ).loc main_arg20))) r j := by
  refine Cert.Spec.outK_of_pieces (TK m c) (vec1 (m ((c : Thread nD τ).loc main_arg19))) (vec1 (m ((c : Thread nD τ).loc main_arg20)))
    (fun r j => (W4 m ρ c (Proc.devRef .tc main_v126) : S200000x256.Idx → EReal) (ix2 r j))
    (fun j => muIn (V3 m ρ) c (ix1 j))
    (fun j => varIn (V3 m ρ) c (ix1 j))
    (fun cc j => ((dat0 (F := Ideal) (V1 m ρ) c).arrAt 8 (cfgA (F := Ideal)).N : S16x256.Idx → EReal)
      (ix2 (⟨8 * cc.val, by have := cc.isLt; omega⟩ : Fin 16) j))
    (fun cc j => ((dat0 (F := Ideal) (V1 m ρ) c).arrAt 9 (cfgA (F := Ideal)).N : S16x256.Idx → EReal)
      (ix2 (⟨8 * cc.val, by have := cc.isLt; omega⟩ : Fin 16) j))
    (fun t q j => (totAt0 (F := Ideal) (V1 m ρ) c ⟨t.val, t.isLt.trans_eq (NA (F := Ideal)).symm⟩ : S4000x256.Idx → EReal) (ix2 q j))
    ?hout ?hmean ?hvar ?hS ?hQ ?htot r j
  case hout =>
    intro r j
    -- the totals the second region reads are the first region's output array: the specification's activations
    have e0 : totIn (V3 m ρ) c (ix2 r j) = TK m c r j :=
      (congrFun (V3_win0 m ρ c) (ix2 r j)).trans ((congrFun (total_arr (V1 m ρ) c) (ix2 r j)).trans
        ((TotArr_ix2 (V1 m ρ) c r j).trans (TotAt_V1 m ρ c r j)))
    -- the scale and the shift are the launch contents of their argument arrays
    have e19 : wtIn (V3 m ρ) c (ix1 j) = vec1 (m ((c : Thread nD τ).loc main_arg19)) j := congrFun (V3_arg19 m ρ c) (ix1 j)
    have e20 : bsIn (V3 m ρ) c (ix1 j) = vec1 (m ((c : Thread nD τ).loc main_arg20)) j := congrFun (V3_arg20 m ρ c) (ix1 j)
    refine (congrFun (W4_result m ρ c) (ix2 r j)).trans ((out_arr_apply (V3 m ρ) c r j).trans ?_)
    rw [e0, e19, e20]
  case hmean => exact fun j => V3_v119_of m ρ c (muIn (V3 m ρ) c) rfl j
  case hvar => exact fun j => V3_v125_of m ρ c (muIn (V3 m ρ) c) (varIn (V3 m ρ) c) rfl rfl j
  case hS => exact fun cc j => sum_arr (V1 m ρ) c cc j
  case hQ => exact fun cc j => sumsq_arr (V1 m ρ) c cc j
  case htot => exact fun t q j => (totAt0_ix2 (V1 m ρ) c t q j).trans (TotAt_V1 m ρ c _ j)

/-- Every stacked degree weight is a real when the five weight arrays are. -/
theorem isReal_Wst (c : Dev nD) (hpre : Cert.Pre_KernelIdeal m) (g : Fin 5) (k : Fin 262) (j : Fin 256) :
    IsReal (Wst (m ((c : Thread nD τ).loc main_arg14)) (m ((c : Thread nD τ).loc main_arg15)) (m ((c : Thread nD τ).loc main_arg16)) (m ((c : Thread nD τ).loc main_arg17)) (m ((c : Thread nD τ).loc main_arg18)) g k j) := by
  match g with
  | ⟨0, _⟩ => exact pre_arg14 m hpre c (ix2 k j)
  | ⟨1, _⟩ => exact pre_arg15 m hpre c (ix2 k j)
  | ⟨2, _⟩ => exact pre_arg16 m hpre c (ix2 k j)
  | ⟨3, _⟩ => exact pre_arg17 m hpre c (ix2 k j)
  | ⟨4, _⟩ => exact pre_arg18 m hpre c (ix2 k j)

/-- THE BRIDGE: under the precondition the kernel's result buffer is the reference's generated result term at the
    same argument arrays. The kernel's order of the layer and of the normalisation agrees with the reference's
    because every float argument, hence every activation, is a real. -/
theorem kernel_eq_ref (hpre : Cert.Pre_KernelIdeal m) (c : Dev nD) :
    (W4 m ρ c (Proc.devRef .tc main_v126) : S200000x256.Idx → EReal)
      = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  funext i
  obtain ⟨r, j, rfl⟩ : ∃ r j, i = ix2 r j := ⟨i 0, i 1, eq_ix2 i⟩
  refine (kernel_value m ρ c r j).trans (Eq.trans ?_ (ref_result _ _ _ _ _ _ _ _ _ _ _ _ _ _ _ _ _ _ _ _ _ r j).symm)
  unfold TK
  exact congrFun (congrFun (Cert.Spec.out_eq_of_isReal _ _ _ _ _ _ _ _
    (fun r k => pre_arg0 m hpre c (ix2 r k)) (isReal_Acat _ _ _ _ _ _ (pre_arg0 m hpre c)) (isReal_Bcat _ _ _ _ _ _ (pre_arg1 m hpre c))
    (fun k j => pre_arg12 m hpre c (ix2 k j)) (fun j => pre_arg13 m hpre c (ix1 j)) (isReal_Wst m c hpre)) r) j

end Cert.KernelIdeal.Hand

end
-- ==== Proof.lean ====
/-
  The certificate: a graph-convolution layer followed by batch normalisation, computed by two kernel regions
  among host operations, against its plain reference.

  The kernel gathers and sums each atom's neighbour rows on the host, then the first region computes, block of 4000
  rows by block, total = relu(asum·Wa[deg] + bsum·Wb[deg] + x·Wself + bias) — the degree of a block read from a
  table of fifty entries — and accumulates per core the column sums of total and of its square in a scratch it keeps
  between grid points; the host turns the two cores' sums into the column mean and the one-pass variance
  max(E[t²] − mean², 0); the second region writes (t − mean)·rsqrt(max(var, 0) + ε)·w + b. The reference multiplies
  the column-joined neighbour sums [asum | bsum] by each degree's whole weight, joins the five groups by rows, and
  normalises with the two-pass variance E[(t − mean)²] and a quotient by sqrt(var + ε).

  On the extended reals the two agree once every float input is finite: the sum over the 262 joined columns splits
  into its first 256 and last 6 terms; the per-core running sums regroup into one sum over the 200000 rows;
  E[t²] − mean² = E[(t − mean)²] over the reals and is nonnegative, so both clamps are the identity; and for a
  positive y, a·rsqrt(y) = a / sqrt(y). The frames: each program terminates without a fault and leaves its argument
  arrays as launched, read off the buffer contents at the end of the run.
-/
import proofs.«416437_j22935125360693_3_alg».proof.Defs
import proofs.«416437_j22935125360693_3_alg».proof.Proof.Gen.Kernel
import proofs.«416437_j22935125360693_3_alg».proof.Proof.Gen.KernelIdeal
import proofs.«416437_j22935125360693_3_alg».proof.Proof.Gen.ReferenceIdeal
import proofs.«416437_j22935125360693_3_alg».proof.Proof.Gen.Pre_finite_inputs
import proofs.«416437_j22935125360693_3_alg».proof.Proof.RefGen
import proofs.«416437_j22935125360693_3_alg».proof.Proof.KRun
import proofs.«416437_j22935125360693_3_alg».proof.Proof.KiRun
import proofs.«416437_j22935125360693_3_alg».proof.Proof.KiValFinal

set_option maxRecDepth 16384

noncomputable section

namespace Cert.Proof

open Idealize.ShloMosaic Idealize.ShloMosaic.TcCoe Idealize.SL.Sem

/-- The word-level kernel terminates, faults nowhere and leaves its arguments unchanged: the final state holds every
    unscoped buffer at the last boundary's contents, which at an argument are the launch contents. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun r h c =>
      ⟨(h c _ (Cert.Kernel.Hand.mem_uc Cert.Kernel.main_arg0 (by decide))).trans (Cert.Kernel.Hand.W4_kept m ρ c Cert.Kernel.main_arg0 (by decide) (.inr ⟨0, rfl, rfl⟩) (.inl (by decide))),
      ⟨(h c _ (Cert.Kernel.Hand.mem_uc Cert.Kernel.main_arg1 (by decide))).trans (Cert.Kernel.Hand.W4_kept m ρ c Cert.Kernel.main_arg1 (by decide) (.inl (by decide)) (.inl (by decide))),
      ⟨(h c _ (Cert.Kernel.Hand.mem_uc Cert.Kernel.main_arg2 (by decide))).trans (Cert.Kernel.Hand.W4_kept m ρ c Cert.Kernel.main_arg2 (by decide) (.inl (by decide)) (.inl (by decide))),
      ⟨(h c _ (Cert.Kernel.Hand.mem_uc Cert.Kernel.main_arg3 (by decide))).trans (Cert.Kernel.Hand.W4_kept m ρ c Cert.Kernel.main_arg3 (by decide) (.inl (by decide)) (.inl (by decide))),
      ⟨(h c _ (Cert.Kernel.Hand.mem_uc Cert.Kernel.main_arg4 (by decide))).trans (Cert.Kernel.Hand.W4_kept m ρ c Cert.Kernel.main_arg4 (by decide) (.inl (by decide)) (.inl (by decide))),
      ⟨(h c _ (Cert.Kernel.Hand.mem_uc Cert.Kernel.main_arg5 (by decide))).trans (Cert.Kernel.Hand.W4_kept m ρ c Cert.Kernel.main_arg5 (by decide) (.inl (by decide)) (.inl (by decide))),
      ⟨(h c _ (Cert.Kernel.Hand.mem_uc Cert.Kernel.main_arg6 (by decide))).trans (Cert.Kernel.Hand.W4_kept m ρ c Cert.Kernel.main_arg6 (by decide) (.inl (by decide)) (.inl (by decide))),
      ⟨(h c _ (Cert.Kernel.Hand.mem_uc Cert.Kernel.main_arg7 (by decide))).trans (Cert.Kernel.Hand.W4_kept m ρ c Cert.Kernel.main_arg7 (by decide) (.inl (by decide)) (.inl (by decide))),
      ⟨(h c _ (Cert.Kernel.Hand.mem_uc Cert.Kernel.main_arg8 (by decide))).trans (Cert.Kernel.Hand.W4_kept m ρ c Cert.Kernel.main_arg8 (by decide) (.inl (by decide)) (.inl (by decide))),
      ⟨(h c _ (Cert.Kernel.Hand.mem_uc Cert.Kernel.main_arg9 (by decide))).trans (Cert.Kernel.Hand.W4_kept m ρ c Cert.Kernel.main_arg9 (by decide) (.inl (by decide)) (.inl (by decide))),
      ⟨(h c _ (Cert.Kernel.Hand.mem_uc Cert.Kernel.main_arg10 (by decide))).trans (Cert.Kernel.Hand.W4_kept m ρ c Cert.Kernel.main_arg10 (by decide) (.inl (by decide)) (.inl (by decide))),
      ⟨(h c _ (Cert.Kernel.Hand.mem_uc Cert.Kernel.main_arg11 (by decide))).trans (Cert.Kernel.Hand.W4_kept m ρ c Cert.Kernel.main_arg11 (by decide) (.inl (by decide)) (.inl (by decide))),
      ⟨(h c _ (Cert.Kernel.Hand.mem_uc Cert.Kernel.main_arg12 (by decide))).trans (Cert.Kernel.Hand.W4_kept m ρ c Cert.Kernel.main_arg12 (by decide) (.inl (by decide)) (.inl (by decide))),
      ⟨(h c _ (Cert.Kernel.Hand.mem_uc Cert.Kernel.main_arg13 (by decide))).trans (Cert.Kernel.Hand.W4_kept m ρ c Cert.Kernel.main_arg13 (by decide) (.inr ⟨6, rfl, rfl⟩) (.inl (by decide))),
      ⟨(h c _ (Cert.Kernel.Hand.mem_uc Cert.Kernel.main_arg14 (by decide))).trans (Cert.Kernel.Hand.W4_kept m ρ c Cert.Kernel.main_arg14 (by decide) (.inl (by decide)) (.inl (by decide))),
      ⟨(h c _ (Cert.Kernel.Hand.mem_uc Cert.Kernel.main_arg15 (by decide))).trans (Cert.Kernel.Hand.W4_kept m ρ c Cert.Kernel.main_arg15 (by decide) (.inl (by decide)) (.inl (by decide))),
      ⟨(h c _ (Cert.Kernel.Hand.mem_uc Cert.Kernel.main_arg16 (by decide))).trans (Cert.Kernel.Hand.W4_kept m ρ c Cert.Kernel.main_arg16 (by decide) (.inl (by decide)) (.inl (by decide))),
      ⟨(h c _ (Cert.Kernel.Hand.mem_uc Cert.Kernel.main_arg17 (by decide))).trans (Cert.Kernel.Hand.W4_kept m ρ c Cert.Kernel.main_arg17 (by decide) (.inl (by decide)) (.inl (by decide))),
      ⟨(h c _ (Cert.Kernel.Hand.mem_uc Cert.Kernel.main_arg18 (by decide))).trans (Cert.Kernel.Hand.W4_kept m ρ c Cert.Kernel.main_arg18 (by decide) (.inl (by decide)) (.inl (by decide))),
      ⟨(h c _ (Cert.Kernel.Hand.mem_uc Cert.Kernel.main_arg19 (by decide))).trans (Cert.Kernel.Hand.W4_kept m ρ c Cert.Kernel.main_arg19 (by decide) (.inl (by decide)) (.inr ⟨3, rfl, rfl⟩)),
      (h c _ (Cert.Kernel.Hand.mem_uc Cert.Kernel.main_arg20 (by decide))).trans (Cert.Kernel.Hand.W4_kept m ρ c Cert.Kernel.main_arg20 (by decide) (.inl (by decide)) (.inr ⟨4, rfl, rfl⟩))⟩⟩⟩⟩⟩⟩⟩⟩⟩⟩⟩⟩⟩⟩⟩⟩⟩⟩⟩⟩)
    (Cert.Kernel.Hand.run_main (F := Bits) m ρ)

/-- The same of the idealized kernel. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun r h c =>
      ⟨(h c _ (Cert.KernelIdeal.Hand.mem_uc Cert.KernelIdeal.main_arg0 (by decide))).trans (Cert.KernelIdeal.Hand.W4_kept m ρ c Cert.KernelIdeal.main_arg0 (by decide) (.inr ⟨0, rfl, rfl⟩) (.inl (by decide))),
      ⟨(h c _ (Cert.KernelIdeal.Hand.mem_uc Cert.KernelIdeal.main_arg1 (by decide))).trans (Cert.KernelIdeal.Hand.W4_kept m ρ c Cert.KernelIdeal.main_arg1 (by decide) (.inl (by decide)) (.inl (by decide))),
      ⟨(h c _ (Cert.KernelIdeal.Hand.mem_uc Cert.KernelIdeal.main_arg2 (by decide))).trans (Cert.KernelIdeal.Hand.W4_kept m ρ c Cert.KernelIdeal.main_arg2 (by decide) (.inl (by decide)) (.inl (by decide))),
      ⟨(h c _ (Cert.KernelIdeal.Hand.mem_uc Cert.KernelIdeal.main_arg3 (by decide))).trans (Cert.KernelIdeal.Hand.W4_kept m ρ c Cert.KernelIdeal.main_arg3 (by decide) (.inl (by decide)) (.inl (by decide))),
      ⟨(h c _ (Cert.KernelIdeal.Hand.mem_uc Cert.KernelIdeal.main_arg4 (by decide))).trans (Cert.KernelIdeal.Hand.W4_kept m ρ c Cert.KernelIdeal.main_arg4 (by decide) (.inl (by decide)) (.inl (by decide))),
      ⟨(h c _ (Cert.KernelIdeal.Hand.mem_uc Cert.KernelIdeal.main_arg5 (by decide))).trans (Cert.KernelIdeal.Hand.W4_kept m ρ c Cert.KernelIdeal.main_arg5 (by decide) (.inl (by decide)) (.inl (by decide))),
      ⟨(h c _ (Cert.KernelIdeal.Hand.mem_uc Cert.KernelIdeal.main_arg6 (by decide))).trans (Cert.KernelIdeal.Hand.W4_kept m ρ c Cert.KernelIdeal.main_arg6 (by decide) (.inl (by decide)) (.inl (by decide))),
      ⟨(h c _ (Cert.KernelIdeal.Hand.mem_uc Cert.KernelIdeal.main_arg7 (by decide))).trans (Cert.KernelIdeal.Hand.W4_kept m ρ c Cert.KernelIdeal.main_arg7 (by decide) (.inl (by decide)) (.inl (by decide))),
      ⟨(h c _ (Cert.KernelIdeal.Hand.mem_uc Cert.KernelIdeal.main_arg8 (by decide))).trans (Cert.KernelIdeal.Hand.W4_kept m ρ c Cert.KernelIdeal.main_arg8 (by decide) (.inl (by decide)) (.inl (by decide))),
      ⟨(h c _ (Cert.KernelIdeal.Hand.mem_uc Cert.KernelIdeal.main_arg9 (by decide))).trans (Cert.KernelIdeal.Hand.W4_kept m ρ c Cert.KernelIdeal.main_arg9 (by decide) (.inl (by decide)) (.inl (by decide))),
      ⟨(h c _ (Cert.KernelIdeal.Hand.mem_uc Cert.KernelIdeal.main_arg10 (by decide))).trans (Cert.KernelIdeal.Hand.W4_kept m ρ c Cert.KernelIdeal.main_arg10 (by decide) (.inl (by decide)) (.inl (by decide))),
      ⟨(h c _ (Cert.KernelIdeal.Hand.mem_uc Cert.KernelIdeal.main_arg11 (by decide))).trans (Cert.KernelIdeal.Hand.W4_kept m ρ c Cert.KernelIdeal.main_arg11 (by decide) (.inl (by decide)) (.inl (by decide))),
      ⟨(h c _ (Cert.KernelIdeal.Hand.mem_uc Cert.KernelIdeal.main_arg12 (by decide))).trans (Cert.KernelIdeal.Hand.W4_kept m ρ c Cert.KernelIdeal.main_arg12 (by decide) (.inl (by decide)) (.inl (by decide))),
      ⟨(h c _ (Cert.KernelIdeal.Hand.mem_uc Cert.KernelIdeal.main_arg13 (by decide))).trans (Cert.KernelIdeal.Hand.W4_kept m ρ c Cert.KernelIdeal.main_arg13 (by decide) (.inr ⟨6, rfl, rfl⟩) (.inl (by decide))),
      ⟨(h c _ (Cert.KernelIdeal.Hand.mem_uc Cert.KernelIdeal.main_arg14 (by decide))).trans (Cert.KernelIdeal.Hand.W4_kept m ρ c Cert.KernelIdeal.main_arg14 (by decide) (.inl (by decide)) (.inl (by decide))),
      ⟨(h c _ (Cert.KernelIdeal.Hand.mem_uc Cert.KernelIdeal.main_arg15 (by decide))).trans (Cert.KernelIdeal.Hand.W4_kept m ρ c Cert.KernelIdeal.main_arg15 (by decide) (.inl (by decide)) (.inl (by decide))),
      ⟨(h c _ (Cert.KernelIdeal.Hand.mem_uc Cert.KernelIdeal.main_arg16 (by decide))).trans (Cert.KernelIdeal.Hand.W4_kept m ρ c Cert.KernelIdeal.main_arg16 (by decide) (.inl (by decide)) (.inl (by decide))),
      ⟨(h c _ (Cert.KernelIdeal.Hand.mem_uc Cert.KernelIdeal.main_arg17 (by decide))).trans (Cert.KernelIdeal.Hand.W4_kept m ρ c Cert.KernelIdeal.main_arg17 (by decide) (.inl (by decide)) (.inl (by decide))),
      ⟨(h c _ (Cert.KernelIdeal.Hand.mem_uc Cert.KernelIdeal.main_arg18 (by decide))).trans (Cert.KernelIdeal.Hand.W4_kept m ρ c Cert.KernelIdeal.main_arg18 (by decide) (.inl (by decide)) (.inl (by decide))),
      ⟨(h c _ (Cert.KernelIdeal.Hand.mem_uc Cert.KernelIdeal.main_arg19 (by decide))).trans (Cert.KernelIdeal.Hand.W4_kept m ρ c Cert.KernelIdeal.main_arg19 (by decide) (.inl (by decide)) (.inr ⟨3, rfl, rfl⟩)),
      (h c _ (Cert.KernelIdeal.Hand.mem_uc Cert.KernelIdeal.main_arg20 (by decide))).trans (Cert.KernelIdeal.Hand.W4_kept m ρ c Cert.KernelIdeal.main_arg20 (by decide) (.inl (by decide)) (.inr ⟨4, rfl, rfl⟩))⟩⟩⟩⟩⟩⟩⟩⟩⟩⟩⟩⟩⟩⟩⟩⟩⟩⟩⟩⟩)
    (Cert.KernelIdeal.Hand.run_main (F := Ideal) m ρ)

/-- The reference is host operations only: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs run, and the kernel's result buffer — the second
    region's output array as its write-backs leave it — is the reference's result, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W4 m ρ c (Proc.devRef .tc Cert.KernelIdeal.main_v126), ?_, ?_⟩
  · exact (θ_run (Cert.KernelIdeal.defs (F := Ideal)) _ _).mono (fun r h c =>
      ⟨h c _ (Cert.KernelIdeal.Hand.mem_uc Cert.KernelIdeal.main_v126 (by decide)),
      ⟨(h c _ (Cert.KernelIdeal.Hand.mem_uc Cert.KernelIdeal.main_arg0 (by decide))).trans (Cert.KernelIdeal.Hand.W4_kept m ρ c Cert.KernelIdeal.main_arg0 (by decide) (.inr ⟨0, rfl, rfl⟩) (.inl (by decide))),
      ⟨(h c _ (Cert.KernelIdeal.Hand.mem_uc Cert.KernelIdeal.main_arg1 (by decide))).trans (Cert.KernelIdeal.Hand.W4_kept m ρ c Cert.KernelIdeal.main_arg1 (by decide) (.inl (by decide)) (.inl (by decide))),
      ⟨(h c _ (Cert.KernelIdeal.Hand.mem_uc Cert.KernelIdeal.main_arg2 (by decide))).trans (Cert.KernelIdeal.Hand.W4_kept m ρ c Cert.KernelIdeal.main_arg2 (by decide) (.inl (by decide)) (.inl (by decide))),
      ⟨(h c _ (Cert.KernelIdeal.Hand.mem_uc Cert.KernelIdeal.main_arg3 (by decide))).trans (Cert.KernelIdeal.Hand.W4_kept m ρ c Cert.KernelIdeal.main_arg3 (by decide) (.inl (by decide)) (.inl (by decide))),
      ⟨(h c _ (Cert.KernelIdeal.Hand.mem_uc Cert.KernelIdeal.main_arg4 (by decide))).trans (Cert.KernelIdeal.Hand.W4_kept m ρ c Cert.KernelIdeal.main_arg4 (by decide) (.inl (by decide)) (.inl (by decide))),
      ⟨(h c _ (Cert.KernelIdeal.Hand.mem_uc Cert.KernelIdeal.main_arg5 (by decide))).trans (Cert.KernelIdeal.Hand.W4_kept m ρ c Cert.KernelIdeal.main_arg5 (by decide) (.inl (by decide)) (.inl (by decide))),
      ⟨(h c _ (Cert.KernelIdeal.Hand.mem_uc Cert.KernelIdeal.main_arg6 (by decide))).trans (Cert.KernelIdeal.Hand.W4_kept m ρ c Cert.KernelIdeal.main_arg6 (by decide) (.inl (by decide)) (.inl (by decide))),
      ⟨(h c _ (Cert.KernelIdeal.Hand.mem_uc Cert.KernelIdeal.main_arg7 (by decide))).trans (Cert.KernelIdeal.Hand.W4_kept m ρ c Cert.KernelIdeal.main_arg7 (by decide) (.inl (by decide)) (.inl (by decide))),
      ⟨(h c _ (Cert.KernelIdeal.Hand.mem_uc Cert.KernelIdeal.main_arg8 (by decide))).trans (Cert.KernelIdeal.Hand.W4_kept m ρ c Cert.KernelIdeal.main_arg8 (by decide) (.inl (by decide)) (.inl (by decide))),
      ⟨(h c _ (Cert.KernelIdeal.Hand.mem_uc Cert.KernelIdeal.main_arg9 (by decide))).trans (Cert.KernelIdeal.Hand.W4_kept m ρ c Cert.KernelIdeal.main_arg9 (by decide) (.inl (by decide)) (.inl (by decide))),
      ⟨(h c _ (Cert.KernelIdeal.Hand.mem_uc Cert.KernelIdeal.main_arg10 (by decide))).trans (Cert.KernelIdeal.Hand.W4_kept m ρ c Cert.KernelIdeal.main_arg10 (by decide) (.inl (by decide)) (.inl (by decide))),
      ⟨(h c _ (Cert.KernelIdeal.Hand.mem_uc Cert.KernelIdeal.main_arg11 (by decide))).trans (Cert.KernelIdeal.Hand.W4_kept m ρ c Cert.KernelIdeal.main_arg11 (by decide) (.inl (by decide)) (.inl (by decide))),
      ⟨(h c _ (Cert.KernelIdeal.Hand.mem_uc Cert.KernelIdeal.main_arg12 (by decide))).trans (Cert.KernelIdeal.Hand.W4_kept m ρ c Cert.KernelIdeal.main_arg12 (by decide) (.inl (by decide)) (.inl (by decide))),
      ⟨(h c _ (Cert.KernelIdeal.Hand.mem_uc Cert.KernelIdeal.main_arg13 (by decide))).trans (Cert.KernelIdeal.Hand.W4_kept m ρ c Cert.KernelIdeal.main_arg13 (by decide) (.inr ⟨6, rfl, rfl⟩) (.inl (by decide))),
      ⟨(h c _ (Cert.KernelIdeal.Hand.mem_uc Cert.KernelIdeal.main_arg14 (by decide))).trans (Cert.KernelIdeal.Hand.W4_kept m ρ c Cert.KernelIdeal.main_arg14 (by decide) (.inl (by decide)) (.inl (by decide))),
      ⟨(h c _ (Cert.KernelIdeal.Hand.mem_uc Cert.KernelIdeal.main_arg15 (by decide))).trans (Cert.KernelIdeal.Hand.W4_kept m ρ c Cert.KernelIdeal.main_arg15 (by decide) (.inl (by decide)) (.inl (by decide))),
      ⟨(h c _ (Cert.KernelIdeal.Hand.mem_uc Cert.KernelIdeal.main_arg16 (by decide))).trans (Cert.KernelIdeal.Hand.W4_kept m ρ c Cert.KernelIdeal.main_arg16 (by decide) (.inl (by decide)) (.inl (by decide))),
      ⟨(h c _ (Cert.KernelIdeal.Hand.mem_uc Cert.KernelIdeal.main_arg17 (by decide))).trans (Cert.KernelIdeal.Hand.W4_kept m ρ c Cert.KernelIdeal.main_arg17 (by decide) (.inl (by decide)) (.inl (by decide))),
      ⟨(h c _ (Cert.KernelIdeal.Hand.mem_uc Cert.KernelIdeal.main_arg18 (by decide))).trans (Cert.KernelIdeal.Hand.W4_kept m ρ c Cert.KernelIdeal.main_arg18 (by decide) (.inl (by decide)) (.inl (by decide))),
      ⟨(h c _ (Cert.KernelIdeal.Hand.mem_uc Cert.KernelIdeal.main_arg19 (by decide))).trans (Cert.KernelIdeal.Hand.W4_kept m ρ c Cert.KernelIdeal.main_arg19 (by decide) (.inl (by decide)) (.inr ⟨3, rfl, rfl⟩)),
      (h c _ (Cert.KernelIdeal.Hand.mem_uc Cert.KernelIdeal.main_arg20 (by decide))).trans (Cert.KernelIdeal.Hand.W4_kept m ρ c Cert.KernelIdeal.main_arg20 (by decide) (.inl (by decide)) (.inr ⟨4, rfl, rfl⟩))⟩⟩⟩⟩⟩⟩⟩⟩⟩⟩⟩⟩⟩⟩⟩⟩⟩⟩⟩⟩⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v121_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
    exact (Cert.KernelIdeal.Hand.kernel_eq_ref m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
